-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S500000x16 : Shape := ⟨2, ![500000, 16]⟩
abbrev S2x500000 : Shape := ⟨2, ![2, 500000]⟩
abbrev S32x128 : Shape := ⟨2, ![32, 128]⟩
abbrev S128 : Shape := ⟨1, ![128]⟩
abbrev S2x2x128x128 : Shape := ⟨4, ![2, 2, 128, 128]⟩
abbrev S2x2x128 : Shape := ⟨3, ![2, 2, 128]⟩
abbrev S272x128 : Shape := ⟨2, ![272, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_
  bcast_S_S272x128 : S_.BroadcastsInDim S272x128 (![] : Fin 0 → Fin S272x128.rank)
  reducesTo_S272x128_S_d0_1 : S272x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S64 .f32) (main_arg24 : FVec F S64x1 .f32) (main_arg25 : FVec F S1 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg24
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg20 : FVec F S128 .f32) (main_arg21 : FVec F S128 .f32) (main_arg22 : FVec F S128x64 .f32) (main_arg23 : FVec F S64 .f32) (main_arg24 : FVec F S64x1 .f32) (main_arg25 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg22
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S272x128 .f32 := Host.absf main_arg16
  let main_cst_26 : FVec F S_ .f32 := constant S_ .f32 0x7F800000#32
  let main_v70 : FVec F S272x128 .f32 := broadcastInDim S272x128 ![] bcast_S_S272x128 main_cst_26
  let main_v71 : IVec S272x128 1 := cmpf .olt main_v69 main_v70
  let main_c_27 : IVec S_ 1 := constantI S_ 1 1#1
  let main_v72 : IVec S_ 1 := (fun x v => Host.reduce IntOp.andi x v reducesTo_S272x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v48 : IVec S_ 1) (main_v49 : FVec F S2x2x128 .f32) (main_v50 : FVec F S2x2x128 .f32) : IVec S_ 1 :=
  let main_v51 : IVec S2x2x128 1 := cmpf .olt main_v49 main_v50
  let main_c_19 : IVec S_ 1 := constantI S_ 1 1#1
  let main_v52 : IVec S_ 1 := (fun x v => Host.reduce IntOp.andi x v reducesTo_S2x2x128_S_d0_1_2 h_S_) main_v51 main_c_19
  let main_v53 : IVec S_ 1 := andi main_v48 main_v52
  let main_v54 : FVec F S2x2x128 .f32 := Host.absf main_arg13
  let main_cst_20 : FVec F S_ .f32 := constant S_ .f32 0x7F800000#32
  let main_v55 : FVec F S2x2x128 .f32 := broadcastInDim S2x2x128 ![] bcast_S_S2x2x128 main_cst_20
  let main_v56 : IVec S2x2x128 1 := cmpf .olt main_v54 main_v55
  let main_c_21 : IVec S_ 1 := constantI S_ 1 1#1
  let main_v57 : IVec S_ 1 := (fun x v => Host.reduce IntOp.andi x v reducesTo_S2x2x128_S_d0_1_2 h_S_) main_v56 main_c_21
  let main_v58 : IVec S_ 1 := andi main_v53 main_v57
  let main_v59 : FVec F S2x2x128 .f32 := Host.absf main_arg14
  let main_cst_22 : FVec F S_ .f32 := constant S_ .f32 0x7F800000#32
  let main_v60 : FVec F S2x2x128 .f32 := broadcastInDim S2x2x128 ![] bcast_S_S2x2x128 main_cst_22
  let main_v61 : IVec S2x2x128 1 := cmpf .olt main_v59 main_v60
  let main_c_23 : IVec S_ 1 := constantI S_ 1 1#1
  let main_v62 : IVec S_ 1 := (fun x v => Host.reduce IntOp.andi x v reducesTo_S2x2x128_S_d0_1_2 h_S_) main_v61 main_c_23
  let main_v63 : IVec S_ 1 := andi main_v58 main_v62
  let main_v64 : FVec F S2x2x128 .f32 := Host.absf main_arg15
  let main_cst_24 : FVec F S_ .f32 := constant S_ .f32 0x7F800000#32
  let main_v65 : FVec F S2x2x128 .f32 := broadcastInDim S2x2x128 ![] bcast_S_S2x2x128 main_cst_24
  let main_v66 : IVec S2x2x128 1 := cmpf .olt main_v64 main_v65
  let main_c_25 : IVec S_ 1 := constantI S_ 1 1#1
  let main_v67 : IVec S_ 1 := (fun x v => Host.reduce IntOp.andi x v reducesTo_S2x2x128_S_d0_1_2 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S2x2x128x128 .f32) (main_arg10 : FVec F S2x2x128 .f32) (main_arg11 : FVec F S2x2x128x128 .f32) (main_arg12 : FVec F S2x2x128 .f32) (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v33 : IVec S_ 1) : IVec S_ 1 :=
  let main_v34 : FVec F S2x2x128x128 .f32 := Host.absf main_arg9
  let main_cst_12 : FVec F S_ .f32 := constant S_ .f32 0x7F800000#32
  let main_v35 : FVec F S2x2x128x128 .f32 := broadcastInDim S2x2x128x128 ![] bcast_S_S2x2x128x128 main_cst_12
  let main_v36 : IVec S2x2x128x128 1 := cmpf .olt main_v34 main_v35
  let main_c_13 : IVec S_ 1 := constantI S_ 1 1#1
  let main_v37 : IVec S_ 1 := (fun x v => Host.reduce IntOp.andi x v reducesTo_S2x2x128x128_S_d0_1_2_3 h_S_) main_v36 main_c_13
  let main_v38 : IVec S_ 1 := andi main_v33 main_v37
  let main_v39 : FVec F S2x2x128 .f32 := Host.absf main_arg10
  let main_cst_14 : FVec F S_ .f32 := constant S_ .f32 0x7F800000#32
  let main_v40 : FVec F S2x2x128 .f32 := broadcastInDim S2x2x128 ![] bcast_S_S2x2x128 main_cst_14
  let main_v41 : IVec S2x2x128 1 := cmpf .olt main_v39 main_v40
  let main_c_15 : IVec S_ 1 := constantI S_ 1 1#1
  let main_v42 : IVec S_ 1 := (fun x v => Host.reduce IntOp.andi x v reducesTo_S2x2x128_S_d0_1_2 h_S_) main_v41 main_c_15
  let main_v43 : IVec S_ 1 := andi main_v38 main_v42
  let main_v44 : FVec F S2x2x128x128 .f32 := Host.absf main_arg11
  let main_cst_16 : FVec F S_ .f32 := constant S_ .f32 0x7F800000#32
  let main_v45 : FVec F S2x2x128x128 .f32 := broadcastInDim S2x2x128x128 ![] bcast_S_S2x2x128x128 main_cst_16
  let main_v46 : IVec S2x2x128x128 1 := cmpf .olt main_v44 main_v45
  let main_c_17 : IVec S_ 1 := constantI S_ 1 1#1
  let main_v47 : IVec S_ 1 := (fun x v => Host.reduce IntOp.andi x v reducesTo_S2x2x128x128_S_d0_1_2_3 h_S_) main_v46 main_c_17
  let main_v48 : IVec S_ 1 := andi main_v43 main_v47
  let main_v49 : FVec F S2x2x128 .f32 := Host.absf main_arg12
  let main_cst_18 : FVec F S_ .f32 := constant S_ .f32 0x7F800000#32
  let main_v50 : FVec F S2x2x128 .f32 := broadcastInDim S2x2x128 ![] bcast_S_S2x2x128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128 .f32) (main_arg7 : FVec F S32x128 .f32) (main_arg8 : FVec F S128 .f32) (main_arg9 : FVec F S2x2x128x128 .f32) (main_arg10 : FVec F S2x2x128 .f32) (main_arg11 : FVec F S2x2x128x128 .f32) (main_arg12 : FVec F S2x2x128 .f32) (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32x128 .f32 := Host.absf main_arg7
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x32 .f32) (main_arg1 : FVec F S100000x32 .f32) (main_arg2 : FVec F S500000x16 .f32) (main_arg3 : IVec S2x500000 32) (main_arg4 : IVec S2x500000 32) (main_arg5 : FVec F S32x128 .f32) (main_arg6 : FVec F S128 .f32) (main_arg7 : FVec F S32x128 .f32) (main_arg8 : FVec F S128 .f32) (main_arg9 : FVec F S2x2x128x128 .f32) (main_arg10 : FVec F S2x2x128 .f32) (main_arg11 : FVec F S2x2x128x128 .f32) (main_arg12 : FVec F S2x2x128 .f32) (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S500000x16 .f32 := Host.absf main_arg2
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x32 : Shape := ⟨2, ![100000, 32]⟩
abbrev S500000x16 : Shape := ⟨2, ![500000, 16]⟩
abbrev S2x500000 : Shape := ⟨2, ![2, 500000]⟩
abbrev S32x128 : Shape := ⟨2, ![32, 128]⟩
abbrev S128 : Shape := ⟨1, ![128]⟩
abbrev S2x2x128x128 : Shape := ⟨4, ![2, 2, 128, 128]⟩
abbrev S2x2x128 : Shape := ⟨3, ![2, 2, 128]⟩
abbrev S272x128 : Shape := ⟨2, ![272, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x128 : Shape := ⟨2, ![100000, 128]⟩
abbrev S5000x32 : Shape := ⟨2, ![5000, 32]⟩
abbrev S5000x128 : Shape := ⟨2, ![5000, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S500000x128 : Shape := ⟨2, ![500000, 128]⟩
abbrev S1x1x128x128 : Shape := ⟨4, ![1, 1, 128, 128]⟩
abbrev S128x128 : Shape := ⟨2, ![128, 128]⟩
abbrev S1x1x128 : Shape := ⟨3, ![1, 1, 128]⟩
abbrev S2000x128 : Shape := ⟨2, ![2000, 128]⟩
abbrev S500000x272 : Shape := ⟨2, ![500000, 272]⟩
abbrev S5000x272 : Shape := ⟨2, ![5000, 272]⟩
abbrev S5000x1 : Shape := ⟨2, ![5000, 1]⟩
abbrev S5000x64 : Shape := ⟨2, ![5000, 64]⟩
abbrev S1x64 : Shape := ⟨2, ![1, 64]⟩
abbrev S1x1 : Shape := ⟨2, ![1, 1]⟩

abbrev nBuf : Space → Nat
  | .hbm => 195
  | .vmem => 78
  | .smem => 0
  | _ => 0

abbrev hbmTy0_0 (i : Nat) : BufTy := match i % 128 with
  | 0 => ⟨S100000x32, .f32⟩
  | 1 => ⟨S100000x32, .f32⟩
  | 2 => ⟨S500000x16, .f32⟩
  | 3 => ⟨S2x500000, .i32⟩
  | 4 => ⟨S2x500000, .i32⟩
  | 5 => ⟨S32x128, .f32⟩
  | 6 => ⟨S128, .f32⟩
  | 7 => ⟨S32x128, .f32⟩
  | 8 => ⟨S128, .f32⟩
  | 9 => ⟨S2x2x128x128, .f32⟩
  | 10 => ⟨S2x2x128, .f32⟩
  | 11 => ⟨S2x2x128x128, .f32⟩
  | 12 => ⟨S2x2x128, .f32⟩
  | 13 => ⟨S2x2x128, .f32⟩
  | 14 => ⟨S2x2x128, .f32⟩
  | 15 => ⟨S2x2x128, .f32⟩
  | 16 => ⟨S272x128, .f32⟩
  | 17 => ⟨S128, .f32⟩
  | 18 => ⟨S128, .f32⟩
  | 19 => ⟨S128, .f32⟩
  | 20 => ⟨S128, .f32⟩
  | 21 => ⟨S128, .f32⟩
  | 22 => ⟨S128x64, .f32⟩
  | 23 => ⟨S64, .f32⟩
  | 24 => ⟨S64x1, .f32⟩
  | 25 => ⟨S1, .f32⟩
  | 26 => ⟨S100000x128, .f32⟩
  | 27 => ⟨S100000x128, .f32⟩
  | 28 => ⟨S1x500000, .i32⟩
  | 29 => ⟨S500000, .i32⟩
  | 30 => ⟨S1x500000, .i32⟩
  | 31 => ⟨S500000, .i32⟩
  | 32 => ⟨S1x500000, .i32⟩
  | 33 => ⟨S500000, .i32⟩
  | 34 => ⟨S1x500000, .i32⟩
  | 35 => ⟨S500000, .i32⟩
  | 36 => ⟨S_, .f32⟩
  | 37 => ⟨S500000, .f32⟩
  | 38 => ⟨S_, .f32⟩
  | 39 => ⟨S100000, .f32⟩
  | 40 => ⟨S500000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S_, .f32⟩
  | 47 => ⟨S100000, .f32⟩
  | 48 => ⟨S500000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x128, .f32⟩
  | 63 => ⟨S_, .f32⟩
  | 64 => ⟨S100000x128, .f32⟩
  | 65 => ⟨S500000x1, .i32⟩
  | 66 => ⟨S100000x128, .f32⟩
  | 67 => ⟨S100000x128, .f32⟩
  | 68 => ⟨S100000x128, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .f32⟩
  | 79 => ⟨S100000x128, .f32⟩
  | 80 => ⟨S500000x1, .i32⟩
  | 81 => ⟨S100000x128, .f32⟩
  | 82 => ⟨S100000x128, .f32⟩
  | 83 => ⟨S100000x128, .f32⟩
  | 84 => ⟨S1x1x128x128, .f32⟩
  | 85 => ⟨S128x128, .f32⟩
  | 86 => ⟨S1x1x128, .f32⟩
  | 87 => ⟨S128, .f32⟩
  | 88 => ⟨S1x1x128x128, .f32⟩
  | 89 => ⟨S128x128, .f32⟩
  | 90 => ⟨S1x1x128, .f32⟩
  | 91 => ⟨S128, .f32⟩
  | 92 => ⟨S1x1x128, .f32⟩
  | 93 => ⟨S128, .f32⟩
  | 94 => ⟨S1x1x128, .f32⟩
  | 95 => ⟨S128, .f32⟩
  | 96 => ⟨S1x1x128, .f32⟩
  | 97 => ⟨S128, .f32⟩
  | 98 => ⟨S1x1x128x128, .f32⟩
  | 99 => ⟨S128x128, .f32⟩
  | 100 => ⟨S1x1x128, .f32⟩
  | 101 => ⟨S128, .f32⟩
  | 102 => ⟨S1x1x128x128, .f32⟩
  | 103 => ⟨S128x128, .f32⟩
  | 104 => ⟨S1x1x128, .f32⟩
  | 105 => ⟨S128, .f32⟩
  | 106 => ⟨S1x1x128, .f32⟩
  | 107 => ⟨S128, .f32⟩
  | 108 => ⟨S1x1x128, .f32⟩
  | 109 => ⟨S128, .f32⟩
  | 110 => ⟨S1x1x128, .f32⟩
  | 111 => ⟨S128, .f32⟩
  | 112 => ⟨S100000x128, .f32⟩
  | 113 => ⟨S100000x128, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S_, .f32⟩
  | 124 => ⟨S100000x128, .f32⟩
  | 125 => ⟨S500000x1, .i32⟩
  | 126 => ⟨S100000x128, .f32⟩
  | 127 => ⟨S100000x128, .f32⟩
  | _ => ⟨S100000x32, .f32⟩

abbrev hbmTy0_1 (i : Nat) : BufTy := match i % 128 with
  | 0 => ⟨S100000x128, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x128, .f32⟩
  | 10 => ⟨S_, .f32⟩
  | 11 => ⟨S100000x128, .f32⟩
  | 12 => ⟨S500000x1, .i32⟩
  | 13 => ⟨S100000x128, .f32⟩
  | 14 => ⟨S100000x128, .f32⟩
  | 15 => ⟨S100000x128, .f32⟩
  | 16 => ⟨S1x1x128x128, .f32⟩
  | 17 => ⟨S128x128, .f32⟩
  | 18 => ⟨S1x1x128, .f32⟩
  | 19 => ⟨S128, .f32⟩
  | 20 => ⟨S1x1x128x128, .f32⟩
  | 21 => ⟨S128x128, .f32⟩
  | 22 => ⟨S1x1x128, .f32⟩
  | 23 => ⟨S128, .f32⟩
  | 24 => ⟨S1x1x128, .f32⟩
  | 25 => ⟨S128, .f32⟩
  | 26 => ⟨S1x1x128, .f32⟩
  | 27 => ⟨S128, .f32⟩
  | 28 => ⟨S1x1x128, .f32⟩
  | 29 => ⟨S128, .f32⟩
  | 30 => ⟨S1x1x128x128, .f32⟩
  | 31 => ⟨S128x128, .f32⟩
  | 32 => ⟨S1x1x128, .f32⟩
  | 33 => ⟨S128, .f32⟩
  | 34 => ⟨S1x1x128x128, .f32⟩
  | 35 => ⟨S128x128, .f32⟩
  | 36 => ⟨S1x1x128, .f32⟩
  | 37 => ⟨S128, .f32⟩
  | 38 => ⟨S1x1x128, .f32⟩
  | 39 => ⟨S128, .f32⟩
  | 40 => ⟨S1x1x128, .f32⟩
  | 41 => ⟨S128, .f32⟩
  | 42 => ⟨S1x1x128, .f32⟩
  | 43 => ⟨S128, .f32⟩
  | 44 => ⟨S100000x128, .f32⟩
  | 45 => ⟨S100000x128, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S500000x272, .f32⟩
  | 65 => ⟨S500000x1, .f32⟩
  | 66 => ⟨S500000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x32, .f32⟩
  | .local _ .vmem, ⟨7, _⟩ => ⟨S5000x32, .f32⟩
  | .local _ .vmem, ⟨8, _⟩ => ⟨S32x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128x128, .f32⟩
  | .local _ .vmem, ⟨28, _⟩ => ⟨S128, .f32⟩
  | .local _ .vmem, ⟨29, _⟩ => ⟨S128x128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x128, .f32⟩
  | .local _ .vmem, ⟨47, _⟩ => ⟨S128, .f32⟩
  | .local _ .vmem, ⟨48, _⟩ => ⟨S128x128, .f32⟩
  | .local _ .vmem, ⟨49, _⟩ => ⟨S128, .f32⟩
  | .local _ .vmem, ⟨50, _⟩ => ⟨S128, .f32⟩
  | .local _ .vmem, ⟨51, _⟩ => ⟨S128, .f32⟩
  | .local _ .vmem, ⟨52, _⟩ => ⟨S128, .f32⟩
  | .local _ .vmem, ⟨53, _⟩ => ⟨S128x128, .f32⟩
  | .local _ .vmem, ⟨54, _⟩ => ⟨S128, .f32⟩
  | .local _ .vmem, ⟨55, _⟩ => ⟨S128x128, .f32⟩
  | .local _ .vmem, ⟨56, _⟩ => ⟨S128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S5000x272, .f32⟩
  | .local _ .vmem, ⟨65, _⟩ => ⟨S5000x272, .f32⟩
  | .local _ .vmem, ⟨66, _⟩ => ⟨S272x128, .f32⟩
  | .local _ .vmem, ⟨67, _⟩ => ⟨S128, .f32⟩
  | .local _ .vmem, ⟨68, _⟩ => ⟨S128, .f32⟩
  | .local _ .vmem, ⟨69, _⟩ => ⟨S128, .f32⟩
  | .local _ .vmem, ⟨70, _⟩ => ⟨S128, .f32⟩
  | .local _ .vmem, ⟨71, _⟩ => ⟨S128, .f32⟩
  | .local _ .vmem, ⟨72, _⟩ => ⟨S128x64, .f32⟩
  | .local _ .vmem, ⟨73, _⟩ => ⟨S64, .f32⟩
  | .local _ .vmem, ⟨74, _⟩ => ⟨S64x1, .f32⟩
  | .local _ .vmem, ⟨75, _⟩ => ⟨S1, .f32⟩
  | .local _ .vmem, ⟨76, _⟩ => ⟨S5000x1, .f32⟩
  | .local _ .vmem, ⟨77, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_6 : Ref sig .tc := ⟨.hbm, 69, rfl⟩
abbrev main_v35 : Ref sig .tc := ⟨.hbm, 70, rfl⟩
abbrev main_v36 : Ref sig .tc := ⟨.hbm, 71, rfl⟩
abbrev main_c_7 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_8 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75_0 : Ref sig .tc := ⟨.hbm, 112, rfl⟩
abbrev main_v75_1 : Ref sig .tc := ⟨.hbm, 113, rfl⟩
abbrev main_c_9 : Ref sig .tc := ⟨.hbm, 114, rfl⟩
abbrev main_v76 : Ref sig .tc := ⟨.hbm, 115, rfl⟩
abbrev main_v77 : Ref sig .tc := ⟨.hbm, 116, rfl⟩
abbrev main_c_10 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_11 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_12 : Ref sig .tc := ⟨.hbm, 129, rfl⟩
abbrev main_v88 : Ref sig .tc := ⟨.hbm, 130, rfl⟩
abbrev main_v89 : Ref sig .tc := ⟨.hbm, 131, rfl⟩
abbrev main_c_13 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_14 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128_0 : Ref sig .tc := ⟨.hbm, 172, rfl⟩
abbrev main_v128_1 : Ref sig .tc := ⟨.hbm, 173, rfl⟩
abbrev main_c_15 : Ref sig .tc := ⟨.hbm, 174, rfl⟩
abbrev main_v129 : Ref sig .tc := ⟨.hbm, 175, rfl⟩
abbrev main_v130 : Ref sig .tc := ⟨.hbm, 176, rfl⟩
abbrev main_c_16 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_17 : Ref sig .tc := ⟨.hbm, 183, rfl⟩
abbrev main_v136 : Ref sig .tc := ⟨.hbm, 184, rfl⟩
abbrev main_v137 : Ref sig .tc := ⟨.hbm, 185, rfl⟩
abbrev main_c_18 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc2_stg14_0 : Ref sig .tc := ⟨.vmem, 30, rfl⟩
abbrev cc2_stg15_0 : Ref sig .tc := ⟨.vmem, 31, rfl⟩
abbrev cc2_stg16_0 : Ref sig .tc := ⟨.vmem, 32, rfl⟩
abbrev cc2_stg17_0 : Ref sig .tc := ⟨.vmem, 33, rfl⟩
abbrev cc2_stg18_0 : Ref sig .tc := ⟨.vmem, 34, rfl⟩
abbrev cc2_stg18_1 : Ref sig .tc := ⟨.vmem, 35, rfl⟩
abbrev cc2_stg19_0 : Ref sig .tc := ⟨.vmem, 36, rfl⟩
abbrev cc2_stg19_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg10_0 : Ref sig .tc := ⟨.vmem, 52, rfl⟩
abbrev cc3_stg11_0 : Ref sig .tc := ⟨.vmem, 53, rfl⟩
abbrev cc3_stg12_0 : Ref sig .tc := ⟨.vmem, 54, rfl⟩
abbrev cc3_stg13_0 : Ref sig .tc := ⟨.vmem, 55, rfl⟩
abbrev cc3_stg14_0 : Ref sig .tc := ⟨.vmem, 56, rfl⟩
abbrev cc3_stg15_0 : Ref sig .tc := ⟨.vmem, 57, rfl⟩
abbrev cc3_stg16_0 : Ref sig .tc := ⟨.vmem, 58, rfl⟩
abbrev cc3_stg17_0 : Ref sig .tc := ⟨.vmem, 59, rfl⟩
abbrev cc3_stg18_0 : Ref sig .tc := ⟨.vmem, 60, rfl⟩
abbrev cc3_stg18_1 : Ref sig .tc := ⟨.vmem, 61, rfl⟩
abbrev cc3_stg19_0 : Ref sig .tc := ⟨.vmem, 62, rfl⟩
abbrev cc3_stg19_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg2_0 : Ref sig .tc := ⟨.vmem, 67, rfl⟩
abbrev cc4_stg3_0 : Ref sig .tc := ⟨.vmem, 68, rfl⟩
abbrev cc4_stg4_0 : Ref sig .tc := ⟨.vmem, 69, rfl⟩
abbrev cc4_stg5_0 : Ref sig .tc := ⟨.vmem, 70, rfl⟩
abbrev cc4_stg6_0 : Ref sig .tc := ⟨.vmem, 71, rfl⟩
abbrev cc4_stg7_0 : Ref sig .tc := ⟨.vmem, 72, rfl⟩
abbrev cc4_stg8_0 : Ref sig .tc := ⟨.vmem, 73, rfl⟩
abbrev cc4_stg9_0 : Ref sig .tc := ⟨.vmem, 74, rfl⟩
abbrev cc4_stg10_0 : Ref sig .tc := ⟨.vmem, 75, rfl⟩
abbrev cc4_stg11_0 : Ref sig .tc := ⟨.vmem, 76, rfl⟩
abbrev cc4_stg11_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29
abbrev cc2_sem14_0 : DmaSem sig := 30
abbrev cc2_sem15_0 : DmaSem sig := 31
abbrev cc2_sem16_0 : DmaSem sig := 32
abbrev cc2_sem17_0 : DmaSem sig := 33
abbrev cc2_sem18_0 : DmaSem sig := 34
abbrev cc2_sem18_1 : DmaSem sig := 35
abbrev cc2_sem19_0 : DmaSem sig := 36
abbrev cc2_sem19_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem10_0 : DmaSem sig := 52
abbrev cc3_sem11_0 : DmaSem sig := 53
abbrev cc3_sem12_0 : DmaSem sig := 54
abbrev cc3_sem13_0 : DmaSem sig := 55
abbrev cc3_sem14_0 : DmaSem sig := 56
abbrev cc3_sem15_0 : DmaSem sig := 57
abbrev cc3_sem16_0 : DmaSem sig := 58
abbrev cc3_sem17_0 : DmaSem sig := 59
abbrev cc3_sem18_0 : DmaSem sig := 60
abbrev cc3_sem18_1 : DmaSem sig := 61
abbrev cc3_sem19_0 : DmaSem sig := 62
abbrev cc3_sem19_1 : DmaSem sig := 63
abbrev cc4_sem0_0 : DmaSem sig := 64
abbrev cc4_sem0_1 : DmaSem sig := 65
abbrev cc4_sem1_0 : DmaSem sig := 66
abbrev cc4_sem2_0 : DmaSem sig := 67
abbrev cc4_sem3_0 : DmaSem sig := 68
abbrev cc4_sem4_0 : DmaSem sig := 69
abbrev cc4_sem5_0 : DmaSem sig := 70
abbrev cc4_sem6_0 : DmaSem sig := 71
abbrev cc4_sem7_0 : DmaSem sig := 72
abbrev cc4_sem8_0 : DmaSem sig := 73
abbrev cc4_sem9_0 : DmaSem sig := 74
abbrev cc4_sem10_0 : DmaSem sig := 75
abbrev cc4_sem11_0 : DmaSem sig := 76
abbrev cc4_sem11_1 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_17 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S2000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S2000x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_15 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_16 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_17 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_19 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S128 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 2 → Memref sig .tc .vmem S2000x128 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev stage3_19 : Fin 2 → Memref sig .tc .vmem S2000x128 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x272 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S272x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x2x128x128_S1x1x128x128_0_0_0_0 : S2x2x128x128.Slices ![0, 0, 0, 0] S1x1x128x128
  shapeCasts_S1x1x128x128_S128x128 : S1x1x128x128.ShapeCasts S128x128
  slices_S2x2x128_S1x1x128_0_0_0 : S2x2x128.Slices ![0, 0, 0] S1x1x128
  shapeCasts_S1x1x128_S128 : S1x1x128.ShapeCasts S128
  slices_S2x2x128_S1x1x128_0_1_0 : S2x2x128.Slices ![0, 1, 0] S1x1x128
  slices_S2x2x128x128_S1x1x128x128_0_1_0_0 : S2x2x128x128.Slices ![0, 1, 0, 0] S1x1x128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  broadcasts_S1x128_S2000x128 : S1x128.Broadcasts S2000x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128_S1x1x128_1_1_0 : S2x2x128.Slices ![1, 1, 0] S1x1x128
  slices_S2x2x128x128_S1x1x128x128_1_1_0_0 : S2x2x128x128.Slices ![1, 1, 0, 0] S1x1x128x128
  concatenates_S500000x128_S500000x128_S500000x16_S500000x272_d1 : Shape.Concatenates [S500000x128, S500000x128, S500000x16] S500000x272 1
  inb_S5000x272_S5000x272_0_0 : ∀ a, (![0, 0] : Fin 2 → Nat) a + S5000x272.size a ≤ S5000x272.size a
  h_S5000x272 : 0 < S5000x272.numel
  shapeCasts_S5000x272_S5000x272 : S5000x272.ShapeCasts S5000x272
  inb_S272x128_S272x128_0_0 : ∀ a, (![0, 0] : Fin 2 → Nat) a + S272x128.size a ≤ S272x128.size a
  h_S272x128 : 0 < S272x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  dot_S5000x32_S32x128_S5000x128_1_0_0_1_n_n_wf : DotDims.WF S5000x32 S32x128 S5000x128 [1] [0] [0] [1] [] []
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S2000x128_S128x128_S2000x128_1_0_0_1_n_n_wf : DotDims.WF S2000x128 S128x128 S2000x128 [1] [0] [0] [1] [] []
  dot_S5000x272_S272x128_S5000x128_1_0_0_1_n_n_wf : DotDims.WF S5000x272 S272x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128.size a ≤ S128.size a
  hwx2_14 : ∀ i : grid2.Coords, EltTy.bits .f32 = 32 ∨ (Rect.block (s := S128) S128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128.size a ≤ S128.size a
  hwx2_15 : ∀ i : grid2.Coords, EltTy.bits .f32 = 32 ∨ (Rect.block (s := S128) S128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128.size a ≤ S128.size a
  hwx2_16 : ∀ i : grid2.Coords, EltTy.bits .f32 = 32 ∨ (Rect.block (s := S128) S128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128.size a ≤ S128.size a
  hwx2_17 : ∀ i : grid2.Coords, EltTy.bits .f32 = 32 ∨ (Rect.block (s := S128) S128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2000x128.size a ≤ S100000x128.size a
  hwx2_18 : ∀ i : grid2.Coords, EltTy.bits .f32 = 32 ∨ (Rect.block (s := S100000x128) S2000x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S2000x128.size a ≤ S100000x128.size a
  hwx2_19 : ∀ i : grid2.Coords, EltTy.bits .f32 = 32 ∨ (Rect.block (s := S100000x128) S2000x128.size (cc2_transform_19 i) (hinb2_19 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128.size a ≤ S128.size a
  hwx3_10 : ∀ i : grid3.Coords, EltTy.bits .f32 = 32 ∨ (Rect.block (s := S128) S128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128x128.size a ≤ S128x128.size a
  hwx3_11 : ∀ i : grid3.Coords, EltTy.bits .f32 = 32 ∨ (Rect.block (s := S128x128) S128x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S128x128.size a ≤ S128x128.size a
  hwx3_13 : ∀ i : grid3.Coords, EltTy.bits .f32 = 32 ∨ (Rect.block (s := S128x128) S128x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S128.size a ≤ S128.size a
  hwx3_14 : ∀ i : grid3.Coords, EltTy.bits .f32 = 32 ∨ (Rect.block (s := S128) S128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S128.size a ≤ S128.size a
  hwx3_15 : ∀ i : grid3.Coords, EltTy.bits .f32 = 32 ∨ (Rect.block (s := S128) S128.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S128.size a ≤ S128.size a
  hwx3_16 : ∀ i : grid3.Coords, EltTy.bits .f32 = 32 ∨ (Rect.block (s := S128) S128.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S128.size a ≤ S128.size a
  hwx3_17 : ∀ i : grid3.Coords, EltTy.bits .f32 = 32 ∨ (Rect.block (s := S128) S128.size (cc3_transform_17 i) (hinb3_17 i)).WholeWords (EltTy.packing .f32)
  hstage3_18 : ∀ j, (stage3_18 j).IsWhole
  nbuf3_18 : grid3.bufCount reads3_18 false = 2
  hreads3_18 : ∀ i i' : grid3.Coords, (∀ a, reads3_18 a = true → i a = i' a) → cc3_transform_18 i = cc3_transform_18 i'
  hinb3_18 : ∀ (i : grid3.Coords) a, (cc3_transform_18 i a + 1) * S2000x128.size a ≤ S100000x128.size a
  hwx3_18 : ∀ i : grid3.Coords, EltTy.bits .f32 = 32 ∨ (Rect.block (s := S100000x128) S2000x128.size (cc3_transform_18 i) (hinb3_18 i)).WholeWords (EltTy.packing .f32)
  hstage3_19 : ∀ j, (stage3_19 j).IsWhole
  nbuf3_19 : grid3.bufCount reads3_19 false = 2
  hreads3_19 : ∀ i i' : grid3.Coords, (∀ a, reads3_19 a = true → i a = i' a) → cc3_transform_19 i = cc3_transform_19 i'
  hinb3_19 : ∀ (i : grid3.Coords) a, (cc3_transform_19 i a + 1) * S2000x128.size a ≤ S100000x128.size a
  hwx3_19 : ∀ i : grid3.Coords, EltTy.bits .f32 = 32 ∨ (Rect.block (s := S100000x128) S2000x128.size (cc3_transform_19 i) (hinb3_19 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x272.size a ≤ S500000x272.size a
  hwx4_0 : ∀ i : grid4.Coords, EltTy.bits .f32 = 32 ∨ (Rect.block (s := S500000x272) S5000x272.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S272x128.size a ≤ S272x128.size a
  hwx4_1 : ∀ i : grid4.Coords, EltTy.bits .f32 = 32 ∨ (Rect.block (s := S272x128) S272x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64.size a ≤ S64.size a
  hwx4_8 : ∀ i : grid4.Coords, EltTy.bits .f32 = 32 ∨ (Rect.block (s := S64) S64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x1.size a ≤ S64x1.size a
  hwx4_9 : ∀ i : grid4.Coords, EltTy.bits .f32 = 32 ∨ (Rect.block (s := S64x1) S64x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1.size a ≤ S1.size a
  hwx4_10 : ∀ i : grid4.Coords, EltTy.bits .f32 = 32 ∨ (Rect.block (s := S1) S1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x1.size a ≤ S500000x1.size a
  hwx4_11 : ∀ i : grid4.Coords, EltTy.bits .f32 = 32 ∨ (Rect.block (s := S500000x1) S5000x1.size (cc4_transform_11 i) (hinb4_11 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x272_S272x128_S5000x128_1_0_0_1_n_n : DotDims S5000x272 S272x128 S5000x128 where
  lhsContracting := [1]
  rhsContracting := [0]
  lhsNonContracting := [0]
  rhsNonContracting := [1]
  lhsBatch := []
  rhsBatch := []
  wf := dot_S5000x272_S272x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v58) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v60) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v62) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v64) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v66) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v68) S128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v70) S128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v72) S128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v74) S128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v75_0) S2000x128.size cc2_transform_18 reads2_18 true false 2 stage2_18 sem2_18
    hrank2 hreads2_18 hinb2_18 nbuf2_18 (Memref.isWhole_whole _) hwx2_18 hstage2_18

abbrev win2_19 : Pipeline.Window sig grid2 :=
  Pipeline.Window.ofSpec (Memref.whole main_v75_1) S2000x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

abbrev win3_0 : Pipeline.Window sig grid3 :=
  Pipeline.Window.ofSpec (Memref.whole main_v87) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v99) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75_1) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v101) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v105) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v107) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v109) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v111) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v113) S128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v115) S128x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v117) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v119) S128x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v121) S128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v123) S128.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v125) S128.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v127) S128.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v128_0) S2000x128.size cc3_transform_18 reads3_18 true false 2 stage3_18 sem3_18
    hrank3 hreads3_18 hinb3_18 nbuf3_18 (Memref.isWhole_whole _) hwx3_18 hstage3_18

abbrev win3_19 : Pipeline.Window sig grid3 :=
  Pipeline.Window.ofSpec (Memref.whole main_v128_1) S2000x128.size cc3_transform_19 reads3_19 true false 2 stage3_19 sem3_19
    hrank3 hreads3_19 hinb3_19 nbuf3_19 (Memref.isWhole_whole _) hwx3_19 hstage3_19

abbrev win3 : Fin 20 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | ⟨_ + 20, h⟩ => absurd h (Nat.not_lt.2 (Nat.le_add_left _ _))
abbrev spec3 : Fin 20 → Pipeline.WinSpec sig grid3.rank := fun w => (win3 w).toWinSpec

abbrev win4_0 : Pipeline.Window sig grid4 :=
  Pipeline.Window.ofSpec (Memref.whole main_v143) S5000x272.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S272x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg17) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg21) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg22) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg23) S64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg24) S64x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg25) S1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v144) S5000x1.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S100000x32 : Shape := ⟨2, ![100000, 32]⟩
abbrev S500000x16 : Shape := ⟨2, ![500000, 16]⟩
abbrev S2x500000 : Shape := ⟨2, ![2, 500000]⟩
abbrev S32x128 : Shape := ⟨2, ![32, 128]⟩
abbrev S128 : Shape := ⟨1, ![128]⟩
abbrev S2x2x128x128 : Shape := ⟨4, ![2, 2, 128, 128]⟩
abbrev S2x2x128 : Shape := ⟨3, ![2, 2, 128]⟩
abbrev S272x128 : Shape := ⟨2, ![272, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x128 : Shape := ⟨2, ![100000, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S500000x272 : Shape := ⟨2, ![500000, 272]⟩
abbrev S500000x64 : Shape := ⟨2, ![500000, 64]⟩
abbrev S1x64 : Shape := ⟨2, ![1, 64]⟩
abbrev S1x1 : Shape := ⟨2, ![1, 1]⟩

abbrev nBuf : Space → Nat
  | .hbm => 376
  | .vmem => 0
  | .smem => 0
  | _ => 0

abbrev hbmTy0_0 (i : Nat) : BufTy := match i % 128 with
  | 0 => ⟨S100000x32, .f32⟩
  | 1 => ⟨S100000x32, .f32⟩
  | 2 => ⟨S500000x16, .f32⟩
  | 3 => ⟨S2x500000, .i32⟩
  | 4 => ⟨S2x500000, .i32⟩
  | 5 => ⟨S32x128, .f32⟩
  | 6 => ⟨S128, .f32⟩
  | 7 => ⟨S32x128, .f32⟩
  | 8 => ⟨S128, .f32⟩
  | 9 => ⟨S2x2x128x128, .f32⟩
  | 10 => ⟨S2x2x128, .f32⟩
  | 11 => ⟨S2x2x128x128, .f32⟩
  | 12 => ⟨S2x2x128, .f32⟩
  | 13 => ⟨S2x2x128, .f32⟩
  | 14 => ⟨S2x2x128, .f32⟩
  | 15 => ⟨S2x2x128, .f32⟩
  | 16 => ⟨S272x128, .f32⟩
  | 17 => ⟨S128, .f32⟩
  | 18 => ⟨S128, .f32⟩
  | 19 => ⟨S128, .f32⟩
  | 20 => ⟨S128, .f32⟩
  | 21 => ⟨S128, .f32⟩
  | 22 => ⟨S128x64, .f32⟩
  | 23 => ⟨S64, .f32⟩
  | 24 => ⟨S64x1, .f32⟩
  | 25 => ⟨S1, .f32⟩
  | 26 => ⟨S100000x128, .f32⟩
  | 27 => ⟨S1x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x500000, .i32⟩
  | 35 => ⟨S500000, .i32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S_, .f32⟩
  | 48 => ⟨S100000x128, .f32⟩
  | 49 => ⟨S500000x1, .i32⟩
  | 50 => ⟨S100000x128, .f32⟩
  | 51 => ⟨S_, .f32⟩
  | 52 => ⟨S500000, .f32⟩
  | 53 => ⟨S_, .f32⟩
  | 54 => ⟨S100000, .f32⟩
  | 55 => ⟨S500000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S1x1x128x128, .f32⟩
  | 64 => ⟨S128x128, .f32⟩
  | 65 => ⟨S100000x128, .f32⟩
  | 66 => ⟨S1x1x128, .f32⟩
  | 67 => ⟨S128, .f32⟩
  | 68 => ⟨S1x128, .f32⟩
  | 69 => ⟨S100000x128, .f32⟩
  | 70 => ⟨S100000x128, .f32⟩
  | 71 => ⟨S1x1x128x128, .f32⟩
  | 72 => ⟨S128x128, .f32⟩
  | 73 => ⟨S100000x128, .f32⟩
  | 74 => ⟨S100000x128, .f32⟩
  | 75 => ⟨S1x500000, .i32⟩
  | 76 => ⟨S500000, .i32⟩
  | 77 => ⟨S1x500000, .i32⟩
  | 78 => ⟨S500000, .i32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x128, .f32⟩
  | 88 => ⟨S_, .f32⟩
  | 89 => ⟨S100000x128, .f32⟩
  | 90 => ⟨S500000x1, .i32⟩
  | 91 => ⟨S100000x128, .f32⟩
  | 92 => ⟨S_, .f32⟩
  | 93 => ⟨S500000, .f32⟩
  | 94 => ⟨S_, .f32⟩
  | 95 => ⟨S100000, .f32⟩
  | 96 => ⟨S500000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S1x1x128x128, .f32⟩
  | 105 => ⟨S128x128, .f32⟩
  | 106 => ⟨S100000x128, .f32⟩
  | 107 => ⟨S1x1x128, .f32⟩
  | 108 => ⟨S128, .f32⟩
  | 109 => ⟨S1x128, .f32⟩
  | 110 => ⟨S100000x128, .f32⟩
  | 111 => ⟨S100000x128, .f32⟩
  | 112 => ⟨S1x1x128x128, .f32⟩
  | 113 => ⟨S128x128, .f32⟩
  | 114 => ⟨S100000x128, .f32⟩
  | 115 => ⟨S100000x128, .f32⟩
  | 116 => ⟨S1x1x128, .f32⟩
  | 117 => ⟨S128, .f32⟩
  | 118 => ⟨S1x1x128, .f32⟩
  | 119 => ⟨S128, .f32⟩
  | 120 => ⟨S1x1x128, .f32⟩
  | 121 => ⟨S128, .f32⟩
  | 122 => ⟨S1x1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x32, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S1x1x128, .f32⟩
  | 17 => ⟨S128, .f32⟩
  | 18 => ⟨S1x1x128, .f32⟩
  | 19 => ⟨S128, .f32⟩
  | 20 => ⟨S1x1x128, .f32⟩
  | 21 => ⟨S128, .f32⟩
  | 22 => ⟨S1x1x128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S1x500000, .i32⟩
  | 45 => ⟨S500000, .i32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .f32⟩
  | 58 => ⟨S100000x128, .f32⟩
  | 59 => ⟨S500000x1, .i32⟩
  | 60 => ⟨S100000x128, .f32⟩
  | 61 => ⟨S_, .f32⟩
  | 62 => ⟨S500000, .f32⟩
  | 63 => ⟨S_, .f32⟩
  | 64 => ⟨S100000, .f32⟩
  | 65 => ⟨S500000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S1x1x128x128, .f32⟩
  | 74 => ⟨S128x128, .f32⟩
  | 75 => ⟨S100000x128, .f32⟩
  | 76 => ⟨S1x1x128, .f32⟩
  | 77 => ⟨S128, .f32⟩
  | 78 => ⟨S1x128, .f32⟩
  | 79 => ⟨S100000x128, .f32⟩
  | 80 => ⟨S100000x128, .f32⟩
  | 81 => ⟨S1x1x128x128, .f32⟩
  | 82 => ⟨S128x128, .f32⟩
  | 83 => ⟨S100000x128, .f32⟩
  | 84 => ⟨S100000x128, .f32⟩
  | 85 => ⟨S1x500000, .i32⟩
  | 86 => ⟨S500000, .i32⟩
  | 87 => ⟨S1x500000, .i32⟩
  | 88 => ⟨S500000, .i32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x128, .f32⟩
  | 98 => ⟨S_, .f32⟩
  | 99 => ⟨S100000x128, .f32⟩
  | 100 => ⟨S500000x1, .i32⟩
  | 101 => ⟨S100000x128, .f32⟩
  | 102 => ⟨S_, .f32⟩
  | 103 => ⟨S500000, .f32⟩
  | 104 => ⟨S_, .f32⟩
  | 105 => ⟨S100000, .f32⟩
  | 106 => ⟨S500000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S1x1x128x128, .f32⟩
  | 115 => ⟨S128x128, .f32⟩
  | 116 => ⟨S100000x128, .f32⟩
  | 117 => ⟨S1x1x128, .f32⟩
  | 118 => ⟨S128, .f32⟩
  | 119 => ⟨S1x128, .f32⟩
  | 120 => ⟨S100000x128, .f32⟩
  | 121 => ⟨S100000x128, .f32⟩
  | 122 => ⟨S1x1x128x128, .f32⟩
  | 123 => ⟨S128x128, .f32⟩
  | 124 => ⟨S100000x128, .f32⟩
  | 125 => ⟨S100000x128, .f32⟩
  | 126 => ⟨S1x1x128, .f32⟩
  | 127 => ⟨S128, .f32⟩
  | _ => ⟨S100000x32, .f32⟩

abbrev hbmTy0_2 (i : Nat) : BufTy := match i % 128 with
  | 0 => ⟨S1x1x128, .f32⟩
  | 1 => ⟨S128, .f32⟩
  | 2 => ⟨S1x1x128, .f32⟩
  | 3 => ⟨S128, .f32⟩
  | 4 => ⟨S1x1x128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S1x1x128, .f32⟩
  | 27 => ⟨S128, .f32⟩
  | 28 => ⟨S1x1x128, .f32⟩
  | 29 => ⟨S128, .f32⟩
  | 30 => ⟨S1x1x128, .f32⟩
  | 31 => ⟨S128, .f32⟩
  | 32 => ⟨S1x1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x500000, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S1x500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x128, .f32⟩
  | 76 => ⟨S500000x272, .f32⟩
  | 77 => ⟨S500000x128, .f32⟩
  | 78 => ⟨S1x128, .f32⟩
  | 79 => ⟨S500000x128, .f32⟩
  | 80 => ⟨S500000x128, .f32⟩
  | 81 => ⟨S_, .f32⟩
  | 82 => ⟨S500000x128, .f32⟩
  | 83 => ⟨S500000x128, .f32⟩
  | 84 => ⟨S1x128, .f32⟩
  | 85 => ⟨S500000x128, .f32⟩
  | 86 => ⟨S500000x128, .f32⟩
  | 87 => ⟨S_, .f32⟩
  | 88 => ⟨S128, .f32⟩
  | 89 => ⟨S128, .f32⟩
  | 90 => ⟨S128, .f32⟩
  | 91 => ⟨S1x128, .f32⟩
  | 92 => ⟨S500000x128, .f32⟩
  | 93 => ⟨S500000x128, .f32⟩
  | 94 => ⟨S1x128, .f32⟩
  | 95 => ⟨S500000x128, .f32⟩
  | 96 => ⟨S500000x128, .f32⟩
  | 97 => ⟨S1x128, .f32⟩
  | 98 => ⟨S500000x128, .f32⟩
  | 99 => ⟨S500000x128, .f32⟩
  | 100 => ⟨S500000x64, .f32⟩
  | 101 => ⟨S1x64, .f32⟩
  | 102 => ⟨S500000x64, .f32⟩
  | 103 => ⟨S500000x64, .f32⟩
  | 104 => ⟨S_, .f32⟩
  | 105 => ⟨S500000x64, .f32⟩
  | 106 => ⟨S500000x64, .f32⟩
  | 107 => ⟨S500000x1, .f32⟩
  | 108 => ⟨S1x1, .f32⟩
  | 109 => ⟨S500000x1, .f32⟩
  | 110 => ⟨S500000x1, .f32⟩
  | 111 => ⟨S500000x1, .f32⟩
  | 112 => ⟨S500000x1, .f32⟩
  | 113 => ⟨S_, .f32⟩
  | 114 => ⟨S500000x1, .f32⟩
  | 115 => ⟨S500000x1, .f32⟩
  | 116 => ⟨S_, .f32⟩
  | 117 => ⟨S500000x1, .f32⟩
  | 118 => ⟨S500000x1, .f32⟩
  | 119 => ⟨S500000, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_4 : Ref sig .tc := ⟨.hbm, 79, rfl⟩
abbrev main_v47 : Ref sig .tc := ⟨.hbm, 80, rfl⟩
abbrev main_v48 : Ref sig .tc := ⟨.hbm, 81, rfl⟩
abbrev main_c_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_7 : Ref sig .tc := ⟨.hbm, 92, rfl⟩
abbrev main_v57 : Ref sig .tc := ⟨.hbm, 93, rfl⟩
abbrev main_cst_8 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_9 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_10 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call0_cst : Ref sig .tc := ⟨.hbm, 140, rfl⟩
abbrev main_call0_v0 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_11 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_call1_cst : Ref sig .tc := ⟨.hbm, 168, rfl⟩
abbrev main_call1_v0 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_12 : Ref sig .tc := ⟨.hbm, 176, rfl⟩
abbrev main_v132 : Ref sig .tc := ⟨.hbm, 177, rfl⟩
abbrev main_v133 : Ref sig .tc := ⟨.hbm, 178, rfl⟩
abbrev main_c_13 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_14 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_15 : Ref sig .tc := ⟨.hbm, 189, rfl⟩
abbrev main_v142 : Ref sig .tc := ⟨.hbm, 190, rfl⟩
abbrev main_cst_16 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_17 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_18 : Ref sig .tc := ⟨.hbm, 217, rfl⟩
abbrev main_v167 : Ref sig .tc := ⟨.hbm, 218, rfl⟩
abbrev main_v168 : Ref sig .tc := ⟨.hbm, 219, rfl⟩
abbrev main_c_19 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_20 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_cst_21 : Ref sig .tc := ⟨.hbm, 230, rfl⟩
abbrev main_v177 : Ref sig .tc := ⟨.hbm, 231, rfl⟩
abbrev main_cst_22 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_23 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_24 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_call2_cst : Ref sig .tc := ⟨.hbm, 278, rfl⟩
abbrev main_call2_v0 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_cst_25 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_call3_cst : Ref sig .tc := ⟨.hbm, 306, rfl⟩
abbrev main_call3_v0 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_c_26 : Ref sig .tc := ⟨.hbm, 312, rfl⟩
abbrev main_v250 : Ref sig .tc := ⟨.hbm, 313, rfl⟩
abbrev main_v251 : Ref sig .tc := ⟨.hbm, 314, rfl⟩
abbrev main_c_27 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_c_28 : Ref sig .tc := ⟨.hbm, 323, rfl⟩
abbrev main_v259 : Ref sig .tc := ⟨.hbm, 324, rfl⟩
abbrev main_v260 : Ref sig .tc := ⟨.hbm, 325, rfl⟩
abbrev main_c_29 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_call4_cst : Ref sig .tc := ⟨.hbm, 337, rfl⟩
abbrev main_call4_v0 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_cst_30 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_call5_cst : Ref sig .tc := ⟨.hbm, 360, rfl⟩
abbrev main_call5_v0 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_cst_31 : Ref sig .tc := ⟨.hbm, 369, rfl⟩
abbrev main_v298 : Ref sig .tc := ⟨.hbm, 370, rfl⟩
abbrev main_v299 : Ref sig .tc := ⟨.hbm, 371, rfl⟩
abbrev main_cst_32 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x2x128x128_S1x1x128x128_0_0_0_0 : S2x2x128x128.Slices ![0, 0, 0, 0] S1x1x128x128
  shapeCasts_S1x1x128x128_S128x128 : S1x1x128x128.ShapeCasts S128x128
  slices_S2x2x128_S1x1x128_0_0_0 : S2x2x128.Slices ![0, 0, 0] S1x1x128
  shapeCasts_S1x1x128_S128 : S1x1x128.ShapeCasts S128
  slices_S2x2x128x128_S1x1x128x128_0_1_0_0 : S2x2x128x128.Slices ![0, 1, 0, 0] S1x1x128x128
  slices_S2x2x128_S1x1x128_0_1_0 : S2x2x128.Slices ![0, 1, 0] S1x1x128
  bcast_S_S128 : S_.BroadcastsInDim S128 (![] : Fin 0 → Fin S128.rank)
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  concatenates_S500000x128_S500000x128_S500000x16_S500000x272_d1 : Shape.Concatenates [S500000x128, S500000x128, S500000x16] S500000x272 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  dot_S100000x32_S32x128_S100000x128_1_0_0_1_n_n_wf : DotDims.WF S100000x32 S32x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  dot_S500000x272_S272x128_S500000x128_1_0_0_1_n_n_wf : DotDims.WF S500000x272 S272x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S500000x272_S272x128_S500000x128_1_0_0_1_n_n : DotDims S500000x272 S272x128 S500000x128 where
  lhsContracting := [1]
  rhsContracting := [0]
  lhsNonContracting := [0]
  rhsNonContracting := [1]
  lhsBatch := []
  rhsBatch := []
  wf := dot_S500000x272_S272x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.LinSpec.lean ====
/-
  The linear stage as one function of whole arrays. For a table x of 100000 rows of 32 features, a weight matrix W
  of 32 by 128 and a bias vector b of 128 entries, the stage's value at row i0 and column i1 is

      (∑ k < 32, x(i0, k) · W(k, i1)) + b(i1),

  over the extended reals. Both projections of the network (the two node types) are this function of their own
  three arrays.
-/
import Idealize.ShloMosaic.PureOps.Ideal
import Idealize.ShloMosaic.Lib.ValueIdx

noncomputable section

open scoped BigOperators

namespace Cert.LinSpec

open Idealize.ShloMosaic Idealize.ShloMosaic.ValueIdx

/-- The projection x · W + b, entry by entry. -/
def linF (x : (⟨2, ![100000, 32]⟩ : Shape).Idx → EReal) (W : (⟨2, ![32, 128]⟩ : Shape).Idx → EReal)
    (b : (⟨1, ![128]⟩ : Shape).Idx → EReal) : (⟨2, ![100000, 128]⟩ : Shape).Idx → EReal :=
  fun i => (∑ k : Fin 32, x (ix2 (i 0) k) * W (ix2 k (i 1))) + b (ix1 (i 1))

/-- The projection at the entry (r, j). -/
theorem linF_apply (x : (⟨2, ![100000, 32]⟩ : Shape).Idx → EReal) (W : (⟨2, ![32, 128]⟩ : Shape).Idx → EReal)
    (b : (⟨1, ![128]⟩ : Shape).Idx → EReal) (r : Fin 100000) (j : Fin 128) :
    linF x W b (ix2 r j) = (∑ k : Fin 32, x (ix2 r k) * W (ix2 k j)) + b (ix1 j) := rfl

end Cert.LinSpec

end
-- ==== Proof.SageSpec.lean ====
/-
  The hetero-SAGE stage as one function of whole arrays: for N = 100000 rows and 128 features,

    new(i, j) = max( ((((Σₖ agg(i,k)·Wl(k,j)) + bl(j)) + Σₖ h(i,k)·Wr(k,j)) − m(j)) · rsqrt(v(j) + ε) · g(j) + b(j), 0 ) + h(i, j)

  over the extended reals, with every sum, product and difference grouped exactly as written. The two constants are
  kept as the words that encode them.
-/
import Idealize.ShloMosaic.PureOps.Ideal
import Idealize.ShloMosaic.Lib.ValueIdx

noncomputable section

open scoped BigOperators

namespace Cert.SageSpec

open Idealize.ShloMosaic Idealize.ShloMosaic.ValueIdx

/-- The stage at row `r` and feature `j`: the aggregated neighbours through `Wl` plus its bias, plus the node's own
    features through `Wr`; normalised by the running mean `m` and variance `v` (ε added under the reciprocal square
    root), scaled by `g`, shifted by `b`; clamped below at zero; and the node's own feature added back. -/
def sageAt (agg h : FVec Ideal ⟨2, ![100000, 128]⟩ .f32) (Wl : FVec Ideal ⟨2, ![128, 128]⟩ .f32)
    (bl : FVec Ideal ⟨1, ![128]⟩ .f32) (Wr : FVec Ideal ⟨2, ![128, 128]⟩ .f32)
    (g b m v : FVec Ideal ⟨1, ![128]⟩ .f32) (r : Fin 100000) (j : Fin 128) : EReal :=
  max (((((∑ k : Fin 128, agg (ix2 r k) * Wl (ix2 k j)) + bl (ix1 j)) + (∑ k : Fin 128, h (ix2 r k) * Wr (ix2 k j))) - m (ix1 j))
        * Ideal.rsqrt (v (ix1 j) + Ideal.ofBits .f32 0x3727C5AC#32) * g (ix1 j) + b (ix1 j))
      (Ideal.ofBits .f32 0x00000000#32)
    + h (ix2 r j)

/-- The whole output array: `sageAt` at the two coordinates of each index. -/
def sageF (agg h : FVec Ideal ⟨2, ![100000, 128]⟩ .f32) (Wl : FVec Ideal ⟨2, ![128, 128]⟩ .f32)
    (bl : FVec Ideal ⟨1, ![128]⟩ .f32) (Wr : FVec Ideal ⟨2, ![128, 128]⟩ .f32)
    (g b m v : FVec Ideal ⟨1, ![128]⟩ .f32) : FVec Ideal ⟨2, ![100000, 128]⟩ .f32 :=
  fun i => sageAt agg h Wl bl Wr g b m v (i 0) (i 1)

/-- At an index given by its coordinates. -/
theorem sageF_ix2 (agg h : FVec Ideal ⟨2, ![100000, 128]⟩ .f32) (Wl : FVec Ideal ⟨2, ![128, 128]⟩ .f32)
    (bl : FVec Ideal ⟨1, ![128]⟩ .f32) (Wr : FVec Ideal ⟨2, ![128, 128]⟩ .f32)
    (g b m v : FVec Ideal ⟨1, ![128]⟩ .f32) (r : Fin 100000) (j : Fin 128) :
    sageF agg h Wl bl Wr g b m v (ix2 r j) = sageAt agg h Wl bl Wr g b m v r j := rfl

end Cert.SageSpec

end
-- ==== Proof.MlpSpec.lean ====
/-
  The edge perceptron as ONE function of whole arrays, entry by entry, on the extended reals.

  A row `xr` of 272 features goes through three dense layers. The first, 272 → 128, is followed by a rectifier and a
  batch normalisation with stored statistics: (h − mean) · rsqrt(var + ε) · scale + shift. The second, 128 → 64, is
  followed by a rectifier. The third, 64 → 1, is followed by the logistic function written 1 / (1 + exp(−z)).
  Every matrix product is the plain sum of products over the contracted coordinate; the three float literals
  (zero, ε, one) are kept as the words the programs print.
-/
import Idealize.ShloMosaic.PureOps.Ideal
import Idealize.ShloMosaic.Lib.ValueIdx

noncomputable section

open scoped BigOperators

namespace Cert.Mlp

open Idealize.ShloMosaic Idealize.ShloMosaic.ValueIdx

/-- The first hidden layer at feature `j` of a row: the rectified affine image of the row, normalised with the stored
    mean `mm` and variance `vv`, scaled by `g` and shifted by `bb`. -/
def hid1 (xr : Fin 272 → EReal) (W1 : (⟨2, ![272, 128]⟩ : Shape).Idx → EReal)
    (b1 g bb mm vv : (⟨1, ![128]⟩ : Shape).Idx → EReal) (j : Fin 128) : EReal :=
  (max ((∑ k : Fin 272, xr k * W1 (ix2 k j)) + b1 (ix1 j)) (Ideal.ofBits .f32 0x00000000#32) - mm (ix1 j))
      * Ideal.rsqrt (vv (ix1 j) + Ideal.ofBits .f32 0x3727C5AC#32) * g (ix1 j) + bb (ix1 j)

/-- The second hidden layer at feature `j` of a row: the rectified affine image of the first hidden layer. -/
def hid2 (xr : Fin 272 → EReal) (W1 : (⟨2, ![272, 128]⟩ : Shape).Idx → EReal)
    (b1 g bb mm vv : (⟨1, ![128]⟩ : Shape).Idx → EReal) (W2 : (⟨2, ![128, 64]⟩ : Shape).Idx → EReal)
    (b2 : (⟨1, ![64]⟩ : Shape).Idx → EReal) (j : Fin 64) : EReal :=
  max ((∑ k : Fin 128, hid1 xr W1 b1 g bb mm vv k * W2 (ix2 k j)) + b2 (ix1 j)) (Ideal.ofBits .f32 0x00000000#32)

/-- The logistic function as the programs spell it: one over one plus the exponential of the negated argument. -/
def sigm (z : EReal) : EReal :=
  Ideal.div (Ideal.ofBits .f32 0x3F800000#32) (Ideal.ofBits .f32 0x3F800000#32 + Ideal.exp (-z))

/-- The score of a row at the (only) output column `c`: the logistic function of the affine image of the second hidden
    layer. -/
def score (xr : Fin 272 → EReal) (W1 : (⟨2, ![272, 128]⟩ : Shape).Idx → EReal)
    (b1 g bb mm vv : (⟨1, ![128]⟩ : Shape).Idx → EReal) (W2 : (⟨2, ![128, 64]⟩ : Shape).Idx → EReal)
    (b2 : (⟨1, ![64]⟩ : Shape).Idx → EReal) (W3 : (⟨2, ![64, 1]⟩ : Shape).Idx → EReal)
    (b3 : (⟨1, ![1]⟩ : Shape).Idx → EReal) (c : Fin 1) : EReal :=
  sigm ((∑ k : Fin 64, hid2 xr W1 b1 g bb mm vv W2 b2 k * W3 (ix2 k c)) + b3 (ix1 ⟨0, Nat.one_pos⟩))

/-- The whole stage: every one of the 500000 rows of `x` scored. -/
def mlpF (x : (⟨2, ![500000, 272]⟩ : Shape).Idx → EReal) (W1 : (⟨2, ![272, 128]⟩ : Shape).Idx → EReal)
    (b1 g bb mm vv : (⟨1, ![128]⟩ : Shape).Idx → EReal) (W2 : (⟨2, ![128, 64]⟩ : Shape).Idx → EReal)
    (b2 : (⟨1, ![64]⟩ : Shape).Idx → EReal) (W3 : (⟨2, ![64, 1]⟩ : Shape).Idx → EReal)
    (b3 : (⟨1, ![1]⟩ : Shape).Idx → EReal) : (⟨2, ![500000, 1]⟩ : Shape).Idx → EReal :=
  fun i => score (fun k => x (ix2 (i 0) k)) W1 b1 g bb mm vv W2 b2 W3 b3 (i 1)

/-- The stage at the entry (r, c): the score of row `r`. -/
theorem mlpF_apply (x : (⟨2, ![500000, 272]⟩ : Shape).Idx → EReal) (W1 : (⟨2, ![272, 128]⟩ : Shape).Idx → EReal)
    (b1 g bb mm vv : (⟨1, ![128]⟩ : Shape).Idx → EReal) (W2 : (⟨2, ![128, 64]⟩ : Shape).Idx → EReal)
    (b2 : (⟨1, ![64]⟩ : Shape).Idx → EReal) (W3 : (⟨2, ![64, 1]⟩ : Shape).Idx → EReal)
    (b3 : (⟨1, ![1]⟩ : Shape).Idx → EReal) (r : Fin 500000) (c : Fin 1) :
    mlpF x W1 b1 g bb mm vv W2 b2 W3 b3 (ix2 r c) = score (fun k => x (ix2 r k)) W1 b1 g bb mm vv W2 b2 W3 b3 c := rfl

end Cert.Mlp

end
-- ==== Proof.Glue.lean ====
/-
  The host operations between the kernel regions, as functions of whole arrays over the extended reals, and the whole
  network as one function of its 26 argument arrays. The two programs compared apply the same host operations
  around differently organised dense stages; stating each run of host operations once, as one function, lets the two
  sides be compared stage by stage without ever opening an operation.
-/
import proofs.«100324_j78829829750888_1_alg».proof.Proof.Gen.ReferenceIdeal
import proofs.«100324_j78829829750888_1_alg».proof.Proof.LinSpec
import proofs.«100324_j78829829750888_1_alg».proof.Proof.SageSpec
import proofs.«100324_j78829829750888_1_alg».proof.Proof.MlpSpec
import Idealize.ShloMosaic.PureOps.Ideal

noncomputable section

/-! ## The host glue as whole-array functions

Each function below is exactly one run of host operations of the entry function, composed; both programs apply
these same operations (their shape and dimension records are separate definitions with the same literal contents, so
either program's term is this one by unfolding). Nothing downstream opens them: the two sides meet at equal
applications of the same functions. -/

namespace Cert.Glue

open Idealize.ShloMosaic Idealize.SL.Sem
open Cert.ReferenceIdeal Cert.ReferenceIdeal.Facts₀

/-- The contents of a buffer of shape `S` and element type `e` over the extended reals. -/
abbrev 𝔹 (S : Shape) (e : EltTy) : Type := (⟨S, e⟩ : BufTy).Contents (Elt Ideal)

/-- An index vector as a column: the index operand of a gather or a scatter. -/
def idxCol (idx : 𝔹 S500000 .i32) : 𝔹 S500000x1 .i32 :=
  broadcastInDim S500000x1 ![0] bcast_S500000_S500000x1_0 idx

/-- Index normalisation: a negative index counts from the end of the 100000 rows. -/
def normIdx (idx : 𝔹 S500000 .i32) : 𝔹 S500000 .i32 :=
  select (cmpi .slt idx (broadcastInDim S500000 ![] bcast_S_S500000 (constantI S_ 32 0#32)))
    (addi idx (broadcastInDim S500000 ![] bcast_S_S500000 (constantI S_ 32 100000#32))) idx

/-- The rows of a node table at the (normalised) indices: one row per edge. -/
def gatherN (h : 𝔹 S100000x128 .f32) (idx : 𝔹 S500000 .i32) : 𝔹 S500000x128 .f32 :=
  Host.gather gather_S100000x128_S500000x1_S500000x128_1_0_n_n_0_1_1128 h (idxCol (normIdx idx))

/-- The number of edges arriving at each node, at least one, as a column. -/
def cnt (dst : 𝔹 S500000 .i32) : 𝔹 S100000x1 .f32 :=
  broadcastInDim S100000x1 ![0] bcast_S100000_S100000x1_0
    (maximumf
      (Host.scatterAdd (F := Ideal) (φ := .f32) scatter_S100000_S500000x1_S500000_n_0_0_1
        (broadcastInDim S100000 ![] bcast_S_S100000 (constant S_ .f32 0x00000000#32)) (idxCol dst)
        (broadcastInDim S500000 ![] bcast_S_S500000 (constant S_ .f32 0x3F800000#32)))
      (broadcastInDim S100000 ![] bcast_S_S100000 (constant S_ .f32 0x3F800000#32)))

/-- Mean aggregation: the rows of `h` at the edges' sources, summed at the edges' targets and divided by the
    number of arriving edges. -/
def meanAgg (h : 𝔹 S100000x128 .f32) (src dst : 𝔹 S500000 .i32) : 𝔹 S100000x128 .f32 :=
  Host.divf
    (Host.scatterAdd (F := Ideal) (φ := .f32) scatter_S100000x128_S500000x1_S500000x128_1_0_0_1
      (broadcastInDim S100000x128 ![] bcast_S_S100000x128 (constant S_ .f32 0x00000000#32)) (idxCol dst) (gatherN h src))
    (broadcastInDim S100000x128 ![0, 1] bcast_S100000x1_S100000x128_0_1 (cnt dst))

/-- The two rows of an edge-index array: sources and targets. -/
def row0 (E : 𝔹 S2x500000 .i32) : 𝔹 S500000 .i32 :=
  shapeCast S500000 (extractStridedSlice S1x500000 ![0, 0] E slices_S2x500000_S1x500000_0_0) shapeCasts_S1x500000_S500000
def row1 (E : 𝔹 S2x500000 .i32) : 𝔹 S500000 .i32 :=
  shapeCast S500000 (extractStridedSlice S1x500000 ![1, 0] E slices_S2x500000_S1x500000_1_0) shapeCasts_S1x500000_S500000

/-- Entry (i, j) of a stacked family of 128 × 128 matrices. -/
def mat00 (P : 𝔹 S2x2x128x128 .f32) : 𝔹 S128x128 .f32 :=
  shapeCast S128x128 (extractStridedSlice S1x1x128x128 ![0, 0, 0, 0] P slices_S2x2x128x128_S1x1x128x128_0_0_0_0) shapeCasts_S1x1x128x128_S128x128
def mat01 (P : 𝔹 S2x2x128x128 .f32) : 𝔹 S128x128 .f32 :=
  shapeCast S128x128 (extractStridedSlice S1x1x128x128 ![0, 1, 0, 0] P slices_S2x2x128x128_S1x1x128x128_0_1_0_0) shapeCasts_S1x1x128x128_S128x128
def mat10 (P : 𝔹 S2x2x128x128 .f32) : 𝔹 S128x128 .f32 :=
  shapeCast S128x128 (extractStridedSlice S1x1x128x128 ![1, 0, 0, 0] P slices_S2x2x128x128_S1x1x128x128_1_0_0_0) shapeCasts_S1x1x128x128_S128x128
def mat11 (P : 𝔹 S2x2x128x128 .f32) : 𝔹 S128x128 .f32 :=
  shapeCast S128x128 (extractStridedSlice S1x1x128x128 ![1, 1, 0, 0] P slices_S2x2x128x128_S1x1x128x128_1_1_0_0) shapeCasts_S1x1x128x128_S128x128

/-- Entry (i, j) of a stacked family of vectors of 128 entries. -/
def vec00 (P : 𝔹 S2x2x128 .f32) : 𝔹 S128 .f32 :=
  shapeCast S128 (extractStridedSlice S1x1x128 ![0, 0, 0] P slices_S2x2x128_S1x1x128_0_0_0) shapeCasts_S1x1x128_S128
def vec01 (P : 𝔹 S2x2x128 .f32) : 𝔹 S128 .f32 :=
  shapeCast S128 (extractStridedSlice S1x1x128 ![0, 1, 0] P slices_S2x2x128_S1x1x128_0_1_0) shapeCasts_S1x1x128_S128
def vec10 (P : 𝔹 S2x2x128 .f32) : 𝔹 S128 .f32 :=
  shapeCast S128 (extractStridedSlice S1x1x128 ![1, 0, 0] P slices_S2x2x128_S1x1x128_1_0_0) shapeCasts_S1x1x128_S128
def vec11 (P : 𝔹 S2x2x128 .f32) : 𝔹 S128 .f32 :=
  shapeCast S128 (extractStridedSlice S1x1x128 ![1, 1, 0] P slices_S2x2x128_S1x1x128_1_1_0) shapeCasts_S1x1x128_S128

/-- The edge features: the two endpoint embeddings and the edge attributes, side by side. -/
def cat3 (a b : 𝔹 S500000x128 .f32) (e : 𝔹 S500000x16 .f32) : 𝔹 S500000x272 .f32 :=
  concatenate S500000x272 1 [⟨S500000x128, a⟩, ⟨S500000x128, b⟩, ⟨S500000x16, e⟩] concatenates_S500000x128_S500000x128_S500000x16_S500000x272_d1

/-- The column of edge scores as a vector. -/
def flat (y : 𝔹 S500000x1 .f32) : 𝔹 S500000 .f32 :=
  shapeCast S500000 y shapeCasts_S500000x1_S500000

/-! ## The network as one function of the 26 argument arrays

The three dense stages — the input projection `linF`, the graph convolution `sageF` (aggregate, own features, the
two weight matrices with the first's bias, then scale, shift, mean and variance of the normalisation), the edge
perceptron `mlpF` — composed with the glue above. -/

/-- The 26 argument arrays of the entry function. -/
structure Args where
  a0 : 𝔹 S100000x32 .f32
  a1 : 𝔹 S100000x32 .f32
  a2 : 𝔹 S500000x16 .f32
  a3 : 𝔹 S2x500000 .i32
  a4 : 𝔹 S2x500000 .i32
  a5 : 𝔹 S32x128 .f32
  a6 : 𝔹 S128 .f32
  a7 : 𝔹 S32x128 .f32
  a8 : 𝔹 S128 .f32
  a9 : 𝔹 S2x2x128x128 .f32
  a10 : 𝔹 S2x2x128 .f32
  a11 : 𝔹 S2x2x128x128 .f32
  a12 : 𝔹 S2x2x128 .f32
  a13 : 𝔹 S2x2x128 .f32
  a14 : 𝔹 S2x2x128 .f32
  a15 : 𝔹 S2x2x128 .f32
  a16 : 𝔹 S272x128 .f32
  a17 : 𝔹 S128 .f32
  a18 : 𝔹 S128 .f32
  a19 : 𝔹 S128 .f32
  a20 : 𝔹 S128 .f32
  a21 : 𝔹 S128 .f32
  a22 : 𝔹 S128x64 .f32
  a23 : 𝔹 S64 .f32
  a24 : 𝔹 S64x1 .f32
  a25 : 𝔹 S1 .f32

section Stages

open Cert.LinSpec Cert.SageSpec Cert.Mlp

variable (A : Args)

/-- The two projected node tables. -/
def hU : 𝔹 S100000x128 .f32 := linF A.a0 A.a5 A.a6
def hR : 𝔹 S100000x128 .f32 := linF A.a1 A.a7 A.a8
/-- First layer: the aggregates, then the two convolutions. -/
def aggR1 : 𝔹 S100000x128 .f32 := meanAgg (hU A) (row0 A.a3) (row1 A.a3)
def aggU1 : 𝔹 S100000x128 .f32 := meanAgg (hR A) (row0 A.a4) (row1 A.a4)
def newR1 : 𝔹 S100000x128 .f32 :=
  sageF (aggR1 A) (hR A) (mat00 A.a9) (vec00 A.a10) (mat00 A.a11) (vec01 A.a12) (vec01 A.a13) (vec01 A.a14) (vec01 A.a15)
def newU1 : 𝔹 S100000x128 .f32 :=
  sageF (aggU1 A) (hU A) (mat01 A.a9) (vec01 A.a10) (mat01 A.a11) (vec00 A.a12) (vec00 A.a13) (vec00 A.a14) (vec00 A.a15)
/-- Second layer. -/
def aggR2 : 𝔹 S100000x128 .f32 := meanAgg (newU1 A) (row0 A.a3) (row1 A.a3)
def aggU2 : 𝔹 S100000x128 .f32 := meanAgg (newR1 A) (row0 A.a4) (row1 A.a4)
def newR2 : 𝔹 S100000x128 .f32 :=
  sageF (aggR2 A) (newR1 A) (mat10 A.a9) (vec10 A.a10) (mat10 A.a11) (vec11 A.a12) (vec11 A.a13) (vec11 A.a14) (vec11 A.a15)
def newU2 : 𝔹 S100000x128 .f32 :=
  sageF (aggU2 A) (newU1 A) (mat11 A.a9) (vec11 A.a10) (mat11 A.a11) (vec10 A.a12) (vec10 A.a13) (vec10 A.a14) (vec10 A.a15)
/-- The edge features: the final embeddings at the first edge set's sources and targets, and the edge attributes. -/
def edgeX : 𝔹 S500000x272 .f32 :=
  cat3 (gatherN (newU2 A) (row0 A.a3)) (gatherN (newR2 A) (row1 A.a3)) A.a2
/-- The network's result: one score per edge. -/
def KresA : 𝔹 S500000 .f32 :=
  flat (mlpF (edgeX A) A.a16 A.a17 A.a18 A.a19 A.a20 A.a21 A.a22 A.a23 A.a24 A.a25)

end Stages

/-- The same as a function of the 26 arrays one by one. -/
def Kres (a0 : 𝔹 S100000x32 .f32) (a1 : 𝔹 S100000x32 .f32) (a2 : 𝔹 S500000x16 .f32) (a3 : 𝔹 S2x500000 .i32) (a4 : 𝔹 S2x500000 .i32) (a5 : 𝔹 S32x128 .f32) (a6 : 𝔹 S128 .f32) (a7 : 𝔹 S32x128 .f32) (a8 : 𝔹 S128 .f32) (a9 : 𝔹 S2x2x128x128 .f32) (a10 : 𝔹 S2x2x128 .f32) (a11 : 𝔹 S2x2x128x128 .f32) (a12 : 𝔹 S2x2x128 .f32) (a13 : 𝔹 S2x2x128 .f32) (a14 : 𝔹 S2x2x128 .f32) (a15 : 𝔹 S2x2x128 .f32) (a16 : 𝔹 S272x128 .f32) (a17 : 𝔹 S128 .f32) (a18 : 𝔹 S128 .f32) (a19 : 𝔹 S128 .f32) (a20 : 𝔹 S128 .f32) (a21 : 𝔹 S128 .f32) (a22 : 𝔹 S128x64 .f32) (a23 : 𝔹 S64 .f32) (a24 : 𝔹 S64x1 .f32) (a25 : 𝔹 S1 .f32) : 𝔹 S500000 .f32 :=
  KresA ⟨a0, a1, a2, a3, a4, a5, a6, a7, a8, a9, a10, a11, a12, a13, a14, a15, a16, a17, a18, a19, a20, a21, a22, a23, a24, a25⟩

end Cert.Glue

end
-- ==== Proof.Kernel.R0.lean ====
/-
  Region 0 of the entry function: one node type's projection `x · W + b`, run as a pipeline of four windows (the row
  block of the feature table, the weights, the bias, the row block of the output) over a grid of twenty points, stated
  at a parameter `V` — the core's buffer contents when the region is entered — and at any float model `F`.

  * `iblk0`: window `w`'s block at point `t`, read off its array as the region finds it.
  * `before0_W_of`: an input window's staging buffer holds its block at every point, fetched there or not.
  * `out0_3`: what the body leaves in the output window's buffer, as a function of the three input blocks: its one
    store, whose rectangle is the whole block, of the product of the row block with the weights plus the bias row.
  * `sound_kernel0`: the body's triple on whole staging buffers.
  * `dat0`, `A_eq0`, `after0_W`, `before0_W`: the pipeline's proof data and its projections.
  * `body_obligation0`: the pipeline rule's body obligation at every point.
-/
import proofs.«100324_j78829829750888_1_alg».proof.Proof.Gen.Kernel.Launch
import proofs.«100324_j78829829750888_1_alg».proof.Proof.Gen.Kernel.Skeleton
import proofs.«100324_j78829829750888_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 0: the row-blocked linear layer `x · W + b` on 5000-row blocks, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point: where it is fetched, by the fetch; where it
    is not, the block index has not moved since the fetch and the body left the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads each block whole and writes the output block whole. -/
abbrev r0_x : Rect S5000x32 := Rect.unit (s := S5000x32) ![0, 0] S5000x32.size inb_S5000x32_S5000x32_0_0
abbrev r0_w : Rect S32x128 := Rect.unit (s := S32x128) ![0, 0] S32x128.size inb_S32x128_S32x128_0_0
abbrev r0_b : Rect S128 := Rect.unit (s := S128) ![0] S128.size inb_S128_S128_0
abbrev r0_o : Rect S5000x128 := Rect.unit (s := S5000x128) ![0, 0] S5000x128.size inb_S5000x128_S5000x128_0_0

/-- What the body leaves in the output block: the product of the row block with the weights plus the bias row,
    as one store covering the block. -/
def out0_3 (x0 : Vec F S5000x32 .f32) (x1 : Vec F S32x128 .f32) (x2 : Vec F S128 .f32) : Vec F S5000x128 .f32 :=
  View.canon [⟨r0_o, k0_pay1 (View.ld x0 r0_x) (View.ld x1 r0_w) (View.ld x2 r0_b)⟩]

theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole staging buffers: the inputs' at contents `x0 x1 x2`, the output's at anything, ends with the
    inputs as they were and the output at `out0_3 x0 x1 x2`. -/
theorem sound_kernel0 (c : Dev nD) (E : Set ℕ) (i : grid0.Coords)
    (arg1 : Memref sig .tc .vmem S5000x32 .f32) (harg1 : arg1.IsWhole) (arg2 : Memref sig .tc .vmem S32x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body each input's buffer
    still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Kernel.R1.lean ====
/-
  Region 1 of the entry function: one node type's projection `x · W + b`, run as a pipeline of four windows (the row
  block of the feature table, the weights, the bias, the row block of the output) over a grid of twenty points, stated
  at a parameter `V` — the core's buffer contents when the region is entered — and at any float model `F`.

  * `iblk1`: window `w`'s block at point `t`, read off its array as the region finds it.
  * `before1_W_of`: an input window's staging buffer holds its block at every point, fetched there or not.
  * `out1_3`: what the body leaves in the output window's buffer, as a function of the three input blocks: its one
    store, whose rectangle is the whole block, of the product of the row block with the weights plus the bias row.
  * `sound_kernel1`: the body's triple on whole staging buffers.
  * `dat1`, `A_eq1`, `after1_W`, `before1_W`: the pipeline's proof data and its projections.
  * `body_obligation1`: the pipeline rule's body obligation at every point.
-/
import proofs.«100324_j78829829750888_1_alg».proof.Proof.Gen.Kernel.Launch
import proofs.«100324_j78829829750888_1_alg».proof.Proof.Gen.Kernel.Skeleton
import proofs.«100324_j78829829750888_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 1: the row-blocked linear layer `x · W + b` on 5000-row blocks, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point: where it is fetched, by the fetch; where it
    is not, the block index has not moved since the fetch and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body reads each block whole and writes the output block whole. -/
abbrev r1_x : Rect S5000x32 := Rect.unit (s := S5000x32) ![0, 0] S5000x32.size inb_S5000x32_S5000x32_0_0
abbrev r1_w : Rect S32x128 := Rect.unit (s := S32x128) ![0, 0] S32x128.size inb_S32x128_S32x128_0_0
abbrev r1_b : Rect S128 := Rect.unit (s := S128) ![0] S128.size inb_S128_S128_0
abbrev r1_o : Rect S5000x128 := Rect.unit (s := S5000x128) ![0, 0] S5000x128.size inb_S5000x128_S5000x128_0_0

/-- What the body leaves in the output block: the product of the row block with the weights plus the bias row,
    as one store covering the block. -/
def out1_3 (x0 : Vec F S5000x32 .f32) (x1 : Vec F S32x128 .f32) (x2 : Vec F S128 .f32) : Vec F S5000x128 .f32 :=
  View.canon [⟨r1_o, k1_pay1 (View.ld x0 r1_x) (View.ld x1 r1_w) (View.ld x2 r1_b)⟩]

theorem cover1_3 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

set_option maxHeartbeats 1000000 in
/-- The body on whole staging buffers: the inputs' at contents `x0 x1 x2`, the output's at anything, ends with the
    inputs as they were and the output at `out1_3 x0 x1 x2`. -/
theorem sound_kernel1 (c : Dev nD) (E : Set ℕ) (i : grid1.Coords)
    (arg1 : Memref sig .tc .vmem S5000x32 .f32) (harg1 : arg1.IsWhole) (arg2 : Memref sig .tc .vmem S32x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body each input's buffer
    still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.Kernel.R2.lean ====
import proofs.«100324_j78829829750888_1_alg».proof.Proof.Gen.Kernel.Launch
import proofs.«100324_j78829829750888_1_alg».proof.Proof.Gen.Kernel.Skeleton
import proofs.«100324_j78829829750888_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 2: a residual graph-convolution layer on 2000-row blocks, at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point. Windows 0 to 3 move with the grid and are
    fetched at every point. Windows 4 to 17 (the weights, biases and normalisation rows) have a constant block
    index and are fetched at the first point only: at a later point the index has not moved since the fetch and
    the body left the block in place. No window is cut and none is ever idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-! The body reads each input block whole, through the unit rectangle of its shape, and writes each output block
    whole, once. -/
abbrev r2_a : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_v : Rect S128 := Rect.unit (s := S128) ![0] S128.size inb_S128_S128_0

/-- What the body leaves in output window 18's block, as one store covering the block. With `a` the aggregated rows
    `x0`, `h` the node rows `x1`, weights `x4 x6`, bias `x5`, scale `x7`, shift `x8`, mean `x9`, variance `x10`
    (each row vector broadcast down the 2000 rows) it is
    `max (((a · x4 + x5 + h · x6) - x9) * rsqrt (x10 + ε) * x7 + x8) 0 + h`,
    the operands of both matrix products rounded to bf16 and accumulated in f32 from zero, `ε` the f32 constant of bits
    `0x3727C5AC`. -/
def out2_18 (x0 x1 : Vec F S2000x128 .f32) (x4 : Vec F S128x128 .f32) (x5 : Vec F S128 .f32) (x6 : Vec F S128x128 .f32)
    (x7 x8 x9 x10 : Vec F S128 .f32) : Vec F S2000x128 .f32 :=
  View.canon [⟨r2_a, k2_pay4 (k2_pay2 (View.ld x1 r2_a))
    (k2_pay3 (View.ld x0 r2_a) (View.ld x1 r2_a) (View.ld x4 r2_w) (View.ld x6 r2_w) (View.ld x5 r2_v)
      (View.ld x7 r2_v) (View.ld x8 r2_v) (View.ld x9 r2_v) (View.ld x10 r2_v))⟩]

/-- What the body leaves in output window 19's block: the same expression over the second family of operands,
    rows `x2` (aggregated) and `x3` (node), weights `x11 x13`, bias `x12`, scale `x14`, shift `x15`, mean `x16`,
    variance `x17`. -/
def out2_19 (x2 x3 : Vec F S2000x128 .f32) (x11 : Vec F S128x128 .f32) (x12 : Vec F S128 .f32) (x13 : Vec F S128x128 .f32)
    (x14 x15 x16 x17 : Vec F S128 .f32) : Vec F S2000x128 .f32 :=
  View.canon [⟨r2_a, k2_pay1 (k2_pay5 (View.ld x3 r2_a)) (k2_pay6 (View.ld x14 r2_v)) (k2_pay7 (View.ld x15 r2_v))
    (k2_pay8 (View.ld x2 r2_a) (View.ld x3 r2_a) (View.ld x11 r2_w) (View.ld x13 r2_w) (View.ld x12 r2_v) (View.ld x16 r2_v))
    (k2_pay9 (View.ld x17 r2_v))⟩]

/-- A single whole-block store tiles the block, so it covers it (by evaluation); both outputs have this shape. -/
theorem cover2_18 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

theorem cover2_19 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

set_option maxHeartbeats 1000000 in
/-- The body on whole staging buffers — the eighteen inputs' at contents `x0 … x17`, the two outputs' at anything —
    ends with every input as it was, output 18 at `out2_18` and output 19 at `out2_19` of the inputs they read.
    Each output buffer is read once (the value unused) before it is overwritten, which is why it must be owned
    at some contents beforehand. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S128x128 .f32) (harg7 : arg7.IsWhole) (arg8 : Memref sig .tc .vmem S128 .f32) (harg8 : arg8.IsWhole)
    (arg9 : Memref sig .tc .vmem S128 .f32) (harg9 : arg9.IsWhole) (arg10 : Memref sig .tc .vmem S128 .f32) (harg10 : arg10.IsWhole)
    (arg11 : Memref sig .tc .vmem S128 .f32) (harg11 : arg11.IsWhole) (arg12 : Memref sig .tc .vmem S128x128 .f32) (harg12 : arg12.IsWhole)
    (arg13 : Memref sig .tc .vmem S128 .f32) (harg13 : arg13.IsWhole) (arg14 : Memref sig .tc .vmem S128x128 .f32) (harg14 : arg14.IsWhole)
    (arg15 : Memref sig .tc .vmem S128 .f32) (harg15 : arg15.IsWhole) (arg16 : Memref sig .tc .vmem S128 .f32) (harg16 : arg16.IsWhole)
    (arg17 : Memref sig .tc .vmem S128 .f32) (harg17 : arg17.IsWhole) (arg18 : Memref sig .tc .vmem S128 .f32) (harg18 : arg18.IsWhole)
    (arg19 : Memref sig .tc .vmem S2000x128 .f32) (harg19 : arg19.IsWhole) (arg20 : Memref sig .tc .vmem S2000x128 .f32) (harg20 : arg20.IsWhole)
    (x0 x1 x2 x3 : Vec F S2000x128 .f32) (x4 : Vec F S128x128 .f32) (x5 : Vec F S128 .f32) (x6 : Vec F S128x128 .f32)
    (x7 x8 x9 x10 : Vec F S128 .f32) (x11 : Vec F S128x128 .f32) (x12 : Vec F S128 .f32) (x13 : Vec F S128x128 .f32)
    (x14 x15 x16 x17 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ owns (c : Thread nD τ) arg14 fullShare x13
        ∗ owns (c : Thread nD τ) arg15 fullShare x14 ∗ owns (c : Thread nD τ) arg16 fullShare x15
        ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare x14 ∗ owns (c : Thread nD τ) arg16 fullShare x15
            ∗ owns (c : Thread nD τ) arg17 fullShare x16 ∗ owns (c : Thread nD τ) arg18 fullShare x17
            ∗ owns (c : Thread nD τ) arg19 fullShare (out2_18 x0 x1 x4 x5 x6 x7 x8 x9 x10)
            ∗ owns (c : Thread nD τ) arg20 fullShare (out2_19 x2 x3 x11 x12 x13 x14 x15 x16 x17)) -∗ K ⟨⟩))
      ⊢ wp frame (wpE (defs₀ (F := F)) Variants.none c none) E
          (cc2__sage_kernel i arg1 harg1 arg2 harg2 arg3 harg3 arg4 harg4 arg5 harg5 arg6 harg6 arg7 harg7 arg8 harg8
            arg9 harg9 arg10 harg10 arg11 harg11 arg12 harg12 arg13 harg13 arg14 harg14 arg15 harg15 arg16 harg16
            arg17 harg17 arg18 harg18 arg19 harg19 arg20 harg20) K := by
  simp only [cc2__sage_kernel_eq_skeleton]; unfold cc2__sage_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%f17, %hf17, H17⟩, ⟨%d18, %f18, -, H18⟩, ⟨%d19, %f19, -, H19⟩, Hk⟩
  subst hf0; subst hf1; subst hf2; subst hf3; subst hf4; subst hf5; subst hf6; subst hf7; subst hf8; subst hf9
  subst hf10; subst hf11; subst hf12; subst hf13; subst hf14; subst hf15; subst hf16; subst hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover2_18 _)
  iexists _; isplitr
  swap; · iexact H19
  ipureintro
  exact View.read_writes_eq_canon _ _ _ (cover2_19 _)

/-- The pipeline's proof data on core `c`: the arrays as the region finds them; after the body each input's buffer
    still at its block, output 18's at `out2_18` and output 19's at `out2_19` of the input blocks they read;
    nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => out2_18 (iblk2 V c 0 t) (iblk2 V c 1 t) (iblk2 V c 4 t) (iblk2 V c 5 t) (iblk2 V c 6 t) (iblk2 V c 7 t)
        (iblk2 V c 8 t) (iblk2 V c 9 t) (iblk2 V c 10 t)
    | ⟨19, _⟩ => out2_19 (iblk2 V c 2 t) (iblk2 V c 3 t) (iblk2 V c 11 t) (iblk2 V c 12 t) (iblk2 V c 13 t) (iblk2 V c 14 t)
        (iblk2 V c 15 t) (iblk2 V c 16 t) (iblk2 V c 17 t)
    | ⟨_ + 20, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) :
    (dat2 V c).after 18 t = out2_18 (iblk2 V c 0 t) (iblk2 V c 1 t) (iblk2 V c 4 t) (iblk2 V c 5 t) (iblk2 V c 6 t)
      (iblk2 V c 7 t) (iblk2 V c 8 t) (iblk2 V c 9 t) (iblk2 V c 10 t) := by dsimp only [dat2]
theorem after2_19 (c : Dev nD) (t : Fin cfg2.N) :
    (dat2 V c).after 19 t = out2_19 (iblk2 V c 2 t) (iblk2 V c 3 t) (iblk2 V c 11 t) (iblk2 V c 12 t) (iblk2 V c 13 t)
      (iblk2 V c 14 t) (iblk2 V c 15 t) (iblk2 V c 16 t) (iblk2 V c 17 t) := by dsimp only [dat2]

/-! Each input's staging buffer holds its block wherever the body is handed it. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t))

/-- The body at any point: the inputs' buffers hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8,
    before2_9, before2_10, before2_11, before2_12, before2_13, before2_14, before2_15, before2_16, before2_17]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10,
    after2_11, after2_12, after2_13, after2_14, after2_15, after2_16, after2_17, after2_18, after2_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩,
    ⟨%d17, H17⟩, ⟨%d18, H18⟩, ⟨%d19, H19⟩⟩
  iapply (sound_kernel2 c Set.univ _ _ _ _ _ _ _ _ _ _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) (iblk2 V c 15 t) (iblk2 V c 16 t) (iblk2 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.Kernel.R3.lean ====
import proofs.«100324_j78829829750888_1_alg».proof.Proof.Gen.Kernel.Launch
import proofs.«100324_j78829829750888_1_alg».proof.Proof.Gen.Kernel.Skeleton
import proofs.«100324_j78829829750888_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 3: a residual graph-convolution layer on 2000-row blocks, at the entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point. Windows 0 to 3 move with the grid and are
    fetched at every point. Windows 4 to 17 (the weights, biases and normalisation rows) have a constant block
    index and are fetched at the first point only: at a later point the index has not moved since the fetch and
    the body left the block in place. No window is cut and none is ever idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-! The body reads each input block whole, through the unit rectangle of its shape, and writes each output block
    whole, once. -/
abbrev r3_a : Rect S2000x128 := Rect.unit (s := S2000x128) ![0, 0] S2000x128.size inb_S2000x128_S2000x128_0_0
abbrev r3_w : Rect S128x128 := Rect.unit (s := S128x128) ![0, 0] S128x128.size inb_S128x128_S128x128_0_0
abbrev r3_v : Rect S128 := Rect.unit (s := S128) ![0] S128.size inb_S128_S128_0

/-- What the body leaves in output window 18's block, as one store covering the block. With `a` the aggregated rows
    `x0`, `h` the node rows `x1`, weights `x4 x6`, bias `x5`, scale `x7`, shift `x8`, mean `x9`, variance `x10`
    (each row vector broadcast down the 2000 rows) it is
    `max (((a · x4 + x5 + h · x6) - x9) * rsqrt (x10 + ε) * x7 + x8) 0 + h`,
    the operands of both matrix products rounded to bf16 and accumulated in f32 from zero, `ε` the f32 constant of bits
    `0x3727C5AC`. -/
def out3_18 (x0 x1 : Vec F S2000x128 .f32) (x4 : Vec F S128x128 .f32) (x5 : Vec F S128 .f32) (x6 : Vec F S128x128 .f32)
    (x7 x8 x9 x10 : Vec F S128 .f32) : Vec F S2000x128 .f32 :=
  View.canon [⟨r3_a, k3_pay4 (k3_pay2 (View.ld x1 r3_a))
    (k3_pay3 (View.ld x0 r3_a) (View.ld x1 r3_a) (View.ld x4 r3_w) (View.ld x6 r3_w) (View.ld x5 r3_v)
      (View.ld x7 r3_v) (View.ld x8 r3_v) (View.ld x9 r3_v) (View.ld x10 r3_v))⟩]

/-- What the body leaves in output window 19's block: the same expression over the second family of operands,
    rows `x2` (aggregated) and `x3` (node), weights `x11 x13`, bias `x12`, scale `x14`, shift `x15`, mean `x16`,
    variance `x17`. -/
def out3_19 (x2 x3 : Vec F S2000x128 .f32) (x11 : Vec F S128x128 .f32) (x12 : Vec F S128 .f32) (x13 : Vec F S128x128 .f32)
    (x14 x15 x16 x17 : Vec F S128 .f32) : Vec F S2000x128 .f32 :=
  View.canon [⟨r3_a, k3_pay1 (k3_pay5 (View.ld x3 r3_a)) (k3_pay6 (View.ld x14 r3_v)) (k3_pay7 (View.ld x15 r3_v))
    (k3_pay8 (View.ld x2 r3_a) (View.ld x3 r3_a) (View.ld x11 r3_w) (View.ld x13 r3_w) (View.ld x12 r3_v) (View.ld x16 r3_v))
    (k3_pay9 (View.ld x17 r3_v))⟩]

/-- A single whole-block store tiles the block, so it covers it (by evaluation); both outputs have this shape. -/
theorem cover3_18 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

theorem cover3_19 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

set_option maxHeartbeats 1000000 in
/-- The body on whole staging buffers — the eighteen inputs' at contents `x0 … x17`, the two outputs' at anything —
    ends with every input as it was, output 18 at `out3_18` and output 19 at `out3_19` of the inputs they read.
    Each output buffer is read once (the value unused) before it is overwritten, which is why it must be owned
    at some contents beforehand. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S128x128 .f32) (harg7 : arg7.IsWhole) (arg8 : Memref sig .tc .vmem S128 .f32) (harg8 : arg8.IsWhole)
    (arg9 : Memref sig .tc .vmem S128 .f32) (harg9 : arg9.IsWhole) (arg10 : Memref sig .tc .vmem S128 .f32) (harg10 : arg10.IsWhole)
    (arg11 : Memref sig .tc .vmem S128 .f32) (harg11 : arg11.IsWhole) (arg12 : Memref sig .tc .vmem S128x128 .f32) (harg12 : arg12.IsWhole)
    (arg13 : Memref sig .tc .vmem S128 .f32) (harg13 : arg13.IsWhole) (arg14 : Memref sig .tc .vmem S128x128 .f32) (harg14 : arg14.IsWhole)
    (arg15 : Memref sig .tc .vmem S128 .f32) (harg15 : arg15.IsWhole) (arg16 : Memref sig .tc .vmem S128 .f32) (harg16 : arg16.IsWhole)
    (arg17 : Memref sig .tc .vmem S128 .f32) (harg17 : arg17.IsWhole) (arg18 : Memref sig .tc .vmem S128 .f32) (harg18 : arg18.IsWhole)
    (arg19 : Memref sig .tc .vmem S2000x128 .f32) (harg19 : arg19.IsWhole) (arg20 : Memref sig .tc .vmem S2000x128 .f32) (harg20 : arg20.IsWhole)
    (x0 x1 x2 x3 : Vec F S2000x128 .f32) (x4 : Vec F S128x128 .f32) (x5 : Vec F S128 .f32) (x6 : Vec F S128x128 .f32)
    (x7 x8 x9 x10 : Vec F S128 .f32) (x11 : Vec F S128x128 .f32) (x12 : Vec F S128 .f32) (x13 : Vec F S128x128 .f32)
    (x14 x15 x16 x17 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ owns (c : Thread nD τ) arg14 fullShare x13
        ∗ owns (c : Thread nD τ) arg15 fullShare x14 ∗ owns (c : Thread nD τ) arg16 fullShare x15
        ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare x14 ∗ owns (c : Thread nD τ) arg16 fullShare x15
            ∗ owns (c : Thread nD τ) arg17 fullShare x16 ∗ owns (c : Thread nD τ) arg18 fullShare x17
            ∗ owns (c : Thread nD τ) arg19 fullShare (out3_18 x0 x1 x4 x5 x6 x7 x8 x9 x10)
            ∗ owns (c : Thread nD τ) arg20 fullShare (out3_19 x2 x3 x11 x12 x13 x14 x15 x16 x17)) -∗ K ⟨⟩))
      ⊢ wp frame (wpE (defs₀ (F := F)) Variants.none c none) E
          (cc3__sage_kernel i arg1 harg1 arg2 harg2 arg3 harg3 arg4 harg4 arg5 harg5 arg6 harg6 arg7 harg7 arg8 harg8
            arg9 harg9 arg10 harg10 arg11 harg11 arg12 harg12 arg13 harg13 arg14 harg14 arg15 harg15 arg16 harg16
            arg17 harg17 arg18 harg18 arg19 harg19 arg20 harg20) K := by
  simp only [cc3__sage_kernel_eq_skeleton]; unfold cc3__sage_kernel_skel
  simp only [k3_part1_eq_skeleton, k3_part2_eq_skeleton]; unfold k3_part1_skel k3_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%f17, %hf17, H17⟩, ⟨%d18, %f18, -, H18⟩, ⟨%d19, %f19, -, H19⟩, Hk⟩
  subst hf0; subst hf1; subst hf2; subst hf3; subst hf4; subst hf5; subst hf6; subst hf7; subst hf8; subst hf9
  subst hf10; subst hf11; subst hf12; subst hf13; subst hf14; subst hf15; subst hf16; subst hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover3_18 _)
  iexists _; isplitr
  swap; · iexact H19
  ipureintro
  exact View.read_writes_eq_canon _ _ _ (cover3_19 _)

/-- The pipeline's proof data on core `c`: the arrays as the region finds them; after the body each input's buffer
    still at its block, output 18's at `out3_18` and output 19's at `out3_19` of the input blocks they read;
    nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => out3_18 (iblk3 V c 0 t) (iblk3 V c 1 t) (iblk3 V c 4 t) (iblk3 V c 5 t) (iblk3 V c 6 t) (iblk3 V c 7 t)
        (iblk3 V c 8 t) (iblk3 V c 9 t) (iblk3 V c 10 t)
    | ⟨19, _⟩ => out3_19 (iblk3 V c 2 t) (iblk3 V c 3 t) (iblk3 V c 11 t) (iblk3 V c 12 t) (iblk3 V c 13 t) (iblk3 V c 14 t)
        (iblk3 V c 15 t) (iblk3 V c 16 t) (iblk3 V c 17 t)
    | ⟨_ + 20, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) :
    (dat3 V c).after 18 t = out3_18 (iblk3 V c 0 t) (iblk3 V c 1 t) (iblk3 V c 4 t) (iblk3 V c 5 t) (iblk3 V c 6 t)
      (iblk3 V c 7 t) (iblk3 V c 8 t) (iblk3 V c 9 t) (iblk3 V c 10 t) := by dsimp only [dat3]
theorem after3_19 (c : Dev nD) (t : Fin cfg3.N) :
    (dat3 V c).after 19 t = out3_19 (iblk3 V c 2 t) (iblk3 V c 3 t) (iblk3 V c 11 t) (iblk3 V c 12 t) (iblk3 V c 13 t)
      (iblk3 V c 14 t) (iblk3 V c 15 t) (iblk3 V c 16 t) (iblk3 V c 17 t) := by dsimp only [dat3]

/-! Each input's staging buffer holds its block wherever the body is handed it. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t))

/-- The body at any point: the inputs' buffers hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8,
    before3_9, before3_10, before3_11, before3_12, before3_13, before3_14, before3_15, before3_16, before3_17]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10,
    after3_11, after3_12, after3_13, after3_14, after3_15, after3_16, after3_17, after3_18, after3_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩,
    ⟨%d17, H17⟩, ⟨%d18, H18⟩, ⟨%d19, H19⟩⟩
  iapply (sound_kernel3 c Set.univ _ _ _ _ _ _ _ _ _ _ _ _ _ _ _ _ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t)
    (iblk3 V c 7 t) (iblk3 V c 8 t) (iblk3 V c 9 t) (iblk3 V c 10 t) (iblk3 V c 11 t) (iblk3 V c 12 t) (iblk3 V c 13 t)
    (iblk3 V c 14 t) (iblk3 V c 15 t) (iblk3 V c 16 t) (iblk3 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.Kernel.R4.lean ====
/-
  The frame half of REGION 4 of @main (custom_call 4, the edge-MLP kernel: pipeline 4, twelve windows, a grid of
  100 points), stated at a PARAMETER `V` — the TensorCore's buffer contents when the region is entered — and at any
  float model `F`.

  * `iblk4`: window `w`'s block at point `t`, read off its array as the region finds it.
  * `before4_W_of`: an input window's current staging buffer holds its block at every point, fetched there or not
    (windows 1 … 10 have a constant block index and are fetched at the first point only; window 0's index is the
    point's coordinate and it is fetched at every point; none is cut and none is ever idle).
  * `out4_11`: what the body leaves in the output window's buffer, as a closed function of the eleven input blocks:
    its one store, whose rectangle is the whole block, carrying the payload of the two-layer perceptron with batch
    normalisation followed by the sigmoid head.
  * `sound_kernel4`: the body's triple on whole staging memrefs. The body loads the output memref (a dead load, at
    whatever it holds) before storing into it, so the output's memref is taken at arbitrary contents.
  * `dat4`, `A_eq4`, `after4_W`, `before4_W`: the pipeline's proof data and its projections.
  * `body_obligation4`: the pipeline rule's body obligation at every point.
-/
import proofs.«100324_j78829829750888_1_alg».proof.Proof.Gen.Kernel.Launch
import proofs.«100324_j78829829750888_1_alg».proof.Proof.Gen.Kernel.Skeleton
import proofs.«100324_j78829829750888_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
-- the TensorCore's buffer contents when the region is entered
variable (V : (c : Dev nD) → (b : Ref sig .tc) → Buf (Elt F) ((c : Thread nD τ).loc b))

local notation "𝕄" => MT nD τ sig Unit (Elt F) ℕ (UR sig nD τ) ℕ

/-! # REGION 4 of @main: custom_call 4 (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): its block index is the point's coordinate and it is fetched at every point;
    the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): its block index is constant, so it is fetched at the first point only and the index never moves afterwards;
    the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): its block index is constant, so it is fetched at the first point only and the index never moves afterwards;
    the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): its block index is constant, so it is fetched at the first point only and the index never moves afterwards;
    the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for ANY proof
    data whose array is `V`'s (`hA`) and whose body leaves the block in place (`hafter`): its block index is constant, so it is fetched at the first point only and the index never moves afterwards;
    the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for ANY proof
    data whose array is `V`'s (`hA`) and whose body leaves the block in place (`hafter`): its block index is constant, so it is fetched at the first point only and the index never moves afterwards;
    the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for ANY proof
    data whose array is `V`'s (`hA`) and whose body leaves the block in place (`hafter`): its block index is constant, so it is fetched at the first point only and the index never moves afterwards;
    the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for ANY proof
    data whose array is `V`'s (`hA`) and whose body leaves the block in place (`hafter`): its block index is constant, so it is fetched at the first point only and the index never moves afterwards;
    the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for ANY proof
    data whose array is `V`'s (`hA`) and whose body leaves the block in place (`hafter`): its block index is constant, so it is fetched at the first point only and the index never moves afterwards;
    the window is uncut and never idle. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's current staging buffer holds its block at every point, fetched there or not, for ANY proof
    data whose array is `V`'s (`hA`) and whose body leaves the block in place (`hafter`): its block index is constant, so it is fetched at the first point only and the index never moves afterwards;
    the window is uncut and never idle. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-- Input window 10's current staging buffer holds its block at every point, fetched there or not, for ANY proof
    data whose array is `V`'s (`hA`) and whose body leaves the block in place (`hafter`): its block index is constant, so it is fetched at the first point only and the index never moves afterwards;
    the window is uncut and never idle. -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole block -/

abbrev r4_0 : Rect S5000x272 := Rect.unit (s := S5000x272) ![0, 0] S5000x272.size inb_S5000x272_S5000x272_0_0
abbrev r4_1 : Rect S272x128 := Rect.unit (s := S272x128) ![0, 0] S272x128.size inb_S272x128_S272x128_0_0
abbrev r4_2 : Rect S128 := Rect.unit (s := S128) ![0] S128.size inb_S128_S128_0
abbrev r4_3 : Rect S128x64 := Rect.unit (s := S128x64) ![0, 0] S128x64.size inb_S128x64_S128x64_0_0
abbrev r4_4 : Rect S64 := Rect.unit (s := S64) ![0] S64.size inb_S64_S64_0
abbrev r4_5 : Rect S64x1 := Rect.unit (s := S64x1) ![0, 0] S64x1.size inb_S64x1_S64x1_0_0
abbrev r4_6 : Rect S1 := Rect.unit (s := S1) ![0] S1.size inb_S1_S1_0
abbrev r4_7 : Rect S5000x1 := Rect.unit (s := S5000x1) ![0, 0] S5000x1.size inb_S5000x1_S5000x1_0_0

/-! ## What the body leaves in the output window's buffer -/

/-- Window 11's staging buffer after the body, from the input windows' blocks: its one store, over the whole block,
    of the sigmoid head `k4_pay1` applied to the hidden activations `k4_pay2` (two dense layers, the first followed
    by batch normalisation) and to the last layer's weight and bias. -/
def out4_11 (x0 : Vec F S5000x272 .f32) (x1 : Vec F S272x128 .f32) (x2 : Vec F S128 .f32) (x3 : Vec F S128 .f32) (x4 : Vec F S128 .f32) (x5 : Vec F S128 .f32) (x6 : Vec F S128 .f32) (x7 : Vec F S128x64 .f32) (x8 : Vec F S64 .f32) (x9 : Vec F S64x1 .f32) (x10 : Vec F S1 .f32) : Vec F S5000x1 .f32 :=
  View.canon [⟨r4_7, k4_pay1 (k4_pay2 (View.ld x0 r4_0) (View.ld x1 r4_1) (View.ld x2 r4_2) (View.ld x3 r4_2) (View.ld x4 r4_2) (View.ld x5 r4_2) (View.ld x6 r4_2) (View.ld x7 r4_3) (View.ld x8 r4_4)) (View.ld x9 r4_5) (View.ld x10 r4_6)⟩]

/-- The store's rectangle is the whole block, so it covers it. -/
theorem cover4_11 (p0 : Vec F S5000x1 .f32) (y : S5000x1.Idx) :
    ∃ pc ∈ ([⟨r4_7, p0⟩] : List (View.Piece (Elt F) S5000x1 .f32)), y ∈ pc.1.set :=
  View.cover_of_tiled [⟨r4_7, p0⟩] S5000x1.size (by rfl) y

/-! ## The body's triple -/

set_option maxHeartbeats 1000000 in
/-- The kernel body on whole staging memrefs, the inputs' at read contents `xW` and the output's at anything, runs to
    the continuation holding the inputs' as they were and the output's at `out4_11` of the inputs'. The printed
    functions are their skeletons; each load reads its memref's contents through the whole-block rectangle, the load of
    the output memref is dead, and the one store overwrites the whole output block. -/
theorem sound_kernel4 (c : Dev nD) (E : Set ℕ) (i : grid4.Coords) (arg1 : Memref sig .tc .vmem S5000x272 .f32) (harg1 : arg1.IsWhole) (arg2 : Memref sig .tc .vmem S272x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S5000x1 .f32) (harg12 : arg12.IsWhole)
    (x0 : Vec F S5000x272 .f32) (x1 : Vec F S272x128 .f32) (x2 : Vec F S128 .f32) (x3 : Vec F S128 .f32) (x4 : Vec F S128 .f32) (x5 : Vec F S128 .f32) (x6 : Vec F S128 .f32) (x7 : Vec F S128x64 .f32) (x8 : Vec F S64 .f32) (x9 : Vec F S64x1 .f32) (x10 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out4_11 x0 x1 x2 x3 x4 x5 x6 x7 x8 x9 x10)) -∗ K ⟨⟩))
      ⊢ wp frame (wpE (defs₀ (F := F)) Variants.none c none) E (cc4__edge_mlp_kernel i arg1 harg1 arg2 harg2 arg3 harg3 arg4 harg4 arg5 harg5 arg6 harg6 arg7 harg7 arg8 harg8 arg9 harg9 arg10 harg10 arg11 harg11 arg12 harg12) K := by
  simp only [cc4__edge_mlp_kernel_eq_skeleton]; unfold cc4__edge_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover4_11 _)

/-! ## The pipeline's proof data -/

/-- The proof data of pipeline 4 on core `c`: the arrays as the region finds them (`V`); after the body at point `t`
    each input's buffer at its block and the output's at `out4_11` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

/-- Each input's current staging buffer holds its block at every point, fetched there or not (`before4_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline rule's body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.Kernel.Fold.lean ====
import proofs.«100324_j78829829750888_1_alg».proof.Proof.Kernel.R0
import proofs.«100324_j78829829750888_1_alg».proof.Proof.Kernel.R1
import proofs.«100324_j78829829750888_1_alg».proof.Proof.Kernel.R2
import proofs.«100324_j78829829750888_1_alg».proof.Proof.Kernel.R3
import proofs.«100324_j78829829750888_1_alg».proof.Proof.Kernel.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The contents of a core's buffers at each boundary between two consecutive segments of the entry function: the
    launch memory, then through each stretch of host operations by the operations' composed effect, and through
    each kernel region by replacing the region's arrays with what its pipeline leaves in them. -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as at its entry. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as at its entry. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch `main_part0_ops0`. -/
abbrev W3 : Dev nD → Valuation τ sig (Elt F) := fun c => StableHlo.after main_part0_ops0 (W2 m ρ c)
abbrev V3 : (c : Dev nD) → (b : Ref sig .tc) → Buf (Elt F) ((c : Thread nD τ).loc b) := fun c b => W3 m ρ c b

/-- After the host stretch `main_part1_ops0`. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b

/-- At region 2's exit: its arrays at what the pipeline leaves, every other buffer as at its entry. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host stretch `main_part1_ops1`. -/
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b

/-- After the host stretch `main_part2_ops0`. -/
abbrev W7 : Dev nD → Valuation τ sig (Elt F) := fun c => StableHlo.after main_part2_ops0 (W6 m ρ c)
abbrev V7 : (c : Dev nD) → (b : Ref sig .tc) → Buf (Elt F) ((c : Thread nD τ).loc b) := fun c b => W7 m ρ c b

/-- At region 3's exit: its arrays at what the pipeline leaves, every other buffer as at its entry. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `main_part2_ops1`. -/
abbrev W9 : Dev nD → Valuation τ sig (Elt F) := fun c => StableHlo.after main_part2_ops1 (W8 m ρ c)
abbrev V9 : (c : Dev nD) → (b : Ref sig .tc) → Buf (Elt F) ((c : Thread nD τ).loc b) := fun c b => W9 m ρ c b

/-- At region 4's exit: its arrays at what the pipeline leaves, every other buffer as at its entry. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `main_part2_ops2`. -/
abbrev W11 : Dev nD → Valuation τ sig (Elt F) := fun c => StableHlo.after main_part2_ops2 (W10 m ρ c)
abbrev V11 : (c : Dev nD) → (b : Ref sig .tc) → Buf (Elt F) ((c : Thread nD τ).loc b) := fun c b => W11 m ρ c b

end Cert.Kernel.Hand

end
-- ==== Proof.Kernel.Run.lean ====
import proofs.«100324_j78829829750888_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the entry function over its eleven segments

## The arguments end as launched

A stretch of host operations rewrites only its operations' result buffers, and none of those is an argument; a kernel
region rewrites only its output windows' arrays (an input window's array is read, never written back), and none of
those is an argument either. So the fold at an argument's buffer walks back through the eleven segments to the launch
memory. -/

/-- The entry function's arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25]

/-- An operation whose one result buffer is no argument writes no argument. -/
theorem args_not_written {y : Ref sig .tc} (h : y ∉ argRefs) :
    ∀ r ∈ argRefs, (Proc.devRef .tc r : DevRef τ sig) ∉ ({Proc.devRef .tc y} : Finset (DevRef τ sig)) :=
  fun r hr hm => h ((Proc.devRef_injective _ (Finset.mem_singleton.mp hm)) ▸ hr)

/-- A line of operations none of which writes an argument leaves every argument's buffer as it was. -/
theorem after_keeps_args (ops : List (HloOp τ sig (Elt F))) (V : Valuation τ sig (Elt F))
    (h : ops.Forall fun op => ∀ r ∈ argRefs, (Proc.devRef .tc r : DevRef τ sig) ∉ op.writes)
    {r : Ref sig .tc} (hr : r ∈ argRefs) : StableHlo.after ops V (Proc.devRef .tc r) = V (Proc.devRef .tc r) :=
  StableHlo.after_of_forall_not_mem ops V fun op hop => (List.forall_iff_forall_mem.mp h) op hop r hr

theorem main_part0_ops0_args : (main_part0_ops0 : List (HloOp τ sig (Elt F))).Forall fun op => ∀ r ∈ argRefs, (Proc.devRef .tc r : DevRef τ sig) ∉ op.writes := by
  simp only [List.Forall, StableHlo.nullary_writes, StableHlo.unary_writes, StableHlo.binary_writes, StableHlo.ternary_writes, StableHlo.reshape_writes]
  repeat' apply And.intro
  all_goals exact args_not_written (by decide)
theorem main_part1_ops0_args : (main_part1_ops0 : List (HloOp τ sig (Elt F))).Forall fun op => ∀ r ∈ argRefs, (Proc.devRef .tc r : DevRef τ sig) ∉ op.writes := by
  simp only [List.Forall, StableHlo.unary_writes, StableHlo.reshape_writes]
  repeat' apply And.intro
  all_goals exact args_not_written (by decide)
theorem main_part1_ops1_args : (main_part1_ops1 : List (HloOp τ sig (Elt F))).Forall fun op => ∀ r ∈ argRefs, (Proc.devRef .tc r : DevRef τ sig) ∉ op.writes := by
  simp only [List.Forall, StableHlo.nullary_writes, StableHlo.unary_writes, StableHlo.binary_writes, StableHlo.ternary_writes, StableHlo.reshape_writes]
  repeat' apply And.intro
  all_goals exact args_not_written (by decide)
theorem main_part2_ops0_args : (main_part2_ops0 : List (HloOp τ sig (Elt F))).Forall fun op => ∀ r ∈ argRefs, (Proc.devRef .tc r : DevRef τ sig) ∉ op.writes := by
  simp only [List.Forall, StableHlo.unary_writes, StableHlo.reshape_writes]
  repeat' apply And.intro
  all_goals exact args_not_written (by decide)
theorem main_part2_ops1_args : (main_part2_ops1 : List (HloOp τ sig (Elt F))).Forall fun op => ∀ r ∈ argRefs, (Proc.devRef .tc r : DevRef τ sig) ∉ op.writes := by
  simp only [List.Forall, StableHlo.nullary_writes, StableHlo.unary_writes, StableHlo.binary_writes, StableHlo.ternary_writes, StableHlo.nary_writes]
  repeat' apply And.intro
  all_goals exact args_not_written (by decide)
theorem main_part2_ops2_args : (main_part2_ops2 : List (HloOp τ sig (Elt F))).Forall fun op => ∀ r ∈ argRefs, (Proc.devRef .tc r : DevRef τ sig) ∉ op.writes := by
  simp only [List.Forall, StableHlo.reshape_writes]
  exact args_not_written (by decide)

/-- A buffer that is no output window's array of region 0 holds at the region's exit what it held at its entry: if it
    is no array of the region at all it bypasses the region, and an input window's array is never written back. -/
theorem W1_keep (c : Dev nD) (r : Ref sig .tc) (h : ∀ w, (cfg0.win w).isOut = true → Pipeline.arrRef spec0 w ≠ r) :
    W1 m ρ c (Proc.devRef .tc r) = W0 m ρ c (Proc.devRef .tc r) := by
  by_cases hr : ∀ w, Pipeline.arrRef spec0 w ≠ r
  · exact W1_of_ne m ρ c r hr
  · obtain ⟨w, hw⟩ := not_forall.mp hr
    obtain rfl := not_not.mp hw
    have hin : (cfg0.win w).isOut = false := by
      cases hout : (cfg0.win w).isOut with
      | false => rfl
      | true => exact absurd rfl (h w hout)
    exact (W1_arr m ρ c w).trans (((dat0 (V0 m ρ) c).arrAt_in w hin _).trans (A_eq0 (V0 m ρ) c w))
/-- The same for region 1, -/
theorem W2_keep (c : Dev nD) (r : Ref sig .tc) (h : ∀ w, (cfg1.win w).isOut = true → Pipeline.arrRef spec1 w ≠ r) :
    W2 m ρ c (Proc.devRef .tc r) = W1 m ρ c (Proc.devRef .tc r) := by
  by_cases hr : ∀ w, Pipeline.arrRef spec1 w ≠ r
  · exact W2_of_ne m ρ c r hr
  · obtain ⟨w, hw⟩ := not_forall.mp hr
    obtain rfl := not_not.mp hw
    have hin : (cfg1.win w).isOut = false := by
      cases hout : (cfg1.win w).isOut with
      | false => rfl
      | true => exact absurd rfl (h w hout)
    exact (W2_arr m ρ c w).trans (((dat1 (V1 m ρ) c).arrAt_in w hin _).trans (A_eq1 (V1 m ρ) c w))
/-- for region 2, -/
theorem W5_keep (c : Dev nD) (r : Ref sig .tc) (h : ∀ w, (cfg2.win w).isOut = true → Pipeline.arrRef spec2 w ≠ r) :
    W5 m ρ c (Proc.devRef .tc r) = W4 m ρ c (Proc.devRef .tc r) := by
  by_cases hr : ∀ w, Pipeline.arrRef spec2 w ≠ r
  · exact W5_of_ne m ρ c r hr
  · obtain ⟨w, hw⟩ := not_forall.mp hr
    obtain rfl := not_not.mp hw
    have hin : (cfg2.win w).isOut = false := by
      cases hout : (cfg2.win w).isOut with
      | false => rfl
      | true => exact absurd rfl (h w hout)
    exact (W5_arr m ρ c w).trans (((dat2 (V4 m ρ) c).arrAt_in w hin _).trans (A_eq2 (V4 m ρ) c w))
/-- for region 3, -/
theorem W8_keep (c : Dev nD) (r : Ref sig .tc) (h : ∀ w, (cfg3.win w).isOut = true → Pipeline.arrRef spec3 w ≠ r) :
    W8 m ρ c (Proc.devRef .tc r) = W7 m ρ c (Proc.devRef .tc r) := by
  by_cases hr : ∀ w, Pipeline.arrRef spec3 w ≠ r
  · exact W8_of_ne m ρ c r hr
  · obtain ⟨w, hw⟩ := not_forall.mp hr
    obtain rfl := not_not.mp hw
    have hin : (cfg3.win w).isOut = false := by
      cases hout : (cfg3.win w).isOut with
      | false => rfl
      | true => exact absurd rfl (h w hout)
    exact (W8_arr m ρ c w).trans (((dat3 (V7 m ρ) c).arrAt_in w hin _).trans (A_eq3 (V7 m ρ) c w))
/-- and for region 4. -/
theorem W10_keep (c : Dev nD) (r : Ref sig .tc) (h : ∀ w, (cfg4.win w).isOut = true → Pipeline.arrRef spec4 w ≠ r) :
    W10 m ρ c (Proc.devRef .tc r) = W9 m ρ c (Proc.devRef .tc r) := by
  by_cases hr : ∀ w, Pipeline.arrRef spec4 w ≠ r
  · exact W10_of_ne m ρ c r hr
  · obtain ⟨w, hw⟩ := not_forall.mp hr
    obtain rfl := not_not.mp hw
    have hin : (cfg4.win w).isOut = false := by
      cases hout : (cfg4.win w).isOut with
      | false => rfl
      | true => exact absurd rfl (h w hout)
    exact (W10_arr m ρ c w).trans (((dat4 (V9 m ρ) c).arrAt_in w hin _).trans (A_eq4 (V9 m ρ) c w))

/-- No output window's array of any region is an argument. -/
theorem outs0_args : ∀ r ∈ argRefs, ∀ w, (cfg0.win w).isOut = true → Pipeline.arrRef spec0 w ≠ r := by decide
theorem outs1_args : ∀ r ∈ argRefs, ∀ w, (cfg1.win w).isOut = true → Pipeline.arrRef spec1 w ≠ r := by decide
theorem outs2_args : ∀ r ∈ argRefs, ∀ w, (cfg2.win w).isOut = true → Pipeline.arrRef spec2 w ≠ r := by decide
theorem outs3_args : ∀ r ∈ argRefs, ∀ w, (cfg3.win w).isOut = true → Pipeline.arrRef spec3 w ≠ r := by decide
theorem outs4_args : ∀ r ∈ argRefs, ∀ w, (cfg4.win w).isOut = true → Pipeline.arrRef spec4 w ≠ r := by decide

/-- An argument's buffer ends as launched. -/
theorem W11_of_arg (c : Dev nD) (r : Ref sig .tc) (hr : r ∈ argRefs) :
    W11 m ρ c (Proc.devRef .tc r) = m ((c : Thread nD τ).loc r) :=
  calc W11 m ρ c (Proc.devRef .tc r)
    _ = W10 m ρ c (Proc.devRef .tc r) := after_keeps_args _ _ main_part2_ops2_args hr
    _ = W9 m ρ c (Proc.devRef .tc r) := W10_keep m ρ c r (outs4_args r hr)
    _ = W8 m ρ c (Proc.devRef .tc r) := after_keeps_args _ _ main_part2_ops1_args hr
    _ = W7 m ρ c (Proc.devRef .tc r) := W8_keep m ρ c r (outs3_args r hr)
    _ = W6 m ρ c (Proc.devRef .tc r) := after_keeps_args _ _ main_part2_ops0_args hr
    _ = W5 m ρ c (Proc.devRef .tc r) := after_keeps_args _ _ main_part1_ops1_args hr
    _ = W4 m ρ c (Proc.devRef .tc r) := W5_keep m ρ c r (outs2_args r hr)
    _ = W3 m ρ c (Proc.devRef .tc r) := after_keeps_args _ _ main_part1_ops0_args hr
    _ = W2 m ρ c (Proc.devRef .tc r) := after_keeps_args _ _ main_part0_ops0_args hr
    _ = W1 m ρ c (Proc.devRef .tc r) := W2_keep m ρ c r (outs1_args r hr)
    _ = W0 m ρ c (Proc.devRef .tc r) := W1_keep m ρ c r (outs0_args r hr)
    _ = m ((c : Thread nD τ).loc r) := rfl

theorem W11_main_arg0 (c : Dev nD) : W11 m ρ c (Proc.devRef .tc main_arg0) = m ((c : Thread nD τ).loc main_arg0) := W11_of_arg m ρ c _ (by decide)
theorem W11_main_arg1 (c : Dev nD) : W11 m ρ c (Proc.devRef .tc main_arg1) = m ((c : Thread nD τ).loc main_arg1) := W11_of_arg m ρ c _ (by decide)
theorem W11_main_arg2 (c : Dev nD) : W11 m ρ c (Proc.devRef .tc main_arg2) = m ((c : Thread nD τ).loc main_arg2) := W11_of_arg m ρ c _ (by decide)
theorem W11_main_arg3 (c : Dev nD) : W11 m ρ c (Proc.devRef .tc main_arg3) = m ((c : Thread nD τ).loc main_arg3) := W11_of_arg m ρ c _ (by decide)
theorem W11_main_arg4 (c : Dev nD) : W11 m ρ c (Proc.devRef .tc main_arg4) = m ((c : Thread nD τ).loc main_arg4) := W11_of_arg m ρ c _ (by decide)
theorem W11_main_arg5 (c : Dev nD) : W11 m ρ c (Proc.devRef .tc main_arg5) = m ((c : Thread nD τ).loc main_arg5) := W11_of_arg m ρ c _ (by decide)
theorem W11_main_arg6 (c : Dev nD) : W11 m ρ c (Proc.devRef .tc main_arg6) = m ((c : Thread nD τ).loc main_arg6) := W11_of_arg m ρ c _ (by decide)
theorem W11_main_arg7 (c : Dev nD) : W11 m ρ c (Proc.devRef .tc main_arg7) = m ((c : Thread nD τ).loc main_arg7) := W11_of_arg m ρ c _ (by decide)
theorem W11_main_arg8 (c : Dev nD) : W11 m ρ c (Proc.devRef .tc main_arg8) = m ((c : Thread nD τ).loc main_arg8) := W11_of_arg m ρ c _ (by decide)
theorem W11_main_arg9 (c : Dev nD) : W11 m ρ c (Proc.devRef .tc main_arg9) = m ((c : Thread nD τ).loc main_arg9) := W11_of_arg m ρ c _ (by decide)
theorem W11_main_arg10 (c : Dev nD) : W11 m ρ c (Proc.devRef .tc main_arg10) = m ((c : Thread nD τ).loc main_arg10) := W11_of_arg m ρ c _ (by decide)
theorem W11_main_arg11 (c : Dev nD) : W11 m ρ c (Proc.devRef .tc main_arg11) = m ((c : Thread nD τ).loc main_arg11) := W11_of_arg m ρ c _ (by decide)
theorem W11_main_arg12 (c : Dev nD) : W11 m ρ c (Proc.devRef .tc main_arg12) = m ((c : Thread nD τ).loc main_arg12) := W11_of_arg m ρ c _ (by decide)
theorem W11_main_arg13 (c : Dev nD) : W11 m ρ c (Proc.devRef .tc main_arg13) = m ((c : Thread nD τ).loc main_arg13) := W11_of_arg m ρ c _ (by decide)
theorem W11_main_arg14 (c : Dev nD) : W11 m ρ c (Proc.devRef .tc main_arg14) = m ((c : Thread nD τ).loc main_arg14) := W11_of_arg m ρ c _ (by decide)
theorem W11_main_arg15 (c : Dev nD) : W11 m ρ c (Proc.devRef .tc main_arg15) = m ((c : Thread nD τ).loc main_arg15) := W11_of_arg m ρ c _ (by decide)
theorem W11_main_arg16 (c : Dev nD) : W11 m ρ c (Proc.devRef .tc main_arg16) = m ((c : Thread nD τ).loc main_arg16) := W11_of_arg m ρ c _ (by decide)
theorem W11_main_arg17 (c : Dev nD) : W11 m ρ c (Proc.devRef .tc main_arg17) = m ((c : Thread nD τ).loc main_arg17) := W11_of_arg m ρ c _ (by decide)
theorem W11_main_arg18 (c : Dev nD) : W11 m ρ c (Proc.devRef .tc main_arg18) = m ((c : Thread nD τ).loc main_arg18) := W11_of_arg m ρ c _ (by decide)
theorem W11_main_arg19 (c : Dev nD) : W11 m ρ c (Proc.devRef .tc main_arg19) = m ((c : Thread nD τ).loc main_arg19) := W11_of_arg m ρ c _ (by decide)
theorem W11_main_arg20 (c : Dev nD) : W11 m ρ c (Proc.devRef .tc main_arg20) = m ((c : Thread nD τ).loc main_arg20) := W11_of_arg m ρ c _ (by decide)
theorem W11_main_arg21 (c : Dev nD) : W11 m ρ c (Proc.devRef .tc main_arg21) = m ((c : Thread nD τ).loc main_arg21) := W11_of_arg m ρ c _ (by decide)
theorem W11_main_arg22 (c : Dev nD) : W11 m ρ c (Proc.devRef .tc main_arg22) = m ((c : Thread nD τ).loc main_arg22) := W11_of_arg m ρ c _ (by decide)
theorem W11_main_arg23 (c : Dev nD) : W11 m ρ c (Proc.devRef .tc main_arg23) = m ((c : Thread nD τ).loc main_arg23) := W11_of_arg m ρ c _ (by decide)
theorem W11_main_arg24 (c : Dev nD) : W11 m ρ c (Proc.devRef .tc main_arg24) = m ((c : Thread nD τ).loc main_arg24) := W11_of_arg m ρ c _ (by decide)
theorem W11_main_arg25 (c : Dev nD) : W11 m ρ c (Proc.devRef .tc main_arg25) = m ((c : Thread nD τ).loc main_arg25) := W11_of_arg m ρ c _ (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V4 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment: the line of operations over the unscoped references from the contents `W`, `R`
    riding along; it ends at those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `main_part0_ops0` allocates a buffer. -/
theorem main_part0_ops0_fresh : (main_part0_ops0 : List (HloOp τ sig (Elt F))).Forall fun op => op.fresh = ∅ := by
  simp only [List.Forall]; repeat' constructor
/-- No operation of `main_part1_ops0` allocates a buffer. -/
theorem main_part1_ops0_fresh : (main_part1_ops0 : List (HloOp τ sig (Elt F))).Forall fun op => op.fresh = ∅ := by
  simp only [List.Forall]; repeat' constructor
/-- No operation of `main_part1_ops1` allocates a buffer. -/
theorem main_part1_ops1_fresh : (main_part1_ops1 : List (HloOp τ sig (Elt F))).Forall fun op => op.fresh = ∅ := by
  simp only [List.Forall]; repeat' constructor
/-- No operation of `main_part2_ops0` allocates a buffer. -/
theorem main_part2_ops0_fresh : (main_part2_ops0 : List (HloOp τ sig (Elt F))).Forall fun op => op.fresh = ∅ := by
  simp only [List.Forall]; repeat' constructor
/-- No operation of `main_part2_ops1` allocates a buffer. -/
theorem main_part2_ops1_fresh : (main_part2_ops1 : List (HloOp τ sig (Elt F))).Forall fun op => op.fresh = ∅ := by
  simp only [List.Forall]; repeat' constructor
/-- No operation of `main_part2_ops2` allocates a buffer. -/
theorem main_part2_ops2_fresh : (main_part2_ops2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m ρ c) ∗ ∃ r, prngReg c r)

/-! ## The regions as segments

Each region is entered from every unscoped buffer at its entry boundary's contents and left at its exit boundary's:
its arrays split out of the unscoped buffers and put back at the exit contents; the generator register into the class
invariant and out; nothing owed; no semaphore of the kernel's own. -/

set_option backward.isDefEq.respectTransparency.types false in
/-- REGION 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The last segment is a host stretch: what it leaves, re-bracketed, is the last thread state beside the core owing
    nothing. -/
theorem last_post (c : Dev nD) :
    iprop(StableHlo.held (c : Thread nD τ) (Pipeline.ucRefs τ sig) (W11 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-- The entry function's eleven segments in order: a region per kernel call, a host segment per stretch from its
    boundary's contents. -/
abbrev segs : List (Pipeline.Seg (pcfgs (F := F)) adm (pdats m ρ) () defs₀ 𝒱₀ L lv) :=
  [ .region (reg0 m ρ),
    .region (reg1 m ρ),
    .host (hseg main_part0_ops0 main_part0_ops0_sub main_part0_ops0_fresh (W2 m ρ)),
    .host (hseg main_part1_ops0 main_part1_ops0_sub main_part1_ops0_fresh (W3 m ρ)),
    .region (reg2 m ρ),
    .host (hseg main_part1_ops1 main_part1_ops1_sub main_part1_ops1_fresh (W5 m ρ)),
    .host (hseg main_part2_ops0 main_part2_ops0_sub main_part2_ops0_fresh (W6 m ρ)),
    .region (reg3 m ρ),
    .host (hseg main_part2_ops1 main_part2_ops1_sub main_part2_ops1_fresh (W8 m ρ)),
    .region (reg4 m ρ),
    .host (hseg main_part2_ops2 main_part2_ops2_sub main_part2_ops2_fresh (W10 m ρ)) ]
/-- The entry function IS the run of the segments: its chain of items, then the segments' run against that chain by
    the kernel's definitional check. -/
theorem main_run (c : Dev nD) : main (F := F) c = Pipeline.Seg.run (segs m ρ) := (main_chain_windows c).trans (by chain_rfl)

set_option backward.isDefEq.respectTransparency.types false in
/-- THE RUN: from any memory with zero counters every weakly fair execution of the entry function on the TensorCores
    terminates, nothing faulting, and in every final state each unscoped buffer holds the last boundary's contents
    `W11`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every weakly fair execution of the entry function terminates, nothing faulting, and every final state
    has the argument arrays as launched: each argument's buffer is unscoped, so the run gives it at `W11`, which at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c),
     (h c _ (mem_uc main_arg17 (by decide))).trans (W11_main_arg17 m ρ c),
     (h c _ (mem_uc main_arg18 (by decide))).trans (W11_main_arg18 m ρ c),
     (h c _ (mem_uc main_arg19 (by decide))).trans (W11_main_arg19 m ρ c),
     (h c _ (mem_uc main_arg20 (by decide))).trans (W11_main_arg20 m ρ c),
     (h c _ (mem_uc main_arg21 (by decide))).trans (W11_main_arg21 m ρ c),
     (h c _ (mem_uc main_arg22 (by decide))).trans (W11_main_arg22 m ρ c),
     (h c _ (mem_uc main_arg23 (by decide))).trans (W11_main_arg23 m ρ c),
     (h c _ (mem_uc main_arg24 (by decide))).trans (W11_main_arg24 m ρ c),
     (h c _ (mem_uc main_arg25 (by decide))).trans (W11_main_arg25 m ρ c)⟩) (run_all m ρ)

/-- THE RESULT: the same run read at the result buffer too — it ends at the last boundary's contents, the arguments as
    launched. -/
theorem run_res : θ_run defs (onTc (τ := τ) (main (F := F))) ⟨m, fun _ => 0, ρ⟩ (fun r => ∀ c : Dev nD,
      r.2.mem ((c.tc : Thread nD τ).loc main_v145) = W11 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨h c _ (mem_uc main_v145 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c),
     (h c _ (mem_uc main_arg17 (by decide))).trans (W11_main_arg17 m ρ c),
     (h c _ (mem_uc main_arg18 (by decide))).trans (W11_main_arg18 m ρ c),
     (h c _ (mem_uc main_arg19 (by decide))).trans (W11_main_arg19 m ρ c),
     (h c _ (mem_uc main_arg20 (by decide))).trans (W11_main_arg20 m ρ c),
     (h c _ (mem_uc main_arg21 (by decide))).trans (W11_main_arg21 m ρ c),
     (h c _ (mem_uc main_arg22 (by decide))).trans (W11_main_arg22 m ρ c),
     (h c _ (mem_uc main_arg23 (by decide))).trans (W11_main_arg23 m ρ c),
     (h c _ (mem_uc main_arg24 (by decide))).trans (W11_main_arg24 m ρ c),
     (h c _ (mem_uc main_arg25 (by decide))).trans (W11_main_arg25 m ρ c)⟩) (run_all m ρ)

end Cert.Kernel.Hand

end
-- ==== Proof.KernelIdeal.R0.lean ====
/-
  Region 0 of the entry function: one node type's projection `x · W + b`, run as a pipeline of four windows (the row
  block of the feature table, the weights, the bias, the row block of the output) over a grid of twenty points, stated
  at a parameter `V` — the core's buffer contents when the region is entered — and at any float model `F`.

  * `iblk0`: window `w`'s block at point `t`, read off its array as the region finds it.
  * `before0_W_of`: an input window's staging buffer holds its block at every point, fetched there or not.
  * `out0_3`: what the body leaves in the output window's buffer, as a function of the three input blocks: its one
    store, whose rectangle is the whole block, of the product of the row block with the weights plus the bias row.
  * `sound_kernel0`: the body's triple on whole staging buffers.
  * `dat0`, `A_eq0`, `after0_W`, `before0_W`: the pipeline's proof data and its projections.
  * `body_obligation0`: the pipeline rule's body obligation at every point.
-/
import proofs.«100324_j78829829750888_1_alg».proof.Proof.Gen.KernelIdeal.Launch
import proofs.«100324_j78829829750888_1_alg».proof.Proof.Gen.KernelIdeal.Skeleton
import proofs.«100324_j78829829750888_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 0: the row-blocked linear layer `x · W + b` on 5000-row blocks, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point: where it is fetched, by the fetch; where it
    is not, the block index has not moved since the fetch and the body left the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body reads each block whole and writes the output block whole. -/
abbrev r0_x : Rect S5000x32 := Rect.unit (s := S5000x32) ![0, 0] S5000x32.size inb_S5000x32_S5000x32_0_0
abbrev r0_w : Rect S32x128 := Rect.unit (s := S32x128) ![0, 0] S32x128.size inb_S32x128_S32x128_0_0
abbrev r0_b : Rect S128 := Rect.unit (s := S128) ![0] S128.size inb_S128_S128_0
abbrev r0_o : Rect S5000x128 := Rect.unit (s := S5000x128) ![0, 0] S5000x128.size inb_S5000x128_S5000x128_0_0

/-- What the body leaves in the output block: the product of the row block with the weights plus the bias row,
    as one store covering the block. -/
def out0_3 (x0 : Vec F S5000x32 .f32) (x1 : Vec F S32x128 .f32) (x2 : Vec F S128 .f32) : Vec F S5000x128 .f32 :=
  View.canon [⟨r0_o, k0_pay1 (View.ld x0 r0_x) (View.ld x1 r0_w) (View.ld x2 r0_b)⟩]

theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole staging buffers: the inputs' at contents `x0 x1 x2`, the output's at anything, ends with the
    inputs as they were and the output at `out0_3 x0 x1 x2`. -/
theorem sound_kernel0 (c : Dev nD) (E : Set ℕ) (i : grid0.Coords)
    (arg1 : Memref sig .tc .vmem S5000x32 .f32) (harg1 : arg1.IsWhole) (arg2 : Memref sig .tc .vmem S32x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body each input's buffer
    still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KernelIdeal.R1.lean ====
/-
  Region 1 of the entry function: one node type's projection `x · W + b`, run as a pipeline of four windows (the row
  block of the feature table, the weights, the bias, the row block of the output) over a grid of twenty points, stated
  at a parameter `V` — the core's buffer contents when the region is entered — and at any float model `F`.

  * `iblk1`: window `w`'s block at point `t`, read off its array as the region finds it.
  * `before1_W_of`: an input window's staging buffer holds its block at every point, fetched there or not.
  * `out1_3`: what the body leaves in the output window's buffer, as a function of the three input blocks: its one
    store, whose rectangle is the whole block, of the product of the row block with the weights plus the bias row.
  * `sound_kernel1`: the body's triple on whole staging buffers.
  * `dat1`, `A_eq1`, `after1_W`, `before1_W`: the pipeline's proof data and its projections.
  * `body_obligation1`: the pipeline rule's body obligation at every point.
-/
import proofs.«100324_j78829829750888_1_alg».proof.Proof.Gen.KernelIdeal.Launch
import proofs.«100324_j78829829750888_1_alg».proof.Proof.Gen.KernelIdeal.Skeleton
import proofs.«100324_j78829829750888_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 1: the row-blocked linear layer `x · W + b` on 5000-row blocks, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point: where it is fetched, by the fetch; where it
    is not, the block index has not moved since the fetch and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body reads each block whole and writes the output block whole. -/
abbrev r1_x : Rect S5000x32 := Rect.unit (s := S5000x32) ![0, 0] S5000x32.size inb_S5000x32_S5000x32_0_0
abbrev r1_w : Rect S32x128 := Rect.unit (s := S32x128) ![0, 0] S32x128.size inb_S32x128_S32x128_0_0
abbrev r1_b : Rect S128 := Rect.unit (s := S128) ![0] S128.size inb_S128_S128_0
abbrev r1_o : Rect S5000x128 := Rect.unit (s := S5000x128) ![0, 0] S5000x128.size inb_S5000x128_S5000x128_0_0

/-- What the body leaves in the output block: the product of the row block with the weights plus the bias row,
    as one store covering the block. -/
def out1_3 (x0 : Vec F S5000x32 .f32) (x1 : Vec F S32x128 .f32) (x2 : Vec F S128 .f32) : Vec F S5000x128 .f32 :=
  View.canon [⟨r1_o, k1_pay1 (View.ld x0 r1_x) (View.ld x1 r1_w) (View.ld x2 r1_b)⟩]

theorem cover1_3 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

set_option maxHeartbeats 1000000 in
/-- The body on whole staging buffers: the inputs' at contents `x0 x1 x2`, the output's at anything, ends with the
    inputs as they were and the output at `out1_3 x0 x1 x2`. -/
theorem sound_kernel1 (c : Dev nD) (E : Set ℕ) (i : grid1.Coords)
    (arg1 : Memref sig .tc .vmem S5000x32 .f32) (harg1 : arg1.IsWhole) (arg2 : Memref sig .tc .vmem S32x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body each input's buffer
    still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KernelIdeal.R2.lean ====
import proofs.«100324_j78829829750888_1_alg».proof.Proof.Gen.KernelIdeal.Launch
import proofs.«100324_j78829829750888_1_alg».proof.Proof.Gen.KernelIdeal.Skeleton
import proofs.«100324_j78829829750888_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 2: a residual graph-convolution layer on 2000-row blocks, at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point. Windows 0 to 3 move with the grid and are
    fetched at every point. Windows 4 to 17 (the weights, biases and normalisation rows) have a constant block
    index and are fetched at the first point only: at a later point the index has not moved since the fetch and
    the body left the block in place. No window is cut and none is ever idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-! The body reads each input block whole, through the unit rectangle of its shape, and writes each output block
    whole, once. -/
abbrev r2_a : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_v : Rect S128 := Rect.unit (s := S128) ![0] S128.size inb_S128_S128_0

/-- What the body leaves in output window 18's block, as one store covering the block. With `a` the aggregated rows
    `x0`, `h` the node rows `x1`, weights `x4 x6`, bias `x5`, scale `x7`, shift `x8`, mean `x9`, variance `x10`
    (each row vector broadcast down the 2000 rows) it is
    `max (((a · x4 + x5 + h · x6) - x9) * rsqrt (x10 + ε) * x7 + x8) 0 + h`,
    the operands of both matrix products rounded to bf16 and accumulated in f32 from zero, `ε` the f32 constant of bits
    `0x3727C5AC`. -/
def out2_18 (x0 x1 : Vec F S2000x128 .f32) (x4 : Vec F S128x128 .f32) (x5 : Vec F S128 .f32) (x6 : Vec F S128x128 .f32)
    (x7 x8 x9 x10 : Vec F S128 .f32) : Vec F S2000x128 .f32 :=
  View.canon [⟨r2_a, k2_pay4 (k2_pay2 (View.ld x1 r2_a))
    (k2_pay3 (View.ld x0 r2_a) (View.ld x1 r2_a) (View.ld x4 r2_w) (View.ld x6 r2_w) (View.ld x5 r2_v)
      (View.ld x7 r2_v) (View.ld x8 r2_v) (View.ld x9 r2_v) (View.ld x10 r2_v))⟩]

/-- What the body leaves in output window 19's block: the same expression over the second family of operands,
    rows `x2` (aggregated) and `x3` (node), weights `x11 x13`, bias `x12`, scale `x14`, shift `x15`, mean `x16`,
    variance `x17`. -/
def out2_19 (x2 x3 : Vec F S2000x128 .f32) (x11 : Vec F S128x128 .f32) (x12 : Vec F S128 .f32) (x13 : Vec F S128x128 .f32)
    (x14 x15 x16 x17 : Vec F S128 .f32) : Vec F S2000x128 .f32 :=
  View.canon [⟨r2_a, k2_pay1 (k2_pay5 (View.ld x3 r2_a)) (k2_pay6 (View.ld x14 r2_v)) (k2_pay7 (View.ld x15 r2_v))
    (k2_pay8 (View.ld x2 r2_a) (View.ld x3 r2_a) (View.ld x11 r2_w) (View.ld x13 r2_w) (View.ld x12 r2_v) (View.ld x16 r2_v))
    (k2_pay9 (View.ld x17 r2_v))⟩]

/-- A single whole-block store tiles the block, so it covers it (by evaluation); both outputs have this shape. -/
theorem cover2_18 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

theorem cover2_19 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

set_option maxHeartbeats 1000000 in
/-- The body on whole staging buffers — the eighteen inputs' at contents `x0 … x17`, the two outputs' at anything —
    ends with every input as it was, output 18 at `out2_18` and output 19 at `out2_19` of the inputs they read.
    Each output buffer is read once (the value unused) before it is overwritten, which is why it must be owned
    at some contents beforehand. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S128x128 .f32) (harg7 : arg7.IsWhole) (arg8 : Memref sig .tc .vmem S128 .f32) (harg8 : arg8.IsWhole)
    (arg9 : Memref sig .tc .vmem S128 .f32) (harg9 : arg9.IsWhole) (arg10 : Memref sig .tc .vmem S128 .f32) (harg10 : arg10.IsWhole)
    (arg11 : Memref sig .tc .vmem S128 .f32) (harg11 : arg11.IsWhole) (arg12 : Memref sig .tc .vmem S128x128 .f32) (harg12 : arg12.IsWhole)
    (arg13 : Memref sig .tc .vmem S128 .f32) (harg13 : arg13.IsWhole) (arg14 : Memref sig .tc .vmem S128x128 .f32) (harg14 : arg14.IsWhole)
    (arg15 : Memref sig .tc .vmem S128 .f32) (harg15 : arg15.IsWhole) (arg16 : Memref sig .tc .vmem S128 .f32) (harg16 : arg16.IsWhole)
    (arg17 : Memref sig .tc .vmem S128 .f32) (harg17 : arg17.IsWhole) (arg18 : Memref sig .tc .vmem S128 .f32) (harg18 : arg18.IsWhole)
    (arg19 : Memref sig .tc .vmem S2000x128 .f32) (harg19 : arg19.IsWhole) (arg20 : Memref sig .tc .vmem S2000x128 .f32) (harg20 : arg20.IsWhole)
    (x0 x1 x2 x3 : Vec F S2000x128 .f32) (x4 : Vec F S128x128 .f32) (x5 : Vec F S128 .f32) (x6 : Vec F S128x128 .f32)
    (x7 x8 x9 x10 : Vec F S128 .f32) (x11 : Vec F S128x128 .f32) (x12 : Vec F S128 .f32) (x13 : Vec F S128x128 .f32)
    (x14 x15 x16 x17 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ owns (c : Thread nD τ) arg14 fullShare x13
        ∗ owns (c : Thread nD τ) arg15 fullShare x14 ∗ owns (c : Thread nD τ) arg16 fullShare x15
        ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare x14 ∗ owns (c : Thread nD τ) arg16 fullShare x15
            ∗ owns (c : Thread nD τ) arg17 fullShare x16 ∗ owns (c : Thread nD τ) arg18 fullShare x17
            ∗ owns (c : Thread nD τ) arg19 fullShare (out2_18 x0 x1 x4 x5 x6 x7 x8 x9 x10)
            ∗ owns (c : Thread nD τ) arg20 fullShare (out2_19 x2 x3 x11 x12 x13 x14 x15 x16 x17)) -∗ K ⟨⟩))
      ⊢ wp frame (wpE (defs₀ (F := F)) Variants.none c none) E
          (cc2__sage_kernel i arg1 harg1 arg2 harg2 arg3 harg3 arg4 harg4 arg5 harg5 arg6 harg6 arg7 harg7 arg8 harg8
            arg9 harg9 arg10 harg10 arg11 harg11 arg12 harg12 arg13 harg13 arg14 harg14 arg15 harg15 arg16 harg16
            arg17 harg17 arg18 harg18 arg19 harg19 arg20 harg20) K := by
  simp only [cc2__sage_kernel_eq_skeleton]; unfold cc2__sage_kernel_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%f17, %hf17, H17⟩, ⟨%d18, %f18, -, H18⟩, ⟨%d19, %f19, -, H19⟩, Hk⟩
  subst hf0; subst hf1; subst hf2; subst hf3; subst hf4; subst hf5; subst hf6; subst hf7; subst hf8; subst hf9
  subst hf10; subst hf11; subst hf12; subst hf13; subst hf14; subst hf15; subst hf16; subst hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover2_18 _)
  iexists _; isplitr
  swap; · iexact H19
  ipureintro
  exact View.read_writes_eq_canon _ _ _ (cover2_19 _)

/-- The pipeline's proof data on core `c`: the arrays as the region finds them; after the body each input's buffer
    still at its block, output 18's at `out2_18` and output 19's at `out2_19` of the input blocks they read;
    nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => out2_18 (iblk2 V c 0 t) (iblk2 V c 1 t) (iblk2 V c 4 t) (iblk2 V c 5 t) (iblk2 V c 6 t) (iblk2 V c 7 t)
        (iblk2 V c 8 t) (iblk2 V c 9 t) (iblk2 V c 10 t)
    | ⟨19, _⟩ => out2_19 (iblk2 V c 2 t) (iblk2 V c 3 t) (iblk2 V c 11 t) (iblk2 V c 12 t) (iblk2 V c 13 t) (iblk2 V c 14 t)
        (iblk2 V c 15 t) (iblk2 V c 16 t) (iblk2 V c 17 t)
    | ⟨_ + 20, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) :
    (dat2 V c).after 18 t = out2_18 (iblk2 V c 0 t) (iblk2 V c 1 t) (iblk2 V c 4 t) (iblk2 V c 5 t) (iblk2 V c 6 t)
      (iblk2 V c 7 t) (iblk2 V c 8 t) (iblk2 V c 9 t) (iblk2 V c 10 t) := by dsimp only [dat2]
theorem after2_19 (c : Dev nD) (t : Fin cfg2.N) :
    (dat2 V c).after 19 t = out2_19 (iblk2 V c 2 t) (iblk2 V c 3 t) (iblk2 V c 11 t) (iblk2 V c 12 t) (iblk2 V c 13 t)
      (iblk2 V c 14 t) (iblk2 V c 15 t) (iblk2 V c 16 t) (iblk2 V c 17 t) := by dsimp only [dat2]

/-! Each input's staging buffer holds its block wherever the body is handed it. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t))

/-- The body at any point: the inputs' buffers hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8,
    before2_9, before2_10, before2_11, before2_12, before2_13, before2_14, before2_15, before2_16, before2_17]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10,
    after2_11, after2_12, after2_13, after2_14, after2_15, after2_16, after2_17, after2_18, after2_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩,
    ⟨%d17, H17⟩, ⟨%d18, H18⟩, ⟨%d19, H19⟩⟩
  iapply (sound_kernel2 c Set.univ _ _ _ _ _ _ _ _ _ _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) (iblk2 V c 15 t) (iblk2 V c 16 t) (iblk2 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KernelIdeal.R3.lean ====
import proofs.«100324_j78829829750888_1_alg».proof.Proof.Gen.KernelIdeal.Launch
import proofs.«100324_j78829829750888_1_alg».proof.Proof.Gen.KernelIdeal.Skeleton
import proofs.«100324_j78829829750888_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Region 3: a residual graph-convolution layer on 2000-row blocks, at the entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point. Windows 0 to 3 move with the grid and are
    fetched at every point. Windows 4 to 17 (the weights, biases and normalisation rows) have a constant block
    index and are fetched at the first point only: at a later point the index has not moved since the fetch and
    the body left the block in place. No window is cut and none is ever idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-! The body reads each input block whole, through the unit rectangle of its shape, and writes each output block
    whole, once. -/
abbrev r3_a : Rect S2000x128 := Rect.unit (s := S2000x128) ![0, 0] S2000x128.size inb_S2000x128_S2000x128_0_0
abbrev r3_w : Rect S128x128 := Rect.unit (s := S128x128) ![0, 0] S128x128.size inb_S128x128_S128x128_0_0
abbrev r3_v : Rect S128 := Rect.unit (s := S128) ![0] S128.size inb_S128_S128_0

/-- What the body leaves in output window 18's block, as one store covering the block. With `a` the aggregated rows
    `x0`, `h` the node rows `x1`, weights `x4 x6`, bias `x5`, scale `x7`, shift `x8`, mean `x9`, variance `x10`
    (each row vector broadcast down the 2000 rows) it is
    `max (((a · x4 + x5 + h · x6) - x9) * rsqrt (x10 + ε) * x7 + x8) 0 + h`,
    the operands of both matrix products rounded to bf16 and accumulated in f32 from zero, `ε` the f32 constant of bits
    `0x3727C5AC`. -/
def out3_18 (x0 x1 : Vec F S2000x128 .f32) (x4 : Vec F S128x128 .f32) (x5 : Vec F S128 .f32) (x6 : Vec F S128x128 .f32)
    (x7 x8 x9 x10 : Vec F S128 .f32) : Vec F S2000x128 .f32 :=
  View.canon [⟨r3_a, k3_pay4 (k3_pay2 (View.ld x1 r3_a))
    (k3_pay3 (View.ld x0 r3_a) (View.ld x1 r3_a) (View.ld x4 r3_w) (View.ld x6 r3_w) (View.ld x5 r3_v)
      (View.ld x7 r3_v) (View.ld x8 r3_v) (View.ld x9 r3_v) (View.ld x10 r3_v))⟩]

/-- What the body leaves in output window 19's block: the same expression over the second family of operands,
    rows `x2` (aggregated) and `x3` (node), weights `x11 x13`, bias `x12`, scale `x14`, shift `x15`, mean `x16`,
    variance `x17`. -/
def out3_19 (x2 x3 : Vec F S2000x128 .f32) (x11 : Vec F S128x128 .f32) (x12 : Vec F S128 .f32) (x13 : Vec F S128x128 .f32)
    (x14 x15 x16 x17 : Vec F S128 .f32) : Vec F S2000x128 .f32 :=
  View.canon [⟨r3_a, k3_pay1 (k3_pay5 (View.ld x3 r3_a)) (k3_pay6 (View.ld x14 r3_v)) (k3_pay7 (View.ld x15 r3_v))
    (k3_pay8 (View.ld x2 r3_a) (View.ld x3 r3_a) (View.ld x11 r3_w) (View.ld x13 r3_w) (View.ld x12 r3_v) (View.ld x16 r3_v))
    (k3_pay9 (View.ld x17 r3_v))⟩]

/-- A single whole-block store tiles the block, so it covers it (by evaluation); both outputs have this shape. -/
theorem cover3_18 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

theorem cover3_19 (p0 : Vec F S2000x128 .f32) (y : S2000x128.Idx) :
    ∃ pc ∈ ([⟨r3_a, p0⟩] : List (View.Piece (Elt F) S2000x128 .f32)), y ∈ pc.1.set :=
  View.cover_of_tiled [⟨r3_a, p0⟩] S2000x128.size (by rfl) y

set_option maxHeartbeats 1000000 in
/-- The body on whole staging buffers — the eighteen inputs' at contents `x0 … x17`, the two outputs' at anything —
    ends with every input as it was, output 18 at `out3_18` and output 19 at `out3_19` of the inputs they read.
    Each output buffer is read once (the value unused) before it is overwritten, which is why it must be owned
    at some contents beforehand. -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S128x128 .f32) (harg7 : arg7.IsWhole) (arg8 : Memref sig .tc .vmem S128 .f32) (harg8 : arg8.IsWhole)
    (arg9 : Memref sig .tc .vmem S128 .f32) (harg9 : arg9.IsWhole) (arg10 : Memref sig .tc .vmem S128 .f32) (harg10 : arg10.IsWhole)
    (arg11 : Memref sig .tc .vmem S128 .f32) (harg11 : arg11.IsWhole) (arg12 : Memref sig .tc .vmem S128x128 .f32) (harg12 : arg12.IsWhole)
    (arg13 : Memref sig .tc .vmem S128 .f32) (harg13 : arg13.IsWhole) (arg14 : Memref sig .tc .vmem S128x128 .f32) (harg14 : arg14.IsWhole)
    (arg15 : Memref sig .tc .vmem S128 .f32) (harg15 : arg15.IsWhole) (arg16 : Memref sig .tc .vmem S128 .f32) (harg16 : arg16.IsWhole)
    (arg17 : Memref sig .tc .vmem S128 .f32) (harg17 : arg17.IsWhole) (arg18 : Memref sig .tc .vmem S128 .f32) (harg18 : arg18.IsWhole)
    (arg19 : Memref sig .tc .vmem S2000x128 .f32) (harg19 : arg19.IsWhole) (arg20 : Memref sig .tc .vmem S2000x128 .f32) (harg20 : arg20.IsWhole)
    (x0 x1 x2 x3 : Vec F S2000x128 .f32) (x4 : Vec F S128x128 .f32) (x5 : Vec F S128 .f32) (x6 : Vec F S128x128 .f32)
    (x7 x8 x9 x10 : Vec F S128 .f32) (x11 : Vec F S128x128 .f32) (x12 : Vec F S128 .f32) (x13 : Vec F S128x128 .f32)
    (x14 x15 x16 x17 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ owns (c : Thread nD τ) arg14 fullShare x13
        ∗ owns (c : Thread nD τ) arg15 fullShare x14 ∗ owns (c : Thread nD τ) arg16 fullShare x15
        ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare x14 ∗ owns (c : Thread nD τ) arg16 fullShare x15
            ∗ owns (c : Thread nD τ) arg17 fullShare x16 ∗ owns (c : Thread nD τ) arg18 fullShare x17
            ∗ owns (c : Thread nD τ) arg19 fullShare (out3_18 x0 x1 x4 x5 x6 x7 x8 x9 x10)
            ∗ owns (c : Thread nD τ) arg20 fullShare (out3_19 x2 x3 x11 x12 x13 x14 x15 x16 x17)) -∗ K ⟨⟩))
      ⊢ wp frame (wpE (defs₀ (F := F)) Variants.none c none) E
          (cc3__sage_kernel i arg1 harg1 arg2 harg2 arg3 harg3 arg4 harg4 arg5 harg5 arg6 harg6 arg7 harg7 arg8 harg8
            arg9 harg9 arg10 harg10 arg11 harg11 arg12 harg12 arg13 harg13 arg14 harg14 arg15 harg15 arg16 harg16
            arg17 harg17 arg18 harg18 arg19 harg19 arg20 harg20) K := by
  simp only [cc3__sage_kernel_eq_skeleton]; unfold cc3__sage_kernel_skel
  simp only [k3_part1_eq_skeleton, k3_part2_eq_skeleton]; unfold k3_part1_skel k3_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%f17, %hf17, H17⟩, ⟨%d18, %f18, -, H18⟩, ⟨%d19, %f19, -, H19⟩, Hk⟩
  subst hf0; subst hf1; subst hf2; subst hf3; subst hf4; subst hf5; subst hf6; subst hf7; subst hf8; subst hf9
  subst hf10; subst hf11; subst hf12; subst hf13; subst hf14; subst hf15; subst hf16; subst hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover3_18 _)
  iexists _; isplitr
  swap; · iexact H19
  ipureintro
  exact View.read_writes_eq_canon _ _ _ (cover3_19 _)

/-- The pipeline's proof data on core `c`: the arrays as the region finds them; after the body each input's buffer
    still at its block, output 18's at `out3_18` and output 19's at `out3_19` of the input blocks they read;
    nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => out3_18 (iblk3 V c 0 t) (iblk3 V c 1 t) (iblk3 V c 4 t) (iblk3 V c 5 t) (iblk3 V c 6 t) (iblk3 V c 7 t)
        (iblk3 V c 8 t) (iblk3 V c 9 t) (iblk3 V c 10 t)
    | ⟨19, _⟩ => out3_19 (iblk3 V c 2 t) (iblk3 V c 3 t) (iblk3 V c 11 t) (iblk3 V c 12 t) (iblk3 V c 13 t) (iblk3 V c 14 t)
        (iblk3 V c 15 t) (iblk3 V c 16 t) (iblk3 V c 17 t)
    | ⟨_ + 20, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) :
    (dat3 V c).after 18 t = out3_18 (iblk3 V c 0 t) (iblk3 V c 1 t) (iblk3 V c 4 t) (iblk3 V c 5 t) (iblk3 V c 6 t)
      (iblk3 V c 7 t) (iblk3 V c 8 t) (iblk3 V c 9 t) (iblk3 V c 10 t) := by dsimp only [dat3]
theorem after3_19 (c : Dev nD) (t : Fin cfg3.N) :
    (dat3 V c).after 19 t = out3_19 (iblk3 V c 2 t) (iblk3 V c 3 t) (iblk3 V c 11 t) (iblk3 V c 12 t) (iblk3 V c 13 t)
      (iblk3 V c 14 t) (iblk3 V c 15 t) (iblk3 V c 16 t) (iblk3 V c 17 t) := by dsimp only [dat3]

/-! Each input's staging buffer holds its block wherever the body is handed it. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t))

/-- The body at any point: the inputs' buffers hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8,
    before3_9, before3_10, before3_11, before3_12, before3_13, before3_14, before3_15, before3_16, before3_17]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10,
    after3_11, after3_12, after3_13, after3_14, after3_15, after3_16, after3_17, after3_18, after3_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩,
    ⟨%d17, H17⟩, ⟨%d18, H18⟩, ⟨%d19, H19⟩⟩
  iapply (sound_kernel3 c Set.univ _ _ _ _ _ _ _ _ _ _ _ _ _ _ _ _ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t)
    (iblk3 V c 7 t) (iblk3 V c 8 t) (iblk3 V c 9 t) (iblk3 V c 10 t) (iblk3 V c 11 t) (iblk3 V c 12 t) (iblk3 V c 13 t)
    (iblk3 V c 14 t) (iblk3 V c 15 t) (iblk3 V c 16 t) (iblk3 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.KernelIdeal.R4.lean ====
/-
  The frame half of REGION 4 of @main (custom_call 4, the edge-MLP kernel: pipeline 4, twelve windows, a grid of
  100 points), stated at a PARAMETER `V` — the TensorCore's buffer contents when the region is entered — and at any
  float model `F`.

  * `iblk4`: window `w`'s block at point `t`, read off its array as the region finds it.
  * `before4_W_of`: an input window's current staging buffer holds its block at every point, fetched there or not
    (windows 1 … 10 have a constant block index and are fetched at the first point only; window 0's index is the
    point's coordinate and it is fetched at every point; none is cut and none is ever idle).
  * `out4_11`: what the body leaves in the output window's buffer, as a closed function of the eleven input blocks:
    its one store, whose rectangle is the whole block, carrying the payload of the two-layer perceptron with batch
    normalisation followed by the sigmoid head.
  * `sound_kernel4`: the body's triple on whole staging memrefs. The body loads the output memref (a dead load, at
    whatever it holds) before storing into it, so the output's memref is taken at arbitrary contents.
  * `dat4`, `A_eq4`, `after4_W`, `before4_W`: the pipeline's proof data and its projections.
  * `body_obligation4`: the pipeline rule's body obligation at every point.
-/
import proofs.«100324_j78829829750888_1_alg».proof.Proof.Gen.KernelIdeal.Launch
import proofs.«100324_j78829829750888_1_alg».proof.Proof.Gen.KernelIdeal.Skeleton
import proofs.«100324_j78829829750888_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
-- the TensorCore's buffer contents when the region is entered
variable (V : (c : Dev nD) → (b : Ref sig .tc) → Buf (Elt F) ((c : Thread nD τ).loc b))

local notation "𝕄" => MT nD τ sig Unit (Elt F) ℕ (UR sig nD τ) ℕ

/-! # REGION 4 of @main: custom_call 4 (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): its block index is the point's coordinate and it is fetched at every point;
    the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): its block index is constant, so it is fetched at the first point only and the index never moves afterwards;
    the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): its block index is constant, so it is fetched at the first point only and the index never moves afterwards;
    the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): its block index is constant, so it is fetched at the first point only and the index never moves afterwards;
    the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for ANY proof
    data whose array is `V`'s (`hA`) and whose body leaves the block in place (`hafter`): its block index is constant, so it is fetched at the first point only and the index never moves afterwards;
    the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for ANY proof
    data whose array is `V`'s (`hA`) and whose body leaves the block in place (`hafter`): its block index is constant, so it is fetched at the first point only and the index never moves afterwards;
    the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for ANY proof
    data whose array is `V`'s (`hA`) and whose body leaves the block in place (`hafter`): its block index is constant, so it is fetched at the first point only and the index never moves afterwards;
    the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for ANY proof
    data whose array is `V`'s (`hA`) and whose body leaves the block in place (`hafter`): its block index is constant, so it is fetched at the first point only and the index never moves afterwards;
    the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for ANY proof
    data whose array is `V`'s (`hA`) and whose body leaves the block in place (`hafter`): its block index is constant, so it is fetched at the first point only and the index never moves afterwards;
    the window is uncut and never idle. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's current staging buffer holds its block at every point, fetched there or not, for ANY proof
    data whose array is `V`'s (`hA`) and whose body leaves the block in place (`hafter`): its block index is constant, so it is fetched at the first point only and the index never moves afterwards;
    the window is uncut and never idle. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-- Input window 10's current staging buffer holds its block at every point, fetched there or not, for ANY proof
    data whose array is `V`'s (`hA`) and whose body leaves the block in place (`hafter`): its block index is constant, so it is fetched at the first point only and the index never moves afterwards;
    the window is uncut and never idle. -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole block -/

abbrev r4_0 : Rect S5000x272 := Rect.unit (s := S5000x272) ![0, 0] S5000x272.size inb_S5000x272_S5000x272_0_0
abbrev r4_1 : Rect S272x128 := Rect.unit (s := S272x128) ![0, 0] S272x128.size inb_S272x128_S272x128_0_0
abbrev r4_2 : Rect S128 := Rect.unit (s := S128) ![0] S128.size inb_S128_S128_0
abbrev r4_3 : Rect S128x64 := Rect.unit (s := S128x64) ![0, 0] S128x64.size inb_S128x64_S128x64_0_0
abbrev r4_4 : Rect S64 := Rect.unit (s := S64) ![0] S64.size inb_S64_S64_0
abbrev r4_5 : Rect S64x1 := Rect.unit (s := S64x1) ![0, 0] S64x1.size inb_S64x1_S64x1_0_0
abbrev r4_6 : Rect S1 := Rect.unit (s := S1) ![0] S1.size inb_S1_S1_0
abbrev r4_7 : Rect S5000x1 := Rect.unit (s := S5000x1) ![0, 0] S5000x1.size inb_S5000x1_S5000x1_0_0

/-! ## What the body leaves in the output window's buffer -/

/-- Window 11's staging buffer after the body, from the input windows' blocks: its one store, over the whole block,
    of the sigmoid head `k4_pay1` applied to the hidden activations `k4_pay2` (two dense layers, the first followed
    by batch normalisation) and to the last layer's weight and bias. -/
def out4_11 (x0 : Vec F S5000x272 .f32) (x1 : Vec F S272x128 .f32) (x2 : Vec F S128 .f32) (x3 : Vec F S128 .f32) (x4 : Vec F S128 .f32) (x5 : Vec F S128 .f32) (x6 : Vec F S128 .f32) (x7 : Vec F S128x64 .f32) (x8 : Vec F S64 .f32) (x9 : Vec F S64x1 .f32) (x10 : Vec F S1 .f32) : Vec F S5000x1 .f32 :=
  View.canon [⟨r4_7, k4_pay1 (k4_pay2 (View.ld x0 r4_0) (View.ld x1 r4_1) (View.ld x2 r4_2) (View.ld x3 r4_2) (View.ld x4 r4_2) (View.ld x5 r4_2) (View.ld x6 r4_2) (View.ld x7 r4_3) (View.ld x8 r4_4)) (View.ld x9 r4_5) (View.ld x10 r4_6)⟩]

/-- The store's rectangle is the whole block, so it covers it. -/
theorem cover4_11 (p0 : Vec F S5000x1 .f32) (y : S5000x1.Idx) :
    ∃ pc ∈ ([⟨r4_7, p0⟩] : List (View.Piece (Elt F) S5000x1 .f32)), y ∈ pc.1.set :=
  View.cover_of_tiled [⟨r4_7, p0⟩] S5000x1.size (by rfl) y

/-! ## The body's triple -/

set_option maxHeartbeats 1000000 in
/-- The kernel body on whole staging memrefs, the inputs' at read contents `xW` and the output's at anything, runs to
    the continuation holding the inputs' as they were and the output's at `out4_11` of the inputs'. The printed
    functions are their skeletons; each load reads its memref's contents through the whole-block rectangle, the load of
    the output memref is dead, and the one store overwrites the whole output block. -/
theorem sound_kernel4 (c : Dev nD) (E : Set ℕ) (i : grid4.Coords) (arg1 : Memref sig .tc .vmem S5000x272 .f32) (harg1 : arg1.IsWhole) (arg2 : Memref sig .tc .vmem S272x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S5000x1 .f32) (harg12 : arg12.IsWhole)
    (x0 : Vec F S5000x272 .f32) (x1 : Vec F S272x128 .f32) (x2 : Vec F S128 .f32) (x3 : Vec F S128 .f32) (x4 : Vec F S128 .f32) (x5 : Vec F S128 .f32) (x6 : Vec F S128 .f32) (x7 : Vec F S128x64 .f32) (x8 : Vec F S64 .f32) (x9 : Vec F S64x1 .f32) (x10 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out4_11 x0 x1 x2 x3 x4 x5 x6 x7 x8 x9 x10)) -∗ K ⟨⟩))
      ⊢ wp frame (wpE (defs₀ (F := F)) Variants.none c none) E (cc4__edge_mlp_kernel i arg1 harg1 arg2 harg2 arg3 harg3 arg4 harg4 arg5 harg5 arg6 harg6 arg7 harg7 arg8 harg8 arg9 harg9 arg10 harg10 arg11 harg11 arg12 harg12) K := by
  simp only [cc4__edge_mlp_kernel_eq_skeleton]; unfold cc4__edge_mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover4_11 _)

/-! ## The pipeline's proof data -/

/-- The proof data of pipeline 4 on core `c`: the arrays as the region finds them (`V`); after the body at point `t`
    each input's buffer at its block and the output's at `out4_11` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

/-- Each input's current staging buffer holds its block at every point, fetched there or not (`before4_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 c Set.univ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline rule's body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KernelIdeal.Fold.lean ====
import proofs.«100324_j78829829750888_1_alg».proof.Proof.KernelIdeal.R0
import proofs.«100324_j78829829750888_1_alg».proof.Proof.KernelIdeal.R1
import proofs.«100324_j78829829750888_1_alg».proof.Proof.KernelIdeal.R2
import proofs.«100324_j78829829750888_1_alg».proof.Proof.KernelIdeal.R3
import proofs.«100324_j78829829750888_1_alg».proof.Proof.KernelIdeal.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The contents of a core's buffers at each boundary between two consecutive segments of the entry function: the
    launch memory, then through each stretch of host operations by the operations' composed effect, and through
    each kernel region by replacing the region's arrays with what its pipeline leaves in them. -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as at its entry. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as at its entry. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch `main_part0_ops0`. -/
abbrev W3 : Dev nD → Valuation τ sig (Elt F) := fun c => StableHlo.after main_part0_ops0 (W2 m ρ c)
abbrev V3 : (c : Dev nD) → (b : Ref sig .tc) → Buf (Elt F) ((c : Thread nD τ).loc b) := fun c b => W3 m ρ c b

/-- After the host stretch `main_part1_ops0`. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b

/-- At region 2's exit: its arrays at what the pipeline leaves, every other buffer as at its entry. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host stretch `main_part1_ops1`. -/
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b

/-- After the host stretch `main_part2_ops0`. -/
abbrev W7 : Dev nD → Valuation τ sig (Elt F) := fun c => StableHlo.after main_part2_ops0 (W6 m ρ c)
abbrev V7 : (c : Dev nD) → (b : Ref sig .tc) → Buf (Elt F) ((c : Thread nD τ).loc b) := fun c b => W7 m ρ c b

/-- At region 3's exit: its arrays at what the pipeline leaves, every other buffer as at its entry. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `main_part2_ops1`. -/
abbrev W9 : Dev nD → Valuation τ sig (Elt F) := fun c => StableHlo.after main_part2_ops1 (W8 m ρ c)
abbrev V9 : (c : Dev nD) → (b : Ref sig .tc) → Buf (Elt F) ((c : Thread nD τ).loc b) := fun c b => W9 m ρ c b

/-- At region 4's exit: its arrays at what the pipeline leaves, every other buffer as at its entry. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `main_part2_ops2`. -/
abbrev W11 : Dev nD → Valuation τ sig (Elt F) := fun c => StableHlo.after main_part2_ops2 (W10 m ρ c)
abbrev V11 : (c : Dev nD) → (b : Ref sig .tc) → Buf (Elt F) ((c : Thread nD τ).loc b) := fun c b => W11 m ρ c b

end Cert.KernelIdeal.Hand

end
-- ==== Proof.KernelIdeal.Run.lean ====
import proofs.«100324_j78829829750888_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the entry function over its eleven segments

## The arguments end as launched

A stretch of host operations rewrites only its operations' result buffers, and none of those is an argument; a kernel
region rewrites only its output windows' arrays (an input window's array is read, never written back), and none of
those is an argument either. So the fold at an argument's buffer walks back through the eleven segments to the launch
memory. -/

/-- The entry function's arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25]

/-- An operation whose one result buffer is no argument writes no argument. -/
theorem args_not_written {y : Ref sig .tc} (h : y ∉ argRefs) :
    ∀ r ∈ argRefs, (Proc.devRef .tc r : DevRef τ sig) ∉ ({Proc.devRef .tc y} : Finset (DevRef τ sig)) :=
  fun r hr hm => h ((Proc.devRef_injective _ (Finset.mem_singleton.mp hm)) ▸ hr)

/-- A line of operations none of which writes an argument leaves every argument's buffer as it was. -/
theorem after_keeps_args (ops : List (HloOp τ sig (Elt F))) (V : Valuation τ sig (Elt F))
    (h : ops.Forall fun op => ∀ r ∈ argRefs, (Proc.devRef .tc r : DevRef τ sig) ∉ op.writes)
    {r : Ref sig .tc} (hr : r ∈ argRefs) : StableHlo.after ops V (Proc.devRef .tc r) = V (Proc.devRef .tc r) :=
  StableHlo.after_of_forall_not_mem ops V fun op hop => (List.forall_iff_forall_mem.mp h) op hop r hr

theorem main_part0_ops0_args : (main_part0_ops0 : List (HloOp τ sig (Elt F))).Forall fun op => ∀ r ∈ argRefs, (Proc.devRef .tc r : DevRef τ sig) ∉ op.writes := by
  simp only [List.Forall, StableHlo.nullary_writes, StableHlo.unary_writes, StableHlo.binary_writes, StableHlo.ternary_writes, StableHlo.reshape_writes]
  repeat' apply And.intro
  all_goals exact args_not_written (by decide)
theorem main_part1_ops0_args : (main_part1_ops0 : List (HloOp τ sig (Elt F))).Forall fun op => ∀ r ∈ argRefs, (Proc.devRef .tc r : DevRef τ sig) ∉ op.writes := by
  simp only [List.Forall, StableHlo.unary_writes, StableHlo.reshape_writes]
  repeat' apply And.intro
  all_goals exact args_not_written (by decide)
theorem main_part1_ops1_args : (main_part1_ops1 : List (HloOp τ sig (Elt F))).Forall fun op => ∀ r ∈ argRefs, (Proc.devRef .tc r : DevRef τ sig) ∉ op.writes := by
  simp only [List.Forall, StableHlo.nullary_writes, StableHlo.unary_writes, StableHlo.binary_writes, StableHlo.ternary_writes, StableHlo.reshape_writes]
  repeat' apply And.intro
  all_goals exact args_not_written (by decide)
theorem main_part2_ops0_args : (main_part2_ops0 : List (HloOp τ sig (Elt F))).Forall fun op => ∀ r ∈ argRefs, (Proc.devRef .tc r : DevRef τ sig) ∉ op.writes := by
  simp only [List.Forall, StableHlo.unary_writes, StableHlo.reshape_writes]
  repeat' apply And.intro
  all_goals exact args_not_written (by decide)
theorem main_part2_ops1_args : (main_part2_ops1 : List (HloOp τ sig (Elt F))).Forall fun op => ∀ r ∈ argRefs, (Proc.devRef .tc r : DevRef τ sig) ∉ op.writes := by
  simp only [List.Forall, StableHlo.nullary_writes, StableHlo.unary_writes, StableHlo.binary_writes, StableHlo.ternary_writes, StableHlo.nary_writes]
  repeat' apply And.intro
  all_goals exact args_not_written (by decide)
theorem main_part2_ops2_args : (main_part2_ops2 : List (HloOp τ sig (Elt F))).Forall fun op => ∀ r ∈ argRefs, (Proc.devRef .tc r : DevRef τ sig) ∉ op.writes := by
  simp only [List.Forall, StableHlo.reshape_writes]
  exact args_not_written (by decide)

/-- A buffer that is no output window's array of region 0 holds at the region's exit what it held at its entry: if it
    is no array of the region at all it bypasses the region, and an input window's array is never written back. -/
theorem W1_keep (c : Dev nD) (r : Ref sig .tc) (h : ∀ w, (cfg0.win w).isOut = true → Pipeline.arrRef spec0 w ≠ r) :
    W1 m ρ c (Proc.devRef .tc r) = W0 m ρ c (Proc.devRef .tc r) := by
  by_cases hr : ∀ w, Pipeline.arrRef spec0 w ≠ r
  · exact W1_of_ne m ρ c r hr
  · obtain ⟨w, hw⟩ := not_forall.mp hr
    obtain rfl := not_not.mp hw
    have hin : (cfg0.win w).isOut = false := by
      cases hout : (cfg0.win w).isOut with
      | false => rfl
      | true => exact absurd rfl (h w hout)
    exact (W1_arr m ρ c w).trans (((dat0 (V0 m ρ) c).arrAt_in w hin _).trans (A_eq0 (V0 m ρ) c w))
/-- The same for region 1, -/
theorem W2_keep (c : Dev nD) (r : Ref sig .tc) (h : ∀ w, (cfg1.win w).isOut = true → Pipeline.arrRef spec1 w ≠ r) :
    W2 m ρ c (Proc.devRef .tc r) = W1 m ρ c (Proc.devRef .tc r) := by
  by_cases hr : ∀ w, Pipeline.arrRef spec1 w ≠ r
  · exact W2_of_ne m ρ c r hr
  · obtain ⟨w, hw⟩ := not_forall.mp hr
    obtain rfl := not_not.mp hw
    have hin : (cfg1.win w).isOut = false := by
      cases hout : (cfg1.win w).isOut with
      | false => rfl
      | true => exact absurd rfl (h w hout)
    exact (W2_arr m ρ c w).trans (((dat1 (V1 m ρ) c).arrAt_in w hin _).trans (A_eq1 (V1 m ρ) c w))
/-- for region 2, -/
theorem W5_keep (c : Dev nD) (r : Ref sig .tc) (h : ∀ w, (cfg2.win w).isOut = true → Pipeline.arrRef spec2 w ≠ r) :
    W5 m ρ c (Proc.devRef .tc r) = W4 m ρ c (Proc.devRef .tc r) := by
  by_cases hr : ∀ w, Pipeline.arrRef spec2 w ≠ r
  · exact W5_of_ne m ρ c r hr
  · obtain ⟨w, hw⟩ := not_forall.mp hr
    obtain rfl := not_not.mp hw
    have hin : (cfg2.win w).isOut = false := by
      cases hout : (cfg2.win w).isOut with
      | false => rfl
      | true => exact absurd rfl (h w hout)
    exact (W5_arr m ρ c w).trans (((dat2 (V4 m ρ) c).arrAt_in w hin _).trans (A_eq2 (V4 m ρ) c w))
/-- for region 3, -/
theorem W8_keep (c : Dev nD) (r : Ref sig .tc) (h : ∀ w, (cfg3.win w).isOut = true → Pipeline.arrRef spec3 w ≠ r) :
    W8 m ρ c (Proc.devRef .tc r) = W7 m ρ c (Proc.devRef .tc r) := by
  by_cases hr : ∀ w, Pipeline.arrRef spec3 w ≠ r
  · exact W8_of_ne m ρ c r hr
  · obtain ⟨w, hw⟩ := not_forall.mp hr
    obtain rfl := not_not.mp hw
    have hin : (cfg3.win w).isOut = false := by
      cases hout : (cfg3.win w).isOut with
      | false => rfl
      | true => exact absurd rfl (h w hout)
    exact (W8_arr m ρ c w).trans (((dat3 (V7 m ρ) c).arrAt_in w hin _).trans (A_eq3 (V7 m ρ) c w))
/-- and for region 4. -/
theorem W10_keep (c : Dev nD) (r : Ref sig .tc) (h : ∀ w, (cfg4.win w).isOut = true → Pipeline.arrRef spec4 w ≠ r) :
    W10 m ρ c (Proc.devRef .tc r) = W9 m ρ c (Proc.devRef .tc r) := by
  by_cases hr : ∀ w, Pipeline.arrRef spec4 w ≠ r
  · exact W10_of_ne m ρ c r hr
  · obtain ⟨w, hw⟩ := not_forall.mp hr
    obtain rfl := not_not.mp hw
    have hin : (cfg4.win w).isOut = false := by
      cases hout : (cfg4.win w).isOut with
      | false => rfl
      | true => exact absurd rfl (h w hout)
    exact (W10_arr m ρ c w).trans (((dat4 (V9 m ρ) c).arrAt_in w hin _).trans (A_eq4 (V9 m ρ) c w))

/-- No output window's array of any region is an argument. -/
theorem outs0_args : ∀ r ∈ argRefs, ∀ w, (cfg0.win w).isOut = true → Pipeline.arrRef spec0 w ≠ r := by decide
theorem outs1_args : ∀ r ∈ argRefs, ∀ w, (cfg1.win w).isOut = true → Pipeline.arrRef spec1 w ≠ r := by decide
theorem outs2_args : ∀ r ∈ argRefs, ∀ w, (cfg2.win w).isOut = true → Pipeline.arrRef spec2 w ≠ r := by decide
theorem outs3_args : ∀ r ∈ argRefs, ∀ w, (cfg3.win w).isOut = true → Pipeline.arrRef spec3 w ≠ r := by decide
theorem outs4_args : ∀ r ∈ argRefs, ∀ w, (cfg4.win w).isOut = true → Pipeline.arrRef spec4 w ≠ r := by decide

/-- An argument's buffer ends as launched. -/
theorem W11_of_arg (c : Dev nD) (r : Ref sig .tc) (hr : r ∈ argRefs) :
    W11 m ρ c (Proc.devRef .tc r) = m ((c : Thread nD τ).loc r) :=
  calc W11 m ρ c (Proc.devRef .tc r)
    _ = W10 m ρ c (Proc.devRef .tc r) := after_keeps_args _ _ main_part2_ops2_args hr
    _ = W9 m ρ c (Proc.devRef .tc r) := W10_keep m ρ c r (outs4_args r hr)
    _ = W8 m ρ c (Proc.devRef .tc r) := after_keeps_args _ _ main_part2_ops1_args hr
    _ = W7 m ρ c (Proc.devRef .tc r) := W8_keep m ρ c r (outs3_args r hr)
    _ = W6 m ρ c (Proc.devRef .tc r) := after_keeps_args _ _ main_part2_ops0_args hr
    _ = W5 m ρ c (Proc.devRef .tc r) := after_keeps_args _ _ main_part1_ops1_args hr
    _ = W4 m ρ c (Proc.devRef .tc r) := W5_keep m ρ c r (outs2_args r hr)
    _ = W3 m ρ c (Proc.devRef .tc r) := after_keeps_args _ _ main_part1_ops0_args hr
    _ = W2 m ρ c (Proc.devRef .tc r) := after_keeps_args _ _ main_part0_ops0_args hr
    _ = W1 m ρ c (Proc.devRef .tc r) := W2_keep m ρ c r (outs1_args r hr)
    _ = W0 m ρ c (Proc.devRef .tc r) := W1_keep m ρ c r (outs0_args r hr)
    _ = m ((c : Thread nD τ).loc r) := rfl

theorem W11_main_arg0 (c : Dev nD) : W11 m ρ c (Proc.devRef .tc main_arg0) = m ((c : Thread nD τ).loc main_arg0) := W11_of_arg m ρ c _ (by decide)
theorem W11_main_arg1 (c : Dev nD) : W11 m ρ c (Proc.devRef .tc main_arg1) = m ((c : Thread nD τ).loc main_arg1) := W11_of_arg m ρ c _ (by decide)
theorem W11_main_arg2 (c : Dev nD) : W11 m ρ c (Proc.devRef .tc main_arg2) = m ((c : Thread nD τ).loc main_arg2) := W11_of_arg m ρ c _ (by decide)
theorem W11_main_arg3 (c : Dev nD) : W11 m ρ c (Proc.devRef .tc main_arg3) = m ((c : Thread nD τ).loc main_arg3) := W11_of_arg m ρ c _ (by decide)
theorem W11_main_arg4 (c : Dev nD) : W11 m ρ c (Proc.devRef .tc main_arg4) = m ((c : Thread nD τ).loc main_arg4) := W11_of_arg m ρ c _ (by decide)
theorem W11_main_arg5 (c : Dev nD) : W11 m ρ c (Proc.devRef .tc main_arg5) = m ((c : Thread nD τ).loc main_arg5) := W11_of_arg m ρ c _ (by decide)
theorem W11_main_arg6 (c : Dev nD) : W11 m ρ c (Proc.devRef .tc main_arg6) = m ((c : Thread nD τ).loc main_arg6) := W11_of_arg m ρ c _ (by decide)
theorem W11_main_arg7 (c : Dev nD) : W11 m ρ c (Proc.devRef .tc main_arg7) = m ((c : Thread nD τ).loc main_arg7) := W11_of_arg m ρ c _ (by decide)
theorem W11_main_arg8 (c : Dev nD) : W11 m ρ c (Proc.devRef .tc main_arg8) = m ((c : Thread nD τ).loc main_arg8) := W11_of_arg m ρ c _ (by decide)
theorem W11_main_arg9 (c : Dev nD) : W11 m ρ c (Proc.devRef .tc main_arg9) = m ((c : Thread nD τ).loc main_arg9) := W11_of_arg m ρ c _ (by decide)
theorem W11_main_arg10 (c : Dev nD) : W11 m ρ c (Proc.devRef .tc main_arg10) = m ((c : Thread nD τ).loc main_arg10) := W11_of_arg m ρ c _ (by decide)
theorem W11_main_arg11 (c : Dev nD) : W11 m ρ c (Proc.devRef .tc main_arg11) = m ((c : Thread nD τ).loc main_arg11) := W11_of_arg m ρ c _ (by decide)
theorem W11_main_arg12 (c : Dev nD) : W11 m ρ c (Proc.devRef .tc main_arg12) = m ((c : Thread nD τ).loc main_arg12) := W11_of_arg m ρ c _ (by decide)
theorem W11_main_arg13 (c : Dev nD) : W11 m ρ c (Proc.devRef .tc main_arg13) = m ((c : Thread nD τ).loc main_arg13) := W11_of_arg m ρ c _ (by decide)
theorem W11_main_arg14 (c : Dev nD) : W11 m ρ c (Proc.devRef .tc main_arg14) = m ((c : Thread nD τ).loc main_arg14) := W11_of_arg m ρ c _ (by decide)
theorem W11_main_arg15 (c : Dev nD) : W11 m ρ c (Proc.devRef .tc main_arg15) = m ((c : Thread nD τ).loc main_arg15) := W11_of_arg m ρ c _ (by decide)
theorem W11_main_arg16 (c : Dev nD) : W11 m ρ c (Proc.devRef .tc main_arg16) = m ((c : Thread nD τ).loc main_arg16) := W11_of_arg m ρ c _ (by decide)
theorem W11_main_arg17 (c : Dev nD) : W11 m ρ c (Proc.devRef .tc main_arg17) = m ((c : Thread nD τ).loc main_arg17) := W11_of_arg m ρ c _ (by decide)
theorem W11_main_arg18 (c : Dev nD) : W11 m ρ c (Proc.devRef .tc main_arg18) = m ((c : Thread nD τ).loc main_arg18) := W11_of_arg m ρ c _ (by decide)
theorem W11_main_arg19 (c : Dev nD) : W11 m ρ c (Proc.devRef .tc main_arg19) = m ((c : Thread nD τ).loc main_arg19) := W11_of_arg m ρ c _ (by decide)
theorem W11_main_arg20 (c : Dev nD) : W11 m ρ c (Proc.devRef .tc main_arg20) = m ((c : Thread nD τ).loc main_arg20) := W11_of_arg m ρ c _ (by decide)
theorem W11_main_arg21 (c : Dev nD) : W11 m ρ c (Proc.devRef .tc main_arg21) = m ((c : Thread nD τ).loc main_arg21) := W11_of_arg m ρ c _ (by decide)
theorem W11_main_arg22 (c : Dev nD) : W11 m ρ c (Proc.devRef .tc main_arg22) = m ((c : Thread nD τ).loc main_arg22) := W11_of_arg m ρ c _ (by decide)
theorem W11_main_arg23 (c : Dev nD) : W11 m ρ c (Proc.devRef .tc main_arg23) = m ((c : Thread nD τ).loc main_arg23) := W11_of_arg m ρ c _ (by decide)
theorem W11_main_arg24 (c : Dev nD) : W11 m ρ c (Proc.devRef .tc main_arg24) = m ((c : Thread nD τ).loc main_arg24) := W11_of_arg m ρ c _ (by decide)
theorem W11_main_arg25 (c : Dev nD) : W11 m ρ c (Proc.devRef .tc main_arg25) = m ((c : Thread nD τ).loc main_arg25) := W11_of_arg m ρ c _ (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V4 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment: the line of operations over the unscoped references from the contents `W`, `R`
    riding along; it ends at those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `main_part0_ops0` allocates a buffer. -/
theorem main_part0_ops0_fresh : (main_part0_ops0 : List (HloOp τ sig (Elt F))).Forall fun op => op.fresh = ∅ := by
  simp only [List.Forall]; repeat' constructor
/-- No operation of `main_part1_ops0` allocates a buffer. -/
theorem main_part1_ops0_fresh : (main_part1_ops0 : List (HloOp τ sig (Elt F))).Forall fun op => op.fresh = ∅ := by
  simp only [List.Forall]; repeat' constructor
/-- No operation of `main_part1_ops1` allocates a buffer. -/
theorem main_part1_ops1_fresh : (main_part1_ops1 : List (HloOp τ sig (Elt F))).Forall fun op => op.fresh = ∅ := by
  simp only [List.Forall]; repeat' constructor
/-- No operation of `main_part2_ops0` allocates a buffer. -/
theorem main_part2_ops0_fresh : (main_part2_ops0 : List (HloOp τ sig (Elt F))).Forall fun op => op.fresh = ∅ := by
  simp only [List.Forall]; repeat' constructor
/-- No operation of `main_part2_ops1` allocates a buffer. -/
theorem main_part2_ops1_fresh : (main_part2_ops1 : List (HloOp τ sig (Elt F))).Forall fun op => op.fresh = ∅ := by
  simp only [List.Forall]; repeat' constructor
/-- No operation of `main_part2_ops2` allocates a buffer. -/
theorem main_part2_ops2_fresh : (main_part2_ops2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m ρ c) ∗ ∃ r, prngReg c r)

/-! ## The regions as segments

Each region is entered from every unscoped buffer at its entry boundary's contents and left at its exit boundary's:
its arrays split out of the unscoped buffers and put back at the exit contents; the generator register into the class
invariant and out; nothing owed; no semaphore of the kernel's own. -/

set_option backward.isDefEq.respectTransparency.types false in
/-- REGION 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The last segment is a host stretch: what it leaves, re-bracketed, is the last thread state beside the core owing
    nothing. -/
theorem last_post (c : Dev nD) :
    iprop(StableHlo.held (c : Thread nD τ) (Pipeline.ucRefs τ sig) (W11 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-- The entry function's eleven segments in order: a region per kernel call, a host segment per stretch from its
    boundary's contents. -/
abbrev segs : List (Pipeline.Seg (pcfgs (F := F)) adm (pdats m ρ) () defs₀ 𝒱₀ L lv) :=
  [ .region (reg0 m ρ),
    .region (reg1 m ρ),
    .host (hseg main_part0_ops0 main_part0_ops0_sub main_part0_ops0_fresh (W2 m ρ)),
    .host (hseg main_part1_ops0 main_part1_ops0_sub main_part1_ops0_fresh (W3 m ρ)),
    .region (reg2 m ρ),
    .host (hseg main_part1_ops1 main_part1_ops1_sub main_part1_ops1_fresh (W5 m ρ)),
    .host (hseg main_part2_ops0 main_part2_ops0_sub main_part2_ops0_fresh (W6 m ρ)),
    .region (reg3 m ρ),
    .host (hseg main_part2_ops1 main_part2_ops1_sub main_part2_ops1_fresh (W8 m ρ)),
    .region (reg4 m ρ),
    .host (hseg main_part2_ops2 main_part2_ops2_sub main_part2_ops2_fresh (W10 m ρ)) ]
/-- The entry function IS the run of the segments: its chain of items, then the segments' run against that chain by
    the kernel's definitional check. -/
theorem main_run (c : Dev nD) : main (F := F) c = Pipeline.Seg.run (segs m ρ) := (main_chain_windows c).trans (by chain_rfl)

set_option backward.isDefEq.respectTransparency.types false in
/-- THE RUN: from any memory with zero counters every weakly fair execution of the entry function on the TensorCores
    terminates, nothing faulting, and in every final state each unscoped buffer holds the last boundary's contents
    `W11`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every weakly fair execution of the entry function terminates, nothing faulting, and every final state
    has the argument arrays as launched: each argument's buffer is unscoped, so the run gives it at `W11`, which at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c),
     (h c _ (mem_uc main_arg17 (by decide))).trans (W11_main_arg17 m ρ c),
     (h c _ (mem_uc main_arg18 (by decide))).trans (W11_main_arg18 m ρ c),
     (h c _ (mem_uc main_arg19 (by decide))).trans (W11_main_arg19 m ρ c),
     (h c _ (mem_uc main_arg20 (by decide))).trans (W11_main_arg20 m ρ c),
     (h c _ (mem_uc main_arg21 (by decide))).trans (W11_main_arg21 m ρ c),
     (h c _ (mem_uc main_arg22 (by decide))).trans (W11_main_arg22 m ρ c),
     (h c _ (mem_uc main_arg23 (by decide))).trans (W11_main_arg23 m ρ c),
     (h c _ (mem_uc main_arg24 (by decide))).trans (W11_main_arg24 m ρ c),
     (h c _ (mem_uc main_arg25 (by decide))).trans (W11_main_arg25 m ρ c)⟩) (run_all m ρ)

/-- THE RESULT: the same run read at the result buffer too — it ends at the last boundary's contents, the arguments as
    launched. -/
theorem run_res : θ_run defs (onTc (τ := τ) (main (F := F))) ⟨m, fun _ => 0, ρ⟩ (fun r => ∀ c : Dev nD,
      r.2.mem ((c.tc : Thread nD τ).loc main_v145) = W11 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨h c _ (mem_uc main_v145 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c),
     (h c _ (mem_uc main_arg17 (by decide))).trans (W11_main_arg17 m ρ c),
     (h c _ (mem_uc main_arg18 (by decide))).trans (W11_main_arg18 m ρ c),
     (h c _ (mem_uc main_arg19 (by decide))).trans (W11_main_arg19 m ρ c),
     (h c _ (mem_uc main_arg20 (by decide))).trans (W11_main_arg20 m ρ c),
     (h c _ (mem_uc main_arg21 (by decide))).trans (W11_main_arg21 m ρ c),
     (h c _ (mem_uc main_arg22 (by decide))).trans (W11_main_arg22 m ρ c),
     (h c _ (mem_uc main_arg23 (by decide))).trans (W11_main_arg23 m ρ c),
     (h c _ (mem_uc main_arg24 (by decide))).trans (W11_main_arg24 m ρ c),
     (h c _ (mem_uc main_arg25 (by decide))).trans (W11_main_arg25 m ρ c)⟩) (run_all m ρ)

end Cert.KernelIdeal.Hand

end
-- ==== Proof.KernelIdeal.LinPay.lean ====
/-
  The linear kernel's payload read at an entry. On a block of 5000 rows the body computes, from the row block x
  (5000 by 32), the weights W (32 by 128) and the bias b (128), the matrix product of x and W accumulated into the
  zero matrix, plus the bias copied into every row. At the ideal values the two narrowing format changes are the
  identity and the product into the zero accumulator is the plain sum of products, so the entry (r, j) is

      (∑ k < 32, x(r, k) · W(k, j)) + b(j).

  The two node types run the same body text, so the same reading holds for both payloads.
-/
import proofs.«100324_j78829829750888_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand.Lin

open Cert.KernelIdeal Cert.KernelIdeal.Gen Idealize.ShloMosaic Idealize.ShloMosaic.ValueIdx

/-! ## The product's operand indices, axis by axis

For the output entry i and the contraction index q, the left operand is read at row i₀ and column q, the right
operand at row q and column i₁. -/

theorem lhs_blk_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem lhs_blk_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem rhs_blk_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem rhs_blk_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The block product into the zero accumulator, at the entry (r, j): the sum over the 32 contracted coordinates. -/
theorem blockProduct_apply (A : FVec Ideal S5000x32 .bf16) (B : FVec Ideal S32x128 .bf16) (r : Fin 5000) (j : Fin 128) :
    matmul (F := Ideal) dot_S5000x32_S32x128_S5000x128_1_0_0_1_n_n none A B (constant S5000x128 .f32 0x00000000#32) (ix2 r j)
      = ∑ k : Fin 32, A (ix2 r k) * B (ix2 k j) := by
  show FloatOps.matmul _ none A B _ (ix2 r j) = _
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 r j) ((contrEquiv1 dot_S5000x32_S32x128_S5000x128_1_0_0_1_n_n 32 rfl rfl).symm k) = ix2 r k := funext fun a => Fin.ext (by
    match a with
    | ⟨0, _⟩ => exact lhs_blk_0 _ _
    | ⟨1, _⟩ => exact (lhs_blk_1 _ _).trans hk)
  have er : dot_S5000x32_S32x128_S5000x128_1_0_0_1_n_n.rhsIdx (ix2 r j) ((contrEquiv1 dot_S5000x32_S32x128_S5000x128_1_0_0_1_n_n 32 rfl rfl).symm k) = ix2 k j := funext fun a => Fin.ext (by
    match a with
    | ⟨0, _⟩ => exact (rhs_blk_0 _ _).trans hk
    | ⟨1, _⟩ => exact rhs_blk_1 _ _)
  rw [el, er]

/-- The bias, viewed as a one-row matrix and copied into every row of the block, at the entry (r, j) is b(j). -/
theorem biasRows_apply {α : Type} (b : S128.Idx → α) (r : Fin 5000) (j : Fin 128) :
    broadcastTo S5000x128 (shapeCast S1x128 b shapeCasts_S128_S1x128) broadcasts_S1x128_S5000x128 (ix2 r j) = b (ix1 j) := by
  refine (broadcastTo_apply _ broadcasts_S1x128_S5000x128 (ix2 r j) (ix2 ⟨0, Nat.one_pos⟩ j) (fun a => by
    match a with
    | ⟨0, _⟩ => show (0 : Nat) = if (1 : Nat) = 1 then 0 else _; rw [if_pos rfl]
    | ⟨1, _⟩ => show j.val = if (128 : Nat) = 1 then 0 else j.val; rw [if_neg (by decide)])).trans ?_
  exact shapeCast_apply b shapeCasts_S128_S1x128 _ (ix1 j) (by
    rw [Shape.rowMajor_val_one, Shape.rowMajor_val_two]
    show j.val = 0 * 128 + j.val
    rw [Nat.zero_mul, Nat.zero_add])

/-- The first node type's payload at the entry (r, j). -/
theorem k0_pay1_apply (x : Vec Ideal S5000x32 .f32) (W : Vec Ideal S32x128 .f32) (b : Vec Ideal S128 .f32)
    (r : Fin 5000) (j : Fin 128) :
    k0_pay1 (F := Ideal) x W b (ix2 r j) = (∑ k : Fin 32, x (ix2 r k) * W (ix2 k j)) + b (ix1 j) := by
  unfold k0_pay1
  show matmul (F := Ideal) dot_S5000x32_S32x128_S5000x128_1_0_0_1_n_n none (truncf .bf16 x bitsLt_bf16_f32) (truncf .bf16 W bitsLt_bf16_f32)
        (constant S5000x128 .f32 0x00000000#32) (ix2 r j)
      + broadcastTo S5000x128 (shapeCast S1x128 b shapeCasts_S128_S1x128) broadcasts_S1x128_S5000x128 (ix2 r j) = _
  rw [blockProduct_apply, biasRows_apply]
  rfl

/-- The second node type's payload at the entry (r, j): the same body text. -/
theorem k1_pay1_apply (x : Vec Ideal S5000x32 .f32) (W : Vec Ideal S32x128 .f32) (b : Vec Ideal S128 .f32)
    (r : Fin 5000) (j : Fin 128) :
    k1_pay1 (F := Ideal) x W b (ix2 r j) = (∑ k : Fin 32, x (ix2 r k) * W (ix2 k j)) + b (ix1 j) := by
  unfold k1_pay1
  show matmul (F := Ideal) dot_S5000x32_S32x128_S5000x128_1_0_0_1_n_n none (truncf .bf16 x bitsLt_bf16_f32) (truncf .bf16 W bitsLt_bf16_f32)
        (constant S5000x128 .f32 0x00000000#32) (ix2 r j)
      + broadcastTo S5000x128 (shapeCast S1x128 b shapeCasts_S128_S1x128) broadcasts_S1x128_S5000x128 (ix2 r j) = _
  rw [blockProduct_apply, biasRows_apply]
  rfl

end Cert.KernelIdeal.Hand.Lin

end
-- ==== Proof.KernelIdeal.LinValue.lean ====
/-
  Region 0's output array: the projection of the whole arrays. The region runs the linear body on twenty blocks of
  5000 rows: at point t it reads row block t of the feature table, the whole weight matrix and the whole bias, and
  writes row block t of the output. Each written block is the corresponding block of ONE function of the whole
  arrays, the specification's projection, and the twenty blocks tile the output, so the array ends holding the
  projection. Generic in the contents the region finds.
-/
import proofs.«100324_j78829829750888_1_alg».proof.Proof.KernelIdeal.R0
import proofs.«100324_j78829829750888_1_alg».proof.Proof.KernelIdeal.LinPay
import proofs.«100324_j78829829750888_1_alg».proof.Proof.LinSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window cellOf)

section
open Idealize.ShloMosaic.ValueIdx Cert.LinSpec

/-- A row block's payload is the projection's row block. If the block x holds, in its row y₀, row i₀ of the table X,
    and the weight and bias blocks hold the weight and bias arrays, then the payload at (y₀, y₁) is the projection
    of the whole arrays at (i₀, i₁), where i₁ = y₁. The three hypotheses say which entry of which array each block
    entry is, by coordinates. -/
theorem blkrow0_value (x : Vec Ideal S5000x32 .f32) (W : Vec Ideal S32x128 .f32) (b : Vec Ideal S128 .f32)
    (X : S100000x32.Idx → EReal) (Wa : S32x128.Idx → EReal) (ba : S128.Idx → EReal)
    (y : S5000x128.Idx) (i : S100000x128.Idx)
    (hx : ∀ (p : S5000x32.Idx) (q : S100000x32.Idx), (p 0).val = (y 0).val → (q 0).val = (i 0).val → (q 1).val = (p 1).val → x p = X q)
    (hW : ∀ (p q : S32x128.Idx), (p 1).val = (y 1).val → (q 0).val = (p 0).val → (q 1).val = (i 1).val → W p = Wa q)
    (hb : ∀ (p q : S128.Idx), (p 0).val = (y 1).val → (q 0).val = (i 1).val → b p = ba q) :
    k0_pay1 (F := Ideal) x W b y = linF X Wa ba i := by
  have hy : y = ix2 (⟨(y 0).val, (y 0).isLt⟩ : Fin 5000) (⟨(y 1).val, (y 1).isLt⟩ : Fin 128) := funext fun a => by
    match a with
    | ⟨0, _⟩ => rfl
    | ⟨1, _⟩ => rfl
  refine (congrArg (k0_pay1 (F := Ideal) x W b) hy).trans ?_
  refine (Lin.k0_pay1_apply x W b _ _).trans ?_
  show _ = (∑ k : Fin 32, X (ix2 (i 0) k) * Wa (ix2 k (i 1))) + ba (ix1 (i 1))
  exact congrArg₂ (· + ·)
    (Finset.sum_congr rfl fun k _ => congrArg₂ (· * ·) (hx _ _ rfl rfl rfl) (hW _ _ rfl rfl rfl))
    (hb _ _ rfl rfl)

variable (V : (c : Dev nD) → (b : Ref sig .tc) → Buf (Elt Ideal) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

/-- The printed index maps, decided over the grid: at point t the table's and the output's row block is block t,
    the weights' and the bias's block is the whole array, and the output's block is written back. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_3.flush t = true :=
  (by decide +kernel : ∀ t : Fin grid0.N, _)

/-- What point t writes back is block t of the projection of the arrays as the region finds them. -/
theorem flushed0_3_eq (c : Dev nD) (t : Fin cfg0.N) :
    (dat0 V c).flushed 3 t = ((cfg0.win 3).blk t).view.read (Elt Ideal)
      (linF (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0_2]
  simp only [View.ld_unit_zero (S := S5000x32) hz0_2, View.ld_unit_zero (S := S32x128) hz0_2, View.ld_unit_zero (S := S128) hz0_1]
  obtain ⟨e00, e01, e10, e11, e20, e30, e31, -⟩ := idx_facts0 t
  funext y
  show k0_pay1 (F := Ideal) (iblk0 V c 0 t) (iblk0 V c 1 t) (iblk0 V c 2 t) ((cfg0.win 3).xinj (grid0.coords t) y)
      = linF (V c (Pipeline.arrRef spec0 0)) (V c (Pipeline.arrRef spec0 1)) (V c (Pipeline.arrRef spec0 2))
          (((cfg0.win 3).blk t).view.emb y)
  have o0 : ((((cfg0.win 3).blk t).view.emb y) 0).val = win0_3.index t (0 : Fin 2) * 5000 + 1 * (y 0).val := rfl
  have o1 : ((((cfg0.win 3).blk t).view.emb y) 1).val = win0_3.index t (1 : Fin 2) * 128 + 1 * (y 1).val := rfl
  refine blkrow0_value _ _ _ _ _ _ _ _ (fun p q hp hq0 hq1 => ?_) (fun p q hp hq0 hq1 => ?_) (fun p q hp hq => ?_)
  · show V c (Pipeline.arrRef spec0 0) (((cfg0.win 0).blk t).view.emb p) = V c (Pipeline.arrRef spec0 0) q
    refine congrArg (V c (Pipeline.arrRef spec0 0)) (funext fun a => Fin.ext ?_)
    have hp' : (p 0).val = (y 0).val := hp
    match a with
    | ⟨0, _⟩ => show win0_0.index t (0 : Fin 2) * 5000 + 1 * (p 0).val = (q 0).val; omega
    | ⟨1, _⟩ => show win0_0.index t (1 : Fin 2) * 32 + 1 * (p 1).val = (q 1).val; omega
  · show V c (Pipeline.arrRef spec0 1) (((cfg0.win 1).blk t).view.emb p) = V c (Pipeline.arrRef spec0 1) q
    refine congrArg (V c (Pipeline.arrRef spec0 1)) (funext fun a => Fin.ext ?_)
    have hp' : (p 1).val = (y 1).val := hp
    match a with
    | ⟨0, _⟩ => show win0_1.index t (0 : Fin 2) * 32 + 1 * (p 0).val = (q 0).val; omega
    | ⟨1, _⟩ => show win0_1.index t (1 : Fin 2) * 128 + 1 * (p 1).val = (q 1).val; omega
  · show V c (Pipeline.arrRef spec0 2) (((cfg0.win 2).blk t).view.emb p) = V c (Pipeline.arrRef spec0 2) q
    refine congrArg (V c (Pipeline.arrRef spec0 2)) (funext fun a => Fin.ext ?_)
    have hp' : (p 0).val = (y 1).val := hp
    match a with
    | ⟨0, _⟩ => show win0_2.index t (0 : Fin 1) * 128 + 1 * (p 0).val = (q 0).val; omega

/-- An entry of the output array is in point t's block iff each coordinate is in the block's range on its axis. -/
theorem mem_blk0_3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- The twenty row blocks tile the output array: row r lies in block r / 5000. -/
theorem blkrow0_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, e30, e31, hfl⟩ := idx_facts0 t
  refine ⟨t, hfl, ?_⟩
  rw [mem_blk0_3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region: the projection of the arrays as the region finds them. -/
theorem final0 (c : Dev nD) :
    (dat0 V c).arrAt 3 cfg0.N
      = linF (V c (Pipeline.arrRef spec0 0)) (V c (Pipeline.arrRef spec0 1)) (V c (Pipeline.arrRef spec0 2)) :=
  (dat0 V c).arrAt_eq_of_cover 3
    (linF (V c (Pipeline.arrRef spec0 0)) (V c (Pipeline.arrRef spec0 1)) (V c (Pipeline.arrRef spec0 2)))
    (fun t _ => flushed0_3_eq V c t) blkrow0_cover

end

end Cert.KernelIdeal.Hand

end
-- ==== Proof.KernelIdeal.LinValue1.lean ====
/-
  Region 1's output array: the projection of the whole arrays. The region runs the linear body on twenty blocks of
  5000 rows: at point t it reads row block t of the feature table, the whole weight matrix and the whole bias, and
  writes row block t of the output. Each written block is the corresponding block of ONE function of the whole
  arrays, the specification's projection, and the twenty blocks tile the output, so the array ends holding the
  projection. Generic in the contents the region finds.
-/
import proofs.«100324_j78829829750888_1_alg».proof.Proof.KernelIdeal.R1
import proofs.«100324_j78829829750888_1_alg».proof.Proof.KernelIdeal.LinPay
import proofs.«100324_j78829829750888_1_alg».proof.Proof.LinSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window cellOf)

section
open Idealize.ShloMosaic.ValueIdx Cert.LinSpec

/-- A row block's payload is the projection's row block. If the block x holds, in its row y₀, row i₀ of the table X,
    and the weight and bias blocks hold the weight and bias arrays, then the payload at (y₀, y₁) is the projection
    of the whole arrays at (i₀, i₁), where i₁ = y₁. The three hypotheses say which entry of which array each block
    entry is, by coordinates. -/
theorem blkrow1_value (x : Vec Ideal S5000x32 .f32) (W : Vec Ideal S32x128 .f32) (b : Vec Ideal S128 .f32)
    (X : S100000x32.Idx → EReal) (Wa : S32x128.Idx → EReal) (ba : S128.Idx → EReal)
    (y : S5000x128.Idx) (i : S100000x128.Idx)
    (hx : ∀ (p : S5000x32.Idx) (q : S100000x32.Idx), (p 0).val = (y 0).val → (q 0).val = (i 0).val → (q 1).val = (p 1).val → x p = X q)
    (hW : ∀ (p q : S32x128.Idx), (p 1).val = (y 1).val → (q 0).val = (p 0).val → (q 1).val = (i 1).val → W p = Wa q)
    (hb : ∀ (p q : S128.Idx), (p 0).val = (y 1).val → (q 0).val = (i 1).val → b p = ba q) :
    k1_pay1 (F := Ideal) x W b y = linF X Wa ba i := by
  have hy : y = ix2 (⟨(y 0).val, (y 0).isLt⟩ : Fin 5000) (⟨(y 1).val, (y 1).isLt⟩ : Fin 128) := funext fun a => by
    match a with
    | ⟨0, _⟩ => rfl
    | ⟨1, _⟩ => rfl
  refine (congrArg (k1_pay1 (F := Ideal) x W b) hy).trans ?_
  refine (Lin.k1_pay1_apply x W b _ _).trans ?_
  show _ = (∑ k : Fin 32, X (ix2 (i 0) k) * Wa (ix2 k (i 1))) + ba (ix1 (i 1))
  exact congrArg₂ (· + ·)
    (Finset.sum_congr rfl fun k _ => congrArg₂ (· * ·) (hx _ _ rfl rfl rfl) (hW _ _ rfl rfl rfl))
    (hb _ _ rfl rfl)

variable (V : (c : Dev nD) → (b : Ref sig .tc) → Buf (Elt Ideal) ((c : Thread nD τ).loc b))

theorem hz1_2 : (![0, 0] : Fin 2 → Nat) = fun _ => 0 := funext fun a => by fin_cases a <;> rfl
theorem hz1_1 : (![0] : Fin 1 → Nat) = fun _ => 0 := funext fun a => by fin_cases a <;> rfl

/-- The printed index maps, decided over the grid: at point t the table's and the output's row block is block t,
    the weights' and the bias's block is the whole array, and the output's block is written back. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_3.flush t = true :=
  (by decide +kernel : ∀ t : Fin grid1.N, _)

/-- What point t writes back is block t of the projection of the arrays as the region finds them. -/
theorem flushed1_3_eq (c : Dev nD) (t : Fin cfg1.N) :
    (dat1 V c).flushed 3 t = ((cfg1.win 3).blk t).view.read (Elt Ideal)
      (linF (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1_2]
  simp only [View.ld_unit_zero (S := S5000x32) hz1_2, View.ld_unit_zero (S := S32x128) hz1_2, View.ld_unit_zero (S := S128) hz1_1]
  obtain ⟨e00, e01, e10, e11, e20, e30, e31, -⟩ := idx_facts1 t
  funext y
  show k1_pay1 (F := Ideal) (iblk1 V c 0 t) (iblk1 V c 1 t) (iblk1 V c 2 t) ((cfg1.win 3).xinj (grid1.coords t) y)
      = linF (V c (Pipeline.arrRef spec1 0)) (V c (Pipeline.arrRef spec1 1)) (V c (Pipeline.arrRef spec1 2))
          (((cfg1.win 3).blk t).view.emb y)
  have o0 : ((((cfg1.win 3).blk t).view.emb y) 0).val = win1_3.index t (0 : Fin 2) * 5000 + 1 * (y 0).val := rfl
  have o1 : ((((cfg1.win 3).blk t).view.emb y) 1).val = win1_3.index t (1 : Fin 2) * 128 + 1 * (y 1).val := rfl
  refine blkrow1_value _ _ _ _ _ _ _ _ (fun p q hp hq0 hq1 => ?_) (fun p q hp hq0 hq1 => ?_) (fun p q hp hq => ?_)
  · show V c (Pipeline.arrRef spec1 0) (((cfg1.win 0).blk t).view.emb p) = V c (Pipeline.arrRef spec1 0) q
    refine congrArg (V c (Pipeline.arrRef spec1 0)) (funext fun a => Fin.ext ?_)
    have hp' : (p 0).val = (y 0).val := hp
    match a with
    | ⟨0, _⟩ => show win1_0.index t (0 : Fin 2) * 5000 + 1 * (p 0).val = (q 0).val; omega
    | ⟨1, _⟩ => show win1_0.index t (1 : Fin 2) * 32 + 1 * (p 1).val = (q 1).val; omega
  · show V c (Pipeline.arrRef spec1 1) (((cfg1.win 1).blk t).view.emb p) = V c (Pipeline.arrRef spec1 1) q
    refine congrArg (V c (Pipeline.arrRef spec1 1)) (funext fun a => Fin.ext ?_)
    have hp' : (p 1).val = (y 1).val := hp
    match a with
    | ⟨0, _⟩ => show win1_1.index t (0 : Fin 2) * 32 + 1 * (p 0).val = (q 0).val; omega
    | ⟨1, _⟩ => show win1_1.index t (1 : Fin 2) * 128 + 1 * (p 1).val = (q 1).val; omega
  · show V c (Pipeline.arrRef spec1 2) (((cfg1.win 2).blk t).view.emb p) = V c (Pipeline.arrRef spec1 2) q
    refine congrArg (V c (Pipeline.arrRef spec1 2)) (funext fun a => Fin.ext ?_)
    have hp' : (p 0).val = (y 1).val := hp
    match a with
    | ⟨0, _⟩ => show win1_2.index t (0 : Fin 1) * 128 + 1 * (p 0).val = (q 0).val; omega

/-- An entry of the output array is in point t's block iff each coordinate is in the block's range on its axis. -/
theorem mem_blk1_3 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- The twenty row blocks tile the output array: row r lies in block r / 5000. -/
theorem blkrow1_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, e30, e31, hfl⟩ := idx_facts1 t
  refine ⟨t, hfl, ?_⟩
  rw [mem_blk1_3]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The output array after the region: the projection of the arrays as the region finds them. -/
theorem final1 (c : Dev nD) :
    (dat1 V c).arrAt 3 cfg1.N
      = linF (V c (Pipeline.arrRef spec1 0)) (V c (Pipeline.arrRef spec1 1)) (V c (Pipeline.arrRef spec1 2)) :=
  (dat1 V c).arrAt_eq_of_cover 3
    (linF (V c (Pipeline.arrRef spec1 0)) (V c (Pipeline.arrRef spec1 1)) (V c (Pipeline.arrRef spec1 2)))
    (fun t _ => flushed1_3_eq V c t) blkrow1_cover

end

end Cert.KernelIdeal.Hand

end
-- ==== Proof.KernelIdeal.SagePay.lean ====
/-
  The two output payloads of the SAGE kernels read at one entry of the block. With the row block of the aggregated
  neighbours `xa`, the row block of the node features `xh`, the two 128×128 weight matrices and the five 128-vectors
  (bias, scale, shift, running mean, running variance), entry (r, j) of either stored block is

    max( ((((Σₖ xa(r,k)·wl(k,j)) + bl(j)) + Σₖ xh(r,k)·wr(k,j)) − m(j)) · rsqrt(v(j) + ε) · g(j) + b(j), 0 ) + xh(r, j).

  The first output computes the whole normalisation in one piece; the second carries the difference from the mean and
  the broadcast reciprocal square root separately and multiplies them afterwards: the same tree of operations. Every
  format change is the identity on extended reals, a product into the zero accumulator is the plain sum of products, and
  a 128-vector viewed as a [1,128] row and copied down the 2000 rows reads its j-th entry.
-/
import proofs.«100324_j78829829750888_1_alg».proof.Proof.Gen.KernelIdeal.Skeleton
import proofs.«100324_j78829829750888_1_alg».proof.Proof.SageSpec
import Idealize.ShloMosaic.Lib.ValueIdx
import Idealize.ShloMosaic.Lib.Pipeline.Value
import Idealize.ShloMosaic.PureOps.Ideal.Laws

noncomputable section

open scoped BigOperators

namespace Cert.KernelIdeal.SagePay

open Cert.KernelIdeal Cert.KernelIdeal.Gen
open Idealize.ShloMosaic Idealize.ShloMosaic.ValueIdx
open Cert.SageSpec

/-! ## The two layout steps and the matrix product, at an entry -/

/-- A 128-vector viewed as a [1,128] row and copied into each of the 2000 rows reads, at (r, j), its j-th entry. -/
theorem row_bcast (x : FVec Ideal S128 .f32) (r : Fin 2000) (j : Fin 128) :
    broadcastTo S2000x128 (shapeCast S1x128 x shapeCasts_S128_S1x128) broadcasts_S1x128_S2000x128 (ix2 r j) = x (ix1 j) := by
  refine (broadcastTo_apply _ broadcasts_S1x128_S2000x128 (ix2 r j) (ix2 ⟨0, Nat.one_pos⟩ j) (fun ax => by
    match ax with
    | ⟨0, _⟩ => show (0 : Nat) = if (1 : Nat) = 1 then 0 else _; rw [if_pos rfl]
    | ⟨1, _⟩ => show j.val = if (128 : Nat) = 1 then 0 else j.val; rw [if_neg (by decide)])).trans ?_
  exact shapeCast_apply x shapeCasts_S128_S1x128 _ (ix1 j) (by
    rw [Shape.rowMajor_val_one, Shape.rowMajor_val_two]; show j.val = 0 * 128 + j.val; omega)

/-! The operand indices of the [2000,128] × [128,128] product, axis by axis. -/

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a [2000,128] block by a [128,128] matrix into the zero accumulator, at (r, j): Σₖ A(r,k)·B(k,j). -/
theorem mm_apply {φ₁ φ₂ : FTy} (A : FVec Ideal S2000x128 φ₁) (B : FVec Ideal S128x128 φ₂) (r : Fin 2000) (j : Fin 128) :
    matmul (F := Ideal) dot_S2000x128_S128x128_S2000x128_1_0_0_1_n_n none A B (constant S2000x128 .f32 0x00000000#32) (ix2 r j)
      = ∑ k : Fin 128, A (ix2 r k) * B (ix2 k j) := by
  show FloatOps.matmul _ none A B _ (ix2 r j) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

/-! ## The two stored blocks at an entry -/

/-- The stage on one row block, at (r, j). -/
def blockAt (xa xh : Vec Ideal S2000x128 .f32) (wl wr : Vec Ideal S128x128 .f32) (bl g b m v : Vec Ideal S128 .f32)
    (r : Fin 2000) (j : Fin 128) : EReal :=
  max (((((∑ k : Fin 128, xa (ix2 r k) * wl (ix2 k j)) + bl (ix1 j)) + (∑ k : Fin 128, xh (ix2 r k) * wr (ix2 k j))) - m (ix1 j))
        * Ideal.rsqrt (v (ix1 j) + Ideal.ofBits .f32 0x3727C5AC#32) * g (ix1 j) + b (ix1 j))
      (Ideal.ofBits .f32 0x00000000#32)
    + xh (ix2 r j)

/-- The first output's stored block (the normalisation computed in one piece, then the clamp and the residual). -/
theorem pay2_first (xa xh : Vec Ideal S2000x128 .f32) (wl wr : Vec Ideal S128x128 .f32) (bl g b m v : Vec Ideal S128 .f32)
    (r : Fin 2000) (j : Fin 128) :
    k2_pay4 (F := Ideal) (k2_pay2 xh) (k2_pay3 xa xh wl wr bl g b m v) (ix2 r j) = blockAt xa xh wl wr bl g b m v r j := by
  unfold k2_pay4 k2_pay3 k2_pay2 blockAt
  simp only [shapeCast_self]
  simp only [addf_apply, mulf_apply, subf_apply, maximumf_apply, row_bcast, mm_apply]
  rfl

/-- The second output's stored block (the difference from the mean and the broadcast reciprocal square root carried
    separately, multiplied afterwards). -/
theorem pay2_second (xa xh : Vec Ideal S2000x128 .f32) (wl wr : Vec Ideal S128x128 .f32) (bl g b m v : Vec Ideal S128 .f32)
    (r : Fin 2000) (j : Fin 128) :
    k2_pay1 (F := Ideal) (k2_pay5 xh) (k2_pay6 g) (k2_pay7 b) (k2_pay8 xa xh wl wr bl m) (k2_pay9 v) (ix2 r j)
      = blockAt xa xh wl wr bl g b m v r j := by
  unfold k2_pay1 k2_pay8 k2_pay9 k2_pay5 k2_pay6 k2_pay7 blockAt
  simp only [shapeCast_self]
  simp only [addf_apply, mulf_apply, subf_apply, maximumf_apply, row_bcast, mm_apply]
  rfl

/-- The second layer's kernel is the same text. -/
theorem pay3_first (xa xh : Vec Ideal S2000x128 .f32) (wl wr : Vec Ideal S128x128 .f32) (bl g b m v : Vec Ideal S128 .f32)
    (r : Fin 2000) (j : Fin 128) :
    k3_pay4 (F := Ideal) (k3_pay2 xh) (k3_pay3 xa xh wl wr bl g b m v) (ix2 r j) = blockAt xa xh wl wr bl g b m v r j :=
  pay2_first xa xh wl wr bl g b m v r j

theorem pay3_second (xa xh : Vec Ideal S2000x128 .f32) (wl wr : Vec Ideal S128x128 .f32) (bl g b m v : Vec Ideal S128 .f32)
    (r : Fin 2000) (j : Fin 128) :
    k3_pay1 (F := Ideal) (k3_pay5 xh) (k3_pay6 g) (k3_pay7 b) (k3_pay8 xa xh wl wr bl m) (k3_pay9 v) (ix2 r j)
      = blockAt xa xh wl wr bl g b m v r j :=
  pay2_second xa xh wl wr bl g b m v r j

/-! ## A block entry as an entry of the whole-array stage -/

/-- When row r of the two row blocks is row R of the two arrays and the small operands are the arrays' own, the block's
    entry (r, j) is the whole-array stage at (R, j). -/
theorem blockAt_eq_sageAt (agg h : FVec Ideal ⟨2, ![100000, 128]⟩ .f32) (Wl : FVec Ideal ⟨2, ![128, 128]⟩ .f32)
    (bl' : FVec Ideal ⟨1, ![128]⟩ .f32) (Wr : FVec Ideal ⟨2, ![128, 128]⟩ .f32) (g' b' m' v' : FVec Ideal ⟨1, ![128]⟩ .f32)
    (xa xh : Vec Ideal S2000x128 .f32) (wl wr : Vec Ideal S128x128 .f32) (bl g b m v : Vec Ideal S128 .f32)
    (r : Fin 2000) (j : Fin 128) (R : Fin 100000)
    (ea : ∀ k : Fin 128, xa (ix2 r k) = agg (ix2 R k)) (eh : ∀ k : Fin 128, xh (ix2 r k) = h (ix2 R k))
    (el : ∀ k : Fin 128, wl (ix2 k j) = Wl (ix2 k j)) (er : ∀ k : Fin 128, wr (ix2 k j) = Wr (ix2 k j))
    (ebl : bl (ix1 j) = bl' (ix1 j)) (eg : g (ix1 j) = g' (ix1 j)) (eb : b (ix1 j) = b' (ix1 j))
    (em : m (ix1 j) = m' (ix1 j)) (ev : v (ix1 j) = v' (ix1 j)) :
    blockAt xa xh wl wr bl g b m v r j = sageAt agg h Wl bl' Wr g' b' m' v' R j := by
  have sl : (∑ k : Fin 128, xa (ix2 r k) * wl (ix2 k j)) = ∑ k : Fin 128, agg (ix2 R k) * Wl (ix2 k j) :=
    Finset.sum_congr rfl fun k _ => by rw [ea k, el k]
  have sr : (∑ k : Fin 128, xh (ix2 r k) * wr (ix2 k j)) = ∑ k : Fin 128, h (ix2 R k) * Wr (ix2 k j) :=
    Finset.sum_congr rfl fun k _ => by rw [eh k, er k]
  unfold blockAt sageAt
  rw [sl, sr, ebl, eg, eb, em, ev, eh j]

end Cert.KernelIdeal.SagePay

end
-- ==== Proof.KernelIdeal.SageBlock.lean ====
/-
  From one entry of a stored row block to one entry of the whole-array stage. The kernels work on 2000-row blocks: the
  two row-blocked operands hold 2000 consecutive rows of their arrays, the weight matrices and the 128-vectors are held
  whole. Stated over variables with the correspondence as hypotheses (which entry of which array each block entry is,
  by coordinates), so that a region instantiates it at its own blocks: entry y of either stored block of either layer
  is the stage of the whole arrays at the entry i that y stands for.
-/
import proofs.«100324_j78829829750888_1_alg».proof.Proof.KernelIdeal.SagePay
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic

section Block
open Idealize.ShloMosaic.ValueIdx Cert.SageSpec Cert.KernelIdeal.SagePay

/-- A row block's entry is the whole-array stage's entry. If row y₀ of the two row blocks is row i₀ of the two arrays,
    the small operands' blocks hold the small arrays, and i₁ = y₁, then the block stage at (y₀, y₁) is the
    whole-array stage at i. Each hypothesis says which entry of which array a block entry is, by coordinates. -/
theorem sage_block_entry (xa xh : Vec Ideal S2000x128 .f32) (wl wr : Vec Ideal S128x128 .f32) (bl g b m v : Vec Ideal S128 .f32)
    (Agg H : S100000x128.Idx → EReal) (Wl Wr : S128x128.Idx → EReal) (Bl G B M Vr : S128.Idx → EReal)
    (y : S2000x128.Idx) (i : S100000x128.Idx) (hi : (i 1).val = (y 1).val)
    (ha : ∀ (p : S2000x128.Idx) (q : S100000x128.Idx), (p 0).val = (y 0).val → (q 0).val = (i 0).val → (q 1).val = (p 1).val → xa p = Agg q)
    (hh : ∀ (p : S2000x128.Idx) (q : S100000x128.Idx), (p 0).val = (y 0).val → (q 0).val = (i 0).val → (q 1).val = (p 1).val → xh p = H q)
    (hl : ∀ (p q : S128x128.Idx), (q 0).val = (p 0).val → (q 1).val = (p 1).val → wl p = Wl q)
    (hr : ∀ (p q : S128x128.Idx), (q 0).val = (p 0).val → (q 1).val = (p 1).val → wr p = Wr q)
    (hbl : ∀ (p q : S128.Idx), (q 0).val = (p 0).val → bl p = Bl q)
    (hg : ∀ (p q : S128.Idx), (q 0).val = (p 0).val → g p = G q)
    (hb : ∀ (p q : S128.Idx), (q 0).val = (p 0).val → b p = B q)
    (hm : ∀ (p q : S128.Idx), (q 0).val = (p 0).val → m p = M q)
    (hv : ∀ (p q : S128.Idx), (q 0).val = (p 0).val → v p = Vr q) :
    blockAt xa xh wl wr bl g b m v ⟨(y 0).val, (y 0).isLt⟩ ⟨(y 1).val, (y 1).isLt⟩ = sageF Agg H Wl Bl Wr G B M Vr i := by
  show _ = sageAt Agg H Wl Bl Wr G B M Vr (i 0) (i 1)
  have hj : (i 1) = (⟨(y 1).val, (y 1).isLt⟩ : Fin 128) := Fin.ext hi
  rw [hj]
  exact blockAt_eq_sageAt Agg H Wl Bl Wr G B M Vr xa xh wl wr bl g b m v _ _ (i 0)
    (fun k => ha _ _ rfl rfl rfl) (fun k => hh _ _ rfl rfl rfl) (fun k => hl _ _ rfl rfl) (fun k => hr _ _ rfl rfl)
    (hbl _ _ rfl) (hg _ _ rfl) (hb _ _ rfl) (hm _ _ rfl) (hv _ _ rfl)

/-- An index of the row block by its two coordinates. -/
theorem sage_block_idx (y : S2000x128.Idx) :
    y = ix2 (⟨(y 0).val, (y 0).isLt⟩ : Fin 2000) (⟨(y 1).val, (y 1).isLt⟩ : Fin 128) := funext fun a => by
  match a with
  | ⟨0, _⟩ => rfl
  | ⟨1, _⟩ => rfl

/-- The first layer's first stored block, entry by entry, is the whole-array stage. -/
theorem sage2_first_entry (xa xh : Vec Ideal S2000x128 .f32) (wl wr : Vec Ideal S128x128 .f32) (bl g b m v : Vec Ideal S128 .f32)
    (Agg H : S100000x128.Idx → EReal) (Wl Wr : S128x128.Idx → EReal) (Bl G B M Vr : S128.Idx → EReal)
    (y : S2000x128.Idx) (i : S100000x128.Idx) (hi : (i 1).val = (y 1).val)
    (ha : ∀ (p : S2000x128.Idx) (q : S100000x128.Idx), (p 0).val = (y 0).val → (q 0).val = (i 0).val → (q 1).val = (p 1).val → xa p = Agg q)
    (hh : ∀ (p : S2000x128.Idx) (q : S100000x128.Idx), (p 0).val = (y 0).val → (q 0).val = (i 0).val → (q 1).val = (p 1).val → xh p = H q)
    (hl : ∀ (p q : S128x128.Idx), (q 0).val = (p 0).val → (q 1).val = (p 1).val → wl p = Wl q)
    (hr : ∀ (p q : S128x128.Idx), (q 0).val = (p 0).val → (q 1).val = (p 1).val → wr p = Wr q)
    (hbl : ∀ (p q : S128.Idx), (q 0).val = (p 0).val → bl p = Bl q)
    (hg : ∀ (p q : S128.Idx), (q 0).val = (p 0).val → g p = G q)
    (hb : ∀ (p q : S128.Idx), (q 0).val = (p 0).val → b p = B q)
    (hm : ∀ (p q : S128.Idx), (q 0).val = (p 0).val → m p = M q)
    (hv : ∀ (p q : S128.Idx), (q 0).val = (p 0).val → v p = Vr q) :
    k2_pay4 (F := Ideal) (k2_pay2 xh) (k2_pay3 xa xh wl wr bl g b m v) y = sageF Agg H Wl Bl Wr G B M Vr i := by
  refine (congrArg (k2_pay4 (F := Ideal) (k2_pay2 xh) (k2_pay3 xa xh wl wr bl g b m v)) (sage_block_idx y)).trans ?_
  refine (pay2_first xa xh wl wr bl g b m v _ _).trans ?_
  exact sage_block_entry xa xh wl wr bl g b m v Agg H Wl Wr Bl G B M Vr y i hi ha hh hl hr hbl hg hb hm hv

/-- The first layer's second stored block. -/
theorem sage2_second_entry (xa xh : Vec Ideal S2000x128 .f32) (wl wr : Vec Ideal S128x128 .f32) (bl g b m v : Vec Ideal S128 .f32)
    (Agg H : S100000x128.Idx → EReal) (Wl Wr : S128x128.Idx → EReal) (Bl G B M Vr : S128.Idx → EReal)
    (y : S2000x128.Idx) (i : S100000x128.Idx) (hi : (i 1).val = (y 1).val)
    (ha : ∀ (p : S2000x128.Idx) (q : S100000x128.Idx), (p 0).val = (y 0).val → (q 0).val = (i 0).val → (q 1).val = (p 1).val → xa p = Agg q)
    (hh : ∀ (p : S2000x128.Idx) (q : S100000x128.Idx), (p 0).val = (y 0).val → (q 0).val = (i 0).val → (q 1).val = (p 1).val → xh p = H q)
    (hl : ∀ (p q : S128x128.Idx), (q 0).val = (p 0).val → (q 1).val = (p 1).val → wl p = Wl q)
    (hr : ∀ (p q : S128x128.Idx), (q 0).val = (p 0).val → (q 1).val = (p 1).val → wr p = Wr q)
    (hbl : ∀ (p q : S128.Idx), (q 0).val = (p 0).val → bl p = Bl q)
    (hg : ∀ (p q : S128.Idx), (q 0).val = (p 0).val → g p = G q)
    (hb : ∀ (p q : S128.Idx), (q 0).val = (p 0).val → b p = B q)
    (hm : ∀ (p q : S128.Idx), (q 0).val = (p 0).val → m p = M q)
    (hv : ∀ (p q : S128.Idx), (q 0).val = (p 0).val → v p = Vr q) :
    k2_pay1 (F := Ideal) (k2_pay5 xh) (k2_pay6 g) (k2_pay7 b) (k2_pay8 xa xh wl wr bl m) (k2_pay9 v) y
      = sageF Agg H Wl Bl Wr G B M Vr i := by
  refine (congrArg (k2_pay1 (F := Ideal) (k2_pay5 xh) (k2_pay6 g) (k2_pay7 b) (k2_pay8 xa xh wl wr bl m) (k2_pay9 v)) (sage_block_idx y)).trans ?_
  refine (pay2_second xa xh wl wr bl g b m v _ _).trans ?_
  exact sage_block_entry xa xh wl wr bl g b m v Agg H Wl Wr Bl G B M Vr y i hi ha hh hl hr hbl hg hb hm hv

/-- The second layer's first stored block. -/
theorem sage3_first_entry (xa xh : Vec Ideal S2000x128 .f32) (wl wr : Vec Ideal S128x128 .f32) (bl g b m v : Vec Ideal S128 .f32)
    (Agg H : S100000x128.Idx → EReal) (Wl Wr : S128x128.Idx → EReal) (Bl G B M Vr : S128.Idx → EReal)
    (y : S2000x128.Idx) (i : S100000x128.Idx) (hi : (i 1).val = (y 1).val)
    (ha : ∀ (p : S2000x128.Idx) (q : S100000x128.Idx), (p 0).val = (y 0).val → (q 0).val = (i 0).val → (q 1).val = (p 1).val → xa p = Agg q)
    (hh : ∀ (p : S2000x128.Idx) (q : S100000x128.Idx), (p 0).val = (y 0).val → (q 0).val = (i 0).val → (q 1).val = (p 1).val → xh p = H q)
    (hl : ∀ (p q : S128x128.Idx), (q 0).val = (p 0).val → (q 1).val = (p 1).val → wl p = Wl q)
    (hr : ∀ (p q : S128x128.Idx), (q 0).val = (p 0).val → (q 1).val = (p 1).val → wr p = Wr q)
    (hbl : ∀ (p q : S128.Idx), (q 0).val = (p 0).val → bl p = Bl q)
    (hg : ∀ (p q : S128.Idx), (q 0).val = (p 0).val → g p = G q)
    (hb : ∀ (p q : S128.Idx), (q 0).val = (p 0).val → b p = B q)
    (hm : ∀ (p q : S128.Idx), (q 0).val = (p 0).val → m p = M q)
    (hv : ∀ (p q : S128.Idx), (q 0).val = (p 0).val → v p = Vr q) :
    k3_pay4 (F := Ideal) (k3_pay2 xh) (k3_pay3 xa xh wl wr bl g b m v) y = sageF Agg H Wl Bl Wr G B M Vr i := by
  refine (congrArg (k3_pay4 (F := Ideal) (k3_pay2 xh) (k3_pay3 xa xh wl wr bl g b m v)) (sage_block_idx y)).trans ?_
  refine (pay3_first xa xh wl wr bl g b m v _ _).trans ?_
  exact sage_block_entry xa xh wl wr bl g b m v Agg H Wl Wr Bl G B M Vr y i hi ha hh hl hr hbl hg hb hm hv

/-- The second layer's second stored block. -/
theorem sage3_second_entry (xa xh : Vec Ideal S2000x128 .f32) (wl wr : Vec Ideal S128x128 .f32) (bl g b m v : Vec Ideal S128 .f32)
    (Agg H : S100000x128.Idx → EReal) (Wl Wr : S128x128.Idx → EReal) (Bl G B M Vr : S128.Idx → EReal)
    (y : S2000x128.Idx) (i : S100000x128.Idx) (hi : (i 1).val = (y 1).val)
    (ha : ∀ (p : S2000x128.Idx) (q : S100000x128.Idx), (p 0).val = (y 0).val → (q 0).val = (i 0).val → (q 1).val = (p 1).val → xa p = Agg q)
    (hh : ∀ (p : S2000x128.Idx) (q : S100000x128.Idx), (p 0).val = (y 0).val → (q 0).val = (i 0).val → (q 1).val = (p 1).val → xh p = H q)
    (hl : ∀ (p q : S128x128.Idx), (q 0).val = (p 0).val → (q 1).val = (p 1).val → wl p = Wl q)
    (hr : ∀ (p q : S128x128.Idx), (q 0).val = (p 0).val → (q 1).val = (p 1).val → wr p = Wr q)
    (hbl : ∀ (p q : S128.Idx), (q 0).val = (p 0).val → bl p = Bl q)
    (hg : ∀ (p q : S128.Idx), (q 0).val = (p 0).val → g p = G q)
    (hb : ∀ (p q : S128.Idx), (q 0).val = (p 0).val → b p = B q)
    (hm : ∀ (p q : S128.Idx), (q 0).val = (p 0).val → m p = M q)
    (hv : ∀ (p q : S128.Idx), (q 0).val = (p 0).val → v p = Vr q) :
    k3_pay1 (F := Ideal) (k3_pay5 xh) (k3_pay6 g) (k3_pay7 b) (k3_pay8 xa xh wl wr bl m) (k3_pay9 v) y
      = sageF Agg H Wl Bl Wr G B M Vr i := by
  refine (congrArg (k3_pay1 (F := Ideal) (k3_pay5 xh) (k3_pay6 g) (k3_pay7 b) (k3_pay8 xa xh wl wr bl m) (k3_pay9 v)) (sage_block_idx y)).trans ?_
  refine (pay3_second xa xh wl wr bl g b m v _ _).trans ?_
  exact sage_block_entry xa xh wl wr bl g b m v Agg H Wl Wr Bl G B M Vr y i hi ha hh hl hr hbl hg hb hm hv

theorem sage_hz2 : (![0, 0] : Fin 2 → Nat) = fun _ => 0 := funext fun a => by fin_cases a <;> rfl
theorem sage_hz1 : (![0] : Fin 1 → Nat) = fun _ => 0 := funext fun a => by fin_cases a <;> rfl

end Block

end Cert.KernelIdeal.Hand

end
-- ==== Proof.KernelIdeal.SageValue.lean ====
/-
  Region 2's two output arrays: the first hetero-SAGE layer on whole arrays. The region runs the stage body on fifty blocks of
  2000 rows: at point t it reads row block t of the two aggregated-neighbour arrays and of the two node-feature arrays,
  the four weight matrices and the ten 128-vectors whole, and writes row block t of each of the two outputs. Each written
  block is the corresponding block of ONE function of the whole arrays, the specification's stage, and the fifty blocks
  tile each output, so each array ends holding the stage of the arrays as the region finds them. Generic in the contents
  the region finds.
-/
import proofs.«100324_j78829829750888_1_alg».proof.Proof.KernelIdeal.R2
import proofs.«100324_j78829829750888_1_alg».proof.Proof.KernelIdeal.SageBlock
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window cellOf)

section Region2
open Idealize.ShloMosaic.ValueIdx Cert.SageSpec Cert.KernelIdeal.SagePay

variable (V : (c : Dev nD) → (b : Ref sig .tc) → Buf (Elt Ideal) ((c : Thread nD τ).loc b))

/-! The printed index maps, decided over the grid. At point t the four row-blocked inputs and the two outputs are at row
    block t; the weight matrices and the 128-vectors are whole, at block 0. -/

theorem sage2_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_18.index t (0 : Fin 2) = t.val ∧ win2_18.index t (1 : Fin 2) = 0
    ∧ win2_19.index t (0 : Fin 2) = t.val ∧ win2_19.index t (1 : Fin 2) = 0 :=
  (by decide +kernel : ∀ t : Fin grid2.N, _)

theorem sage2_mats : ∀ t : Fin cfg2.N,
    win2_4.index t (0 : Fin 2) = 0 ∧ win2_4.index t (1 : Fin 2) = 0
    ∧ win2_6.index t (0 : Fin 2) = 0 ∧ win2_6.index t (1 : Fin 2) = 0
    ∧ win2_11.index t (0 : Fin 2) = 0 ∧ win2_11.index t (1 : Fin 2) = 0
    ∧ win2_13.index t (0 : Fin 2) = 0 ∧ win2_13.index t (1 : Fin 2) = 0 :=
  (by decide +kernel : ∀ t : Fin grid2.N, _)

theorem sage2_vecs : ∀ t : Fin cfg2.N,
    win2_5.index t (0 : Fin 1) = 0
    ∧ win2_7.index t (0 : Fin 1) = 0
    ∧ win2_8.index t (0 : Fin 1) = 0
    ∧ win2_9.index t (0 : Fin 1) = 0
    ∧ win2_10.index t (0 : Fin 1) = 0
    ∧ win2_12.index t (0 : Fin 1) = 0
    ∧ win2_14.index t (0 : Fin 1) = 0
    ∧ win2_15.index t (0 : Fin 1) = 0
    ∧ win2_16.index t (0 : Fin 1) = 0
    ∧ win2_17.index t (0 : Fin 1) = 0 :=
  (by decide +kernel : ∀ t : Fin grid2.N, _)

set_option maxHeartbeats 4000000 in
/-- What point t writes back to output window 18 is block t of the stage of the arrays as the region finds them. -/
theorem sage2_flushed18 (c : Dev nD) (t : Fin cfg2.N) :
    (dat2 V c).flushed 18 t = ((cfg2.win 18).blk t).view.read (Elt Ideal)
      (sageF (V c (Pipeline.arrRef spec2 0)) (V c (Pipeline.arrRef spec2 1)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))) := by
  show (cfg2.win 18).cut (grid2.coords t) ((dat2 V c).after 18 t) = _
  rw [after2_18]
  unfold out2_18
  rw [View.canon_unit_zero sage_hz2]
  simp only [View.ld_unit_zero (S := S2000x128) sage_hz2, View.ld_unit_zero (S := S128x128) sage_hz2, View.ld_unit_zero (S := S128) sage_hz1]
  obtain ⟨r0a, r0b, r1a, r1b, r2a, r2b, r3a, r3b, r18a, r18b, r19a, r19b⟩ := sage2_rows t
  obtain ⟨m4a, m4b, m6a, m6b, m11a, m11b, m13a, m13b⟩ := sage2_mats t
  obtain ⟨v5, v7, v8, v9, v10, v12, v14, v15, v16, v17⟩ := sage2_vecs t
  funext y
  show k2_pay4 (F := Ideal) (k2_pay2 (iblk2 V c 1 t)) (k2_pay3 (iblk2 V c 0 t) (iblk2 V c 1 t) (iblk2 V c 4 t) (iblk2 V c 6 t) (iblk2 V c 5 t) (iblk2 V c 7 t) (iblk2 V c 8 t) (iblk2 V c 9 t) (iblk2 V c 10 t)) ((cfg2.win 18).xinj (grid2.coords t) y)
      = sageF (V c (Pipeline.arrRef spec2 0)) (V c (Pipeline.arrRef spec2 1)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))
          (((cfg2.win 18).blk t).view.emb y)
  have o0 : ((((cfg2.win 18).blk t).view.emb y) 0).val = win2_18.index t (0 : Fin 2) * 2000 + 1 * (y 0).val := rfl
  have o1 : ((((cfg2.win 18).blk t).view.emb y) 1).val = win2_18.index t (1 : Fin 2) * 128 + 1 * (y 1).val := rfl
  refine sage2_first_entry _ _ _ _ _ _ _ _ _ _ _ _ _ _ _ _ _ _ _ _
    (show ((((cfg2.win 18).blk t).view.emb y) 1).val = (y 1).val by rw [o1, r18b]; omega)
    (fun p q hp hq0 hq1 => ?_) (fun p q hp hq0 hq1 => ?_) (fun p q hq0 hq1 => ?_) (fun p q hq0 hq1 => ?_)
    (fun p q hq => ?_) (fun p q hq => ?_) (fun p q hq => ?_) (fun p q hq => ?_) (fun p q hq => ?_)
  · show (V c (Pipeline.arrRef spec2 0)) (((cfg2.win 0).blk t).view.emb p) = (V c (Pipeline.arrRef spec2 0)) q
    refine congrArg (V c (Pipeline.arrRef spec2 0)) (funext fun a => Fin.ext ?_)
    have hp' : (p 0).val = (y 0).val := hp
    match a with
    | ⟨0, _⟩ => show win2_0.index t (0 : Fin 2) * 2000 + 1 * (p 0).val = (q 0).val; omega
    | ⟨1, _⟩ => show win2_0.index t (1 : Fin 2) * 128 + 1 * (p 1).val = (q 1).val; omega
  · show (V c (Pipeline.arrRef spec2 1)) (((cfg2.win 1).blk t).view.emb p) = (V c (Pipeline.arrRef spec2 1)) q
    refine congrArg (V c (Pipeline.arrRef spec2 1)) (funext fun a => Fin.ext ?_)
    have hp' : (p 0).val = (y 0).val := hp
    match a with
    | ⟨0, _⟩ => show win2_1.index t (0 : Fin 2) * 2000 + 1 * (p 0).val = (q 0).val; omega
    | ⟨1, _⟩ => show win2_1.index t (1 : Fin 2) * 128 + 1 * (p 1).val = (q 1).val; omega
  · show (V c (Pipeline.arrRef spec2 4)) (((cfg2.win 4).blk t).view.emb p) = (V c (Pipeline.arrRef spec2 4)) q
    refine congrArg (V c (Pipeline.arrRef spec2 4)) (funext fun a => Fin.ext ?_)
    match a with
    | ⟨0, _⟩ => show win2_4.index t (0 : Fin 2) * 128 + 1 * (p 0).val = (q 0).val; omega
    | ⟨1, _⟩ => show win2_4.index t (1 : Fin 2) * 128 + 1 * (p 1).val = (q 1).val; omega
  · show (V c (Pipeline.arrRef spec2 6)) (((cfg2.win 6).blk t).view.emb p) = (V c (Pipeline.arrRef spec2 6)) q
    refine congrArg (V c (Pipeline.arrRef spec2 6)) (funext fun a => Fin.ext ?_)
    match a with
    | ⟨0, _⟩ => show win2_6.index t (0 : Fin 2) * 128 + 1 * (p 0).val = (q 0).val; omega
    | ⟨1, _⟩ => show win2_6.index t (1 : Fin 2) * 128 + 1 * (p 1).val = (q 1).val; omega
  · show (V c (Pipeline.arrRef spec2 5)) (((cfg2.win 5).blk t).view.emb p) = (V c (Pipeline.arrRef spec2 5)) q
    refine congrArg (V c (Pipeline.arrRef spec2 5)) (funext fun a => Fin.ext ?_)
    match a with
    | ⟨0, _⟩ => show win2_5.index t (0 : Fin 1) * 128 + 1 * (p 0).val = (q 0).val; omega
  · show (V c (Pipeline.arrRef spec2 7)) (((cfg2.win 7).blk t).view.emb p) = (V c (Pipeline.arrRef spec2 7)) q
    refine congrArg (V c (Pipeline.arrRef spec2 7)) (funext fun a => Fin.ext ?_)
    match a with
    | ⟨0, _⟩ => show win2_7.index t (0 : Fin 1) * 128 + 1 * (p 0).val = (q 0).val; omega
  · show (V c (Pipeline.arrRef spec2 8)) (((cfg2.win 8).blk t).view.emb p) = (V c (Pipeline.arrRef spec2 8)) q
    refine congrArg (V c (Pipeline.arrRef spec2 8)) (funext fun a => Fin.ext ?_)
    match a with
    | ⟨0, _⟩ => show win2_8.index t (0 : Fin 1) * 128 + 1 * (p 0).val = (q 0).val; omega
  · show (V c (Pipeline.arrRef spec2 9)) (((cfg2.win 9).blk t).view.emb p) = (V c (Pipeline.arrRef spec2 9)) q
    refine congrArg (V c (Pipeline.arrRef spec2 9)) (funext fun a => Fin.ext ?_)
    match a with
    | ⟨0, _⟩ => show win2_9.index t (0 : Fin 1) * 128 + 1 * (p 0).val = (q 0).val; omega
  · show (V c (Pipeline.arrRef spec2 10)) (((cfg2.win 10).blk t).view.emb p) = (V c (Pipeline.arrRef spec2 10)) q
    refine congrArg (V c (Pipeline.arrRef spec2 10)) (funext fun a => Fin.ext ?_)
    match a with
    | ⟨0, _⟩ => show win2_10.index t (0 : Fin 1) * 128 + 1 * (p 0).val = (q 0).val; omega

/-- An entry of output array 18 is in point t's block iff each coordinate is in the block's range on its axis. -/
theorem sage2_mem_blk18 (t : Fin cfg2.N) (i : S100000x128.Idx) :
    i ∈ ((cfg2.win 18).blk t).view.set ↔ ∀ a : Fin 2, win2_18.index t a * S2000x128.size a ≤ (i a).val
      ∧ (i a).val < win2_18.index t a * S2000x128.size a + S2000x128.size a := by
  show i ∈ ((View.whole main_v75_0).slice (win2_18.rect t)).set ↔ _
  rw [View.set_slice_whole, Rect.mem_set_unit]
  exact Iff.rfl

/-- The fifty row blocks tile output array 18: row r lies in block r / 2000. -/
theorem sage2_cover18 (i : S100000x128.Idx) :
    ∃ t : Fin cfg2.N, (cfg2.win 18).flush t = true ∧ i ∈ ((cfg2.win 18).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by rw [show cfg2.N = 50 from N_2]; omega⟩, rfl⟩
  obtain ⟨r0a, r0b, r1a, r1b, r2a, r2b, r3a, r3b, r18a, r18b, r19a, r19b⟩ := sage2_rows t
  refine ⟨t, flush2_18 t, ?_⟩
  rw [sage2_mem_blk18]
  intro a
  match a with
  | ⟨0, _⟩ =>
    show win2_18.index t (0 : Fin 2) * 2000 ≤ (i 0).val ∧ (i 0).val < win2_18.index t (0 : Fin 2) * 2000 + 2000
    omega
  | ⟨1, _⟩ =>
    show win2_18.index t (1 : Fin 2) * 128 ≤ (i 1).val ∧ (i 1).val < win2_18.index t (1 : Fin 2) * 128 + 128
    omega

/-- Output array 18 after the region: the stage of the arrays as the region finds them. -/
theorem final2_18 (c : Dev nD) :
    (dat2 V c).arrAt 18 cfg2.N
      = sageF (V c (Pipeline.arrRef spec2 0)) (V c (Pipeline.arrRef spec2 1)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) :=
  (dat2 V c).arrAt_eq_of_cover 18
    (sageF (V c (Pipeline.arrRef spec2 0)) (V c (Pipeline.arrRef spec2 1)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)))
    (fun t _ => sage2_flushed18 V c t) sage2_cover18

set_option maxHeartbeats 4000000 in
/-- What point t writes back to output window 19 is block t of the stage of the arrays as the region finds them. -/
theorem sage2_flushed19 (c : Dev nD) (t : Fin cfg2.N) :
    (dat2 V c).flushed 19 t = ((cfg2.win 19).blk t).view.read (Elt Ideal)
      (sageF (V c (Pipeline.arrRef spec2 2)) (V c (Pipeline.arrRef spec2 3)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17))) := by
  show (cfg2.win 19).cut (grid2.coords t) ((dat2 V c).after 19 t) = _
  rw [after2_19]
  unfold out2_19
  rw [View.canon_unit_zero sage_hz2]
  simp only [View.ld_unit_zero (S := S2000x128) sage_hz2, View.ld_unit_zero (S := S128x128) sage_hz2, View.ld_unit_zero (S := S128) sage_hz1]
  obtain ⟨r0a, r0b, r1a, r1b, r2a, r2b, r3a, r3b, r18a, r18b, r19a, r19b⟩ := sage2_rows t
  obtain ⟨m4a, m4b, m6a, m6b, m11a, m11b, m13a, m13b⟩ := sage2_mats t
  obtain ⟨v5, v7, v8, v9, v10, v12, v14, v15, v16, v17⟩ := sage2_vecs t
  funext y
  show k2_pay1 (F := Ideal) (k2_pay5 (iblk2 V c 3 t)) (k2_pay6 (iblk2 V c 14 t)) (k2_pay7 (iblk2 V c 15 t)) (k2_pay8 (iblk2 V c 2 t) (iblk2 V c 3 t) (iblk2 V c 11 t) (iblk2 V c 13 t) (iblk2 V c 12 t) (iblk2 V c 16 t)) (k2_pay9 (iblk2 V c 17 t)) ((cfg2.win 19).xinj (grid2.coords t) y)
      = sageF (V c (Pipeline.arrRef spec2 2)) (V c (Pipeline.arrRef spec2 3)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17))
          (((cfg2.win 19).blk t).view.emb y)
  have o0 : ((((cfg2.win 19).blk t).view.emb y) 0).val = win2_19.index t (0 : Fin 2) * 2000 + 1 * (y 0).val := rfl
  have o1 : ((((cfg2.win 19).blk t).view.emb y) 1).val = win2_19.index t (1 : Fin 2) * 128 + 1 * (y 1).val := rfl
  refine sage2_second_entry _ _ _ _ _ _ _ _ _ _ _ _ _ _ _ _ _ _ _ _
    (show ((((cfg2.win 19).blk t).view.emb y) 1).val = (y 1).val by rw [o1, r19b]; omega)
    (fun p q hp hq0 hq1 => ?_) (fun p q hp hq0 hq1 => ?_) (fun p q hq0 hq1 => ?_) (fun p q hq0 hq1 => ?_)
    (fun p q hq => ?_) (fun p q hq => ?_) (fun p q hq => ?_) (fun p q hq => ?_) (fun p q hq => ?_)
  · show (V c (Pipeline.arrRef spec2 2)) (((cfg2.win 2).blk t).view.emb p) = (V c (Pipeline.arrRef spec2 2)) q
    refine congrArg (V c (Pipeline.arrRef spec2 2)) (funext fun a => Fin.ext ?_)
    have hp' : (p 0).val = (y 0).val := hp
    match a with
    | ⟨0, _⟩ => show win2_2.index t (0 : Fin 2) * 2000 + 1 * (p 0).val = (q 0).val; omega
    | ⟨1, _⟩ => show win2_2.index t (1 : Fin 2) * 128 + 1 * (p 1).val = (q 1).val; omega
  · show (V c (Pipeline.arrRef spec2 3)) (((cfg2.win 3).blk t).view.emb p) = (V c (Pipeline.arrRef spec2 3)) q
    refine congrArg (V c (Pipeline.arrRef spec2 3)) (funext fun a => Fin.ext ?_)
    have hp' : (p 0).val = (y 0).val := hp
    match a with
    | ⟨0, _⟩ => show win2_3.index t (0 : Fin 2) * 2000 + 1 * (p 0).val = (q 0).val; omega
    | ⟨1, _⟩ => show win2_3.index t (1 : Fin 2) * 128 + 1 * (p 1).val = (q 1).val; omega
  · show (V c (Pipeline.arrRef spec2 11)) (((cfg2.win 11).blk t).view.emb p) = (V c (Pipeline.arrRef spec2 11)) q
    refine congrArg (V c (Pipeline.arrRef spec2 11)) (funext fun a => Fin.ext ?_)
    match a with
    | ⟨0, _⟩ => show win2_11.index t (0 : Fin 2) * 128 + 1 * (p 0).val = (q 0).val; omega
    | ⟨1, _⟩ => show win2_11.index t (1 : Fin 2) * 128 + 1 * (p 1).val = (q 1).val; omega
  · show (V c (Pipeline.arrRef spec2 13)) (((cfg2.win 13).blk t).view.emb p) = (V c (Pipeline.arrRef spec2 13)) q
    refine congrArg (V c (Pipeline.arrRef spec2 13)) (funext fun a => Fin.ext ?_)
    match a with
    | ⟨0, _⟩ => show win2_13.index t (0 : Fin 2) * 128 + 1 * (p 0).val = (q 0).val; omega
    | ⟨1, _⟩ => show win2_13.index t (1 : Fin 2) * 128 + 1 * (p 1).val = (q 1).val; omega
  · show (V c (Pipeline.arrRef spec2 12)) (((cfg2.win 12).blk t).view.emb p) = (V c (Pipeline.arrRef spec2 12)) q
    refine congrArg (V c (Pipeline.arrRef spec2 12)) (funext fun a => Fin.ext ?_)
    match a with
    | ⟨0, _⟩ => show win2_12.index t (0 : Fin 1) * 128 + 1 * (p 0).val = (q 0).val; omega
  · show (V c (Pipeline.arrRef spec2 14)) (((cfg2.win 14).blk t).view.emb p) = (V c (Pipeline.arrRef spec2 14)) q
    refine congrArg (V c (Pipeline.arrRef spec2 14)) (funext fun a => Fin.ext ?_)
    match a with
    | ⟨0, _⟩ => show win2_14.index t (0 : Fin 1) * 128 + 1 * (p 0).val = (q 0).val; omega
  · show (V c (Pipeline.arrRef spec2 15)) (((cfg2.win 15).blk t).view.emb p) = (V c (Pipeline.arrRef spec2 15)) q
    refine congrArg (V c (Pipeline.arrRef spec2 15)) (funext fun a => Fin.ext ?_)
    match a with
    | ⟨0, _⟩ => show win2_15.index t (0 : Fin 1) * 128 + 1 * (p 0).val = (q 0).val; omega
  · show (V c (Pipeline.arrRef spec2 16)) (((cfg2.win 16).blk t).view.emb p) = (V c (Pipeline.arrRef spec2 16)) q
    refine congrArg (V c (Pipeline.arrRef spec2 16)) (funext fun a => Fin.ext ?_)
    match a with
    | ⟨0, _⟩ => show win2_16.index t (0 : Fin 1) * 128 + 1 * (p 0).val = (q 0).val; omega
  · show (V c (Pipeline.arrRef spec2 17)) (((cfg2.win 17).blk t).view.emb p) = (V c (Pipeline.arrRef spec2 17)) q
    refine congrArg (V c (Pipeline.arrRef spec2 17)) (funext fun a => Fin.ext ?_)
    match a with
    | ⟨0, _⟩ => show win2_17.index t (0 : Fin 1) * 128 + 1 * (p 0).val = (q 0).val; omega

/-- An entry of output array 19 is in point t's block iff each coordinate is in the block's range on its axis. -/
theorem sage2_mem_blk19 (t : Fin cfg2.N) (i : S100000x128.Idx) :
    i ∈ ((cfg2.win 19).blk t).view.set ↔ ∀ a : Fin 2, win2_19.index t a * S2000x128.size a ≤ (i a).val
      ∧ (i a).val < win2_19.index t a * S2000x128.size a + S2000x128.size a := by
  show i ∈ ((View.whole main_v75_1).slice (win2_19.rect t)).set ↔ _
  rw [View.set_slice_whole, Rect.mem_set_unit]
  exact Iff.rfl

/-- The fifty row blocks tile output array 19: row r lies in block r / 2000. -/
theorem sage2_cover19 (i : S100000x128.Idx) :
    ∃ t : Fin cfg2.N, (cfg2.win 19).flush t = true ∧ i ∈ ((cfg2.win 19).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by rw [show cfg2.N = 50 from N_2]; omega⟩, rfl⟩
  obtain ⟨r0a, r0b, r1a, r1b, r2a, r2b, r3a, r3b, r18a, r18b, r19a, r19b⟩ := sage2_rows t
  refine ⟨t, flush2_19 t, ?_⟩
  rw [sage2_mem_blk19]
  intro a
  match a with
  | ⟨0, _⟩ =>
    show win2_19.index t (0 : Fin 2) * 2000 ≤ (i 0).val ∧ (i 0).val < win2_19.index t (0 : Fin 2) * 2000 + 2000
    omega
  | ⟨1, _⟩ =>
    show win2_19.index t (1 : Fin 2) * 128 ≤ (i 1).val ∧ (i 1).val < win2_19.index t (1 : Fin 2) * 128 + 128
    omega

/-- Output array 19 after the region: the stage of the arrays as the region finds them. -/
theorem final2_19 (c : Dev nD) :
    (dat2 V c).arrAt 19 cfg2.N
      = sageF (V c (Pipeline.arrRef spec2 2)) (V c (Pipeline.arrRef spec2 3)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) :=
  (dat2 V c).arrAt_eq_of_cover 19
    (sageF (V c (Pipeline.arrRef spec2 2)) (V c (Pipeline.arrRef spec2 3)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)))
    (fun t _ => sage2_flushed19 V c t) sage2_cover19

end Region2

end Cert.KernelIdeal.Hand

end
-- ==== Proof.KernelIdeal.SageValue3.lean ====
/-
  Region 3's two output arrays: the second hetero-SAGE layer on whole arrays. The region runs the stage body on fifty blocks of
  2000 rows: at point t it reads row block t of the two aggregated-neighbour arrays and of the two node-feature arrays,
  the four weight matrices and the ten 128-vectors whole, and writes row block t of each of the two outputs. Each written
  block is the corresponding block of ONE function of the whole arrays, the specification's stage, and the fifty blocks
  tile each output, so each array ends holding the stage of the arrays as the region finds them. Generic in the contents
  the region finds.
-/
import proofs.«100324_j78829829750888_1_alg».proof.Proof.KernelIdeal.R3
import proofs.«100324_j78829829750888_1_alg».proof.Proof.KernelIdeal.SageBlock
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window cellOf)

section Region3
open Idealize.ShloMosaic.ValueIdx Cert.SageSpec Cert.KernelIdeal.SagePay

variable (V : (c : Dev nD) → (b : Ref sig .tc) → Buf (Elt Ideal) ((c : Thread nD τ).loc b))

/-! The printed index maps, decided over the grid. At point t the four row-blocked inputs and the two outputs are at row
    block t; the weight matrices and the 128-vectors are whole, at block 0. -/

theorem sage3_rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_18.index t (0 : Fin 2) = t.val ∧ win3_18.index t (1 : Fin 2) = 0
    ∧ win3_19.index t (0 : Fin 2) = t.val ∧ win3_19.index t (1 : Fin 2) = 0 :=
  (by decide +kernel : ∀ t : Fin grid3.N, _)

theorem sage3_mats : ∀ t : Fin cfg3.N,
    win3_4.index t (0 : Fin 2) = 0 ∧ win3_4.index t (1 : Fin 2) = 0
    ∧ win3_6.index t (0 : Fin 2) = 0 ∧ win3_6.index t (1 : Fin 2) = 0
    ∧ win3_11.index t (0 : Fin 2) = 0 ∧ win3_11.index t (1 : Fin 2) = 0
    ∧ win3_13.index t (0 : Fin 2) = 0 ∧ win3_13.index t (1 : Fin 2) = 0 :=
  (by decide +kernel : ∀ t : Fin grid3.N, _)

theorem sage3_vecs : ∀ t : Fin cfg3.N,
    win3_5.index t (0 : Fin 1) = 0
    ∧ win3_7.index t (0 : Fin 1) = 0
    ∧ win3_8.index t (0 : Fin 1) = 0
    ∧ win3_9.index t (0 : Fin 1) = 0
    ∧ win3_10.index t (0 : Fin 1) = 0
    ∧ win3_12.index t (0 : Fin 1) = 0
    ∧ win3_14.index t (0 : Fin 1) = 0
    ∧ win3_15.index t (0 : Fin 1) = 0
    ∧ win3_16.index t (0 : Fin 1) = 0
    ∧ win3_17.index t (0 : Fin 1) = 0 :=
  (by decide +kernel : ∀ t : Fin grid3.N, _)

set_option maxHeartbeats 4000000 in
/-- What point t writes back to output window 18 is block t of the stage of the arrays as the region finds them. -/
theorem sage3_flushed18 (c : Dev nD) (t : Fin cfg3.N) :
    (dat3 V c).flushed 18 t = ((cfg3.win 18).blk t).view.read (Elt Ideal)
      (sageF (V c (Pipeline.arrRef spec3 0)) (V c (Pipeline.arrRef spec3 1)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))) := by
  show (cfg3.win 18).cut (grid3.coords t) ((dat3 V c).after 18 t) = _
  rw [after3_18]
  unfold out3_18
  rw [View.canon_unit_zero sage_hz2]
  simp only [View.ld_unit_zero (S := S2000x128) sage_hz2, View.ld_unit_zero (S := S128x128) sage_hz2, View.ld_unit_zero (S := S128) sage_hz1]
  obtain ⟨r0a, r0b, r1a, r1b, r2a, r2b, r3a, r3b, r18a, r18b, r19a, r19b⟩ := sage3_rows t
  obtain ⟨m4a, m4b, m6a, m6b, m11a, m11b, m13a, m13b⟩ := sage3_mats t
  obtain ⟨v5, v7, v8, v9, v10, v12, v14, v15, v16, v17⟩ := sage3_vecs t
  funext y
  show k3_pay4 (F := Ideal) (k3_pay2 (iblk3 V c 1 t)) (k3_pay3 (iblk3 V c 0 t) (iblk3 V c 1 t) (iblk3 V c 4 t) (iblk3 V c 6 t) (iblk3 V c 5 t) (iblk3 V c 7 t) (iblk3 V c 8 t) (iblk3 V c 9 t) (iblk3 V c 10 t)) ((cfg3.win 18).xinj (grid3.coords t) y)
      = sageF (V c (Pipeline.arrRef spec3 0)) (V c (Pipeline.arrRef spec3 1)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))
          (((cfg3.win 18).blk t).view.emb y)
  have o0 : ((((cfg3.win 18).blk t).view.emb y) 0).val = win3_18.index t (0 : Fin 2) * 2000 + 1 * (y 0).val := rfl
  have o1 : ((((cfg3.win 18).blk t).view.emb y) 1).val = win3_18.index t (1 : Fin 2) * 128 + 1 * (y 1).val := rfl
  refine sage3_first_entry _ _ _ _ _ _ _ _ _ _ _ _ _ _ _ _ _ _ _ _
    (show ((((cfg3.win 18).blk t).view.emb y) 1).val = (y 1).val by rw [o1, r18b]; omega)
    (fun p q hp hq0 hq1 => ?_) (fun p q hp hq0 hq1 => ?_) (fun p q hq0 hq1 => ?_) (fun p q hq0 hq1 => ?_)
    (fun p q hq => ?_) (fun p q hq => ?_) (fun p q hq => ?_) (fun p q hq => ?_) (fun p q hq => ?_)
  · show (V c (Pipeline.arrRef spec3 0)) (((cfg3.win 0).blk t).view.emb p) = (V c (Pipeline.arrRef spec3 0)) q
    refine congrArg (V c (Pipeline.arrRef spec3 0)) (funext fun a => Fin.ext ?_)
    have hp' : (p 0).val = (y 0).val := hp
    match a with
    | ⟨0, _⟩ => show win3_0.index t (0 : Fin 2) * 2000 + 1 * (p 0).val = (q 0).val; omega
    | ⟨1, _⟩ => show win3_0.index t (1 : Fin 2) * 128 + 1 * (p 1).val = (q 1).val; omega
  · show (V c (Pipeline.arrRef spec3 1)) (((cfg3.win 1).blk t).view.emb p) = (V c (Pipeline.arrRef spec3 1)) q
    refine congrArg (V c (Pipeline.arrRef spec3 1)) (funext fun a => Fin.ext ?_)
    have hp' : (p 0).val = (y 0).val := hp
    match a with
    | ⟨0, _⟩ => show win3_1.index t (0 : Fin 2) * 2000 + 1 * (p 0).val = (q 0).val; omega
    | ⟨1, _⟩ => show win3_1.index t (1 : Fin 2) * 128 + 1 * (p 1).val = (q 1).val; omega
  · show (V c (Pipeline.arrRef spec3 4)) (((cfg3.win 4).blk t).view.emb p) = (V c (Pipeline.arrRef spec3 4)) q
    refine congrArg (V c (Pipeline.arrRef spec3 4)) (funext fun a => Fin.ext ?_)
    match a with
    | ⟨0, _⟩ => show win3_4.index t (0 : Fin 2) * 128 + 1 * (p 0).val = (q 0).val; omega
    | ⟨1, _⟩ => show win3_4.index t (1 : Fin 2) * 128 + 1 * (p 1).val = (q 1).val; omega
  · show (V c (Pipeline.arrRef spec3 6)) (((cfg3.win 6).blk t).view.emb p) = (V c (Pipeline.arrRef spec3 6)) q
    refine congrArg (V c (Pipeline.arrRef spec3 6)) (funext fun a => Fin.ext ?_)
    match a with
    | ⟨0, _⟩ => show win3_6.index t (0 : Fin 2) * 128 + 1 * (p 0).val = (q 0).val; omega
    | ⟨1, _⟩ => show win3_6.index t (1 : Fin 2) * 128 + 1 * (p 1).val = (q 1).val; omega
  · show (V c (Pipeline.arrRef spec3 5)) (((cfg3.win 5).blk t).view.emb p) = (V c (Pipeline.arrRef spec3 5)) q
    refine congrArg (V c (Pipeline.arrRef spec3 5)) (funext fun a => Fin.ext ?_)
    match a with
    | ⟨0, _⟩ => show win3_5.index t (0 : Fin 1) * 128 + 1 * (p 0).val = (q 0).val; omega
  · show (V c (Pipeline.arrRef spec3 7)) (((cfg3.win 7).blk t).view.emb p) = (V c (Pipeline.arrRef spec3 7)) q
    refine congrArg (V c (Pipeline.arrRef spec3 7)) (funext fun a => Fin.ext ?_)
    match a with
    | ⟨0, _⟩ => show win3_7.index t (0 : Fin 1) * 128 + 1 * (p 0).val = (q 0).val; omega
  · show (V c (Pipeline.arrRef spec3 8)) (((cfg3.win 8).blk t).view.emb p) = (V c (Pipeline.arrRef spec3 8)) q
    refine congrArg (V c (Pipeline.arrRef spec3 8)) (funext fun a => Fin.ext ?_)
    match a with
    | ⟨0, _⟩ => show win3_8.index t (0 : Fin 1) * 128 + 1 * (p 0).val = (q 0).val; omega
  · show (V c (Pipeline.arrRef spec3 9)) (((cfg3.win 9).blk t).view.emb p) = (V c (Pipeline.arrRef spec3 9)) q
    refine congrArg (V c (Pipeline.arrRef spec3 9)) (funext fun a => Fin.ext ?_)
    match a with
    | ⟨0, _⟩ => show win3_9.index t (0 : Fin 1) * 128 + 1 * (p 0).val = (q 0).val; omega
  · show (V c (Pipeline.arrRef spec3 10)) (((cfg3.win 10).blk t).view.emb p) = (V c (Pipeline.arrRef spec3 10)) q
    refine congrArg (V c (Pipeline.arrRef spec3 10)) (funext fun a => Fin.ext ?_)
    match a with
    | ⟨0, _⟩ => show win3_10.index t (0 : Fin 1) * 128 + 1 * (p 0).val = (q 0).val; omega

/-- An entry of output array 18 is in point t's block iff each coordinate is in the block's range on its axis. -/
theorem sage3_mem_blk18 (t : Fin cfg3.N) (i : S100000x128.Idx) :
    i ∈ ((cfg3.win 18).blk t).view.set ↔ ∀ a : Fin 2, win3_18.index t a * S2000x128.size a ≤ (i a).val
      ∧ (i a).val < win3_18.index t a * S2000x128.size a + S2000x128.size a := by
  show i ∈ ((View.whole main_v128_0).slice (win3_18.rect t)).set ↔ _
  rw [View.set_slice_whole, Rect.mem_set_unit]
  exact Iff.rfl

/-- The fifty row blocks tile output array 18: row r lies in block r / 2000. -/
theorem sage3_cover18 (i : S100000x128.Idx) :
    ∃ t : Fin cfg3.N, (cfg3.win 18).flush t = true ∧ i ∈ ((cfg3.win 18).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, by rw [show cfg3.N = 50 from N_3]; omega⟩, rfl⟩
  obtain ⟨r0a, r0b, r1a, r1b, r2a, r2b, r3a, r3b, r18a, r18b, r19a, r19b⟩ := sage3_rows t
  refine ⟨t, flush3_18 t, ?_⟩
  rw [sage3_mem_blk18]
  intro a
  match a with
  | ⟨0, _⟩ =>
    show win3_18.index t (0 : Fin 2) * 2000 ≤ (i 0).val ∧ (i 0).val < win3_18.index t (0 : Fin 2) * 2000 + 2000
    omega
  | ⟨1, _⟩ =>
    show win3_18.index t (1 : Fin 2) * 128 ≤ (i 1).val ∧ (i 1).val < win3_18.index t (1 : Fin 2) * 128 + 128
    omega

/-- Output array 18 after the region: the stage of the arrays as the region finds them. -/
theorem final3_18 (c : Dev nD) :
    (dat3 V c).arrAt 18 cfg3.N
      = sageF (V c (Pipeline.arrRef spec3 0)) (V c (Pipeline.arrRef spec3 1)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) :=
  (dat3 V c).arrAt_eq_of_cover 18
    (sageF (V c (Pipeline.arrRef spec3 0)) (V c (Pipeline.arrRef spec3 1)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)))
    (fun t _ => sage3_flushed18 V c t) sage3_cover18

set_option maxHeartbeats 4000000 in
/-- What point t writes back to output window 19 is block t of the stage of the arrays as the region finds them. -/
theorem sage3_flushed19 (c : Dev nD) (t : Fin cfg3.N) :
    (dat3 V c).flushed 19 t = ((cfg3.win 19).blk t).view.read (Elt Ideal)
      (sageF (V c (Pipeline.arrRef spec3 2)) (V c (Pipeline.arrRef spec3 3)) (V c (Pipeline.arrRef spec3 11)) (V c (Pipeline.arrRef spec3 12)) (V c (Pipeline.arrRef spec3 13)) (V c (Pipeline.arrRef spec3 14)) (V c (Pipeline.arrRef spec3 15)) (V c (Pipeline.arrRef spec3 16)) (V c (Pipeline.arrRef spec3 17))) := by
  show (cfg3.win 19).cut (grid3.coords t) ((dat3 V c).after 19 t) = _
  rw [after3_19]
  unfold out3_19
  rw [View.canon_unit_zero sage_hz2]
  simp only [View.ld_unit_zero (S := S2000x128) sage_hz2, View.ld_unit_zero (S := S128x128) sage_hz2, View.ld_unit_zero (S := S128) sage_hz1]
  obtain ⟨r0a, r0b, r1a, r1b, r2a, r2b, r3a, r3b, r18a, r18b, r19a, r19b⟩ := sage3_rows t
  obtain ⟨m4a, m4b, m6a, m6b, m11a, m11b, m13a, m13b⟩ := sage3_mats t
  obtain ⟨v5, v7, v8, v9, v10, v12, v14, v15, v16, v17⟩ := sage3_vecs t
  funext y
  show k3_pay1 (F := Ideal) (k3_pay5 (iblk3 V c 3 t)) (k3_pay6 (iblk3 V c 14 t)) (k3_pay7 (iblk3 V c 15 t)) (k3_pay8 (iblk3 V c 2 t) (iblk3 V c 3 t) (iblk3 V c 11 t) (iblk3 V c 13 t) (iblk3 V c 12 t) (iblk3 V c 16 t)) (k3_pay9 (iblk3 V c 17 t)) ((cfg3.win 19).xinj (grid3.coords t) y)
      = sageF (V c (Pipeline.arrRef spec3 2)) (V c (Pipeline.arrRef spec3 3)) (V c (Pipeline.arrRef spec3 11)) (V c (Pipeline.arrRef spec3 12)) (V c (Pipeline.arrRef spec3 13)) (V c (Pipeline.arrRef spec3 14)) (V c (Pipeline.arrRef spec3 15)) (V c (Pipeline.arrRef spec3 16)) (V c (Pipeline.arrRef spec3 17))
          (((cfg3.win 19).blk t).view.emb y)
  have o0 : ((((cfg3.win 19).blk t).view.emb y) 0).val = win3_19.index t (0 : Fin 2) * 2000 + 1 * (y 0).val := rfl
  have o1 : ((((cfg3.win 19).blk t).view.emb y) 1).val = win3_19.index t (1 : Fin 2) * 128 + 1 * (y 1).val := rfl
  refine sage3_second_entry _ _ _ _ _ _ _ _ _ _ _ _ _ _ _ _ _ _ _ _
    (show ((((cfg3.win 19).blk t).view.emb y) 1).val = (y 1).val by rw [o1, r19b]; omega)
    (fun p q hp hq0 hq1 => ?_) (fun p q hp hq0 hq1 => ?_) (fun p q hq0 hq1 => ?_) (fun p q hq0 hq1 => ?_)
    (fun p q hq => ?_) (fun p q hq => ?_) (fun p q hq => ?_) (fun p q hq => ?_) (fun p q hq => ?_)
  · show (V c (Pipeline.arrRef spec3 2)) (((cfg3.win 2).blk t).view.emb p) = (V c (Pipeline.arrRef spec3 2)) q
    refine congrArg (V c (Pipeline.arrRef spec3 2)) (funext fun a => Fin.ext ?_)
    have hp' : (p 0).val = (y 0).val := hp
    match a with
    | ⟨0, _⟩ => show win3_2.index t (0 : Fin 2) * 2000 + 1 * (p 0).val = (q 0).val; omega
    | ⟨1, _⟩ => show win3_2.index t (1 : Fin 2) * 128 + 1 * (p 1).val = (q 1).val; omega
  · show (V c (Pipeline.arrRef spec3 3)) (((cfg3.win 3).blk t).view.emb p) = (V c (Pipeline.arrRef spec3 3)) q
    refine congrArg (V c (Pipeline.arrRef spec3 3)) (funext fun a => Fin.ext ?_)
    have hp' : (p 0).val = (y 0).val := hp
    match a with
    | ⟨0, _⟩ => show win3_3.index t (0 : Fin 2) * 2000 + 1 * (p 0).val = (q 0).val; omega
    | ⟨1, _⟩ => show win3_3.index t (1 : Fin 2) * 128 + 1 * (p 1).val = (q 1).val; omega
  · show (V c (Pipeline.arrRef spec3 11)) (((cfg3.win 11).blk t).view.emb p) = (V c (Pipeline.arrRef spec3 11)) q
    refine congrArg (V c (Pipeline.arrRef spec3 11)) (funext fun a => Fin.ext ?_)
    match a with
    | ⟨0, _⟩ => show win3_11.index t (0 : Fin 2) * 128 + 1 * (p 0).val = (q 0).val; omega
    | ⟨1, _⟩ => show win3_11.index t (1 : Fin 2) * 128 + 1 * (p 1).val = (q 1).val; omega
  · show (V c (Pipeline.arrRef spec3 13)) (((cfg3.win 13).blk t).view.emb p) = (V c (Pipeline.arrRef spec3 13)) q
    refine congrArg (V c (Pipeline.arrRef spec3 13)) (funext fun a => Fin.ext ?_)
    match a with
    | ⟨0, _⟩ => show win3_13.index t (0 : Fin 2) * 128 + 1 * (p 0).val = (q 0).val; omega
    | ⟨1, _⟩ => show win3_13.index t (1 : Fin 2) * 128 + 1 * (p 1).val = (q 1).val; omega
  · show (V c (Pipeline.arrRef spec3 12)) (((cfg3.win 12).blk t).view.emb p) = (V c (Pipeline.arrRef spec3 12)) q
    refine congrArg (V c (Pipeline.arrRef spec3 12)) (funext fun a => Fin.ext ?_)
    match a with
    | ⟨0, _⟩ => show win3_12.index t (0 : Fin 1) * 128 + 1 * (p 0).val = (q 0).val; omega
  · show (V c (Pipeline.arrRef spec3 14)) (((cfg3.win 14).blk t).view.emb p) = (V c (Pipeline.arrRef spec3 14)) q
    refine congrArg (V c (Pipeline.arrRef spec3 14)) (funext fun a => Fin.ext ?_)
    match a with
    | ⟨0, _⟩ => show win3_14.index t (0 : Fin 1) * 128 + 1 * (p 0).val = (q 0).val; omega
  · show (V c (Pipeline.arrRef spec3 15)) (((cfg3.win 15).blk t).view.emb p) = (V c (Pipeline.arrRef spec3 15)) q
    refine congrArg (V c (Pipeline.arrRef spec3 15)) (funext fun a => Fin.ext ?_)
    match a with
    | ⟨0, _⟩ => show win3_15.index t (0 : Fin 1) * 128 + 1 * (p 0).val = (q 0).val; omega
  · show (V c (Pipeline.arrRef spec3 16)) (((cfg3.win 16).blk t).view.emb p) = (V c (Pipeline.arrRef spec3 16)) q
    refine congrArg (V c (Pipeline.arrRef spec3 16)) (funext fun a => Fin.ext ?_)
    match a with
    | ⟨0, _⟩ => show win3_16.index t (0 : Fin 1) * 128 + 1 * (p 0).val = (q 0).val; omega
  · show (V c (Pipeline.arrRef spec3 17)) (((cfg3.win 17).blk t).view.emb p) = (V c (Pipeline.arrRef spec3 17)) q
    refine congrArg (V c (Pipeline.arrRef spec3 17)) (funext fun a => Fin.ext ?_)
    match a with
    | ⟨0, _⟩ => show win3_17.index t (0 : Fin 1) * 128 + 1 * (p 0).val = (q 0).val; omega

/-- An entry of output array 19 is in point t's block iff each coordinate is in the block's range on its axis. -/
theorem sage3_mem_blk19 (t : Fin cfg3.N) (i : S100000x128.Idx) :
    i ∈ ((cfg3.win 19).blk t).view.set ↔ ∀ a : Fin 2, win3_19.index t a * S2000x128.size a ≤ (i a).val
      ∧ (i a).val < win3_19.index t a * S2000x128.size a + S2000x128.size a := by
  show i ∈ ((View.whole main_v128_1).slice (win3_19.rect t)).set ↔ _
  rw [View.set_slice_whole, Rect.mem_set_unit]
  exact Iff.rfl

/-- The fifty row blocks tile output array 19: row r lies in block r / 2000. -/
theorem sage3_cover19 (i : S100000x128.Idx) :
    ∃ t : Fin cfg3.N, (cfg3.win 19).flush t = true ∧ i ∈ ((cfg3.win 19).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, by rw [show cfg3.N = 50 from N_3]; omega⟩, rfl⟩
  obtain ⟨r0a, r0b, r1a, r1b, r2a, r2b, r3a, r3b, r18a, r18b, r19a, r19b⟩ := sage3_rows t
  refine ⟨t, flush3_19 t, ?_⟩
  rw [sage3_mem_blk19]
  intro a
  match a with
  | ⟨0, _⟩ =>
    show win3_19.index t (0 : Fin 2) * 2000 ≤ (i 0).val ∧ (i 0).val < win3_19.index t (0 : Fin 2) * 2000 + 2000
    omega
  | ⟨1, _⟩ =>
    show win3_19.index t (1 : Fin 2) * 128 ≤ (i 1).val ∧ (i 1).val < win3_19.index t (1 : Fin 2) * 128 + 128
    omega

/-- Output array 19 after the region: the stage of the arrays as the region finds them. -/
theorem final3_19 (c : Dev nD) :
    (dat3 V c).arrAt 19 cfg3.N
      = sageF (V c (Pipeline.arrRef spec3 2)) (V c (Pipeline.arrRef spec3 3)) (V c (Pipeline.arrRef spec3 11)) (V c (Pipeline.arrRef spec3 12)) (V c (Pipeline.arrRef spec3 13)) (V c (Pipeline.arrRef spec3 14)) (V c (Pipeline.arrRef spec3 15)) (V c (Pipeline.arrRef spec3 16)) (V c (Pipeline.arrRef spec3 17)) :=
  (dat3 V c).arrAt_eq_of_cover 19
    (sageF (V c (Pipeline.arrRef spec3 2)) (V c (Pipeline.arrRef spec3 3)) (V c (Pipeline.arrRef spec3 11)) (V c (Pipeline.arrRef spec3 12)) (V c (Pipeline.arrRef spec3 13)) (V c (Pipeline.arrRef spec3 14)) (V c (Pipeline.arrRef spec3 15)) (V c (Pipeline.arrRef spec3 16)) (V c (Pipeline.arrRef spec3 17)))
    (fun t _ => sage3_flushed19 V c t) sage3_cover19

end Region3

end Cert.KernelIdeal.Hand

end
-- ==== Proof.KernelIdeal.MlpPay.lean ====
/-
  The edge perceptron's body at an entry. The body computes, on a block of 5000 rows, the hidden activations (two dense
  layers, the first followed by batch normalisation) and then the head (the third dense layer and the logistic
  function). Read at the entry (r, c) of the output block, at the ideal values, that is the score of row r of the
  feature block: format changes are the identity, a product into the zero block is the plain sum of products over the
  contracted coordinate, a vector cast to a row and copied down the block reads the vector's entry at the column, and
  0 − z is −z.
-/
import proofs.«100324_j78829829750888_1_alg».proof.Proof.Gen.KernelIdeal.Skeleton
import proofs.«100324_j78829829750888_1_alg».proof.Proof.MlpSpec
import Idealize.ShloMosaic.Lib.ValueIdx
import Idealize.ShloMosaic.Lib.Pipeline.Value
import Idealize.ShloMosaic.PureOps.Ideal.Laws

noncomputable section

open scoped BigOperators

namespace Cert.KernelIdeal.Hand.MlpPay
open Cert.KernelIdeal Cert.KernelIdeal.Gen Idealize.ShloMosaic Idealize.ShloMosaic.ValueIdx

/-- A vector of n entries cast to one row and copied into every row of an m × n block, at the entry (r, j): the
    vector's entry j. (For n = 1 the block's only column reads the vector's only entry.) -/
theorem row_apply {α : Type} {m n : Nat} (v : (⟨1, ![n]⟩ : Shape).Idx → α) (h1 : (⟨1, ![n]⟩ : Shape).ShapeCasts ⟨2, ![1, n]⟩)
    (hb : (⟨2, ![1, n]⟩ : Shape).Broadcasts ⟨2, ![m, n]⟩) (r : Fin m) (j : Fin n) :
    broadcastTo ⟨2, ![m, n]⟩ (shapeCast ⟨2, ![1, n]⟩ v h1) hb (ix2 r j) = v (ix1 j) := by
  refine (broadcastTo_apply _ hb _ (ix2 ⟨0, Nat.one_pos⟩ j) (fun a => ?_)).trans
    (shapeCast_apply v h1 _ (ix1 j) (by rw [Shape.rowMajor_val_one, Shape.rowMajor_val_two]; show j.val = 0 * n + j.val; omega))
  match a with
  | ⟨0, _⟩ => show (0 : Nat) = if (1 : Nat) = 1 then 0 else _; rw [if_pos rfl]
  | ⟨1, _⟩ =>
    show j.val = if n = 1 then 0 else j.val
    split
    · have := j.isLt; omega
    · rfl

/-! The product S5000x272 · S272x128 -/

theorem lhs1_0 (i : S5000x128.Idx) (q : dot_S5000x272_S272x128_S5000x128_1_0_0_1_n_n.contr.Idx) :
    (dot_S5000x272_S272x128_S5000x128_1_0_0_1_n_n.lhsIdx i q 0).val = (i 0).val := by
  unfold DotDims.lhsIdx
  rw [dif_neg (show ¬(0 : Fin S5000x272.rank) ∈ dot_S5000x272_S272x128_S5000x128_1_0_0_1_n_n.lhsBatch by decide), dif_pos (show (0 : Fin S5000x272.rank) ∈ dot_S5000x272_S272x128_S5000x128_1_0_0_1_n_n.lhsNonContracting by decide)]
  rfl
theorem lhs1_1 (i : S5000x128.Idx) (q : dot_S5000x272_S272x128_S5000x128_1_0_0_1_n_n.contr.Idx) :
    (dot_S5000x272_S272x128_S5000x128_1_0_0_1_n_n.lhsIdx i q 1).val = (q ⟨0, by decide⟩).val :=
  dot_S5000x272_S272x128_S5000x128_1_0_0_1_n_n.lhsIdx_val_of_single rfl i q
theorem rhs1_0 (i : S5000x128.Idx) (q : dot_S5000x272_S272x128_S5000x128_1_0_0_1_n_n.contr.Idx) :
    (dot_S5000x272_S272x128_S5000x128_1_0_0_1_n_n.rhsIdx i q 0).val = (q ⟨0, by decide⟩).val :=
  dot_S5000x272_S272x128_S5000x128_1_0_0_1_n_n.rhsIdx_val_of_single rfl i q
theorem rhs1_1 (i : S5000x128.Idx) (q : dot_S5000x272_S272x128_S5000x128_1_0_0_1_n_n.contr.Idx) :
    (dot_S5000x272_S272x128_S5000x128_1_0_0_1_n_n.rhsIdx i q 1).val = (i 1).val := by
  unfold DotDims.rhsIdx
  rw [dif_neg (show ¬(1 : Fin S272x128.rank) ∈ dot_S5000x272_S272x128_S5000x128_1_0_0_1_n_n.rhsBatch by decide), dif_pos (show (1 : Fin S272x128.rank) ∈ dot_S5000x272_S272x128_S5000x128_1_0_0_1_n_n.rhsNonContracting by decide)]
  rfl

/-- The product accumulated into the zero block, at the entry (r, j): the sum over the contracted coordinate. -/
theorem mm1_apply {φ₁ φ₂ : FTy} (A : FVec Ideal S5000x272 φ₁) (B : FVec Ideal S272x128 φ₂) (r : Fin 5000) (j : Fin 128) :
    matmul (F := Ideal) dot_S5000x272_S272x128_S5000x128_1_0_0_1_n_n none A B (constant S5000x128 .f32 0x00000000#32) (ix2 r j)
      = ∑ k : Fin 272, A (ix2 r k) * B (ix2 k j) := by
  show FloatOps.matmul _ none A B _ (ix2 r j) = _
  rw [Ideal.matmul_constant_zero_apply, ← Equiv.sum_comp (contrEquiv1 dot_S5000x272_S272x128_S5000x128_1_0_0_1_n_n 272 rfl rfl).symm]
  refine Finset.sum_congr rfl fun k _ => ?_
  have hk := contrEquiv1_symm_val dot_S5000x272_S272x128_S5000x128_1_0_0_1_n_n 272 rfl rfl k
  have el : dot_S5000x272_S272x128_S5000x128_1_0_0_1_n_n.lhsIdx (ix2 r j) ((contrEquiv1 dot_S5000x272_S272x128_S5000x128_1_0_0_1_n_n 272 rfl rfl).symm k) = ix2 r k := funext fun a => Fin.ext (by
    match a with
    | ⟨0, _⟩ => exact lhs1_0 _ _
    | ⟨1, _⟩ => exact (lhs1_1 _ _).trans hk)
  have er : dot_S5000x272_S272x128_S5000x128_1_0_0_1_n_n.rhsIdx (ix2 r j) ((contrEquiv1 dot_S5000x272_S272x128_S5000x128_1_0_0_1_n_n 272 rfl rfl).symm k) = ix2 k j := funext fun a => Fin.ext (by
    match a with
    | ⟨0, _⟩ => exact (rhs1_0 _ _).trans hk
    | ⟨1, _⟩ => exact rhs1_1 _ _)
  rw [el, er]

/-! The product S5000x128 · S128x64 -/

theorem lhs2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product accumulated into the zero block, at the entry (r, j): the sum over the contracted coordinate. -/
theorem mm2_apply {φ₁ φ₂ : FTy} (A : FVec Ideal S5000x128 φ₁) (B : FVec Ideal S128x64 φ₂) (r : Fin 5000) (j : Fin 64) :
    matmul (F := Ideal) dot_S5000x128_S128x64_S5000x64_1_0_0_1_n_n none A B (constant S5000x64 .f32 0x00000000#32) (ix2 r j)
      = ∑ k : Fin 128, A (ix2 r k) * B (ix2 k j) := by
  show FloatOps.matmul _ none A B _ (ix2 r j) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhs2_0 _ _
    | ⟨1, _⟩ => exact (lhs2_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! The product S5000x64 · S64x1 -/

theorem lhs3_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs3_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs3_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs3_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The product accumulated into the zero block, at the entry (r, j): the sum over the contracted coordinate. -/
theorem mm3_apply {φ₁ φ₂ : FTy} (A : FVec Ideal S5000x64 φ₁) (B : FVec Ideal S64x1 φ₂) (r : Fin 5000) (j : Fin 1) :
    matmul (F := Ideal) dot_S5000x64_S64x1_S5000x1_1_0_0_1_n_n none A B (constant S5000x1 .f32 0x00000000#32) (ix2 r j)
      = ∑ k : Fin 64, A (ix2 r k) * B (ix2 k j) := by
  show FloatOps.matmul _ none A B _ (ix2 r j) = _
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 r j) ((contrEquiv1 dot_S5000x64_S64x1_S5000x1_1_0_0_1_n_n 64 rfl rfl).symm k) = ix2 r k := funext fun a => Fin.ext (by
    match a with
    | ⟨0, _⟩ => exact lhs3_0 _ _
    | ⟨1, _⟩ => exact (lhs3_1 _ _).trans hk)
  have er : dot_S5000x64_S64x1_S5000x1_1_0_0_1_n_n.rhsIdx (ix2 r j) ((contrEquiv1 dot_S5000x64_S64x1_S5000x1_1_0_0_1_n_n 64 rfl rfl).symm k) = ix2 k j := funext fun a => Fin.ext (by
    match a with
    | ⟨0, _⟩ => exact (rhs3_0 _ _).trans hk
    | ⟨1, _⟩ => exact rhs3_1 _ _)
  rw [el, er]

/-- The vector reciprocal square root at an entry is the ideal one of the entry. -/
theorem rsqrt_apply {s : Shape} {φ : FTy} (a : FVec Ideal s φ) (i : s.Idx) : rsqrt a i = Ideal.rsqrt (a i) := rfl
/-- The vector exponential at an entry is the ideal one of the entry. -/
theorem exp_apply {s : Shape} {φ : FTy} (a : FVec Ideal s φ) (i : s.Idx) : exp a i = Ideal.exp (a i) := rfl

/-- The hidden activations the body hands to the head, at the entry (r, j) of the block: the second hidden layer of
    row r of the feature block. -/
theorem pay2_apply (v0 : Vec Ideal S5000x272 .f32) (v3 : Vec Ideal S272x128 .f32) (v6 v12 v13 v14 v15 : Vec Ideal S128 .f32)
    (v32 : Vec Ideal S128x64 .f32) (v35 : Vec Ideal S64 .f32) (r : Fin 5000) (j : Fin 64) :
    k4_pay2 (F := Ideal) v0 v3 v6 v12 v13 v14 v15 v32 v35 (ix2 r j)
      = Cert.Mlp.hid2 (fun k => v0 (ix2 r k)) v3 v6 v12 v13 v14 v15 v32 v35 j := by
  unfold k4_pay2 Cert.Mlp.hid2 Cert.Mlp.hid1
  simp only [truncf_apply, maximumf_apply, addf_apply, subf_apply, mulf_apply, broadcast_apply, rsqrt_apply,
    mm2_apply, mm1_apply, row_apply, shapeCast_self, Ideal.ofBits_def]

/-- The head at the entry (r, c) of the block: the logistic function of the affine image of row r of the hidden
    activations. -/
theorem pay1_apply (v41 : FVec Ideal S5000x64 .bf16) (v42 : Vec Ideal S64x1 .f32) (v45 : Vec Ideal S1 .f32) (r : Fin 5000) (c : Fin 1) :
    k4_pay1 (F := Ideal) v41 v42 v45 (ix2 r c)
      = Cert.Mlp.sigm ((∑ k : Fin 64, v41 (ix2 r k) * v42 (ix2 k c)) + v45 (ix1 ⟨0, Nat.one_pos⟩)) := by
  obtain rfl : c = ⟨0, Nat.one_pos⟩ := Fin.ext (by have := c.isLt; omega)
  unfold k4_pay1 Cert.Mlp.sigm
  simp only [truncf_apply, divf_apply, addf_apply, subf_apply, exp_apply, broadcast_apply, mm3_apply, row_apply,
    Ideal.ofBits_def, Ideal.ofBits_zero_f32, zero_sub]

/-- What the body stores at the entry (r, c) of the output block: the score of row r of the feature block. -/
theorem out_apply (v0 : Vec Ideal S5000x272 .f32) (v3 : Vec Ideal S272x128 .f32) (v6 v12 v13 v14 v15 : Vec Ideal S128 .f32)
    (v32 : Vec Ideal S128x64 .f32) (v35 : Vec Ideal S64 .f32) (v42 : Vec Ideal S64x1 .f32) (v45 : Vec Ideal S1 .f32)
    (r : Fin 5000) (c : Fin 1) :
    k4_pay1 (F := Ideal) (k4_pay2 v0 v3 v6 v12 v13 v14 v15 v32 v35) v42 v45 (ix2 r c)
      = Cert.Mlp.score (fun k => v0 (ix2 r k)) v3 v6 v12 v13 v14 v15 v32 v35 v42 v45 c := by
  rw [pay1_apply]
  unfold Cert.Mlp.score
  simp only [pay2_apply]

end Cert.KernelIdeal.Hand.MlpPay

end
-- ==== Proof.KernelIdeal.MlpValue.lean ====
/-
  From blocks to the array, for the edge perceptron's region. The grid has 100 points; point t takes rows
  t·5000 … t·5000 + 4999 of the feature array and all of every parameter array, and writes the same rows of the score
  array. What the body stores at the entry (r, cc) of its block is the score of row r of the feature block, which is
  row t·5000 + r of the feature array; so every point writes back its block of ONE whole-array function, the
  specification's perceptron of the arrays the region finds, and the blocks cover the score array (row i lies in the
  block of point i / 5000). Hence the score array ends holding that function.
-/
import proofs.«100324_j78829829750888_1_alg».proof.Proof.KernelIdeal.R4
import proofs.«100324_j78829829750888_1_alg».proof.Proof.KernelIdeal.MlpPay
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4_2 : (![0, 0] : Fin 2 → Nat) = fun _ => 0 := funext fun a => by fin_cases a <;> rfl
theorem hz4_1 : (![0] : Fin 1 → Nat) = fun _ => 0 := funext fun a => by fin_cases a; rfl

/-- The edge scores of the whole array, from the arrays the region finds. -/
abbrev G4 (c : Dev nD) : S500000x1.Idx → EReal :=
  Cert.Mlp.mlpF (V c (Pipeline.arrRef spec4 0)) (V c (Pipeline.arrRef spec4 1)) (V c (Pipeline.arrRef spec4 2)) (V c (Pipeline.arrRef spec4 3))
    (V c (Pipeline.arrRef spec4 4)) (V c (Pipeline.arrRef spec4 5)) (V c (Pipeline.arrRef spec4 6)) (V c (Pipeline.arrRef spec4 7))
    (V c (Pipeline.arrRef spec4 8)) (V c (Pipeline.arrRef spec4 9)) (V c (Pipeline.arrRef spec4 10))

/-- A block of 5000 rows whose row r is row n·5000 + r of the feature array, beside the whole parameter arrays: what
    the body stores at (r, cc) is the whole array's score at (n·5000 + r, cc). -/
theorem block_score (X : (⟨2, ![500000, 272]⟩ : Shape).Idx → EReal)
    (x0 : Vec Ideal S5000x272 .f32) (x1 : Vec Ideal S272x128 .f32) (x2 x3 x4 x5 x6 : Vec Ideal S128 .f32)
    (x7 : Vec Ideal S128x64 .f32) (x8 : Vec Ideal S64 .f32) (x9 : Vec Ideal S64x1 .f32) (x10 : Vec Ideal S1 .f32)
    (n : Nat) (hn : n < 100)
    (h0 : ∀ (r : Fin 5000) (k : Fin 272), x0 (ix2 r k) = X (ix2 ⟨n * 5000 + r.val, by have := r.isLt; omega⟩ k))
    (r : Fin 5000) (cc : Fin 1) :
    k4_pay1 (F := Ideal) (k4_pay2 x0 x1 x2 x3 x4 x5 x6 x7 x8) x9 x10 (ix2 r cc)
      = Cert.Mlp.mlpF X x1 x2 x3 x4 x5 x6 x7 x8 x9 x10 (ix2 ⟨n * 5000 + r.val, by have := r.isLt; omega⟩ cc) := by
  rw [MlpPay.out_apply, Cert.Mlp.mlpF_apply]
  exact congrArg (fun xr => Cert.Mlp.score xr x1 x2 x3 x4 x5 x6 x7 x8 x9 x10 cc) (funext fun k => h0 r k)

/-- The printed index maps, decided over the grid: the feature window and the output window move with the point, one
    block of rows a point; every parameter window stays at its only block. -/
theorem idx_facts4 : ∀ t : Fin cfg4.N, win4_0.index t (0 : Fin 2) = t.val ∧ win4_0.index t (1 : Fin 2) = 0
    ∧ win4_11.index t (0 : Fin 2) = t.val ∧ win4_11.index t (1 : Fin 2) = 0
    ∧ win4_1.index t (0 : Fin 2) = 0 ∧ win4_1.index t (1 : Fin 2) = 0
    ∧ win4_2.index t (0 : Fin 1) = 0 ∧ win4_3.index t (0 : Fin 1) = 0 ∧ win4_4.index t (0 : Fin 1) = 0
    ∧ win4_5.index t (0 : Fin 1) = 0 ∧ win4_6.index t (0 : Fin 1) = 0
    ∧ win4_7.index t (0 : Fin 2) = 0 ∧ win4_7.index t (1 : Fin 2) = 0
    ∧ win4_8.index t (0 : Fin 1) = 0
    ∧ win4_9.index t (0 : Fin 2) = 0 ∧ win4_9.index t (1 : Fin 2) = 0
    ∧ win4_10.index t (0 : Fin 1) = 0 :=
  (by decide +kernel : ∀ t : Fin grid4.N, _)

/-- Parameter window 1 stays at its only block: the block a point finds is the whole array. -/
theorem par4_1 (c : Dev nD) (t : Fin cfg4.N) : (iblk4 V c 1 t : Vec Ideal S272x128 .f32) = V c (Pipeline.arrRef spec4 1) := funext fun y => by
  obtain ⟨e00, e01, eo0, eo1, e10, e11, e2, e3, e4, e5, e6, e70, e71, e8, e90, e91, e10'⟩ := idx_facts4 t
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 272 + 1 * (y 0).val = (y 0).val; rw [e10]; omega
  | ⟨1, _⟩ => show win4_1.index t (1 : Fin 2) * 128 + 1 * (y 1).val = (y 1).val; rw [e11]; omega

/-- Parameter window 2 stays at its only block: the block a point finds is the whole array. -/
theorem par4_2 (c : Dev nD) (t : Fin cfg4.N) : (iblk4 V c 2 t : Vec Ideal S128 .f32) = V c (Pipeline.arrRef spec4 2) := funext fun y => by
  obtain ⟨e00, e01, eo0, eo1, e10, e11, e2, e3, e4, e5, e6, e70, e71, e8, e90, e91, e10'⟩ := idx_facts4 t
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 1) * 128 + 1 * (y 0).val = (y 0).val; rw [e2]; omega

/-- Parameter window 3 stays at its only block: the block a point finds is the whole array. -/
theorem par4_3 (c : Dev nD) (t : Fin cfg4.N) : (iblk4 V c 3 t : Vec Ideal S128 .f32) = V c (Pipeline.arrRef spec4 3) := funext fun y => by
  obtain ⟨e00, e01, eo0, eo1, e10, e11, e2, e3, e4, e5, e6, e70, e71, e8, e90, e91, e10'⟩ := idx_facts4 t
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 1) * 128 + 1 * (y 0).val = (y 0).val; rw [e3]; omega

/-- Parameter window 4 stays at its only block: the block a point finds is the whole array. -/
theorem par4_4 (c : Dev nD) (t : Fin cfg4.N) : (iblk4 V c 4 t : Vec Ideal S128 .f32) = V c (Pipeline.arrRef spec4 4) := funext fun y => by
  obtain ⟨e00, e01, eo0, eo1, e10, e11, e2, e3, e4, e5, e6, e70, e71, e8, e90, e91, e10'⟩ := idx_facts4 t
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 1) * 128 + 1 * (y 0).val = (y 0).val; rw [e4]; omega

/-- Parameter window 5 stays at its only block: the block a point finds is the whole array. -/
theorem par4_5 (c : Dev nD) (t : Fin cfg4.N) : (iblk4 V c 5 t : Vec Ideal S128 .f32) = V c (Pipeline.arrRef spec4 5) := funext fun y => by
  obtain ⟨e00, e01, eo0, eo1, e10, e11, e2, e3, e4, e5, e6, e70, e71, e8, e90, e91, e10'⟩ := idx_facts4 t
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 1) * 128 + 1 * (y 0).val = (y 0).val; rw [e5]; omega

/-- Parameter window 6 stays at its only block: the block a point finds is the whole array. -/
theorem par4_6 (c : Dev nD) (t : Fin cfg4.N) : (iblk4 V c 6 t : Vec Ideal S128 .f32) = V c (Pipeline.arrRef spec4 6) := funext fun y => by
  obtain ⟨e00, e01, eo0, eo1, e10, e11, e2, e3, e4, e5, e6, e70, e71, e8, e90, e91, e10'⟩ := idx_facts4 t
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 1) * 128 + 1 * (y 0).val = (y 0).val; rw [e6]; omega

/-- Parameter window 7 stays at its only block: the block a point finds is the whole array. -/
theorem par4_7 (c : Dev nD) (t : Fin cfg4.N) : (iblk4 V c 7 t : Vec Ideal S128x64 .f32) = V c (Pipeline.arrRef spec4 7) := funext fun y => by
  obtain ⟨e00, e01, eo0, eo1, e10, e11, e2, e3, e4, e5, e6, e70, e71, e8, e90, e91, e10'⟩ := idx_facts4 t
  show V c (Pipeline.arrRef spec4 7) (((cfg4.win 7).blk t).view.emb y) = V c (Pipeline.arrRef spec4 7) y
  refine congrArg _ (funext fun a => Fin.ext ?_)
  match a with
  | ⟨0, _⟩ => show win4_7.index t (0 : Fin 2) * 128 + 1 * (y 0).val = (y 0).val; rw [e70]; omega
  | ⟨1, _⟩ => show win4_7.index t (1 : Fin 2) * 64 + 1 * (y 1).val = (y 1).val; rw [e71]; omega

/-- Parameter window 8 stays at its only block: the block a point finds is the whole array. -/
theorem par4_8 (c : Dev nD) (t : Fin cfg4.N) : (iblk4 V c 8 t : Vec Ideal S64 .f32) = V c (Pipeline.arrRef spec4 8) := funext fun y => by
  obtain ⟨e00, e01, eo0, eo1, e10, e11, e2, e3, e4, e5, e6, e70, e71, e8, e90, e91, e10'⟩ := idx_facts4 t
  show V c (Pipeline.arrRef spec4 8) (((cfg4.win 8).blk t).view.emb y) = V c (Pipeline.arrRef spec4 8) y
  refine congrArg _ (funext fun a => Fin.ext ?_)
  match a with
  | ⟨0, _⟩ => show win4_8.index t (0 : Fin 1) * 64 + 1 * (y 0).val = (y 0).val; rw [e8]; omega

/-- Parameter window 9 stays at its only block: the block a point finds is the whole array. -/
theorem par4_9 (c : Dev nD) (t : Fin cfg4.N) : (iblk4 V c 9 t : Vec Ideal S64x1 .f32) = V c (Pipeline.arrRef spec4 9) := funext fun y => by
  obtain ⟨e00, e01, eo0, eo1, e10, e11, e2, e3, e4, e5, e6, e70, e71, e8, e90, e91, e10'⟩ := idx_facts4 t
  show V c (Pipeline.arrRef spec4 9) (((cfg4.win 9).blk t).view.emb y) = V c (Pipeline.arrRef spec4 9) y
  refine congrArg _ (funext fun a => Fin.ext ?_)
  match a with
  | ⟨0, _⟩ => show win4_9.index t (0 : Fin 2) * 64 + 1 * (y 0).val = (y 0).val; rw [e90]; omega
  | ⟨1, _⟩ => show win4_9.index t (1 : Fin 2) * 1 + 1 * (y 1).val = (y 1).val; rw [e91]; omega

/-- Parameter window 10 stays at its only block: the block a point finds is the whole array. -/
theorem par4_10 (c : Dev nD) (t : Fin cfg4.N) : (iblk4 V c 10 t : Vec Ideal S1 .f32) = V c (Pipeline.arrRef spec4 10) := funext fun y => by
  obtain ⟨e00, e01, eo0, eo1, e10, e11, e2, e3, e4, e5, e6, e70, e71, e8, e90, e91, e10'⟩ := idx_facts4 t
  show V c (Pipeline.arrRef spec4 10) (((cfg4.win 10).blk t).view.emb y) = V c (Pipeline.arrRef spec4 10) y
  refine congrArg _ (funext fun a => Fin.ext ?_)
  match a with
  | ⟨0, _⟩ => show win4_10.index t (0 : Fin 1) * 1 + 1 * (y 0).val = (y 0).val; rw [e10']; omega

/-- The feature window moves one block of 5000 rows a point: row r of the block point t finds is row t·5000 + r of
    the feature array. -/
theorem feat4 (c : Dev nD) (t : Fin cfg4.N) (r : Fin 5000) (k : Fin 272) :
    (iblk4 V c 0 t : Vec Ideal S5000x272 .f32) (ix2 r k)
      = (V c (Pipeline.arrRef spec4 0) : S500000x272.Idx → EReal) (ix2 ⟨t.val * 5000 + r.val, by have := r.isLt; have : t.val < 100 := t.isLt; omega⟩ k) := by
  obtain ⟨e00, e01, -⟩ := idx_facts4 t
  show V c (Pipeline.arrRef spec4 0) (((cfg4.win 0).blk t).view.emb (ix2 r k)) = V c (Pipeline.arrRef spec4 0) _
  refine congrArg _ (funext fun a => Fin.ext ?_)
  match a with
  | ⟨0, _⟩ => show win4_0.index t (0 : Fin 2) * 5000 + 1 * r.val = t.val * 5000 + r.val; rw [e00]; omega
  | ⟨1, _⟩ => show win4_0.index t (1 : Fin 2) * 272 + 1 * k.val = k.val; rw [e01]; omega

/-- The output window moves with it: the entry (r, cc) of point t's block is the entry (t·5000 + r, cc) of the score
    array. -/
theorem out_emb4 (t : Fin cfg4.N) (r : Fin 5000) (cc : Fin 1) :
    ((cfg4.win 11).blk t).view.emb (ix2 r cc)
      = (ix2 ⟨t.val * 5000 + r.val, by have := r.isLt; have : t.val < 100 := t.isLt; omega⟩ cc : S500000x1.Idx) := by
  obtain ⟨-, -, eo0, eo1, -⟩ := idx_facts4 t
  refine funext fun a => Fin.ext ?_
  match a with
  | ⟨0, _⟩ => show win4_11.index t (0 : Fin 2) * 5000 + 1 * r.val = t.val * 5000 + r.val; rw [eo0]; omega
  | ⟨1, _⟩ => show win4_11.index t (1 : Fin 2) * 1 + 1 * cc.val = cc.val; rw [eo1]; omega

/-- WHAT POINT t WRITES BACK is block t of the score array of the arrays the region finds. -/
theorem flushed4_11_eq (c : Dev nD) (t : Fin cfg4.N) :
    (dat4 V c).flushed 11 t = ((cfg4.win 11).blk t).view.read (Elt Ideal) (G4 V c) := by
  show (cfg4.win 11).cut (grid4.coords t) ((dat4 V c).after 11 t) = _
  rw [after4_11]
  unfold out4_11
  rw [View.canon_unit_zero hz4_2]
  simp only [View.ld_unit_zero (S := S5000x272) hz4_2, View.ld_unit_zero (S := S272x128) hz4_2, View.ld_unit_zero (S := S128) hz4_1,
    View.ld_unit_zero (S := S128x64) hz4_2, View.ld_unit_zero (S := S64) hz4_1, View.ld_unit_zero (S := S64x1) hz4_2, View.ld_unit_zero (S := S1) hz4_1]
  have ht : t.val < 100 := t.isLt
  funext y
  obtain ⟨r, cc, rfl⟩ : ∃ (r : Fin 5000) (cc : Fin 1), y = ix2 r cc := ⟨y 0, y 1, eq_ix2 y⟩
  show k4_pay1 (F := Ideal) (k4_pay2 (iblk4 V c 0 t) (iblk4 V c 1 t) (iblk4 V c 2 t) (iblk4 V c 3 t) (iblk4 V c 4 t) (iblk4 V c 5 t)
          (iblk4 V c 6 t) (iblk4 V c 7 t) (iblk4 V c 8 t)) (iblk4 V c 9 t) (iblk4 V c 10 t) (ix2 r cc)
      = G4 V c (((cfg4.win 11).blk t).view.emb (ix2 r cc))
  rw [par4_1, par4_2, par4_3, par4_4, par4_5, par4_6, par4_7, par4_8, par4_9, par4_10, out_emb4]
  exact block_score (V c (Pipeline.arrRef spec4 0)) (iblk4 V c 0 t) _ _ _ _ _ _ _ _ _ _ t.val ht (feat4 V c t) r cc

/-- An index of the score array is in point t's block iff each coordinate is in the block's range on its axis. -/
theorem mem_blk4_11 (t : Fin cfg4.N) (i : S500000x1.Idx) :
    i ∈ ((cfg4.win 11).blk t).view.set ↔ ∀ a : Fin 2, win4_11.index t a * S5000x1.size a ≤ (i a).val ∧ (i a).val < win4_11.index t a * S5000x1.size a + S5000x1.size a := by
  show i ∈ ((View.whole main_v144).slice (win4_11.rect t)).set ↔ _
  rw [View.set_slice_whole, Rect.mem_set_unit]
  exact Iff.rfl

/-- Every row is in the block of the point its number divided by 5000 names. -/
theorem covered4_11 (i : S500000x1.Idx) : ∃ t : Fin cfg4.N, (cfg4.win 11).flush t = true ∧ i ∈ ((cfg4.win 11).blk t).view.set := by
  have hi0 : (i 0).val < 500000 := (i 0).isLt
  have hi1 : (i 1).val < 1 := (i 1).isLt
  have hq : (i 0).val / 5000 < 100 := by omega
  obtain ⟨-, -, eo0, eo1, -⟩ := idx_facts4 ⟨(i 0).val / 5000, hq⟩
  refine ⟨⟨(i 0).val / 5000, hq⟩, flush4_11 _, ?_⟩
  rw [mem_blk4_11]
  intro a
  match a with
  | ⟨0, _⟩ =>
    show win4_11.index ⟨(i 0).val / 5000, hq⟩ (0 : Fin 2) * 5000 ≤ (i 0).val ∧ (i 0).val < win4_11.index ⟨(i 0).val / 5000, hq⟩ (0 : Fin 2) * 5000 + 5000
    rw [eo0]
    show (i 0).val / 5000 * 5000 ≤ (i 0).val ∧ (i 0).val < (i 0).val / 5000 * 5000 + 5000
    omega
  | ⟨1, _⟩ =>
    show win4_11.index ⟨(i 0).val / 5000, hq⟩ (1 : Fin 2) * 1 ≤ (i 1).val ∧ (i 1).val < win4_11.index ⟨(i 0).val / 5000, hq⟩ (1 : Fin 2) * 1 + 1
    rw [eo1]
    omega

/-- THE SCORE ARRAY after the region: the perceptron of the arrays the region finds, entry by entry. -/
theorem final4 (c : Dev nD) : (dat4 V c).arrAt 11 cfg4.N = Cert.Mlp.mlpF (V c (Pipeline.arrRef spec4 0)) (V c (Pipeline.arrRef spec4 1))
    (V c (Pipeline.arrRef spec4 2)) (V c (Pipeline.arrRef spec4 3)) (V c (Pipeline.arrRef spec4 4)) (V c (Pipeline.arrRef spec4 5))
    (V c (Pipeline.arrRef spec4 6)) (V c (Pipeline.arrRef spec4 7)) (V c (Pipeline.arrRef spec4 8)) (V c (Pipeline.arrRef spec4 9))
    (V c (Pipeline.arrRef spec4 10)) :=
  (dat4 V c).arrAt_eq_of_cover 11 (G4 V c) (fun t _ => flushed4_11_eq V c t) covered4_11

end Cert.KernelIdeal.Hand

end
-- ==== Proof.KernelIdeal.Compose.lean ====
/-
  THE KERNEL SIDE'S VALUE. The entry function is eleven segments: five kernel regions among six stretches of host
  operations. The buffer contents at the boundaries are a fold from the launch memory; here the fold is read off,
  boundary by boundary, as the network's stages applied to the 26 argument arrays as launched:

  * an argument array is written by nothing, so at every boundary it holds what it held at launch;
  * a host stretch leaves alone every buffer outside the list of those it writes, and each buffer it writes holds
    the stretch's operations applied to the previous boundary's contents — a gather of normalised indices, a mean
    aggregation, a slice of the stacked parameters, the concatenation of the edge features, the final reshape: each one
    of the glue functions, met by unfolding nothing but the glue function itself;
  * a kernel region leaves alone every buffer that is none of its arrays, and its output arrays hold the region's
    stage function (projection, graph convolution, edge perceptron) of its input arrays at entry.

  The last boundary's result buffer is then the network function `Kres` of the launch contents (`kernel_result`).
-/
import proofs.«100324_j78829829750888_1_alg».proof.Proof.KernelIdeal.Fold
import proofs.«100324_j78829829750888_1_alg».proof.Proof.KernelIdeal.LinValue
import proofs.«100324_j78829829750888_1_alg».proof.Proof.KernelIdeal.LinValue1
import proofs.«100324_j78829829750888_1_alg».proof.Proof.KernelIdeal.SageValue
import proofs.«100324_j78829829750888_1_alg».proof.Proof.KernelIdeal.SageValue3
import proofs.«100324_j78829829750888_1_alg».proof.Proof.KernelIdeal.MlpValue
import proofs.«100324_j78829829750888_1_alg».proof.Proof.Glue
import Idealize.ShloMosaic.Lib.StableHlo.Run

set_option maxRecDepth 16384

noncomputable section

namespace Cert.Glue

open Idealize.ShloMosaic Idealize.SL.Sem
open Cert.ReferenceIdeal Cert.ReferenceIdeal.Facts₀

/-- Mean aggregation with the count column given: the second layer divides by the counts the first layer computed. -/
def meanAggWith (h : 𝔹 S100000x128 .f32) (src dst : 𝔹 S500000 .i32) (cn : 𝔹 S100000x1 .f32) : 𝔹 S100000x128 .f32 :=
  Host.divf
    (Host.scatterAdd (F := Ideal) (φ := .f32) scatter_S100000x128_S500000x1_S500000x128_1_0_0_1
      (broadcastInDim S100000x128 ![] bcast_S_S100000x128 (constant S_ .f32 0x00000000#32)) (idxCol dst) (gatherN h src))
    (broadcastInDim S100000x128 ![0, 1] bcast_S100000x1_S100000x128_0_1 cn)
theorem meanAgg_eq_with (h : 𝔹 S100000x128 .f32) (src dst : 𝔹 S500000 .i32) :
    meanAgg h src dst = meanAggWith h src dst (cnt dst) := rfl

/-- Entry (1, 0) of a stacked family of vectors before its unit axes are dropped, and the dropping: one stretch
    slices, the next reshapes. -/
def vec10pre (P : 𝔹 S2x2x128 .f32) : 𝔹 S1x1x128 .f32 :=
  extractStridedSlice S1x1x128 ![1, 0, 0] P slices_S2x2x128_S1x1x128_1_0_0
def dropUnits (x : 𝔹 S1x1x128 .f32) : 𝔹 S128 .f32 :=
  shapeCast S128 x shapeCasts_S1x1x128_S128
theorem vec10_eq (P : 𝔹 S2x2x128 .f32) : vec10 P = dropUnits (vec10pre P) := rfl

end Cert.Glue

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable (m : (ℓ : Loc nD τ sig) → Buf (Elt Ideal) ℓ) (ρ : Dev nD → PrngReg)

/-! ## Local vocabulary -/

/-- The result of a three-operand operation, each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Each operation's result at its own buffer is its function's value, at any other buffer what was there. -/
macro "results_loop" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- The 26 argument arrays as launched. -/
def AK (c : Dev nD) : Cert.Glue.Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24),
   m ((c : Thread nD τ).loc main_arg25)⟩

/-! ## What each host stretch writes, and what it therefore leaves alone -/

abbrev p0o0_W : List (Ref sig .tc) := [main_v2, main_v3, main_v4, main_v5, main_v6, main_v7, main_v8, main_v9, main_cst, main_v10, main_cst_0, main_v11, main_v12, main_v13, main_cst_1, main_v14, main_v15, main_v16, main_cst_2, main_v17, main_v18, main_v19, main_cst_3, main_v20, main_v21, main_v22, main_c, main_v23, main_v24, main_c_4, main_v25, main_v26, main_v27, main_v28, main_v29, main_cst_5, main_v30, main_v31, main_v32, main_v33, main_v34, main_c_6, main_v35, main_v36, main_c_7, main_v37, main_v38, main_v39, main_v40, main_v41, main_cst_8, main_v42, main_v43, main_v44, main_v45, main_v46, main_v47, main_v48]
theorem p0o0_writes : (main_part0_ops0 : List (HloOp τ sig (Elt Ideal))).Forall fun op => op.writes ⊆ (p0o0_W.map (Proc.devRef (τ := τ) .tc)).toFinset := by
  simp only [main_part0_ops0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem keep3 (c : Dev nD) (r : Ref sig .tc) (h : r ∉ p0o0_W) : W3 m ρ c (Proc.devRef .tc r) = W2 m ρ c (Proc.devRef .tc r) :=
  StableHlo.after_of_writes_sub main_part0_ops0 _ p0o0_writes h

abbrev p1o0_W : List (Ref sig .tc) := [main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74]
theorem p1o0_writes : (main_part1_ops0 : List (HloOp τ sig (Elt Ideal))).Forall fun op => op.writes ⊆ (p1o0_W.map (Proc.devRef (τ := τ) .tc)).toFinset := by
  simp only [main_part1_ops0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem keep4 (c : Dev nD) (r : Ref sig .tc) (h : r ∉ p1o0_W) : W4 m ρ c (Proc.devRef .tc r) = W3 m ρ c (Proc.devRef .tc r) :=
  StableHlo.after_of_writes_sub main_part1_ops0 _ p1o0_writes h

abbrev p1o1_W : List (Ref sig .tc) := [main_c_9, main_v76, main_v77, main_c_10, main_v78, main_v79, main_v80, main_v81, main_v82, main_cst_11, main_v83, main_v84, main_v85, main_v86, main_v87, main_c_12, main_v88, main_v89, main_c_13, main_v90, main_v91, main_v92, main_v93, main_v94, main_cst_14, main_v95, main_v96, main_v97, main_v98, main_v99, main_v100, main_v101, main_v102]
theorem p1o1_writes : (main_part1_ops1 : List (HloOp τ sig (Elt Ideal))).Forall fun op => op.writes ⊆ (p1o1_W.map (Proc.devRef (τ := τ) .tc)).toFinset := by
  simp only [main_part1_ops1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem keep6 (c : Dev nD) (r : Ref sig .tc) (h : r ∉ p1o1_W) : W6 m ρ c (Proc.devRef .tc r) = W5 m ρ c (Proc.devRef .tc r) :=
  StableHlo.after_of_writes_sub main_part1_ops1 _ p1o1_writes h

abbrev p2o0_W : List (Ref sig .tc) := [main_v103, main_v104, main_v105, main_v106, main_v107, main_v108, main_v109, main_v110, main_v111, main_v112, main_v113, main_v114, main_v115, main_v116, main_v117, main_v118, main_v119, main_v120, main_v121, main_v122, main_v123, main_v124, main_v125, main_v126, main_v127]
theorem p2o0_writes : (main_part2_ops0 : List (HloOp τ sig (Elt Ideal))).Forall fun op => op.writes ⊆ (p2o0_W.map (Proc.devRef (τ := τ) .tc)).toFinset := by
  simp only [main_part2_ops0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem keep7 (c : Dev nD) (r : Ref sig .tc) (h : r ∉ p2o0_W) : W7 m ρ c (Proc.devRef .tc r) = W6 m ρ c (Proc.devRef .tc r) :=
  StableHlo.after_of_writes_sub main_part2_ops0 _ p2o0_writes h

abbrev p2o1_W : List (Ref sig .tc) := [main_c_15, main_v129, main_v130, main_c_16, main_v131, main_v132, main_v133, main_v134, main_v135, main_c_17, main_v136, main_v137, main_c_18, main_v138, main_v139, main_v140, main_v141, main_v142, main_v143]
theorem p2o1_writes : (main_part2_ops1 : List (HloOp τ sig (Elt Ideal))).Forall fun op => op.writes ⊆ (p2o1_W.map (Proc.devRef (τ := τ) .tc)).toFinset := by
  simp only [main_part2_ops1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem keep9 (c : Dev nD) (r : Ref sig .tc) (h : r ∉ p2o1_W) : W9 m ρ c (Proc.devRef .tc r) = W8 m ρ c (Proc.devRef .tc r) :=
  StableHlo.after_of_writes_sub main_part2_ops1 _ p2o1_writes h

abbrev p2o2_W : List (Ref sig .tc) := [main_v145]
theorem p2o2_writes : (main_part2_ops2 : List (HloOp τ sig (Elt Ideal))).Forall fun op => op.writes ⊆ (p2o2_W.map (Proc.devRef (τ := τ) .tc)).toFinset := by
  simp only [main_part2_ops2, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem keep11 (c : Dev nD) (r : Ref sig .tc) (h : r ∉ p2o2_W) : W11 m ρ c (Proc.devRef .tc r) = W10 m ρ c (Proc.devRef .tc r) :=
  StableHlo.after_of_writes_sub main_part2_ops2 _ p2o2_writes h

/-! ## The argument arrays: nothing writes one, so each is read at any boundary as launched -/

theorem W0_arg0 (c : Dev nD) : W0 m ρ c (Proc.devRef .tc main_arg0) = (AK m c).a0 := rfl
theorem W0_arg1 (c : Dev nD) : W0 m ρ c (Proc.devRef .tc main_arg1) = (AK m c).a1 := rfl
theorem W1_arg1 (c : Dev nD) : W1 m ρ c (Proc.devRef .tc main_arg1) = (AK m c).a1 := (W1_of_ne m ρ c main_arg1 (by decide)).trans (W0_arg1 m ρ c)
theorem W0_arg2 (c : Dev nD) : W0 m ρ c (Proc.devRef .tc main_arg2) = (AK m c).a2 := rfl
theorem W1_arg2 (c : Dev nD) : W1 m ρ c (Proc.devRef .tc main_arg2) = (AK m c).a2 := (W1_of_ne m ρ c main_arg2 (by decide)).trans (W0_arg2 m ρ c)
theorem W2_arg2 (c : Dev nD) : W2 m ρ c (Proc.devRef .tc main_arg2) = (AK m c).a2 := (W2_of_ne m ρ c main_arg2 (by decide)).trans (W1_arg2 m ρ c)
theorem W3_arg2 (c : Dev nD) : W3 m ρ c (Proc.devRef .tc main_arg2) = (AK m c).a2 := (keep3 m ρ c main_arg2 (by decide)).trans (W2_arg2 m ρ c)
theorem W4_arg2 (c : Dev nD) : W4 m ρ c (Proc.devRef .tc main_arg2) = (AK m c).a2 := (keep4 m ρ c main_arg2 (by decide)).trans (W3_arg2 m ρ c)
theorem W5_arg2 (c : Dev nD) : W5 m ρ c (Proc.devRef .tc main_arg2) = (AK m c).a2 := (W5_of_ne m ρ c main_arg2 (by decide)).trans (W4_arg2 m ρ c)
theorem W6_arg2 (c : Dev nD) : W6 m ρ c (Proc.devRef .tc main_arg2) = (AK m c).a2 := (keep6 m ρ c main_arg2 (by decide)).trans (W5_arg2 m ρ c)
theorem W7_arg2 (c : Dev nD) : W7 m ρ c (Proc.devRef .tc main_arg2) = (AK m c).a2 := (keep7 m ρ c main_arg2 (by decide)).trans (W6_arg2 m ρ c)
theorem W8_arg2 (c : Dev nD) : W8 m ρ c (Proc.devRef .tc main_arg2) = (AK m c).a2 := (W8_of_ne m ρ c main_arg2 (by decide)).trans (W7_arg2 m ρ c)
theorem W0_arg3 (c : Dev nD) : W0 m ρ c (Proc.devRef .tc main_arg3) = (AK m c).a3 := rfl
theorem W1_arg3 (c : Dev nD) : W1 m ρ c (Proc.devRef .tc main_arg3) = (AK m c).a3 := (W1_of_ne m ρ c main_arg3 (by decide)).trans (W0_arg3 m ρ c)
theorem W2_arg3 (c : Dev nD) : W2 m ρ c (Proc.devRef .tc main_arg3) = (AK m c).a3 := (W2_of_ne m ρ c main_arg3 (by decide)).trans (W1_arg3 m ρ c)
theorem W0_arg4 (c : Dev nD) : W0 m ρ c (Proc.devRef .tc main_arg4) = (AK m c).a4 := rfl
theorem W1_arg4 (c : Dev nD) : W1 m ρ c (Proc.devRef .tc main_arg4) = (AK m c).a4 := (W1_of_ne m ρ c main_arg4 (by decide)).trans (W0_arg4 m ρ c)
theorem W2_arg4 (c : Dev nD) : W2 m ρ c (Proc.devRef .tc main_arg4) = (AK m c).a4 := (W2_of_ne m ρ c main_arg4 (by decide)).trans (W1_arg4 m ρ c)
theorem W0_arg5 (c : Dev nD) : W0 m ρ c (Proc.devRef .tc main_arg5) = (AK m c).a5 := rfl
theorem W0_arg6 (c : Dev nD) : W0 m ρ c (Proc.devRef .tc main_arg6) = (AK m c).a6 := rfl
theorem W0_arg7 (c : Dev nD) : W0 m ρ c (Proc.devRef .tc main_arg7) = (AK m c).a7 := rfl
theorem W1_arg7 (c : Dev nD) : W1 m ρ c (Proc.devRef .tc main_arg7) = (AK m c).a7 := (W1_of_ne m ρ c main_arg7 (by decide)).trans (W0_arg7 m ρ c)
theorem W0_arg8 (c : Dev nD) : W0 m ρ c (Proc.devRef .tc main_arg8) = (AK m c).a8 := rfl
theorem W1_arg8 (c : Dev nD) : W1 m ρ c (Proc.devRef .tc main_arg8) = (AK m c).a8 := (W1_of_ne m ρ c main_arg8 (by decide)).trans (W0_arg8 m ρ c)
theorem W0_arg9 (c : Dev nD) : W0 m ρ c (Proc.devRef .tc main_arg9) = (AK m c).a9 := rfl
theorem W1_arg9 (c : Dev nD) : W1 m ρ c (Proc.devRef .tc main_arg9) = (AK m c).a9 := (W1_of_ne m ρ c main_arg9 (by decide)).trans (W0_arg9 m ρ c)
theorem W2_arg9 (c : Dev nD) : W2 m ρ c (Proc.devRef .tc main_arg9) = (AK m c).a9 := (W2_of_ne m ρ c main_arg9 (by decide)).trans (W1_arg9 m ρ c)
theorem W3_arg9 (c : Dev nD) : W3 m ρ c (Proc.devRef .tc main_arg9) = (AK m c).a9 := (keep3 m ρ c main_arg9 (by decide)).trans (W2_arg9 m ρ c)
theorem W4_arg9 (c : Dev nD) : W4 m ρ c (Proc.devRef .tc main_arg9) = (AK m c).a9 := (keep4 m ρ c main_arg9 (by decide)).trans (W3_arg9 m ρ c)
theorem W5_arg9 (c : Dev nD) : W5 m ρ c (Proc.devRef .tc main_arg9) = (AK m c).a9 := (W5_of_ne m ρ c main_arg9 (by decide)).trans (W4_arg9 m ρ c)
theorem W6_arg9 (c : Dev nD) : W6 m ρ c (Proc.devRef .tc main_arg9) = (AK m c).a9 := (keep6 m ρ c main_arg9 (by decide)).trans (W5_arg9 m ρ c)
theorem W0_arg10 (c : Dev nD) : W0 m ρ c (Proc.devRef .tc main_arg10) = (AK m c).a10 := rfl
theorem W1_arg10 (c : Dev nD) : W1 m ρ c (Proc.devRef .tc main_arg10) = (AK m c).a10 := (W1_of_ne m ρ c main_arg10 (by decide)).trans (W0_arg10 m ρ c)
theorem W2_arg10 (c : Dev nD) : W2 m ρ c (Proc.devRef .tc main_arg10) = (AK m c).a10 := (W2_of_ne m ρ c main_arg10 (by decide)).trans (W1_arg10 m ρ c)
theorem W3_arg10 (c : Dev nD) : W3 m ρ c (Proc.devRef .tc main_arg10) = (AK m c).a10 := (keep3 m ρ c main_arg10 (by decide)).trans (W2_arg10 m ρ c)
theorem W4_arg10 (c : Dev nD) : W4 m ρ c (Proc.devRef .tc main_arg10) = (AK m c).a10 := (keep4 m ρ c main_arg10 (by decide)).trans (W3_arg10 m ρ c)
theorem W5_arg10 (c : Dev nD) : W5 m ρ c (Proc.devRef .tc main_arg10) = (AK m c).a10 := (W5_of_ne m ρ c main_arg10 (by decide)).trans (W4_arg10 m ρ c)
theorem W6_arg10 (c : Dev nD) : W6 m ρ c (Proc.devRef .tc main_arg10) = (AK m c).a10 := (keep6 m ρ c main_arg10 (by decide)).trans (W5_arg10 m ρ c)
theorem W0_arg11 (c : Dev nD) : W0 m ρ c (Proc.devRef .tc main_arg11) = (AK m c).a11 := rfl
theorem W1_arg11 (c : Dev nD) : W1 m ρ c (Proc.devRef .tc main_arg11) = (AK m c).a11 := (W1_of_ne m ρ c main_arg11 (by decide)).trans (W0_arg11 m ρ c)
theorem W2_arg11 (c : Dev nD) : W2 m ρ c (Proc.devRef .tc main_arg11) = (AK m c).a11 := (W2_of_ne m ρ c main_arg11 (by decide)).trans (W1_arg11 m ρ c)
theorem W3_arg11 (c : Dev nD) : W3 m ρ c (Proc.devRef .tc main_arg11) = (AK m c).a11 := (keep3 m ρ c main_arg11 (by decide)).trans (W2_arg11 m ρ c)
theorem W4_arg11 (c : Dev nD) : W4 m ρ c (Proc.devRef .tc main_arg11) = (AK m c).a11 := (keep4 m ρ c main_arg11 (by decide)).trans (W3_arg11 m ρ c)
theorem W5_arg11 (c : Dev nD) : W5 m ρ c (Proc.devRef .tc main_arg11) = (AK m c).a11 := (W5_of_ne m ρ c main_arg11 (by decide)).trans (W4_arg11 m ρ c)
theorem W6_arg11 (c : Dev nD) : W6 m ρ c (Proc.devRef .tc main_arg11) = (AK m c).a11 := (keep6 m ρ c main_arg11 (by decide)).trans (W5_arg11 m ρ c)
theorem W0_arg12 (c : Dev nD) : W0 m ρ c (Proc.devRef .tc main_arg12) = (AK m c).a12 := rfl
theorem W1_arg12 (c : Dev nD) : W1 m ρ c (Proc.devRef .tc main_arg12) = (AK m c).a12 := (W1_of_ne m ρ c main_arg12 (by decide)).trans (W0_arg12 m ρ c)
theorem W2_arg12 (c : Dev nD) : W2 m ρ c (Proc.devRef .tc main_arg12) = (AK m c).a12 := (W2_of_ne m ρ c main_arg12 (by decide)).trans (W1_arg12 m ρ c)
theorem W3_arg12 (c : Dev nD) : W3 m ρ c (Proc.devRef .tc main_arg12) = (AK m c).a12 := (keep3 m ρ c main_arg12 (by decide)).trans (W2_arg12 m ρ c)
theorem W4_arg12 (c : Dev nD) : W4 m ρ c (Proc.devRef .tc main_arg12) = (AK m c).a12 := (keep4 m ρ c main_arg12 (by decide)).trans (W3_arg12 m ρ c)
theorem W5_arg12 (c : Dev nD) : W5 m ρ c (Proc.devRef .tc main_arg12) = (AK m c).a12 := (W5_of_ne m ρ c main_arg12 (by decide)).trans (W4_arg12 m ρ c)
theorem W6_arg12 (c : Dev nD) : W6 m ρ c (Proc.devRef .tc main_arg12) = (AK m c).a12 := (keep6 m ρ c main_arg12 (by decide)).trans (W5_arg12 m ρ c)
theorem W0_arg13 (c : Dev nD) : W0 m ρ c (Proc.devRef .tc main_arg13) = (AK m c).a13 := rfl
theorem W1_arg13 (c : Dev nD) : W1 m ρ c (Proc.devRef .tc main_arg13) = (AK m c).a13 := (W1_of_ne m ρ c main_arg13 (by decide)).trans (W0_arg13 m ρ c)
theorem W2_arg13 (c : Dev nD) : W2 m ρ c (Proc.devRef .tc main_arg13) = (AK m c).a13 := (W2_of_ne m ρ c main_arg13 (by decide)).trans (W1_arg13 m ρ c)
theorem W3_arg13 (c : Dev nD) : W3 m ρ c (Proc.devRef .tc main_arg13) = (AK m c).a13 := (keep3 m ρ c main_arg13 (by decide)).trans (W2_arg13 m ρ c)
theorem W4_arg13 (c : Dev nD) : W4 m ρ c (Proc.devRef .tc main_arg13) = (AK m c).a13 := (keep4 m ρ c main_arg13 (by decide)).trans (W3_arg13 m ρ c)
theorem W5_arg13 (c : Dev nD) : W5 m ρ c (Proc.devRef .tc main_arg13) = (AK m c).a13 := (W5_of_ne m ρ c main_arg13 (by decide)).trans (W4_arg13 m ρ c)
theorem W6_arg13 (c : Dev nD) : W6 m ρ c (Proc.devRef .tc main_arg13) = (AK m c).a13 := (keep6 m ρ c main_arg13 (by decide)).trans (W5_arg13 m ρ c)
theorem W0_arg14 (c : Dev nD) : W0 m ρ c (Proc.devRef .tc main_arg14) = (AK m c).a14 := rfl
theorem W1_arg14 (c : Dev nD) : W1 m ρ c (Proc.devRef .tc main_arg14) = (AK m c).a14 := (W1_of_ne m ρ c main_arg14 (by decide)).trans (W0_arg14 m ρ c)
theorem W2_arg14 (c : Dev nD) : W2 m ρ c (Proc.devRef .tc main_arg14) = (AK m c).a14 := (W2_of_ne m ρ c main_arg14 (by decide)).trans (W1_arg14 m ρ c)
theorem W3_arg14 (c : Dev nD) : W3 m ρ c (Proc.devRef .tc main_arg14) = (AK m c).a14 := (keep3 m ρ c main_arg14 (by decide)).trans (W2_arg14 m ρ c)
theorem W4_arg14 (c : Dev nD) : W4 m ρ c (Proc.devRef .tc main_arg14) = (AK m c).a14 := (keep4 m ρ c main_arg14 (by decide)).trans (W3_arg14 m ρ c)
theorem W5_arg14 (c : Dev nD) : W5 m ρ c (Proc.devRef .tc main_arg14) = (AK m c).a14 := (W5_of_ne m ρ c main_arg14 (by decide)).trans (W4_arg14 m ρ c)
theorem W6_arg14 (c : Dev nD) : W6 m ρ c (Proc.devRef .tc main_arg14) = (AK m c).a14 := (keep6 m ρ c main_arg14 (by decide)).trans (W5_arg14 m ρ c)
theorem W0_arg15 (c : Dev nD) : W0 m ρ c (Proc.devRef .tc main_arg15) = (AK m c).a15 := rfl
theorem W1_arg15 (c : Dev nD) : W1 m ρ c (Proc.devRef .tc main_arg15) = (AK m c).a15 := (W1_of_ne m ρ c main_arg15 (by decide)).trans (W0_arg15 m ρ c)
theorem W2_arg15 (c : Dev nD) : W2 m ρ c (Proc.devRef .tc main_arg15) = (AK m c).a15 := (W2_of_ne m ρ c main_arg15 (by decide)).trans (W1_arg15 m ρ c)
theorem W3_arg15 (c : Dev nD) : W3 m ρ c (Proc.devRef .tc main_arg15) = (AK m c).a15 := (keep3 m ρ c main_arg15 (by decide)).trans (W2_arg15 m ρ c)
theorem W4_arg15 (c : Dev nD) : W4 m ρ c (Proc.devRef .tc main_arg15) = (AK m c).a15 := (keep4 m ρ c main_arg15 (by decide)).trans (W3_arg15 m ρ c)
theorem W5_arg15 (c : Dev nD) : W5 m ρ c (Proc.devRef .tc main_arg15) = (AK m c).a15 := (W5_of_ne m ρ c main_arg15 (by decide)).trans (W4_arg15 m ρ c)
theorem W6_arg15 (c : Dev nD) : W6 m ρ c (Proc.devRef .tc main_arg15) = (AK m c).a15 := (keep6 m ρ c main_arg15 (by decide)).trans (W5_arg15 m ρ c)
theorem W0_arg16 (c : Dev nD) : W0 m ρ c (Proc.devRef .tc main_arg16) = (AK m c).a16 := rfl
theorem W1_arg16 (c : Dev nD) : W1 m ρ c (Proc.devRef .tc main_arg16) = (AK m c).a16 := (W1_of_ne m ρ c main_arg16 (by decide)).trans (W0_arg16 m ρ c)
theorem W2_arg16 (c : Dev nD) : W2 m ρ c (Proc.devRef .tc main_arg16) = (AK m c).a16 := (W2_of_ne m ρ c main_arg16 (by decide)).trans (W1_arg16 m ρ c)
theorem W3_arg16 (c : Dev nD) : W3 m ρ c (Proc.devRef .tc main_arg16) = (AK m c).a16 := (keep3 m ρ c main_arg16 (by decide)).trans (W2_arg16 m ρ c)
theorem W4_arg16 (c : Dev nD) : W4 m ρ c (Proc.devRef .tc main_arg16) = (AK m c).a16 := (keep4 m ρ c main_arg16 (by decide)).trans (W3_arg16 m ρ c)
theorem W5_arg16 (c : Dev nD) : W5 m ρ c (Proc.devRef .tc main_arg16) = (AK m c).a16 := (W5_of_ne m ρ c main_arg16 (by decide)).trans (W4_arg16 m ρ c)
theorem W6_arg16 (c : Dev nD) : W6 m ρ c (Proc.devRef .tc main_arg16) = (AK m c).a16 := (keep6 m ρ c main_arg16 (by decide)).trans (W5_arg16 m ρ c)
theorem W7_arg16 (c : Dev nD) : W7 m ρ c (Proc.devRef .tc main_arg16) = (AK m c).a16 := (keep7 m ρ c main_arg16 (by decide)).trans (W6_arg16 m ρ c)
theorem W8_arg16 (c : Dev nD) : W8 m ρ c (Proc.devRef .tc main_arg16) = (AK m c).a16 := (W8_of_ne m ρ c main_arg16 (by decide)).trans (W7_arg16 m ρ c)
theorem W9_arg16 (c : Dev nD) : W9 m ρ c (Proc.devRef .tc main_arg16) = (AK m c).a16 := (keep9 m ρ c main_arg16 (by decide)).trans (W8_arg16 m ρ c)
theorem W0_arg17 (c : Dev nD) : W0 m ρ c (Proc.devRef .tc main_arg17) = (AK m c).a17 := rfl
theorem W1_arg17 (c : Dev nD) : W1 m ρ c (Proc.devRef .tc main_arg17) = (AK m c).a17 := (W1_of_ne m ρ c main_arg17 (by decide)).trans (W0_arg17 m ρ c)
theorem W2_arg17 (c : Dev nD) : W2 m ρ c (Proc.devRef .tc main_arg17) = (AK m c).a17 := (W2_of_ne m ρ c main_arg17 (by decide)).trans (W1_arg17 m ρ c)
theorem W3_arg17 (c : Dev nD) : W3 m ρ c (Proc.devRef .tc main_arg17) = (AK m c).a17 := (keep3 m ρ c main_arg17 (by decide)).trans (W2_arg17 m ρ c)
theorem W4_arg17 (c : Dev nD) : W4 m ρ c (Proc.devRef .tc main_arg17) = (AK m c).a17 := (keep4 m ρ c main_arg17 (by decide)).trans (W3_arg17 m ρ c)
theorem W5_arg17 (c : Dev nD) : W5 m ρ c (Proc.devRef .tc main_arg17) = (AK m c).a17 := (W5_of_ne m ρ c main_arg17 (by decide)).trans (W4_arg17 m ρ c)
theorem W6_arg17 (c : Dev nD) : W6 m ρ c (Proc.devRef .tc main_arg17) = (AK m c).a17 := (keep6 m ρ c main_arg17 (by decide)).trans (W5_arg17 m ρ c)
theorem W7_arg17 (c : Dev nD) : W7 m ρ c (Proc.devRef .tc main_arg17) = (AK m c).a17 := (keep7 m ρ c main_arg17 (by decide)).trans (W6_arg17 m ρ c)
theorem W8_arg17 (c : Dev nD) : W8 m ρ c (Proc.devRef .tc main_arg17) = (AK m c).a17 := (W8_of_ne m ρ c main_arg17 (by decide)).trans (W7_arg17 m ρ c)
theorem W9_arg17 (c : Dev nD) : W9 m ρ c (Proc.devRef .tc main_arg17) = (AK m c).a17 := (keep9 m ρ c main_arg17 (by decide)).trans (W8_arg17 m ρ c)
theorem W0_arg18 (c : Dev nD) : W0 m ρ c (Proc.devRef .tc main_arg18) = (AK m c).a18 := rfl
theorem W1_arg18 (c : Dev nD) : W1 m ρ c (Proc.devRef .tc main_arg18) = (AK m c).a18 := (W1_of_ne m ρ c main_arg18 (by decide)).trans (W0_arg18 m ρ c)
theorem W2_arg18 (c : Dev nD) : W2 m ρ c (Proc.devRef .tc main_arg18) = (AK m c).a18 := (W2_of_ne m ρ c main_arg18 (by decide)).trans (W1_arg18 m ρ c)
theorem W3_arg18 (c : Dev nD) : W3 m ρ c (Proc.devRef .tc main_arg18) = (AK m c).a18 := (keep3 m ρ c main_arg18 (by decide)).trans (W2_arg18 m ρ c)
theorem W4_arg18 (c : Dev nD) : W4 m ρ c (Proc.devRef .tc main_arg18) = (AK m c).a18 := (keep4 m ρ c main_arg18 (by decide)).trans (W3_arg18 m ρ c)
theorem W5_arg18 (c : Dev nD) : W5 m ρ c (Proc.devRef .tc main_arg18) = (AK m c).a18 := (W5_of_ne m ρ c main_arg18 (by decide)).trans (W4_arg18 m ρ c)
theorem W6_arg18 (c : Dev nD) : W6 m ρ c (Proc.devRef .tc main_arg18) = (AK m c).a18 := (keep6 m ρ c main_arg18 (by decide)).trans (W5_arg18 m ρ c)
theorem W7_arg18 (c : Dev nD) : W7 m ρ c (Proc.devRef .tc main_arg18) = (AK m c).a18 := (keep7 m ρ c main_arg18 (by decide)).trans (W6_arg18 m ρ c)
theorem W8_arg18 (c : Dev nD) : W8 m ρ c (Proc.devRef .tc main_arg18) = (AK m c).a18 := (W8_of_ne m ρ c main_arg18 (by decide)).trans (W7_arg18 m ρ c)
theorem W9_arg18 (c : Dev nD) : W9 m ρ c (Proc.devRef .tc main_arg18) = (AK m c).a18 := (keep9 m ρ c main_arg18 (by decide)).trans (W8_arg18 m ρ c)
theorem W0_arg19 (c : Dev nD) : W0 m ρ c (Proc.devRef .tc main_arg19) = (AK m c).a19 := rfl
theorem W1_arg19 (c : Dev nD) : W1 m ρ c (Proc.devRef .tc main_arg19) = (AK m c).a19 := (W1_of_ne m ρ c main_arg19 (by decide)).trans (W0_arg19 m ρ c)
theorem W2_arg19 (c : Dev nD) : W2 m ρ c (Proc.devRef .tc main_arg19) = (AK m c).a19 := (W2_of_ne m ρ c main_arg19 (by decide)).trans (W1_arg19 m ρ c)
theorem W3_arg19 (c : Dev nD) : W3 m ρ c (Proc.devRef .tc main_arg19) = (AK m c).a19 := (keep3 m ρ c main_arg19 (by decide)).trans (W2_arg19 m ρ c)
theorem W4_arg19 (c : Dev nD) : W4 m ρ c (Proc.devRef .tc main_arg19) = (AK m c).a19 := (keep4 m ρ c main_arg19 (by decide)).trans (W3_arg19 m ρ c)
theorem W5_arg19 (c : Dev nD) : W5 m ρ c (Proc.devRef .tc main_arg19) = (AK m c).a19 := (W5_of_ne m ρ c main_arg19 (by decide)).trans (W4_arg19 m ρ c)
theorem W6_arg19 (c : Dev nD) : W6 m ρ c (Proc.devRef .tc main_arg19) = (AK m c).a19 := (keep6 m ρ c main_arg19 (by decide)).trans (W5_arg19 m ρ c)
theorem W7_arg19 (c : Dev nD) : W7 m ρ c (Proc.devRef .tc main_arg19) = (AK m c).a19 := (keep7 m ρ c main_arg19 (by decide)).trans (W6_arg19 m ρ c)
theorem W8_arg19 (c : Dev nD) : W8 m ρ c (Proc.devRef .tc main_arg19) = (AK m c).a19 := (W8_of_ne m ρ c main_arg19 (by decide)).trans (W7_arg19 m ρ c)
theorem W9_arg19 (c : Dev nD) : W9 m ρ c (Proc.devRef .tc main_arg19) = (AK m c).a19 := (keep9 m ρ c main_arg19 (by decide)).trans (W8_arg19 m ρ c)
theorem W0_arg20 (c : Dev nD) : W0 m ρ c (Proc.devRef .tc main_arg20) = (AK m c).a20 := rfl
theorem W1_arg20 (c : Dev nD) : W1 m ρ c (Proc.devRef .tc main_arg20) = (AK m c).a20 := (W1_of_ne m ρ c main_arg20 (by decide)).trans (W0_arg20 m ρ c)
theorem W2_arg20 (c : Dev nD) : W2 m ρ c (Proc.devRef .tc main_arg20) = (AK m c).a20 := (W2_of_ne m ρ c main_arg20 (by decide)).trans (W1_arg20 m ρ c)
theorem W3_arg20 (c : Dev nD) : W3 m ρ c (Proc.devRef .tc main_arg20) = (AK m c).a20 := (keep3 m ρ c main_arg20 (by decide)).trans (W2_arg20 m ρ c)
theorem W4_arg20 (c : Dev nD) : W4 m ρ c (Proc.devRef .tc main_arg20) = (AK m c).a20 := (keep4 m ρ c main_arg20 (by decide)).trans (W3_arg20 m ρ c)
theorem W5_arg20 (c : Dev nD) : W5 m ρ c (Proc.devRef .tc main_arg20) = (AK m c).a20 := (W5_of_ne m ρ c main_arg20 (by decide)).trans (W4_arg20 m ρ c)
theorem W6_arg20 (c : Dev nD) : W6 m ρ c (Proc.devRef .tc main_arg20) = (AK m c).a20 := (keep6 m ρ c main_arg20 (by decide)).trans (W5_arg20 m ρ c)
theorem W7_arg20 (c : Dev nD) : W7 m ρ c (Proc.devRef .tc main_arg20) = (AK m c).a20 := (keep7 m ρ c main_arg20 (by decide)).trans (W6_arg20 m ρ c)
theorem W8_arg20 (c : Dev nD) : W8 m ρ c (Proc.devRef .tc main_arg20) = (AK m c).a20 := (W8_of_ne m ρ c main_arg20 (by decide)).trans (W7_arg20 m ρ c)
theorem W9_arg20 (c : Dev nD) : W9 m ρ c (Proc.devRef .tc main_arg20) = (AK m c).a20 := (keep9 m ρ c main_arg20 (by decide)).trans (W8_arg20 m ρ c)
theorem W0_arg21 (c : Dev nD) : W0 m ρ c (Proc.devRef .tc main_arg21) = (AK m c).a21 := rfl
theorem W1_arg21 (c : Dev nD) : W1 m ρ c (Proc.devRef .tc main_arg21) = (AK m c).a21 := (W1_of_ne m ρ c main_arg21 (by decide)).trans (W0_arg21 m ρ c)
theorem W2_arg21 (c : Dev nD) : W2 m ρ c (Proc.devRef .tc main_arg21) = (AK m c).a21 := (W2_of_ne m ρ c main_arg21 (by decide)).trans (W1_arg21 m ρ c)
theorem W3_arg21 (c : Dev nD) : W3 m ρ c (Proc.devRef .tc main_arg21) = (AK m c).a21 := (keep3 m ρ c main_arg21 (by decide)).trans (W2_arg21 m ρ c)
theorem W4_arg21 (c : Dev nD) : W4 m ρ c (Proc.devRef .tc main_arg21) = (AK m c).a21 := (keep4 m ρ c main_arg21 (by decide)).trans (W3_arg21 m ρ c)
theorem W5_arg21 (c : Dev nD) : W5 m ρ c (Proc.devRef .tc main_arg21) = (AK m c).a21 := (W5_of_ne m ρ c main_arg21 (by decide)).trans (W4_arg21 m ρ c)
theorem W6_arg21 (c : Dev nD) : W6 m ρ c (Proc.devRef .tc main_arg21) = (AK m c).a21 := (keep6 m ρ c main_arg21 (by decide)).trans (W5_arg21 m ρ c)
theorem W7_arg21 (c : Dev nD) : W7 m ρ c (Proc.devRef .tc main_arg21) = (AK m c).a21 := (keep7 m ρ c main_arg21 (by decide)).trans (W6_arg21 m ρ c)
theorem W8_arg21 (c : Dev nD) : W8 m ρ c (Proc.devRef .tc main_arg21) = (AK m c).a21 := (W8_of_ne m ρ c main_arg21 (by decide)).trans (W7_arg21 m ρ c)
theorem W9_arg21 (c : Dev nD) : W9 m ρ c (Proc.devRef .tc main_arg21) = (AK m c).a21 := (keep9 m ρ c main_arg21 (by decide)).trans (W8_arg21 m ρ c)
theorem W0_arg22 (c : Dev nD) : W0 m ρ c (Proc.devRef .tc main_arg22) = (AK m c).a22 := rfl
theorem W1_arg22 (c : Dev nD) : W1 m ρ c (Proc.devRef .tc main_arg22) = (AK m c).a22 := (W1_of_ne m ρ c main_arg22 (by decide)).trans (W0_arg22 m ρ c)
theorem W2_arg22 (c : Dev nD) : W2 m ρ c (Proc.devRef .tc main_arg22) = (AK m c).a22 := (W2_of_ne m ρ c main_arg22 (by decide)).trans (W1_arg22 m ρ c)
theorem W3_arg22 (c : Dev nD) : W3 m ρ c (Proc.devRef .tc main_arg22) = (AK m c).a22 := (keep3 m ρ c main_arg22 (by decide)).trans (W2_arg22 m ρ c)
theorem W4_arg22 (c : Dev nD) : W4 m ρ c (Proc.devRef .tc main_arg22) = (AK m c).a22 := (keep4 m ρ c main_arg22 (by decide)).trans (W3_arg22 m ρ c)
theorem W5_arg22 (c : Dev nD) : W5 m ρ c (Proc.devRef .tc main_arg22) = (AK m c).a22 := (W5_of_ne m ρ c main_arg22 (by decide)).trans (W4_arg22 m ρ c)
theorem W6_arg22 (c : Dev nD) : W6 m ρ c (Proc.devRef .tc main_arg22) = (AK m c).a22 := (keep6 m ρ c main_arg22 (by decide)).trans (W5_arg22 m ρ c)
theorem W7_arg22 (c : Dev nD) : W7 m ρ c (Proc.devRef .tc main_arg22) = (AK m c).a22 := (keep7 m ρ c main_arg22 (by decide)).trans (W6_arg22 m ρ c)
theorem W8_arg22 (c : Dev nD) : W8 m ρ c (Proc.devRef .tc main_arg22) = (AK m c).a22 := (W8_of_ne m ρ c main_arg22 (by decide)).trans (W7_arg22 m ρ c)
theorem W9_arg22 (c : Dev nD) : W9 m ρ c (Proc.devRef .tc main_arg22) = (AK m c).a22 := (keep9 m ρ c main_arg22 (by decide)).trans (W8_arg22 m ρ c)
theorem W0_arg23 (c : Dev nD) : W0 m ρ c (Proc.devRef .tc main_arg23) = (AK m c).a23 := rfl
theorem W1_arg23 (c : Dev nD) : W1 m ρ c (Proc.devRef .tc main_arg23) = (AK m c).a23 := (W1_of_ne m ρ c main_arg23 (by decide)).trans (W0_arg23 m ρ c)
theorem W2_arg23 (c : Dev nD) : W2 m ρ c (Proc.devRef .tc main_arg23) = (AK m c).a23 := (W2_of_ne m ρ c main_arg23 (by decide)).trans (W1_arg23 m ρ c)
theorem W3_arg23 (c : Dev nD) : W3 m ρ c (Proc.devRef .tc main_arg23) = (AK m c).a23 := (keep3 m ρ c main_arg23 (by decide)).trans (W2_arg23 m ρ c)
theorem W4_arg23 (c : Dev nD) : W4 m ρ c (Proc.devRef .tc main_arg23) = (AK m c).a23 := (keep4 m ρ c main_arg23 (by decide)).trans (W3_arg23 m ρ c)
theorem W5_arg23 (c : Dev nD) : W5 m ρ c (Proc.devRef .tc main_arg23) = (AK m c).a23 := (W5_of_ne m ρ c main_arg23 (by decide)).trans (W4_arg23 m ρ c)
theorem W6_arg23 (c : Dev nD) : W6 m ρ c (Proc.devRef .tc main_arg23) = (AK m c).a23 := (keep6 m ρ c main_arg23 (by decide)).trans (W5_arg23 m ρ c)
theorem W7_arg23 (c : Dev nD) : W7 m ρ c (Proc.devRef .tc main_arg23) = (AK m c).a23 := (keep7 m ρ c main_arg23 (by decide)).trans (W6_arg23 m ρ c)
theorem W8_arg23 (c : Dev nD) : W8 m ρ c (Proc.devRef .tc main_arg23) = (AK m c).a23 := (W8_of_ne m ρ c main_arg23 (by decide)).trans (W7_arg23 m ρ c)
theorem W9_arg23 (c : Dev nD) : W9 m ρ c (Proc.devRef .tc main_arg23) = (AK m c).a23 := (keep9 m ρ c main_arg23 (by decide)).trans (W8_arg23 m ρ c)
theorem W0_arg24 (c : Dev nD) : W0 m ρ c (Proc.devRef .tc main_arg24) = (AK m c).a24 := rfl
theorem W1_arg24 (c : Dev nD) : W1 m ρ c (Proc.devRef .tc main_arg24) = (AK m c).a24 := (W1_of_ne m ρ c main_arg24 (by decide)).trans (W0_arg24 m ρ c)
theorem W2_arg24 (c : Dev nD) : W2 m ρ c (Proc.devRef .tc main_arg24) = (AK m c).a24 := (W2_of_ne m ρ c main_arg24 (by decide)).trans (W1_arg24 m ρ c)
theorem W3_arg24 (c : Dev nD) : W3 m ρ c (Proc.devRef .tc main_arg24) = (AK m c).a24 := (keep3 m ρ c main_arg24 (by decide)).trans (W2_arg24 m ρ c)
theorem W4_arg24 (c : Dev nD) : W4 m ρ c (Proc.devRef .tc main_arg24) = (AK m c).a24 := (keep4 m ρ c main_arg24 (by decide)).trans (W3_arg24 m ρ c)
theorem W5_arg24 (c : Dev nD) : W5 m ρ c (Proc.devRef .tc main_arg24) = (AK m c).a24 := (W5_of_ne m ρ c main_arg24 (by decide)).trans (W4_arg24 m ρ c)
theorem W6_arg24 (c : Dev nD) : W6 m ρ c (Proc.devRef .tc main_arg24) = (AK m c).a24 := (keep6 m ρ c main_arg24 (by decide)).trans (W5_arg24 m ρ c)
theorem W7_arg24 (c : Dev nD) : W7 m ρ c (Proc.devRef .tc main_arg24) = (AK m c).a24 := (keep7 m ρ c main_arg24 (by decide)).trans (W6_arg24 m ρ c)
theorem W8_arg24 (c : Dev nD) : W8 m ρ c (Proc.devRef .tc main_arg24) = (AK m c).a24 := (W8_of_ne m ρ c main_arg24 (by decide)).trans (W7_arg24 m ρ c)
theorem W9_arg24 (c : Dev nD) : W9 m ρ c (Proc.devRef .tc main_arg24) = (AK m c).a24 := (keep9 m ρ c main_arg24 (by decide)).trans (W8_arg24 m ρ c)
theorem W0_arg25 (c : Dev nD) : W0 m ρ c (Proc.devRef .tc main_arg25) = (AK m c).a25 := rfl
theorem W1_arg25 (c : Dev nD) : W1 m ρ c (Proc.devRef .tc main_arg25) = (AK m c).a25 := (W1_of_ne m ρ c main_arg25 (by decide)).trans (W0_arg25 m ρ c)
theorem W2_arg25 (c : Dev nD) : W2 m ρ c (Proc.devRef .tc main_arg25) = (AK m c).a25 := (W2_of_ne m ρ c main_arg25 (by decide)).trans (W1_arg25 m ρ c)
theorem W3_arg25 (c : Dev nD) : W3 m ρ c (Proc.devRef .tc main_arg25) = (AK m c).a25 := (keep3 m ρ c main_arg25 (by decide)).trans (W2_arg25 m ρ c)
theorem W4_arg25 (c : Dev nD) : W4 m ρ c (Proc.devRef .tc main_arg25) = (AK m c).a25 := (keep4 m ρ c main_arg25 (by decide)).trans (W3_arg25 m ρ c)
theorem W5_arg25 (c : Dev nD) : W5 m ρ c (Proc.devRef .tc main_arg25) = (AK m c).a25 := (W5_of_ne m ρ c main_arg25 (by decide)).trans (W4_arg25 m ρ c)
theorem W6_arg25 (c : Dev nD) : W6 m ρ c (Proc.devRef .tc main_arg25) = (AK m c).a25 := (keep6 m ρ c main_arg25 (by decide)).trans (W5_arg25 m ρ c)
theorem W7_arg25 (c : Dev nD) : W7 m ρ c (Proc.devRef .tc main_arg25) = (AK m c).a25 := (keep7 m ρ c main_arg25 (by decide)).trans (W6_arg25 m ρ c)
theorem W8_arg25 (c : Dev nD) : W8 m ρ c (Proc.devRef .tc main_arg25) = (AK m c).a25 := (W8_of_ne m ρ c main_arg25 (by decide)).trans (W7_arg25 m ρ c)
theorem W9_arg25 (c : Dev nD) : W9 m ρ c (Proc.devRef .tc main_arg25) = (AK m c).a25 := (keep9 m ρ c main_arg25 (by decide)).trans (W8_arg25 m ρ c)
/-! ## Regions 0 and 1: the two projections -/
theorem W1_v0 (c : Dev nD) : W1 m ρ c (Proc.devRef .tc main_v0) = Cert.Glue.hU (AK m c) := by
  refine (W1_arr m ρ c 3).trans ?_
  rw [final0 (V0 m ρ) c]
  rfl
theorem W2_v0 (c : Dev nD) : W2 m ρ c (Proc.devRef .tc main_v0) = Cert.Glue.hU (AK m c) := (W2_of_ne m ρ c main_v0 (by decide)).trans (W1_v0 m ρ c)
theorem W2_v1 (c : Dev nD) : W2 m ρ c (Proc.devRef .tc main_v1) = Cert.Glue.hR (AK m c) := by
  refine (W2_arr m ρ c 3).trans ?_
  rw [final1 (V1 m ρ) c]
  show Cert.LinSpec.linF (W1 m ρ c (Proc.devRef .tc main_arg1)) (W1 m ρ c (Proc.devRef .tc main_arg7)) (W1 m ρ c (Proc.devRef .tc main_arg8)) = _
  rw [W1_arg1 m ρ c, W1_arg7 m ρ c, W1_arg8 m ρ c]
  rfl

/-! ## The first host stretch: the edge lists, the counts, the first layer's aggregates -/

set_option maxHeartbeats 1000000 in
theorem W3_v3 (c : Dev nD) : W3 m ρ c (Proc.devRef .tc main_v3) = Cert.Glue.row0 (AK m c).a3 := by
  have h : W3 m ρ c (Proc.devRef .tc main_v3) = Cert.Glue.row0 (W2 m ρ c (Proc.devRef .tc main_arg3)) := by
    show StableHlo.after main_part0_ops0 (W2 m ρ c) (Proc.devRef .tc main_v3) = _
    after_results
    rfl
  rw [h, W2_arg3 m ρ c]

set_option maxHeartbeats 1000000 in
theorem W3_v5 (c : Dev nD) : W3 m ρ c (Proc.devRef .tc main_v5) = Cert.Glue.row1 (AK m c).a3 := by
  have h : W3 m ρ c (Proc.devRef .tc main_v5) = Cert.Glue.row1 (W2 m ρ c (Proc.devRef .tc main_arg3)) := by
    show StableHlo.after main_part0_ops0 (W2 m ρ c) (Proc.devRef .tc main_v5) = _
    after_results
    rfl
  rw [h, W2_arg3 m ρ c]

set_option maxHeartbeats 1000000 in
theorem W3_v7 (c : Dev nD) : W3 m ρ c (Proc.devRef .tc main_v7) = Cert.Glue.row0 (AK m c).a4 := by
  have h : W3 m ρ c (Proc.devRef .tc main_v7) = Cert.Glue.row0 (W2 m ρ c (Proc.devRef .tc main_arg4)) := by
    show StableHlo.after main_part0_ops0 (W2 m ρ c) (Proc.devRef .tc main_v7) = _
    after_results
    rfl
  rw [h, W2_arg4 m ρ c]

set_option maxHeartbeats 1000000 in
theorem W3_v9 (c : Dev nD) : W3 m ρ c (Proc.devRef .tc main_v9) = Cert.Glue.row1 (AK m c).a4 := by
  have h : W3 m ρ c (Proc.devRef .tc main_v9) = Cert.Glue.row1 (W2 m ρ c (Proc.devRef .tc main_arg4)) := by
    show StableHlo.after main_part0_ops0 (W2 m ρ c) (Proc.devRef .tc main_v9) = _
    after_results
    rfl
  rw [h, W2_arg4 m ρ c]

set_option maxHeartbeats 2000000 in
theorem W3_v16 (c : Dev nD) : W3 m ρ c (Proc.devRef .tc main_v16) = Cert.Glue.cnt (Cert.Glue.row1 (AK m c).a3) := by
  have h : W3 m ρ c (Proc.devRef .tc main_v16) = Cert.Glue.cnt (Cert.Glue.row1 (W2 m ρ c (Proc.devRef .tc main_arg3))) := by
    show StableHlo.after main_part0_ops0 (W2 m ρ c) (Proc.devRef .tc main_v16) = _
    after_results
    rfl
  rw [h, W2_arg3 m ρ c]

set_option maxHeartbeats 2000000 in
theorem W3_v22 (c : Dev nD) : W3 m ρ c (Proc.devRef .tc main_v22) = Cert.Glue.cnt (Cert.Glue.row1 (AK m c).a4) := by
  have h : W3 m ρ c (Proc.devRef .tc main_v22) = Cert.Glue.cnt (Cert.Glue.row1 (W2 m ρ c (Proc.devRef .tc main_arg4))) := by
    show StableHlo.after main_part0_ops0 (W2 m ρ c) (Proc.devRef .tc main_v22) = _
    after_results
    rfl
  rw [h, W2_arg4 m ρ c]

set_option maxHeartbeats 4000000 in
theorem W3_v34 (c : Dev nD) : W3 m ρ c (Proc.devRef .tc main_v34) = Cert.Glue.aggR1 (AK m c) := by
  have h : W3 m ρ c (Proc.devRef .tc main_v34) = Cert.Glue.meanAgg (W2 m ρ c (Proc.devRef .tc main_v0)) (Cert.Glue.row0 (W2 m ρ c (Proc.devRef .tc main_arg3))) (Cert.Glue.row1 (W2 m ρ c (Proc.devRef .tc main_arg3))) := by
    show StableHlo.after main_part0_ops0 (W2 m ρ c) (Proc.devRef .tc main_v34) = _
    after_results
    rfl
  rw [h, W2_v0 m ρ c, W2_arg3 m ρ c]
  rfl

set_option maxHeartbeats 4000000 in
theorem W3_v46 (c : Dev nD) : W3 m ρ c (Proc.devRef .tc main_v46) = Cert.Glue.aggU1 (AK m c) := by
  have h : W3 m ρ c (Proc.devRef .tc main_v46) = Cert.Glue.meanAgg (W2 m ρ c (Proc.devRef .tc main_v1)) (Cert.Glue.row0 (W2 m ρ c (Proc.devRef .tc main_arg4))) (Cert.Glue.row1 (W2 m ρ c (Proc.devRef .tc main_arg4))) := by
    show StableHlo.after main_part0_ops0 (W2 m ρ c) (Proc.devRef .tc main_v46) = _
    after_results
    rfl
  rw [h, W2_v1 m ρ c, W2_arg4 m ρ c]
  rfl

set_option maxHeartbeats 1000000 in
theorem W3_v48 (c : Dev nD) : W3 m ρ c (Proc.devRef .tc main_v48) = Cert.Glue.mat00 (AK m c).a9 := by
  have h : W3 m ρ c (Proc.devRef .tc main_v48) = Cert.Glue.mat00 (W2 m ρ c (Proc.devRef .tc main_arg9)) := by
    show StableHlo.after main_part0_ops0 (W2 m ρ c) (Proc.devRef .tc main_v48) = _
    after_results
    rfl
  rw [h, W2_arg9 m ρ c]

theorem W3_v0 (c : Dev nD) : W3 m ρ c (Proc.devRef .tc main_v0) = Cert.Glue.hU (AK m c) := (keep3 m ρ c main_v0 (by decide)).trans (W2_v0 m ρ c)
theorem W3_v1 (c : Dev nD) : W3 m ρ c (Proc.devRef .tc main_v1) = Cert.Glue.hR (AK m c) := (keep3 m ρ c main_v1 (by decide)).trans (W2_v1 m ρ c)

/-! ## The second host stretch: the first layer's parameters -/

set_option maxHeartbeats 1000000 in
theorem W4_v50 (c : Dev nD) : W4 m ρ c (Proc.devRef .tc main_v50) = Cert.Glue.vec00 (AK m c).a10 := by
  have h : W4 m ρ c (Proc.devRef .tc main_v50) = Cert.Glue.vec00 (W3 m ρ c (Proc.devRef .tc main_arg10)) := by
    show StableHlo.after main_part1_ops0 (W3 m ρ c) (Proc.devRef .tc main_v50) = _
    after_results
    rfl
  rw [h, W3_arg10 m ρ c]

set_option maxHeartbeats 1000000 in
theorem W4_v52 (c : Dev nD) : W4 m ρ c (Proc.devRef .tc main_v52) = Cert.Glue.mat00 (AK m c).a11 := by
  have h : W4 m ρ c (Proc.devRef .tc main_v52) = Cert.Glue.mat00 (W3 m ρ c (Proc.devRef .tc main_arg11)) := by
    show StableHlo.after main_part1_ops0 (W3 m ρ c) (Proc.devRef .tc main_v52) = _
    after_results
    rfl
  rw [h, W3_arg11 m ρ c]

set_option maxHeartbeats 1000000 in
theorem W4_v54 (c : Dev nD) : W4 m ρ c (Proc.devRef .tc main_v54) = Cert.Glue.vec01 (AK m c).a12 := by
  have h : W4 m ρ c (Proc.devRef .tc main_v54) = Cert.Glue.vec01 (W3 m ρ c (Proc.devRef .tc main_arg12)) := by
    show StableHlo.after main_part1_ops0 (W3 m ρ c) (Proc.devRef .tc main_v54) = _
    after_results
    rfl
  rw [h, W3_arg12 m ρ c]

set_option maxHeartbeats 1000000 in
theorem W4_v56 (c : Dev nD) : W4 m ρ c (Proc.devRef .tc main_v56) = Cert.Glue.vec01 (AK m c).a13 := by
  have h : W4 m ρ c (Proc.devRef .tc main_v56) = Cert.Glue.vec01 (W3 m ρ c (Proc.devRef .tc main_arg13)) := by
    show StableHlo.after main_part1_ops0 (W3 m ρ c) (Proc.devRef .tc main_v56) = _
    after_results
    rfl
  rw [h, W3_arg13 m ρ c]

set_option maxHeartbeats 1000000 in
theorem W4_v58 (c : Dev nD) : W4 m ρ c (Proc.devRef .tc main_v58) = Cert.Glue.vec01 (AK m c).a14 := by
  have h : W4 m ρ c (Proc.devRef .tc main_v58) = Cert.Glue.vec01 (W3 m ρ c (Proc.devRef .tc main_arg14)) := by
    show StableHlo.after main_part1_ops0 (W3 m ρ c) (Proc.devRef .tc main_v58) = _
    after_results
    rfl
  rw [h, W3_arg14 m ρ c]

set_option maxHeartbeats 1000000 in
theorem W4_v60 (c : Dev nD) : W4 m ρ c (Proc.devRef .tc main_v60) = Cert.Glue.vec01 (AK m c).a15 := by
  have h : W4 m ρ c (Proc.devRef .tc main_v60) = Cert.Glue.vec01 (W3 m ρ c (Proc.devRef .tc main_arg15)) := by
    show StableHlo.after main_part1_ops0 (W3 m ρ c) (Proc.devRef .tc main_v60) = _
    after_results
    rfl
  rw [h, W3_arg15 m ρ c]

set_option maxHeartbeats 1000000 in
theorem W4_v62 (c : Dev nD) : W4 m ρ c (Proc.devRef .tc main_v62) = Cert.Glue.mat01 (AK m c).a9 := by
  have h : W4 m ρ c (Proc.devRef .tc main_v62) = Cert.Glue.mat01 (W3 m ρ c (Proc.devRef .tc main_arg9)) := by
    show StableHlo.after main_part1_ops0 (W3 m ρ c) (Proc.devRef .tc main_v62) = _
    after_results
    rfl
  rw [h, W3_arg9 m ρ c]

set_option maxHeartbeats 1000000 in
theorem W4_v64 (c : Dev nD) : W4 m ρ c (Proc.devRef .tc main_v64) = Cert.Glue.vec01 (AK m c).a10 := by
  have h : W4 m ρ c (Proc.devRef .tc main_v64) = Cert.Glue.vec01 (W3 m ρ c (Proc.devRef .tc main_arg10)) := by
    show StableHlo.after main_part1_ops0 (W3 m ρ c) (Proc.devRef .tc main_v64) = _
    after_results
    rfl
  rw [h, W3_arg10 m ρ c]

set_option maxHeartbeats 1000000 in
theorem W4_v66 (c : Dev nD) : W4 m ρ c (Proc.devRef .tc main_v66) = Cert.Glue.mat01 (AK m c).a11 := by
  have h : W4 m ρ c (Proc.devRef .tc main_v66) = Cert.Glue.mat01 (W3 m ρ c (Proc.devRef .tc main_arg11)) := by
    show StableHlo.after main_part1_ops0 (W3 m ρ c) (Proc.devRef .tc main_v66) = _
    after_results
    rfl
  rw [h, W3_arg11 m ρ c]

set_option maxHeartbeats 1000000 in
theorem W4_v68 (c : Dev nD) : W4 m ρ c (Proc.devRef .tc main_v68) = Cert.Glue.vec00 (AK m c).a12 := by
  have h : W4 m ρ c (Proc.devRef .tc main_v68) = Cert.Glue.vec00 (W3 m ρ c (Proc.devRef .tc main_arg12)) := by
    show StableHlo.after main_part1_ops0 (W3 m ρ c) (Proc.devRef .tc main_v68) = _
    after_results
    rfl
  rw [h, W3_arg12 m ρ c]

set_option maxHeartbeats 1000000 in
theorem W4_v70 (c : Dev nD) : W4 m ρ c (Proc.devRef .tc main_v70) = Cert.Glue.vec00 (AK m c).a13 := by
  have h : W4 m ρ c (Proc.devRef .tc main_v70) = Cert.Glue.vec00 (W3 m ρ c (Proc.devRef .tc main_arg13)) := by
    show StableHlo.after main_part1_ops0 (W3 m ρ c) (Proc.devRef .tc main_v70) = _
    after_results
    rfl
  rw [h, W3_arg13 m ρ c]

set_option maxHeartbeats 1000000 in
theorem W4_v72 (c : Dev nD) : W4 m ρ c (Proc.devRef .tc main_v72) = Cert.Glue.vec00 (AK m c).a14 := by
  have h : W4 m ρ c (Proc.devRef .tc main_v72) = Cert.Glue.vec00 (W3 m ρ c (Proc.devRef .tc main_arg14)) := by
    show StableHlo.after main_part1_ops0 (W3 m ρ c) (Proc.devRef .tc main_v72) = _
    after_results
    rfl
  rw [h, W3_arg14 m ρ c]

set_option maxHeartbeats 1000000 in
theorem W4_v74 (c : Dev nD) : W4 m ρ c (Proc.devRef .tc main_v74) = Cert.Glue.vec00 (AK m c).a15 := by
  have h : W4 m ρ c (Proc.devRef .tc main_v74) = Cert.Glue.vec00 (W3 m ρ c (Proc.devRef .tc main_arg15)) := by
    show StableHlo.after main_part1_ops0 (W3 m ρ c) (Proc.devRef .tc main_v74) = _
    after_results
    rfl
  rw [h, W3_arg15 m ρ c]

theorem W4_v34 (c : Dev nD) : W4 m ρ c (Proc.devRef .tc main_v34) = Cert.Glue.aggR1 (AK m c) := (keep4 m ρ c main_v34 (by decide)).trans (W3_v34 m ρ c)
theorem W4_v1 (c : Dev nD) : W4 m ρ c (Proc.devRef .tc main_v1) = Cert.Glue.hR (AK m c) := (keep4 m ρ c main_v1 (by decide)).trans (W3_v1 m ρ c)
theorem W4_v46 (c : Dev nD) : W4 m ρ c (Proc.devRef .tc main_v46) = Cert.Glue.aggU1 (AK m c) := (keep4 m ρ c main_v46 (by decide)).trans (W3_v46 m ρ c)
theorem W4_v0 (c : Dev nD) : W4 m ρ c (Proc.devRef .tc main_v0) = Cert.Glue.hU (AK m c) := (keep4 m ρ c main_v0 (by decide)).trans (W3_v0 m ρ c)
theorem W4_v48 (c : Dev nD) : W4 m ρ c (Proc.devRef .tc main_v48) = Cert.Glue.mat00 (AK m c).a9 := (keep4 m ρ c main_v48 (by decide)).trans (W3_v48 m ρ c)
theorem W4_v3 (c : Dev nD) : W4 m ρ c (Proc.devRef .tc main_v3) = Cert.Glue.row0 (AK m c).a3 := (keep4 m ρ c main_v3 (by decide)).trans (W3_v3 m ρ c)
theorem W4_v5 (c : Dev nD) : W4 m ρ c (Proc.devRef .tc main_v5) = Cert.Glue.row1 (AK m c).a3 := (keep4 m ρ c main_v5 (by decide)).trans (W3_v5 m ρ c)
theorem W4_v7 (c : Dev nD) : W4 m ρ c (Proc.devRef .tc main_v7) = Cert.Glue.row0 (AK m c).a4 := (keep4 m ρ c main_v7 (by decide)).trans (W3_v7 m ρ c)
theorem W4_v9 (c : Dev nD) : W4 m ρ c (Proc.devRef .tc main_v9) = Cert.Glue.row1 (AK m c).a4 := (keep4 m ρ c main_v9 (by decide)).trans (W3_v9 m ρ c)
theorem W4_v16 (c : Dev nD) : W4 m ρ c (Proc.devRef .tc main_v16) = Cert.Glue.cnt (Cert.Glue.row1 (AK m c).a3) := (keep4 m ρ c main_v16 (by decide)).trans (W3_v16 m ρ c)
theorem W4_v22 (c : Dev nD) : W4 m ρ c (Proc.devRef .tc main_v22) = Cert.Glue.cnt (Cert.Glue.row1 (AK m c).a4) := (keep4 m ρ c main_v22 (by decide)).trans (W3_v22 m ρ c)

/-! ## Region 2: the first layer -/

set_option maxHeartbeats 1000000 in
theorem W5_v75_0 (c : Dev nD) : W5 m ρ c (Proc.devRef .tc main_v75_0) = Cert.Glue.newR1 (AK m c) := by
  refine (W5_arr m ρ c 18).trans ?_
  rw [final2_18 (V4 m ρ) c]
  show Cert.SageSpec.sageF (W4 m ρ c (Proc.devRef .tc main_v34)) (W4 m ρ c (Proc.devRef .tc main_v1)) (W4 m ρ c (Proc.devRef .tc main_v48)) (W4 m ρ c (Proc.devRef .tc main_v50)) (W4 m ρ c (Proc.devRef .tc main_v52)) (W4 m ρ c (Proc.devRef .tc main_v54)) (W4 m ρ c (Proc.devRef .tc main_v56)) (W4 m ρ c (Proc.devRef .tc main_v58)) (W4 m ρ c (Proc.devRef .tc main_v60)) = _
  rw [W4_v34 m ρ c, W4_v1 m ρ c, W4_v48 m ρ c, W4_v50 m ρ c, W4_v52 m ρ c, W4_v54 m ρ c, W4_v56 m ρ c, W4_v58 m ρ c, W4_v60 m ρ c]
  rfl

set_option maxHeartbeats 1000000 in
theorem W5_v75_1 (c : Dev nD) : W5 m ρ c (Proc.devRef .tc main_v75_1) = Cert.Glue.newU1 (AK m c) := by
  refine (W5_arr m ρ c 19).trans ?_
  rw [final2_19 (V4 m ρ) c]
  show Cert.SageSpec.sageF (W4 m ρ c (Proc.devRef .tc main_v46)) (W4 m ρ c (Proc.devRef .tc main_v0)) (W4 m ρ c (Proc.devRef .tc main_v62)) (W4 m ρ c (Proc.devRef .tc main_v64)) (W4 m ρ c (Proc.devRef .tc main_v66)) (W4 m ρ c (Proc.devRef .tc main_v68)) (W4 m ρ c (Proc.devRef .tc main_v70)) (W4 m ρ c (Proc.devRef .tc main_v72)) (W4 m ρ c (Proc.devRef .tc main_v74)) = _
  rw [W4_v46 m ρ c, W4_v0 m ρ c, W4_v62 m ρ c, W4_v64 m ρ c, W4_v66 m ρ c, W4_v68 m ρ c, W4_v70 m ρ c, W4_v72 m ρ c, W4_v74 m ρ c]
  rfl

theorem W5_v3 (c : Dev nD) : W5 m ρ c (Proc.devRef .tc main_v3) = Cert.Glue.row0 (AK m c).a3 := (W5_of_ne m ρ c main_v3 (by decide)).trans (W4_v3 m ρ c)
theorem W5_v5 (c : Dev nD) : W5 m ρ c (Proc.devRef .tc main_v5) = Cert.Glue.row1 (AK m c).a3 := (W5_of_ne m ρ c main_v5 (by decide)).trans (W4_v5 m ρ c)
theorem W5_v7 (c : Dev nD) : W5 m ρ c (Proc.devRef .tc main_v7) = Cert.Glue.row0 (AK m c).a4 := (W5_of_ne m ρ c main_v7 (by decide)).trans (W4_v7 m ρ c)
theorem W5_v9 (c : Dev nD) : W5 m ρ c (Proc.devRef .tc main_v9) = Cert.Glue.row1 (AK m c).a4 := (W5_of_ne m ρ c main_v9 (by decide)).trans (W4_v9 m ρ c)
theorem W5_v16 (c : Dev nD) : W5 m ρ c (Proc.devRef .tc main_v16) = Cert.Glue.cnt (Cert.Glue.row1 (AK m c).a3) := (W5_of_ne m ρ c main_v16 (by decide)).trans (W4_v16 m ρ c)
theorem W5_v22 (c : Dev nD) : W5 m ρ c (Proc.devRef .tc main_v22) = Cert.Glue.cnt (Cert.Glue.row1 (AK m c).a4) := (W5_of_ne m ρ c main_v22 (by decide)).trans (W4_v22 m ρ c)

/-! ## The third host stretch: the second layer's aggregates, over the first layer's counts -/

set_option maxHeartbeats 4000000 in
theorem W6_v87 (c : Dev nD) : W6 m ρ c (Proc.devRef .tc main_v87) = Cert.Glue.aggR2 (AK m c) := by
  have h : W6 m ρ c (Proc.devRef .tc main_v87) = Cert.Glue.meanAggWith (W5 m ρ c (Proc.devRef .tc main_v75_1)) (W5 m ρ c (Proc.devRef .tc main_v3)) (W5 m ρ c (Proc.devRef .tc main_v5)) (W5 m ρ c (Proc.devRef .tc main_v16)) := by
    show StableHlo.after main_part1_ops1 (W5 m ρ c) (Proc.devRef .tc main_v87) = _
    after_results
    rfl
  rw [h, W5_v75_1 m ρ c, W5_v3 m ρ c, W5_v5 m ρ c, W5_v16 m ρ c]
  exact (Cert.Glue.meanAgg_eq_with _ _ _).symm
set_option maxHeartbeats 4000000 in
theorem W6_v99 (c : Dev nD) : W6 m ρ c (Proc.devRef .tc main_v99) = Cert.Glue.aggU2 (AK m c) := by
  have h : W6 m ρ c (Proc.devRef .tc main_v99) = Cert.Glue.meanAggWith (W5 m ρ c (Proc.devRef .tc main_v75_0)) (W5 m ρ c (Proc.devRef .tc main_v7)) (W5 m ρ c (Proc.devRef .tc main_v9)) (W5 m ρ c (Proc.devRef .tc main_v22)) := by
    show StableHlo.after main_part1_ops1 (W5 m ρ c) (Proc.devRef .tc main_v99) = _
    after_results
    rfl
  rw [h, W5_v75_0 m ρ c, W5_v7 m ρ c, W5_v9 m ρ c, W5_v22 m ρ c]
  exact (Cert.Glue.meanAgg_eq_with _ _ _).symm

set_option maxHeartbeats 1000000 in
theorem W6_v101 (c : Dev nD) : W6 m ρ c (Proc.devRef .tc main_v101) = Cert.Glue.mat10 (AK m c).a9 := by
  have h : W6 m ρ c (Proc.devRef .tc main_v101) = Cert.Glue.mat10 (W5 m ρ c (Proc.devRef .tc main_arg9)) := by
    show StableHlo.after main_part1_ops1 (W5 m ρ c) (Proc.devRef .tc main_v101) = _
    after_results
    rfl
  rw [h, W5_arg9 m ρ c]

set_option maxHeartbeats 1000000 in
theorem W6_v102 (c : Dev nD) : W6 m ρ c (Proc.devRef .tc main_v102) = Cert.Glue.vec10pre (AK m c).a10 := by
  have h : W6 m ρ c (Proc.devRef .tc main_v102) = Cert.Glue.vec10pre (W5 m ρ c (Proc.devRef .tc main_arg10)) := by
    show StableHlo.after main_part1_ops1 (W5 m ρ c) (Proc.devRef .tc main_v102) = _
    after_results
    rfl
  rw [h, W5_arg10 m ρ c]

theorem W6_v75_0 (c : Dev nD) : W6 m ρ c (Proc.devRef .tc main_v75_0) = Cert.Glue.newR1 (AK m c) := (keep6 m ρ c main_v75_0 (by decide)).trans (W5_v75_0 m ρ c)
theorem W6_v75_1 (c : Dev nD) : W6 m ρ c (Proc.devRef .tc main_v75_1) = Cert.Glue.newU1 (AK m c) := (keep6 m ρ c main_v75_1 (by decide)).trans (W5_v75_1 m ρ c)
theorem W6_v3 (c : Dev nD) : W6 m ρ c (Proc.devRef .tc main_v3) = Cert.Glue.row0 (AK m c).a3 := (keep6 m ρ c main_v3 (by decide)).trans (W5_v3 m ρ c)
theorem W6_v5 (c : Dev nD) : W6 m ρ c (Proc.devRef .tc main_v5) = Cert.Glue.row1 (AK m c).a3 := (keep6 m ρ c main_v5 (by decide)).trans (W5_v5 m ρ c)

/-! ## The fourth host stretch: the second layer's parameters -/

set_option maxHeartbeats 1000000 in
theorem W7_v103 (c : Dev nD) : W7 m ρ c (Proc.devRef .tc main_v103) = Cert.Glue.vec10 (AK m c).a10 := by
  have h : W7 m ρ c (Proc.devRef .tc main_v103) = Cert.Glue.dropUnits (W6 m ρ c (Proc.devRef .tc main_v102)) := by
    show StableHlo.after main_part2_ops0 (W6 m ρ c) (Proc.devRef .tc main_v103) = _
    after_results
    rfl
  rw [h, W6_v102 m ρ c]
  exact (Cert.Glue.vec10_eq _).symm

set_option maxHeartbeats 1000000 in
theorem W7_v105 (c : Dev nD) : W7 m ρ c (Proc.devRef .tc main_v105) = Cert.Glue.mat10 (AK m c).a11 := by
  have h : W7 m ρ c (Proc.devRef .tc main_v105) = Cert.Glue.mat10 (W6 m ρ c (Proc.devRef .tc main_arg11)) := by
    show StableHlo.after main_part2_ops0 (W6 m ρ c) (Proc.devRef .tc main_v105) = _
    after_results
    rfl
  rw [h, W6_arg11 m ρ c]

set_option maxHeartbeats 1000000 in
theorem W7_v107 (c : Dev nD) : W7 m ρ c (Proc.devRef .tc main_v107) = Cert.Glue.vec11 (AK m c).a12 := by
  have h : W7 m ρ c (Proc.devRef .tc main_v107) = Cert.Glue.vec11 (W6 m ρ c (Proc.devRef .tc main_arg12)) := by
    show StableHlo.after main_part2_ops0 (W6 m ρ c) (Proc.devRef .tc main_v107) = _
    after_results
    rfl
  rw [h, W6_arg12 m ρ c]

set_option maxHeartbeats 1000000 in
theorem W7_v109 (c : Dev nD) : W7 m ρ c (Proc.devRef .tc main_v109) = Cert.Glue.vec11 (AK m c).a13 := by
  have h : W7 m ρ c (Proc.devRef .tc main_v109) = Cert.Glue.vec11 (W6 m ρ c (Proc.devRef .tc main_arg13)) := by
    show StableHlo.after main_part2_ops0 (W6 m ρ c) (Proc.devRef .tc main_v109) = _
    after_results
    rfl
  rw [h, W6_arg13 m ρ c]

set_option maxHeartbeats 1000000 in
theorem W7_v111 (c : Dev nD) : W7 m ρ c (Proc.devRef .tc main_v111) = Cert.Glue.vec11 (AK m c).a14 := by
  have h : W7 m ρ c (Proc.devRef .tc main_v111) = Cert.Glue.vec11 (W6 m ρ c (Proc.devRef .tc main_arg14)) := by
    show StableHlo.after main_part2_ops0 (W6 m ρ c) (Proc.devRef .tc main_v111) = _
    after_results
    rfl
  rw [h, W6_arg14 m ρ c]

set_option maxHeartbeats 1000000 in
theorem W7_v113 (c : Dev nD) : W7 m ρ c (Proc.devRef .tc main_v113) = Cert.Glue.vec11 (AK m c).a15 := by
  have h : W7 m ρ c (Proc.devRef .tc main_v113) = Cert.Glue.vec11 (W6 m ρ c (Proc.devRef .tc main_arg15)) := by
    show StableHlo.after main_part2_ops0 (W6 m ρ c) (Proc.devRef .tc main_v113) = _
    after_results
    rfl
  rw [h, W6_arg15 m ρ c]

set_option maxHeartbeats 1000000 in
theorem W7_v115 (c : Dev nD) : W7 m ρ c (Proc.devRef .tc main_v115) = Cert.Glue.mat11 (AK m c).a9 := by
  have h : W7 m ρ c (Proc.devRef .tc main_v115) = Cert.Glue.mat11 (W6 m ρ c (Proc.devRef .tc main_arg9)) := by
    show StableHlo.after main_part2_ops0 (W6 m ρ c) (Proc.devRef .tc main_v115) = _
    after_results
    rfl
  rw [h, W6_arg9 m ρ c]

set_option maxHeartbeats 1000000 in
theorem W7_v117 (c : Dev nD) : W7 m ρ c (Proc.devRef .tc main_v117) = Cert.Glue.vec11 (AK m c).a10 := by
  have h : W7 m ρ c (Proc.devRef .tc main_v117) = Cert.Glue.vec11 (W6 m ρ c (Proc.devRef .tc main_arg10)) := by
    show StableHlo.after main_part2_ops0 (W6 m ρ c) (Proc.devRef .tc main_v117) = _
    after_results
    rfl
  rw [h, W6_arg10 m ρ c]

set_option maxHeartbeats 1000000 in
theorem W7_v119 (c : Dev nD) : W7 m ρ c (Proc.devRef .tc main_v119) = Cert.Glue.mat11 (AK m c).a11 := by
  have h : W7 m ρ c (Proc.devRef .tc main_v119) = Cert.Glue.mat11 (W6 m ρ c (Proc.devRef .tc main_arg11)) := by
    show StableHlo.after main_part2_ops0 (W6 m ρ c) (Proc.devRef .tc main_v119) = _
    after_results
    rfl
  rw [h, W6_arg11 m ρ c]

set_option maxHeartbeats 1000000 in
theorem W7_v121 (c : Dev nD) : W7 m ρ c (Proc.devRef .tc main_v121) = Cert.Glue.vec10 (AK m c).a12 := by
  have h : W7 m ρ c (Proc.devRef .tc main_v121) = Cert.Glue.vec10 (W6 m ρ c (Proc.devRef .tc main_arg12)) := by
    show StableHlo.after main_part2_ops0 (W6 m ρ c) (Proc.devRef .tc main_v121) = _
    after_results
    rfl
  rw [h, W6_arg12 m ρ c]

set_option maxHeartbeats 1000000 in
theorem W7_v123 (c : Dev nD) : W7 m ρ c (Proc.devRef .tc main_v123) = Cert.Glue.vec10 (AK m c).a13 := by
  have h : W7 m ρ c (Proc.devRef .tc main_v123) = Cert.Glue.vec10 (W6 m ρ c (Proc.devRef .tc main_arg13)) := by
    show StableHlo.after main_part2_ops0 (W6 m ρ c) (Proc.devRef .tc main_v123) = _
    after_results
    rfl
  rw [h, W6_arg13 m ρ c]

set_option maxHeartbeats 1000000 in
theorem W7_v125 (c : Dev nD) : W7 m ρ c (Proc.devRef .tc main_v125) = Cert.Glue.vec10 (AK m c).a14 := by
  have h : W7 m ρ c (Proc.devRef .tc main_v125) = Cert.Glue.vec10 (W6 m ρ c (Proc.devRef .tc main_arg14)) := by
    show StableHlo.after main_part2_ops0 (W6 m ρ c) (Proc.devRef .tc main_v125) = _
    after_results
    rfl
  rw [h, W6_arg14 m ρ c]

set_option maxHeartbeats 1000000 in
theorem W7_v127 (c : Dev nD) : W7 m ρ c (Proc.devRef .tc main_v127) = Cert.Glue.vec10 (AK m c).a15 := by
  have h : W7 m ρ c (Proc.devRef .tc main_v127) = Cert.Glue.vec10 (W6 m ρ c (Proc.devRef .tc main_arg15)) := by
    show StableHlo.after main_part2_ops0 (W6 m ρ c) (Proc.devRef .tc main_v127) = _
    after_results
    rfl
  rw [h, W6_arg15 m ρ c]

theorem W7_v87 (c : Dev nD) : W7 m ρ c (Proc.devRef .tc main_v87) = Cert.Glue.aggR2 (AK m c) := (keep7 m ρ c main_v87 (by decide)).trans (W6_v87 m ρ c)
theorem W7_v75_0 (c : Dev nD) : W7 m ρ c (Proc.devRef .tc main_v75_0) = Cert.Glue.newR1 (AK m c) := (keep7 m ρ c main_v75_0 (by decide)).trans (W6_v75_0 m ρ c)
theorem W7_v99 (c : Dev nD) : W7 m ρ c (Proc.devRef .tc main_v99) = Cert.Glue.aggU2 (AK m c) := (keep7 m ρ c main_v99 (by decide)).trans (W6_v99 m ρ c)
theorem W7_v75_1 (c : Dev nD) : W7 m ρ c (Proc.devRef .tc main_v75_1) = Cert.Glue.newU1 (AK m c) := (keep7 m ρ c main_v75_1 (by decide)).trans (W6_v75_1 m ρ c)
theorem W7_v101 (c : Dev nD) : W7 m ρ c (Proc.devRef .tc main_v101) = Cert.Glue.mat10 (AK m c).a9 := (keep7 m ρ c main_v101 (by decide)).trans (W6_v101 m ρ c)
theorem W7_v3 (c : Dev nD) : W7 m ρ c (Proc.devRef .tc main_v3) = Cert.Glue.row0 (AK m c).a3 := (keep7 m ρ c main_v3 (by decide)).trans (W6_v3 m ρ c)
theorem W7_v5 (c : Dev nD) : W7 m ρ c (Proc.devRef .tc main_v5) = Cert.Glue.row1 (AK m c).a3 := (keep7 m ρ c main_v5 (by decide)).trans (W6_v5 m ρ c)

/-! ## Region 3: the second layer -/

set_option maxHeartbeats 1000000 in
theorem W8_v128_0 (c : Dev nD) : W8 m ρ c (Proc.devRef .tc main_v128_0) = Cert.Glue.newR2 (AK m c) := by
  refine (W8_arr m ρ c 18).trans ?_
  rw [final3_18 (V7 m ρ) c]
  show Cert.SageSpec.sageF (W7 m ρ c (Proc.devRef .tc main_v87)) (W7 m ρ c (Proc.devRef .tc main_v75_0)) (W7 m ρ c (Proc.devRef .tc main_v101)) (W7 m ρ c (Proc.devRef .tc main_v103)) (W7 m ρ c (Proc.devRef .tc main_v105)) (W7 m ρ c (Proc.devRef .tc main_v107)) (W7 m ρ c (Proc.devRef .tc main_v109)) (W7 m ρ c (Proc.devRef .tc main_v111)) (W7 m ρ c (Proc.devRef .tc main_v113)) = _
  rw [W7_v87 m ρ c, W7_v75_0 m ρ c, W7_v101 m ρ c, W7_v103 m ρ c, W7_v105 m ρ c, W7_v107 m ρ c, W7_v109 m ρ c, W7_v111 m ρ c, W7_v113 m ρ c]
  rfl

set_option maxHeartbeats 1000000 in
theorem W8_v128_1 (c : Dev nD) : W8 m ρ c (Proc.devRef .tc main_v128_1) = Cert.Glue.newU2 (AK m c) := by
  refine (W8_arr m ρ c 19).trans ?_
  rw [final3_19 (V7 m ρ) c]
  show Cert.SageSpec.sageF (W7 m ρ c (Proc.devRef .tc main_v99)) (W7 m ρ c (Proc.devRef .tc main_v75_1)) (W7 m ρ c (Proc.devRef .tc main_v115)) (W7 m ρ c (Proc.devRef .tc main_v117)) (W7 m ρ c (Proc.devRef .tc main_v119)) (W7 m ρ c (Proc.devRef .tc main_v121)) (W7 m ρ c (Proc.devRef .tc main_v123)) (W7 m ρ c (Proc.devRef .tc main_v125)) (W7 m ρ c (Proc.devRef .tc main_v127)) = _
  rw [W7_v99 m ρ c, W7_v75_1 m ρ c, W7_v115 m ρ c, W7_v117 m ρ c, W7_v119 m ρ c, W7_v121 m ρ c, W7_v123 m ρ c, W7_v125 m ρ c, W7_v127 m ρ c]
  rfl

theorem W8_v3 (c : Dev nD) : W8 m ρ c (Proc.devRef .tc main_v3) = Cert.Glue.row0 (AK m c).a3 := (W8_of_ne m ρ c main_v3 (by decide)).trans (W7_v3 m ρ c)
theorem W8_v5 (c : Dev nD) : W8 m ρ c (Proc.devRef .tc main_v5) = Cert.Glue.row1 (AK m c).a3 := (W8_of_ne m ρ c main_v5 (by decide)).trans (W7_v5 m ρ c)

/-! ## The fifth host stretch: the edge features -/

set_option maxHeartbeats 4000000 in
theorem W9_v143 (c : Dev nD) : W9 m ρ c (Proc.devRef .tc main_v143) = Cert.Glue.edgeX (AK m c) := by
  have h : W9 m ρ c (Proc.devRef .tc main_v143) = Cert.Glue.cat3 (Cert.Glue.gatherN (W8 m ρ c (Proc.devRef .tc main_v128_1)) (W8 m ρ c (Proc.devRef .tc main_v3))) (Cert.Glue.gatherN (W8 m ρ c (Proc.devRef .tc main_v128_0)) (W8 m ρ c (Proc.devRef .tc main_v5))) (W8 m ρ c (Proc.devRef .tc main_arg2)) := by
    show StableHlo.after main_part2_ops1 (W8 m ρ c) (Proc.devRef .tc main_v143) = _
    simp only [after_cons, after_nil]
    rw [nary3_result]
    results_loop
    rfl
  rw [h, W8_v128_1 m ρ c, W8_v3 m ρ c, W8_v128_0 m ρ c, W8_v5 m ρ c, W8_arg2 m ρ c]
  rfl

/-! ## Region 4: the edge perceptron, and the result -/

set_option maxHeartbeats 1000000 in
theorem W10_v144 (c : Dev nD) : W10 m ρ c (Proc.devRef .tc main_v144) = Cert.Mlp.mlpF (Cert.Glue.edgeX (AK m c)) (AK m c).a16 (AK m c).a17 (AK m c).a18 (AK m c).a19 (AK m c).a20 (AK m c).a21 (AK m c).a22 (AK m c).a23 (AK m c).a24 (AK m c).a25 := by
  refine (W10_arr m ρ c 11).trans ?_
  rw [final4 (V9 m ρ) c]
  show Cert.Mlp.mlpF (W9 m ρ c (Proc.devRef .tc main_v143)) (W9 m ρ c (Proc.devRef .tc main_arg16)) (W9 m ρ c (Proc.devRef .tc main_arg17)) (W9 m ρ c (Proc.devRef .tc main_arg18)) (W9 m ρ c (Proc.devRef .tc main_arg19)) (W9 m ρ c (Proc.devRef .tc main_arg20)) (W9 m ρ c (Proc.devRef .tc main_arg21)) (W9 m ρ c (Proc.devRef .tc main_arg22)) (W9 m ρ c (Proc.devRef .tc main_arg23)) (W9 m ρ c (Proc.devRef .tc main_arg24)) (W9 m ρ c (Proc.devRef .tc main_arg25)) = _
  rw [W9_v143 m ρ c, W9_arg16 m ρ c, W9_arg17 m ρ c, W9_arg18 m ρ c, W9_arg19 m ρ c, W9_arg20 m ρ c, W9_arg21 m ρ c, W9_arg22 m ρ c, W9_arg23 m ρ c, W9_arg24 m ρ c, W9_arg25 m ρ c]

theorem W11_v145 (c : Dev nD) : W11 m ρ c (Proc.devRef .tc main_v145) = Cert.Glue.KresA (AK m c) := by
  have h : W11 m ρ c (Proc.devRef .tc main_v145) = Cert.Glue.flat (W10 m ρ c (Proc.devRef .tc main_v144)) := by
    show StableHlo.after main_part2_ops2 (W10 m ρ c) (Proc.devRef .tc main_v145) = _
    after_results
    rfl
  rw [h, W10_v144 m ρ c]
  rfl

/-- THE KERNEL'S RESULT: what the last boundary holds in the result buffer is the network function of the 26
    argument arrays as launched. -/
theorem kernel_result (c : Dev nD) : W11 m ρ c (Proc.devRef .tc main_v145)
    = Cert.Glue.Kres (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  W11_v145 m ρ c

end Cert.KernelIdeal.Hand

end
-- ==== Proof.RefRun.Tac.lean ====
/- The two steps that every chunk of the reference program's run repeats, stated once.

   A chunk is a literal list of host operations. What a buffer holds after the chunk is a fold of the operations'
   results over the contents before it; read at one buffer, the fold collapses to the operations that buffer is
   computed from, applied to the contents (before the chunk) of the buffers those operations read from outside the
   chunk. When these outside contents are themselves the stages of the Read module, the collapsed term is the
   buffer's own stage, by unfolding the stages. -/
import Idealize.ShloMosaic.Lib.StableHlo.Run

namespace Cert.ReferenceIdeal.HandRun

open Idealize.ShloMosaic Idealize.ShloMosaic.StableHlo

/-- "stage_fact ops with [h₁, …]" closes "after ops W b = (b's stage)" for a literal list "ops": unfold the list,
    collapse the fold at "b" to the operations it is computed from, read an operand family of literal references at
    its literals (a concatenate's), rewrite the contents before the chunk by the hypotheses "hᵢ" (each says a buffer
    read from outside the chunk holds its stage, or an argument its name) — in one pass, then one by one for an
    occurrence the pass does not reach (an operand of a concatenate, under the evidence that the pieces fit) —, and
    compare with the stage by unfolding. -/
macro "stage_fact " o:ident " with " "[" rs:term,* "]" : tactic => do
  let one ← rs.getElems.mapM fun r => `(tactic| try rw [$r:term])
  `(tactic| (simp only [$o:ident]
             after_results_simp
             try dsimp only [Matrix.cons_val]
             try simp only [$[$rs.getElems:term],*]
             $[$one:tactic]*
             all_goals rfl))

/-- "writes_one" closes "op.writes ⊆ (W.map devRef).toFinset" for one builder's operation: it writes one
    buffer, its result, which is a member of the literal list "W". -/
macro "writes_one" : tactic =>
  `(tactic| (simp only [nullary_writes, unary_writes, binary_writes, ternary_writes, quaternary_writes, reshape_writes,
               binaryIndexed_writes, nary_writes, unaryIndexed_writes, Finset.singleton_subset_iff, List.mem_toFinset]
             exact List.mem_map_of_mem (by decide)))

end Cert.ReferenceIdeal.HandRun
-- ==== Proof.RefRun.Chunk0.lean ====
import proofs.«100324_j78829829750888_1_alg».proof.Proof.RefRead
import proofs.«100324_j78829829750888_1_alg».proof.Proof.RefRun.Tac

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 59 of @main's 350, in order. -/
abbrev ops0 : List (HloOp τ sig (Elt F)) :=
  [ binary main_arg0 main_arg5 main_v0 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    unary main_arg6 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    binary main_arg1 main_arg7 main_v4 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    unary main_arg8 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    unary main_arg3 main_v8 ((extractStridedSlice S1x500000 ![0, 0] · slices_S2x500000_S1x500000_0_0) : (⟨S2x500000, .i32⟩ : BufTy).Contents (Elt F) → (⟨S1x500000, .i32⟩ : BufTy).Contents (Elt F)),
    reshape main_v8 main_v9 rfl shapeCasts_S1x500000_S500000,
    unary main_arg3 main_v10 ((extractStridedSlice S1x500000 ![1, 0] · slices_S2x500000_S1x500000_1_0) : (⟨S2x500000, .i32⟩ : BufTy).Contents (Elt F) → (⟨S1x500000, .i32⟩ : BufTy).Contents (Elt F)),
    reshape main_v10 main_v11 rfl shapeCasts_S1x500000_S500000,
    nullary main_c (constantI S_ 32 0#32),
    unary main_c main_v12 (broadcastInDim S500000 ![] bcast_S_S500000 : (⟨S_, .i32⟩ : BufTy).Contents (Elt F) → (⟨S500000, .i32⟩ : BufTy).Contents (Elt F)),
    binary main_v9 main_v12 main_v13 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v14 (broadcastInDim S500000 ![] bcast_S_S500000 : (⟨S_, .i32⟩ : BufTy).Contents (Elt F) → (⟨S500000, .i32⟩ : BufTy).Contents (Elt F)),
    binary main_v9 main_v14 main_v15 (addi : (⟨S500000, .i32⟩ : BufTy).Contents (Elt F) → (⟨S500000, .i32⟩ : BufTy).Contents (Elt F) → (⟨S500000, .i32⟩ : BufTy).Contents (Elt F)),
    ternary main_v13 main_v15 main_v9 main_v16 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v16 main_v17 (broadcastInDim S500000x1 ![0] bcast_S500000_S500000x1_0 : (⟨S500000, .i32⟩ : BufTy).Contents (Elt F) → (⟨S500000x1, .i32⟩ : BufTy).Contents (Elt F)),
    binary main_v3 main_v17 main_v18 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v19 (broadcastInDim S100000x128 ![] bcast_S_S100000x128 : (⟨S_, .f32⟩ : BufTy).Contents (Elt F) → (⟨S100000x128, .f32⟩ : BufTy).Contents (Elt F)),
    unary main_v11 main_v20 (broadcastInDim S500000x1 ![0] bcast_S500000_S500000x1_0 : (⟨S500000, .i32⟩ : BufTy).Contents (Elt F) → (⟨S500000x1, .i32⟩ : BufTy).Contents (Elt F)),
    ternary main_v19 main_v20 main_v18 main_v21 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_1 (constant S_ .f32 0x3F800000#32),
    unary main_cst_1 main_v22 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v23 (broadcastInDim S100000 ![] bcast_S_S100000 : (⟨S_, .f32⟩ : BufTy).Contents (Elt F) → (⟨S100000, .f32⟩ : BufTy).Contents (Elt F)),
    unary main_v11 main_v24 (broadcastInDim S500000x1 ![0] bcast_S500000_S500000x1_0 : (⟨S500000, .i32⟩ : BufTy).Contents (Elt F) → (⟨S500000x1, .i32⟩ : BufTy).Contents (Elt F)),
    ternary main_v23 main_v24 main_v22 main_v25 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_3 (constant S_ .f32 0x3F800000#32),
    unary main_cst_3 main_v26 (broadcastInDim S100000 ![] bcast_S_S100000 : (⟨S_, .f32⟩ : BufTy).Contents (Elt F) → (⟨S100000, .f32⟩ : BufTy).Contents (Elt F)),
    binary main_v25 main_v26 main_v27 (maximumf : (⟨S100000, .f32⟩ : BufTy).Contents (Elt F) → (⟨S100000, .f32⟩ : BufTy).Contents (Elt F) → (⟨S100000, .f32⟩ : BufTy).Contents (Elt F)),
    unary main_v27 main_v28 (broadcastInDim S100000x1 ![0] bcast_S100000_S100000x1_0 : (⟨S100000, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v21 main_v29 main_v30 (Host.divf : (⟨S100000x128, .f32⟩ : BufTy).Contents (Elt F) → (⟨S100000x128, .f32⟩ : BufTy).Contents (Elt F) → (⟨S100000x128, .f32⟩ : BufTy).Contents (Elt F)),
    unary main_arg9 main_v31 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v31 main_v32 rfl shapeCasts_S1x1x128x128_S128x128,
    binary main_v30 main_v32 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v34 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v34 main_v35 rfl shapeCasts_S1x1x128_S128,
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v33 main_v37 main_v38 (addf : (⟨S100000x128, .f32⟩ : BufTy).Contents (Elt F) → (⟨S100000x128, .f32⟩ : BufTy).Contents (Elt F) → (⟨S100000x128, .f32⟩ : BufTy).Contents (Elt F)),
    unary main_arg11 main_v39 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v39 main_v40 rfl shapeCasts_S1x1x128x128_S128x128,
    binary main_v7 main_v40 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v38 main_v41 main_v42 (addf : (⟨S100000x128, .f32⟩ : BufTy).Contents (Elt F) → (⟨S100000x128, .f32⟩ : BufTy).Contents (Elt F) → (⟨S100000x128, .f32⟩ : BufTy).Contents (Elt F)),
    unary main_arg4 main_v43 ((extractStridedSlice S1x500000 ![0, 0] · slices_S2x500000_S1x500000_0_0) : (⟨S2x500000, .i32⟩ : BufTy).Contents (Elt F) → (⟨S1x500000, .i32⟩ : BufTy).Contents (Elt F)),
    reshape main_v43 main_v44 rfl shapeCasts_S1x500000_S500000,
    unary main_arg4 main_v45 ((extractStridedSlice S1x500000 ![1, 0] · slices_S2x500000_S1x500000_1_0) : (⟨S2x500000, .i32⟩ : BufTy).Contents (Elt F) → (⟨S1x500000, .i32⟩ : BufTy).Contents (Elt F)),
    reshape main_v45 main_v46 rfl shapeCasts_S1x500000_S500000,
    nullary main_c_4 (constantI S_ 32 0#32),
    unary main_c_4 main_v47 (broadcastInDim S500000 ![] bcast_S_S500000 : (⟨S_, .i32⟩ : BufTy).Contents (Elt F) → (⟨S500000, .i32⟩ : BufTy).Contents (Elt F)),
    binary main_v44 main_v47 main_v48 (cmpi .slt : (⟨S500000, .i32⟩ : BufTy).Contents (Elt F) → (⟨S500000, .i32⟩ : BufTy).Contents (Elt F) → (⟨S500000, .i1⟩ : BufTy).Contents (Elt F)),
    nullary main_c_5 (constantI S_ 32 100000#32),
    unary main_c_5 main_v49 (broadcastInDim S500000 ![] bcast_S_S500000 : (⟨S_, .i32⟩ : BufTy).Contents (Elt F) → (⟨S500000, .i32⟩ : BufTy).Contents (Elt F)),
    binary main_v44 main_v49 main_v50 (addi : (⟨S500000, .i32⟩ : BufTy).Contents (Elt F) → (⟨S500000, .i32⟩ : BufTy).Contents (Elt F) → (⟨S500000, .i32⟩ : BufTy).Contents (Elt F)),
    ternary main_v48 main_v50 main_v44 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ]

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub ..⟩

set_option maxRecDepth 8192 in
theorem ops0_fresh : ∀ op ∈ (ops0 : List (HloOp τ sig (Elt F))), op.fresh = ∅ :=
  List.forall_iff_forall_mem.1 (show (ops0 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers that operations 0 … 59 write. -/
abbrev ops0_W : List (Ref sig .tc) := [main_v0, main_v1, main_v2, main_v3, main_v4, main_v5, main_v6, main_v7, main_v8, main_v9, main_v10, main_v11, main_c, main_v12, main_v13, main_c_0, main_v14, main_v15, main_v16, main_v17, main_v18, main_cst, main_v19, main_v20, main_v21, main_cst_1, main_v22, main_cst_2, main_v23, main_v24, main_v25, main_cst_3, main_v26, main_v27, main_v28, main_v29, main_v30, main_v31, main_v32, main_v33, main_v34, main_v35, main_v36, main_v37, main_v38, main_v39, main_v40, main_v41, main_v42, main_v43, main_v44, main_v45, main_v46, main_c_4, main_v47, main_v48, main_c_5, main_v49, main_v50, main_v51]
set_option maxRecDepth 8192 in
theorem ops0_writes : (ops0 : List (HloOp τ sig (Elt F))).Forall fun op => op.writes ⊆ (ops0_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer that operations 0 … 59 do not write keeps its contents through them. -/
theorem ops0_keep (W : Valuation τ sig (Elt F)) (r : Ref sig .tc) (h : r ∉ ops0_W) :
    after ops0 W (Proc.devRef .tc r) = W (Proc.devRef .tc r) :=
  after_of_writes_sub ops0 _ ops0_writes h

set_option maxRecDepth 8192 in
set_option maxHeartbeats 4000000 in
/-- After operations 0 … 59, from contents that hold the stages of the buffers they read, main_v3 holds its stage. -/
theorem c0_main_v3 (W : Valuation τ sig (Elt F)) (x0 : (⟨S100000x32, .f32⟩ : BufTy).Contents (Elt F)) (x5 : (⟨S32x128, .f32⟩ : BufTy).Contents (Elt F)) (x6 : (⟨S128, .f32⟩ : BufTy).Contents (Elt F))
    (hx0 : W (no_index (Proc.devRef .tc main_arg0)) = x0)
    (hx5 : W (no_index (Proc.devRef .tc main_arg5)) = x5)
    (hx6 : W (no_index (Proc.devRef .tc main_arg6)) = x6)
    : after ops0 W (no_index (Proc.devRef .tc main_v3)) = ReadP.val_main_v3 (F := F) x0 x5 x6 := by
  stage_fact ops0 with [hx0, hx5, hx6]

set_option maxRecDepth 8192 in
set_option maxHeartbeats 4000000 in
/-- After operations 0 … 59, from contents that hold the stages of the buffers they read, main_v7 holds its stage. -/
theorem c0_main_v7 (W : Valuation τ sig (Elt F)) (x1 : (⟨S100000x32, .f32⟩ : BufTy).Contents (Elt F)) (x7 : (⟨S32x128, .f32⟩ : BufTy).Contents (Elt F)) (x8 : (⟨S128, .f32⟩ : BufTy).Contents (Elt F))
    (hx1 : W (no_index (Proc.devRef .tc main_arg1)) = x1)
    (hx7 : W (no_index (Proc.devRef .tc main_arg7)) = x7)
    (hx8 : W (no_index (Proc.devRef .tc main_arg8)) = x8)
    : after ops0 W (no_index (Proc.devRef .tc main_v7)) = ReadP.val_main_v7 (F := F) x1 x7 x8 := by
  stage_fact ops0 with [hx1, hx7, hx8]

set_option maxRecDepth 8192 in
set_option maxHeartbeats 4000000 in
/-- After operations 0 … 59, from contents that hold the stages of the buffers they read, main_v42 holds its stage. -/
theorem c0_main_v42 (W : Valuation τ sig (Elt F)) (x0 : (⟨S100000x32, .f32⟩ : BufTy).Contents (Elt F)) (x1 : (⟨S100000x32, .f32⟩ : BufTy).Contents (Elt F)) (x3 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F))
    (hx0 : W (no_index (Proc.devRef .tc main_arg0)) = x0)
    (hx1 : W (no_index (Proc.devRef .tc main_arg1)) = x1)
    (hx3 : W (no_index (Proc.devRef .tc main_arg3)) = x3)
    (hx5 : W (no_index (Proc.devRef .tc main_arg5)) = x5)
    (hx6 : W (no_index (Proc.devRef .tc main_arg6)) = x6)
    (hx7 : W (no_index (Proc.devRef .tc main_arg7)) = x7)
    (hx8 : W (no_index (Proc.devRef .tc main_arg8)) = x8)
    (hx9 : W (no_index (Proc.devRef .tc main_arg9)) = x9)
    (hx10 : W (no_index (Proc.devRef .tc main_arg10)) = x10)
    (hx11 : W (no_index (Proc.devRef .tc main_arg11)) = x11)
    : after ops0 W (no_index (Proc.devRef .tc main_v42)) = ReadP.val_main_v42 (F := F) x0 x1 x3 x5 x6 x7 x8 x9 x10 x11 := by
  stage_fact ops0 with [hx0, hx1, hx3, hx5, hx6, hx7, hx8, hx9, hx10, hx11]

set_option maxRecDepth 8192 in
set_option maxHeartbeats 4000000 in
/-- After operations 0 … 59, from contents that hold the stages of the buffers they read, main_v46 holds its stage. -/
theorem c0_main_v46 (W : Valuation τ sig (Elt F)) (x4 : (⟨S2x500000, .i32⟩ : BufTy).Contents (Elt F))
    (hx4 : W (no_index (Proc.devRef .tc main_arg4)) = x4)
    : after ops0 W (no_index (Proc.devRef .tc main_v46)) = ReadP.val_main_v46 (F := F) x4 := by
  stage_fact ops0 with [hx4]

set_option maxRecDepth 8192 in
set_option maxHeartbeats 4000000 in
/-- After operations 0 … 59, from contents that hold the stages of the buffers they read, main_v51 holds its stage. -/
theorem c0_main_v51 (W : Valuation τ sig (Elt F)) (x4 : (⟨S2x500000, .i32⟩ : BufTy).Contents (Elt F))
    (hx4 : W (no_index (Proc.devRef .tc main_arg4)) = x4)
    : after ops0 W (no_index (Proc.devRef .tc main_v51)) = ReadP.val_main_v51 (F := F) x4 := by
  stage_fact ops0 with [hx4]

end Cert.ReferenceIdeal.HandRun

end
-- ==== Proof.RefRun.Chunk1.lean ====
import proofs.«100324_j78829829750888_1_alg».proof.Proof.RefRead
import proofs.«100324_j78829829750888_1_alg».proof.Proof.RefRun.Tac

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 60 … 121 of @main's 350, in order. -/
abbrev ops1 : List (HloOp τ sig (Elt F)) :=
  [ unary main_v51 main_v52 (broadcastInDim S500000x1 ![0] bcast_S500000_S500000x1_0 : (⟨S500000, .i32⟩ : BufTy).Contents (Elt F) → (⟨S500000x1, .i32⟩ : BufTy).Contents (Elt F)),
    binary main_v7 main_v52 main_v53 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_6 (constant S_ .f32 0x00000000#32),
    unary main_cst_6 main_v54 (broadcastInDim S100000x128 ![] bcast_S_S100000x128 : (⟨S_, .f32⟩ : BufTy).Contents (Elt F) → (⟨S100000x128, .f32⟩ : BufTy).Contents (Elt F)),
    unary main_v46 main_v55 (broadcastInDim S500000x1 ![0] bcast_S500000_S500000x1_0 : (⟨S500000, .i32⟩ : BufTy).Contents (Elt F) → (⟨S500000x1, .i32⟩ : BufTy).Contents (Elt F)),
    ternary main_v54 main_v55 main_v53 main_v56 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_7 (constant S_ .f32 0x3F800000#32),
    unary main_cst_7 main_v57 (broadcastInDim S500000 ![] bcast_S_S500000 : (⟨S_, .f32⟩ : BufTy).Contents (Elt F) → (⟨S500000, .f32⟩ : BufTy).Contents (Elt F)),
    nullary main_cst_8 (constant S_ .f32 0x00000000#32),
    unary main_cst_8 main_v58 (broadcastInDim S100000 ![] bcast_S_S100000 : (⟨S_, .f32⟩ : BufTy).Contents (Elt F) → (⟨S100000, .f32⟩ : BufTy).Contents (Elt F)),
    unary main_v46 main_v59 (broadcastInDim S500000x1 ![0] bcast_S500000_S500000x1_0 : (⟨S500000, .i32⟩ : BufTy).Contents (Elt F) → (⟨S500000x1, .i32⟩ : BufTy).Contents (Elt F)),
    ternary main_v58 main_v59 main_v57 main_v60 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_9 (constant S_ .f32 0x3F800000#32),
    unary main_cst_9 main_v61 (broadcastInDim S100000 ![] bcast_S_S100000 : (⟨S_, .f32⟩ : BufTy).Contents (Elt F) → (⟨S100000, .f32⟩ : BufTy).Contents (Elt F)),
    binary main_v60 main_v61 main_v62 (maximumf : (⟨S100000, .f32⟩ : BufTy).Contents (Elt F) → (⟨S100000, .f32⟩ : BufTy).Contents (Elt F) → (⟨S100000, .f32⟩ : BufTy).Contents (Elt F)),
    unary main_v62 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x128 ![0, 1] bcast_S100000x1_S100000x128_0_1 : (⟨S100000x1, .f32⟩ : BufTy).Contents (Elt F) → (⟨S100000x128, .f32⟩ : BufTy).Contents (Elt F)),
    binary main_v56 main_v64 main_v65 (Host.divf : (⟨S100000x128, .f32⟩ : BufTy).Contents (Elt F) → (⟨S100000x128, .f32⟩ : BufTy).Contents (Elt F) → (⟨S100000x128, .f32⟩ : BufTy).Contents (Elt F)),
    unary main_arg9 main_v66 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v66 main_v67 rfl shapeCasts_S1x1x128x128_S128x128,
    binary main_v65 main_v67 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v69 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v69 main_v70 rfl shapeCasts_S1x1x128_S128,
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v68 main_v72 main_v73 (addf : (⟨S100000x128, .f32⟩ : BufTy).Contents (Elt F) → (⟨S100000x128, .f32⟩ : BufTy).Contents (Elt F) → (⟨S100000x128, .f32⟩ : BufTy).Contents (Elt F)),
    unary main_arg11 main_v74 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v74 main_v75 rfl shapeCasts_S1x1x128x128_S128x128,
    binary main_v3 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v73 main_v76 main_v77 (addf : (⟨S100000x128, .f32⟩ : BufTy).Contents (Elt F) → (⟨S100000x128, .f32⟩ : BufTy).Contents (Elt F) → (⟨S100000x128, .f32⟩ : BufTy).Contents (Elt F)),
    unary main_arg12 main_v78 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v78 main_v79 rfl shapeCasts_S1x1x128_S128,
    unary main_arg13 main_v80 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v80 main_v81 rfl shapeCasts_S1x1x128_S128,
    unary main_arg14 main_v82 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v82 main_v83 rfl shapeCasts_S1x1x128_S128,
    unary main_arg15 main_v84 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v84 main_v85 rfl shapeCasts_S1x1x128_S128,
    unary main_v83 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v77 main_v87 main_v88 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v89 (broadcastInDim S128 ![] bcast_S_S128 : (⟨S_, .f32⟩ : BufTy).Contents (Elt F) → (⟨S128, .f32⟩ : BufTy).Contents (Elt F)),
    binary main_v85 main_v89 main_v90 (addf : (⟨S128, .f32⟩ : BufTy).Contents (Elt F) → (⟨S128, .f32⟩ : BufTy).Contents (Elt F) → (⟨S128, .f32⟩ : BufTy).Contents (Elt F)),
    unary main_v90 main_v91 (Host.rsqrt : (⟨S128, .f32⟩ : BufTy).Contents (Elt F) → (⟨S128, .f32⟩ : BufTy).Contents (Elt F)),
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v88 main_v93 main_v94 (mulf : (⟨S100000x128, .f32⟩ : BufTy).Contents (Elt F) → (⟨S100000x128, .f32⟩ : BufTy).Contents (Elt F) → (⟨S100000x128, .f32⟩ : BufTy).Contents (Elt F)),
    unary main_v79 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v94 main_v96 main_v97 (mulf : (⟨S100000x128, .f32⟩ : BufTy).Contents (Elt F) → (⟨S100000x128, .f32⟩ : BufTy).Contents (Elt F) → (⟨S100000x128, .f32⟩ : BufTy).Contents (Elt F)),
    unary main_v81 main_v98 (broadcastInDim S1x128 ![1] bcast_S128_S1x128_1 : (⟨S128, .f32⟩ : BufTy).Contents (Elt F) → (⟨S1x128, .f32⟩ : BufTy).Contents (Elt F)),
    unary main_v98 main_v99 (broadcastInDim S100000x128 ![0, 1] bcast_S1x128_S100000x128_0_1 : (⟨S1x128, .f32⟩ : BufTy).Contents (Elt F) → (⟨S100000x128, .f32⟩ : BufTy).Contents (Elt F)),
    binary main_v97 main_v99 main_v100 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v100) (TRef.of (T := ⟨S100000x128, .f32⟩) main_call0_v0) (TRef.of (T := ⟨S100000x128, .f32⟩) main_v101) maximumf,
    binary main_v101 main_v3 main_v102 (addf : (⟨S100000x128, .f32⟩ : BufTy).Contents (Elt F) → (⟨S100000x128, .f32⟩ : BufTy).Contents (Elt F) → (⟨S100000x128, .f32⟩ : BufTy).Contents (Elt F)),
    unary main_arg12 main_v103 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v103 main_v104 rfl shapeCasts_S1x1x128_S128,
    unary main_arg13 main_v105 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v105 main_v106 rfl shapeCasts_S1x1x128_S128 ]

set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub ..⟩

set_option maxRecDepth 8192 in
theorem ops1_fresh : ∀ op ∈ (ops1 : List (HloOp τ sig (Elt F))), op.fresh = ∅ :=
  List.forall_iff_forall_mem.1 (show (ops1 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers that operations 60 … 121 write. -/
abbrev ops1_W : List (Ref sig .tc) := [main_v52, main_v53, main_cst_6, main_v54, main_v55, main_v56, main_cst_7, main_v57, main_cst_8, main_v58, main_v59, main_v60, main_cst_9, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_cst_10, main_v89, main_v90, main_v91, main_v92, main_v93, main_v94, main_v95, main_v96, main_v97, main_v98, main_v99, main_v100, main_call0_cst, main_call0_v0, main_v101, main_v102, main_v103, main_v104, main_v105, main_v106]
set_option maxRecDepth 8192 in
theorem ops1_writes : (ops1 : List (HloOp τ sig (Elt F))).Forall fun op => op.writes ⊆ (ops1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer that operations 60 … 121 do not write keeps its contents through them. -/
theorem ops1_keep (W : Valuation τ sig (Elt F)) (r : Ref sig .tc) (h : r ∉ ops1_W) :
    after ops1 W (Proc.devRef .tc r) = W (Proc.devRef .tc r) :=
  after_of_writes_sub ops1 _ ops1_writes h

set_option maxRecDepth 8192 in
set_option maxHeartbeats 4000000 in
/-- After operations 60 … 121, from contents that hold the stages of the buffers they read, main_v102 holds its stage. -/
theorem c1_main_v102 (W : Valuation τ sig (Elt F)) (x0 : (⟨S100000x32, .f32⟩ : BufTy).Contents (Elt F)) (x1 : (⟨S100000x32, .f32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F))
    (hx9 : W (no_index (Proc.devRef .tc main_arg9)) = x9)
    (hx10 : W (no_index (Proc.devRef .tc main_arg10)) = x10)
    (hx11 : W (no_index (Proc.devRef .tc main_arg11)) = x11)
    (hx12 : W (no_index (Proc.devRef .tc main_arg12)) = x12)
    (hx13 : W (no_index (Proc.devRef .tc main_arg13)) = x13)
    (hx14 : W (no_index (Proc.devRef .tc main_arg14)) = x14)
    (hx15 : W (no_index (Proc.devRef .tc main_arg15)) = x15)
    (h_main_v3 : W (no_index (Proc.devRef .tc main_v3)) = ReadP.val_main_v3 (F := F) x0 x5 x6)
    (h_main_v7 : W (no_index (Proc.devRef .tc main_v7)) = ReadP.val_main_v7 (F := F) x1 x7 x8)
    (h_main_v46 : W (no_index (Proc.devRef .tc main_v46)) = ReadP.val_main_v46 (F := F) x4)
    (h_main_v51 : W (no_index (Proc.devRef .tc main_v51)) = ReadP.val_main_v51 (F := F) x4)
    : after ops1 W (no_index (Proc.devRef .tc main_v102)) = ReadP.val_main_v102 (F := F) x0 x1 x4 x5 x6 x7 x8 x9 x10 x11 x12 x13 x14 x15 := by
  stage_fact ops1 with [hx9, hx10, hx11, hx12, hx13, hx14, hx15, h_main_v3, h_main_v7, h_main_v46, h_main_v51]

set_option maxRecDepth 8192 in
set_option maxHeartbeats 4000000 in
/-- After operations 60 … 121, from contents that hold the stages of the buffers they read, main_v104 holds its stage. -/
theorem c1_main_v104 (W : Valuation τ sig (Elt F)) (x12 : (⟨S2x2x128, .f32⟩ : BufTy).Contents (Elt F))
    (hx12 : W (no_index (Proc.devRef .tc main_arg12)) = x12)
    : after ops1 W (no_index (Proc.devRef .tc main_v104)) = ReadP.val_main_v104 (F := F) x12 := by
  stage_fact ops1 with [hx12]

set_option maxRecDepth 8192 in
set_option maxHeartbeats 4000000 in
/-- After operations 60 … 121, from contents that hold the stages of the buffers they read, main_v106 holds its stage. -/
theorem c1_main_v106 (W : Valuation τ sig (Elt F)) (x13 : (⟨S2x2x128, .f32⟩ : BufTy).Contents (Elt F))
    (hx13 : W (no_index (Proc.devRef .tc main_arg13)) = x13)
    : after ops1 W (no_index (Proc.devRef .tc main_v106)) = ReadP.val_main_v106 (F := F) x13 := by
  stage_fact ops1 with [hx13]

end Cert.ReferenceIdeal.HandRun

end
-- ==== Proof.RefRun.Chunk2.lean ====
import proofs.«100324_j78829829750888_1_alg».proof.Proof.RefRead
import proofs.«100324_j78829829750888_1_alg».proof.Proof.RefRun.Tac

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 122 … 183 of @main's 350, in order. -/
abbrev ops2 : List (HloOp τ sig (Elt F)) :=
  [ unary main_arg14 main_v107 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v107 main_v108 rfl shapeCasts_S1x1x128_S128,
    unary main_arg15 main_v109 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v109 main_v110 rfl shapeCasts_S1x1x128_S128,
    unary main_v108 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v42 main_v112 main_v113 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v114 (broadcastInDim S128 ![] bcast_S_S128 : (⟨S_, .f32⟩ : BufTy).Contents (Elt F) → (⟨S128, .f32⟩ : BufTy).Contents (Elt F)),
    binary main_v110 main_v114 main_v115 (addf : (⟨S128, .f32⟩ : BufTy).Contents (Elt F) → (⟨S128, .f32⟩ : BufTy).Contents (Elt F) → (⟨S128, .f32⟩ : BufTy).Contents (Elt F)),
    unary main_v115 main_v116 (Host.rsqrt : (⟨S128, .f32⟩ : BufTy).Contents (Elt F) → (⟨S128, .f32⟩ : BufTy).Contents (Elt F)),
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v113 main_v118 main_v119 (mulf : (⟨S100000x128, .f32⟩ : BufTy).Contents (Elt F) → (⟨S100000x128, .f32⟩ : BufTy).Contents (Elt F) → (⟨S100000x128, .f32⟩ : BufTy).Contents (Elt F)),
    unary main_v104 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v119 main_v121 main_v122 (mulf : (⟨S100000x128, .f32⟩ : BufTy).Contents (Elt F) → (⟨S100000x128, .f32⟩ : BufTy).Contents (Elt F) → (⟨S100000x128, .f32⟩ : BufTy).Contents (Elt F)),
    unary main_v106 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v122 main_v124 main_v125 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v125) (TRef.of (T := ⟨S100000x128, .f32⟩) main_call1_v0) (TRef.of (T := ⟨S100000x128, .f32⟩) main_v126) maximumf,
    binary main_v126 main_v7 main_v127 (addf : (⟨S100000x128, .f32⟩ : BufTy).Contents (Elt F) → (⟨S100000x128, .f32⟩ : BufTy).Contents (Elt F) → (⟨S100000x128, .f32⟩ : BufTy).Contents (Elt F)),
    unary main_arg3 main_v128 ((extractStridedSlice S1x500000 ![0, 0] · slices_S2x500000_S1x500000_0_0) : (⟨S2x500000, .i32⟩ : BufTy).Contents (Elt F) → (⟨S1x500000, .i32⟩ : BufTy).Contents (Elt F)),
    reshape main_v128 main_v129 rfl shapeCasts_S1x500000_S500000,
    unary main_arg3 main_v130 ((extractStridedSlice S1x500000 ![1, 0] · slices_S2x500000_S1x500000_1_0) : (⟨S2x500000, .i32⟩ : BufTy).Contents (Elt F) → (⟨S1x500000, .i32⟩ : BufTy).Contents (Elt F)),
    reshape main_v130 main_v131 rfl shapeCasts_S1x500000_S500000,
    nullary main_c_12 (constantI S_ 32 0#32),
    unary main_c_12 main_v132 (broadcastInDim S500000 ![] bcast_S_S500000 : (⟨S_, .i32⟩ : BufTy).Contents (Elt F) → (⟨S500000, .i32⟩ : BufTy).Contents (Elt F)),
    binary main_v129 main_v132 main_v133 (cmpi .slt : (⟨S500000, .i32⟩ : BufTy).Contents (Elt F) → (⟨S500000, .i32⟩ : BufTy).Contents (Elt F) → (⟨S500000, .i1⟩ : BufTy).Contents (Elt F)),
    nullary main_c_13 (constantI S_ 32 100000#32),
    unary main_c_13 main_v134 (broadcastInDim S500000 ![] bcast_S_S500000 : (⟨S_, .i32⟩ : BufTy).Contents (Elt F) → (⟨S500000, .i32⟩ : BufTy).Contents (Elt F)),
    binary main_v129 main_v134 main_v135 (addi : (⟨S500000, .i32⟩ : BufTy).Contents (Elt F) → (⟨S500000, .i32⟩ : BufTy).Contents (Elt F) → (⟨S500000, .i32⟩ : BufTy).Contents (Elt F)),
    ternary main_v133 main_v135 main_v129 main_v136 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v136 main_v137 (broadcastInDim S500000x1 ![0] bcast_S500000_S500000x1_0 : (⟨S500000, .i32⟩ : BufTy).Contents (Elt F) → (⟨S500000x1, .i32⟩ : BufTy).Contents (Elt F)),
    binary main_v102 main_v137 main_v138 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_14 (constant S_ .f32 0x00000000#32),
    unary main_cst_14 main_v139 (broadcastInDim S100000x128 ![] bcast_S_S100000x128 : (⟨S_, .f32⟩ : BufTy).Contents (Elt F) → (⟨S100000x128, .f32⟩ : BufTy).Contents (Elt F)),
    unary main_v131 main_v140 (broadcastInDim S500000x1 ![0] bcast_S500000_S500000x1_0 : (⟨S500000, .i32⟩ : BufTy).Contents (Elt F) → (⟨S500000x1, .i32⟩ : BufTy).Contents (Elt F)),
    ternary main_v139 main_v140 main_v138 main_v141 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_15 (constant S_ .f32 0x3F800000#32),
    unary main_cst_15 main_v142 (broadcastInDim S500000 ![] bcast_S_S500000 : (⟨S_, .f32⟩ : BufTy).Contents (Elt F) → (⟨S500000, .f32⟩ : BufTy).Contents (Elt F)),
    nullary main_cst_16 (constant S_ .f32 0x00000000#32),
    unary main_cst_16 main_v143 (broadcastInDim S100000 ![] bcast_S_S100000 : (⟨S_, .f32⟩ : BufTy).Contents (Elt F) → (⟨S100000, .f32⟩ : BufTy).Contents (Elt F)),
    unary main_v131 main_v144 (broadcastInDim S500000x1 ![0] bcast_S500000_S500000x1_0 : (⟨S500000, .i32⟩ : BufTy).Contents (Elt F) → (⟨S500000x1, .i32⟩ : BufTy).Contents (Elt F)),
    ternary main_v143 main_v144 main_v142 main_v145 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_17 (constant S_ .f32 0x3F800000#32),
    unary main_cst_17 main_v146 (broadcastInDim S100000 ![] bcast_S_S100000 : (⟨S_, .f32⟩ : BufTy).Contents (Elt F) → (⟨S100000, .f32⟩ : BufTy).Contents (Elt F)),
    binary main_v145 main_v146 main_v147 (maximumf : (⟨S100000, .f32⟩ : BufTy).Contents (Elt F) → (⟨S100000, .f32⟩ : BufTy).Contents (Elt F) → (⟨S100000, .f32⟩ : BufTy).Contents (Elt F)),
    unary main_v147 main_v148 (broadcastInDim S100000x1 ![0] bcast_S100000_S100000x1_0 : (⟨S100000, .f32⟩ : BufTy).Contents (Elt F) → (⟨S100000x1, .f32⟩ : BufTy).Contents (Elt F)),
    unary main_v148 main_v149 (broadcastInDim S100000x128 ![0, 1] bcast_S100000x1_S100000x128_0_1 : (⟨S100000x1, .f32⟩ : BufTy).Contents (Elt F) → (⟨S100000x128, .f32⟩ : BufTy).Contents (Elt F)),
    binary main_v141 main_v149 main_v150 (Host.divf : (⟨S100000x128, .f32⟩ : BufTy).Contents (Elt F) → (⟨S100000x128, .f32⟩ : BufTy).Contents (Elt F) → (⟨S100000x128, .f32⟩ : BufTy).Contents (Elt F)),
    unary main_arg9 main_v151 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v151 main_v152 rfl shapeCasts_S1x1x128x128_S128x128,
    binary main_v150 main_v152 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v154 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v154 main_v155 rfl shapeCasts_S1x1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S100000x128 ![0, 1] bcast_S1x128_S100000x128_0_1 : (⟨S1x128, .f32⟩ : BufTy).Contents (Elt F) → (⟨S100000x128, .f32⟩ : BufTy).Contents (Elt F)),
    binary main_v153 main_v157 main_v158 (addf : (⟨S100000x128, .f32⟩ : BufTy).Contents (Elt F) → (⟨S100000x128, .f32⟩ : BufTy).Contents (Elt F) → (⟨S100000x128, .f32⟩ : BufTy).Contents (Elt F)),
    unary main_arg11 main_v159 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)) ]

set_option maxRecDepth 8192 in
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩

set_option maxRecDepth 8192 in
theorem ops2_fresh : ∀ op ∈ (ops2 : List (HloOp τ sig (Elt F))), op.fresh = ∅ :=
  List.forall_iff_forall_mem.1 (show (ops2 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers that operations 122 … 183 write. -/
abbrev ops2_W : List (Ref sig .tc) := [main_v107, main_v108, main_v109, main_v110, main_v111, main_v112, main_v113, main_cst_11, main_v114, main_v115, main_v116, main_v117, main_v118, main_v119, main_v120, main_v121, main_v122, main_v123, main_v124, main_v125, main_call1_cst, main_call1_v0, main_v126, main_v127, main_v128, main_v129, main_v130, main_v131, main_c_12, main_v132, main_v133, main_c_13, main_v134, main_v135, main_v136, main_v137, main_v138, main_cst_14, main_v139, main_v140, main_v141, main_cst_15, main_v142, main_cst_16, main_v143, main_v144, main_v145, main_cst_17, main_v146, main_v147, main_v148, main_v149, main_v150, main_v151, main_v152, main_v153, main_v154, main_v155, main_v156, main_v157, main_v158, main_v159]
set_option maxRecDepth 8192 in
theorem ops2_writes : (ops2 : List (HloOp τ sig (Elt F))).Forall fun op => op.writes ⊆ (ops2_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer that operations 122 … 183 do not write keeps its contents through them. -/
theorem ops2_keep (W : Valuation τ sig (Elt F)) (r : Ref sig .tc) (h : r ∉ ops2_W) :
    after ops2 W (Proc.devRef .tc r) = W (Proc.devRef .tc r) :=
  after_of_writes_sub ops2 _ ops2_writes h

set_option maxRecDepth 8192 in
set_option maxHeartbeats 4000000 in
/-- After operations 122 … 183, from contents that hold the stages of the buffers they read, main_v127 holds its stage. -/
theorem c2_main_v127 (W : Valuation τ sig (Elt F)) (x0 : (⟨S100000x32, .f32⟩ : BufTy).Contents (Elt F)) (x1 : (⟨S100000x32, .f32⟩ : BufTy).Contents (Elt F)) (x3 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F))
    (hx14 : W (no_index (Proc.devRef .tc main_arg14)) = x14)
    (hx15 : W (no_index (Proc.devRef .tc main_arg15)) = x15)
    (h_main_v7 : W (no_index (Proc.devRef .tc main_v7)) = ReadP.val_main_v7 (F := F) x1 x7 x8)
    (h_main_v42 : W (no_index (Proc.devRef .tc main_v42)) = ReadP.val_main_v42 (F := F) x0 x1 x3 x5 x6 x7 x8 x9 x10 x11)
    (h_main_v104 : W (no_index (Proc.devRef .tc main_v104)) = ReadP.val_main_v104 (F := F) x12)
    (h_main_v106 : W (no_index (Proc.devRef .tc main_v106)) = ReadP.val_main_v106 (F := F) x13)
    : after ops2 W (no_index (Proc.devRef .tc main_v127)) = ReadP.val_main_v127 (F := F) x0 x1 x3 x5 x6 x7 x8 x9 x10 x11 x12 x13 x14 x15 := by
  stage_fact ops2 with [hx14, hx15, h_main_v7, h_main_v42, h_main_v104, h_main_v106]

set_option maxRecDepth 8192 in
set_option maxHeartbeats 4000000 in
/-- After operations 122 … 183, from contents that hold the stages of the buffers they read, main_v158 holds its stage. -/
theorem c2_main_v158 (W : Valuation τ sig (Elt F)) (x0 : (⟨S100000x32, .f32⟩ : BufTy).Contents (Elt F)) (x1 : (⟨S100000x32, .f32⟩ : BufTy).Contents (Elt F)) (x3 : (⟨S2x500000, .i32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F))
    (hx3 : W (no_index (Proc.devRef .tc main_arg3)) = x3)
    (hx9 : W (no_index (Proc.devRef .tc main_arg9)) = x9)
    (hx10 : W (no_index (Proc.devRef .tc main_arg10)) = x10)
    (h_main_v102 : W (no_index (Proc.devRef .tc main_v102)) = ReadP.val_main_v102 (F := F) x0 x1 x4 x5 x6 x7 x8 x9 x10 x11 x12 x13 x14 x15)
    : after ops2 W (no_index (Proc.devRef .tc main_v158)) = ReadP.val_main_v158 (F := F) x0 x1 x3 x4 x5 x6 x7 x8 x9 x10 x11 x12 x13 x14 x15 := by
  stage_fact ops2 with [hx3, hx9, hx10, h_main_v102]

set_option maxRecDepth 8192 in
set_option maxHeartbeats 4000000 in
/-- After operations 122 … 183, from contents that hold the stages of the buffers they read, main_v159 holds its stage. -/
theorem c2_main_v159 (W : Valuation τ sig (Elt F)) (x11 : (⟨S2x2x128x128, .f32⟩ : BufTy).Contents (Elt F))
    (hx11 : W (no_index (Proc.devRef .tc main_arg11)) = x11)
    : after ops2 W (no_index (Proc.devRef .tc main_v159)) = ReadP.val_main_v159 (F := F) x11 := by
  stage_fact ops2 with [hx11]

end Cert.ReferenceIdeal.HandRun

end
-- ==== Proof.RefRun.Chunk3.lean ====
import proofs.«100324_j78829829750888_1_alg».proof.Proof.RefRead
import proofs.«100324_j78829829750888_1_alg».proof.Proof.RefRun.Tac

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 184 … 243 of @main's 350, in order. -/
abbrev ops3 : List (HloOp τ sig (Elt F)) :=
  [ reshape main_v159 main_v160 rfl shapeCasts_S1x1x128x128_S128x128,
    binary main_v127 main_v160 main_v161 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v158 main_v161 main_v162 (addf : (⟨S100000x128, .f32⟩ : BufTy).Contents (Elt F) → (⟨S100000x128, .f32⟩ : BufTy).Contents (Elt F) → (⟨S100000x128, .f32⟩ : BufTy).Contents (Elt F)),
    unary main_arg4 main_v163 ((extractStridedSlice S1x500000 ![0, 0] · slices_S2x500000_S1x500000_0_0) : (⟨S2x500000, .i32⟩ : BufTy).Contents (Elt F) → (⟨S1x500000, .i32⟩ : BufTy).Contents (Elt F)),
    reshape main_v163 main_v164 rfl shapeCasts_S1x500000_S500000,
    unary main_arg4 main_v165 ((extractStridedSlice S1x500000 ![1, 0] · slices_S2x500000_S1x500000_1_0) : (⟨S2x500000, .i32⟩ : BufTy).Contents (Elt F) → (⟨S1x500000, .i32⟩ : BufTy).Contents (Elt F)),
    reshape main_v165 main_v166 rfl shapeCasts_S1x500000_S500000,
    nullary main_c_18 (constantI S_ 32 0#32),
    unary main_c_18 main_v167 (broadcastInDim S500000 ![] bcast_S_S500000 : (⟨S_, .i32⟩ : BufTy).Contents (Elt F) → (⟨S500000, .i32⟩ : BufTy).Contents (Elt F)),
    binary main_v164 main_v167 main_v168 (cmpi .slt : (⟨S500000, .i32⟩ : BufTy).Contents (Elt F) → (⟨S500000, .i32⟩ : BufTy).Contents (Elt F) → (⟨S500000, .i1⟩ : BufTy).Contents (Elt F)),
    nullary main_c_19 (constantI S_ 32 100000#32),
    unary main_c_19 main_v169 (broadcastInDim S500000 ![] bcast_S_S500000 : (⟨S_, .i32⟩ : BufTy).Contents (Elt F) → (⟨S500000, .i32⟩ : BufTy).Contents (Elt F)),
    binary main_v164 main_v169 main_v170 (addi : (⟨S500000, .i32⟩ : BufTy).Contents (Elt F) → (⟨S500000, .i32⟩ : BufTy).Contents (Elt F) → (⟨S500000, .i32⟩ : BufTy).Contents (Elt F)),
    ternary main_v168 main_v170 main_v164 main_v171 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v171 main_v172 (broadcastInDim S500000x1 ![0] bcast_S500000_S500000x1_0 : (⟨S500000, .i32⟩ : BufTy).Contents (Elt F) → (⟨S500000x1, .i32⟩ : BufTy).Contents (Elt F)),
    binary main_v127 main_v172 main_v173 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_20 (constant S_ .f32 0x00000000#32),
    unary main_cst_20 main_v174 (broadcastInDim S100000x128 ![] bcast_S_S100000x128 : (⟨S_, .f32⟩ : BufTy).Contents (Elt F) → (⟨S100000x128, .f32⟩ : BufTy).Contents (Elt F)),
    unary main_v166 main_v175 (broadcastInDim S500000x1 ![0] bcast_S500000_S500000x1_0 : (⟨S500000, .i32⟩ : BufTy).Contents (Elt F) → (⟨S500000x1, .i32⟩ : BufTy).Contents (Elt F)),
    ternary main_v174 main_v175 main_v173 main_v176 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_21 (constant S_ .f32 0x3F800000#32),
    unary main_cst_21 main_v177 (broadcastInDim S500000 ![] bcast_S_S500000 : (⟨S_, .f32⟩ : BufTy).Contents (Elt F) → (⟨S500000, .f32⟩ : BufTy).Contents (Elt F)),
    nullary main_cst_22 (constant S_ .f32 0x00000000#32),
    unary main_cst_22 main_v178 (broadcastInDim S100000 ![] bcast_S_S100000 : (⟨S_, .f32⟩ : BufTy).Contents (Elt F) → (⟨S100000, .f32⟩ : BufTy).Contents (Elt F)),
    unary main_v166 main_v179 (broadcastInDim S500000x1 ![0] bcast_S500000_S500000x1_0 : (⟨S500000, .i32⟩ : BufTy).Contents (Elt F) → (⟨S500000x1, .i32⟩ : BufTy).Contents (Elt F)),
    ternary main_v178 main_v179 main_v177 main_v180 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_23 (constant S_ .f32 0x3F800000#32),
    unary main_cst_23 main_v181 (broadcastInDim S100000 ![] bcast_S_S100000 : (⟨S_, .f32⟩ : BufTy).Contents (Elt F) → (⟨S100000, .f32⟩ : BufTy).Contents (Elt F)),
    binary main_v180 main_v181 main_v182 (maximumf : (⟨S100000, .f32⟩ : BufTy).Contents (Elt F) → (⟨S100000, .f32⟩ : BufTy).Contents (Elt F) → (⟨S100000, .f32⟩ : BufTy).Contents (Elt F)),
    unary main_v182 main_v183 (broadcastInDim S100000x1 ![0] bcast_S100000_S100000x1_0 : (⟨S100000, .f32⟩ : BufTy).Contents (Elt F) → (⟨S100000x1, .f32⟩ : BufTy).Contents (Elt F)),
    unary main_v183 main_v184 (broadcastInDim S100000x128 ![0, 1] bcast_S100000x1_S100000x128_0_1 : (⟨S100000x1, .f32⟩ : BufTy).Contents (Elt F) → (⟨S100000x128, .f32⟩ : BufTy).Contents (Elt F)),
    binary main_v176 main_v184 main_v185 (Host.divf : (⟨S100000x128, .f32⟩ : BufTy).Contents (Elt F) → (⟨S100000x128, .f32⟩ : BufTy).Contents (Elt F) → (⟨S100000x128, .f32⟩ : BufTy).Contents (Elt F)),
    unary main_arg9 main_v186 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v186 main_v187 rfl shapeCasts_S1x1x128x128_S128x128,
    binary main_v185 main_v187 main_v188 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v189 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v189 main_v190 rfl shapeCasts_S1x1x128_S128,
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v188 main_v192 main_v193 (addf : (⟨S100000x128, .f32⟩ : BufTy).Contents (Elt F) → (⟨S100000x128, .f32⟩ : BufTy).Contents (Elt F) → (⟨S100000x128, .f32⟩ : BufTy).Contents (Elt F)),
    unary main_arg11 main_v194 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v194 main_v195 rfl shapeCasts_S1x1x128x128_S128x128,
    binary main_v102 main_v195 main_v196 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v193 main_v196 main_v197 (addf : (⟨S100000x128, .f32⟩ : BufTy).Contents (Elt F) → (⟨S100000x128, .f32⟩ : BufTy).Contents (Elt F) → (⟨S100000x128, .f32⟩ : BufTy).Contents (Elt F)),
    unary main_arg12 main_v198 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v198 main_v199 rfl shapeCasts_S1x1x128_S128,
    unary main_arg13 main_v200 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v200 main_v201 rfl shapeCasts_S1x1x128_S128,
    unary main_arg14 main_v202 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v202 main_v203 rfl shapeCasts_S1x1x128_S128,
    unary main_arg15 main_v204 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v204 main_v205 rfl shapeCasts_S1x1x128_S128,
    unary main_v203 main_v206 (broadcastInDim S1x128 ![1] bcast_S128_S1x128_1 : (⟨S128, .f32⟩ : BufTy).Contents (Elt F) → (⟨S1x128, .f32⟩ : BufTy).Contents (Elt F)),
    unary main_v206 main_v207 (broadcastInDim S100000x128 ![0, 1] bcast_S1x128_S100000x128_0_1 : (⟨S1x128, .f32⟩ : BufTy).Contents (Elt F) → (⟨S100000x128, .f32⟩ : BufTy).Contents (Elt F)),
    binary main_v197 main_v207 main_v208 (subf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3727C5AC#32),
    unary main_cst_24 main_v209 (broadcastInDim S128 ![] bcast_S_S128 : (⟨S_, .f32⟩ : BufTy).Contents (Elt F) → (⟨S128, .f32⟩ : BufTy).Contents (Elt F)),
    binary main_v205 main_v209 main_v210 (addf : (⟨S128, .f32⟩ : BufTy).Contents (Elt F) → (⟨S128, .f32⟩ : BufTy).Contents (Elt F) → (⟨S128, .f32⟩ : BufTy).Contents (Elt F)),
    unary main_v210 main_v211 (Host.rsqrt : (⟨S128, .f32⟩ : BufTy).Contents (Elt F) → (⟨S128, .f32⟩ : BufTy).Contents (Elt F)),
    unary main_v211 main_v212 (broadcastInDim S1x128 ![1] bcast_S128_S1x128_1 : (⟨S128, .f32⟩ : BufTy).Contents (Elt F) → (⟨S1x128, .f32⟩ : BufTy).Contents (Elt F)) ]

set_option maxRecDepth 8192 in
theorem ops3_sub : (ops3 : List (HloOp τ sig (Elt F))).Forall fun op => op.bufs ⊆ tcRefs τ sig :=
  ⟨reshape_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub ..⟩

set_option maxRecDepth 8192 in
theorem ops3_fresh : ∀ op ∈ (ops3 : List (HloOp τ sig (Elt F))), op.fresh = ∅ :=
  List.forall_iff_forall_mem.1 (show (ops3 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers that operations 184 … 243 write. -/
abbrev ops3_W : List (Ref sig .tc) := [main_v160, main_v161, main_v162, main_v163, main_v164, main_v165, main_v166, main_c_18, main_v167, main_v168, main_c_19, main_v169, main_v170, main_v171, main_v172, main_v173, main_cst_20, main_v174, main_v175, main_v176, main_cst_21, main_v177, main_cst_22, main_v178, main_v179, main_v180, main_cst_23, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_cst_24, main_v209, main_v210, main_v211, main_v212]
set_option maxRecDepth 8192 in
theorem ops3_writes : (ops3 : List (HloOp τ sig (Elt F))).Forall fun op => op.writes ⊆ (ops3_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer that operations 184 … 243 do not write keeps its contents through them. -/
theorem ops3_keep (W : Valuation τ sig (Elt F)) (r : Ref sig .tc) (h : r ∉ ops3_W) :
    after ops3 W (Proc.devRef .tc r) = W (Proc.devRef .tc r) :=
  after_of_writes_sub ops3 _ ops3_writes h

set_option maxRecDepth 8192 in
set_option maxHeartbeats 4000000 in
/-- After operations 184 … 243, from contents that hold the stages of the buffers they read, main_v162 holds its stage. -/
theorem c3_main_v162 (W : Valuation τ sig (Elt F)) (x0 : (⟨S100000x32, .f32⟩ : BufTy).Contents (Elt F)) (x1 : (⟨S100000x32, .f32⟩ : BufTy).Contents (Elt F)) (x3 : (⟨S2x500000, .i32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F))
    (h_main_v127 : W (no_index (Proc.devRef .tc main_v127)) = ReadP.val_main_v127 (F := F) x0 x1 x3 x5 x6 x7 x8 x9 x10 x11 x12 x13 x14 x15)
    (h_main_v158 : W (no_index (Proc.devRef .tc main_v158)) = ReadP.val_main_v158 (F := F) x0 x1 x3 x4 x5 x6 x7 x8 x9 x10 x11 x12 x13 x14 x15)
    (h_main_v159 : W (no_index (Proc.devRef .tc main_v159)) = ReadP.val_main_v159 (F := F) x11)
    : after ops3 W (no_index (Proc.devRef .tc main_v162)) = ReadP.val_main_v162 (F := F) x0 x1 x3 x4 x5 x6 x7 x8 x9 x10 x11 x12 x13 x14 x15 := by
  stage_fact ops3 with [h_main_v127, h_main_v158, h_main_v159]

set_option maxRecDepth 8192 in
set_option maxHeartbeats 4000000 in
/-- After operations 184 … 243, from contents that hold the stages of the buffers they read, main_v199 holds its stage. -/
theorem c3_main_v199 (W : Valuation τ sig (Elt F)) (x12 : (⟨S2x2x128, .f32⟩ : BufTy).Contents (Elt F))
    (hx12 : W (no_index (Proc.devRef .tc main_arg12)) = x12)
    : after ops3 W (no_index (Proc.devRef .tc main_v199)) = ReadP.val_main_v199 (F := F) x12 := by
  stage_fact ops3 with [hx12]

set_option maxRecDepth 8192 in
set_option maxHeartbeats 4000000 in
/-- After operations 184 … 243, from contents that hold the stages of the buffers they read, main_v201 holds its stage. -/
theorem c3_main_v201 (W : Valuation τ sig (Elt F)) (x13 : (⟨S2x2x128, .f32⟩ : BufTy).Contents (Elt F))
    (hx13 : W (no_index (Proc.devRef .tc main_arg13)) = x13)
    : after ops3 W (no_index (Proc.devRef .tc main_v201)) = ReadP.val_main_v201 (F := F) x13 := by
  stage_fact ops3 with [hx13]

set_option maxRecDepth 8192 in
set_option maxHeartbeats 4000000 in
/-- After operations 184 … 243, from contents that hold the stages of the buffers they read, main_v208 holds its stage. -/
theorem c3_main_v208 (W : Valuation τ sig (Elt F)) (x0 : (⟨S100000x32, .f32⟩ : BufTy).Contents (Elt F)) (x1 : (⟨S100000x32, .f32⟩ : BufTy).Contents (Elt F)) (x3 : (⟨S2x500000, .i32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F))
    (hx4 : W (no_index (Proc.devRef .tc main_arg4)) = x4)
    (hx9 : W (no_index (Proc.devRef .tc main_arg9)) = x9)
    (hx10 : W (no_index (Proc.devRef .tc main_arg10)) = x10)
    (hx11 : W (no_index (Proc.devRef .tc main_arg11)) = x11)
    (hx14 : W (no_index (Proc.devRef .tc main_arg14)) = x14)
    (h_main_v102 : W (no_index (Proc.devRef .tc main_v102)) = ReadP.val_main_v102 (F := F) x0 x1 x4 x5 x6 x7 x8 x9 x10 x11 x12 x13 x14 x15)
    (h_main_v127 : W (no_index (Proc.devRef .tc main_v127)) = ReadP.val_main_v127 (F := F) x0 x1 x3 x5 x6 x7 x8 x9 x10 x11 x12 x13 x14 x15)
    : after ops3 W (no_index (Proc.devRef .tc main_v208)) = ReadP.val_main_v208 (F := F) x0 x1 x3 x4 x5 x6 x7 x8 x9 x10 x11 x12 x13 x14 x15 := by
  stage_fact ops3 with [hx4, hx9, hx10, hx11, hx14, h_main_v102, h_main_v127]

set_option maxRecDepth 8192 in
set_option maxHeartbeats 4000000 in
/-- After operations 184 … 243, from contents that hold the stages of the buffers they read, main_v212 holds its stage. -/
theorem c3_main_v212 (W : Valuation τ sig (Elt F)) (x15 : (⟨S2x2x128, .f32⟩ : BufTy).Contents (Elt F))
    (hx15 : W (no_index (Proc.devRef .tc main_arg15)) = x15)
    : after ops3 W (no_index (Proc.devRef .tc main_v212)) = ReadP.val_main_v212 (F := F) x15 := by
  stage_fact ops3 with [hx15]

end Cert.ReferenceIdeal.HandRun

end
-- ==== Proof.RefRun.Chunk4.lean ====
import proofs.«100324_j78829829750888_1_alg».proof.Proof.RefRead
import proofs.«100324_j78829829750888_1_alg».proof.Proof.RefRun.Tac

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 244 … 305 of @main's 350, in order. -/
abbrev ops4 : List (HloOp τ sig (Elt F)) :=
  [ unary main_v212 main_v213 (broadcastInDim S100000x128 ![0, 1] bcast_S1x128_S100000x128_0_1 : (⟨S1x128, .f32⟩ : BufTy).Contents (Elt F) → (⟨S100000x128, .f32⟩ : BufTy).Contents (Elt F)),
    binary main_v208 main_v213 main_v214 (mulf : (⟨S100000x128, .f32⟩ : BufTy).Contents (Elt F) → (⟨S100000x128, .f32⟩ : BufTy).Contents (Elt F) → (⟨S100000x128, .f32⟩ : BufTy).Contents (Elt F)),
    unary main_v199 main_v215 (broadcastInDim S1x128 ![1] bcast_S128_S1x128_1 : (⟨S128, .f32⟩ : BufTy).Contents (Elt F) → (⟨S1x128, .f32⟩ : BufTy).Contents (Elt F)),
    unary main_v215 main_v216 (broadcastInDim S100000x128 ![0, 1] bcast_S1x128_S100000x128_0_1 : (⟨S1x128, .f32⟩ : BufTy).Contents (Elt F) → (⟨S100000x128, .f32⟩ : BufTy).Contents (Elt F)),
    binary main_v214 main_v216 main_v217 (mulf : (⟨S100000x128, .f32⟩ : BufTy).Contents (Elt F) → (⟨S100000x128, .f32⟩ : BufTy).Contents (Elt F) → (⟨S100000x128, .f32⟩ : BufTy).Contents (Elt F)),
    unary main_v201 main_v218 (broadcastInDim S1x128 ![1] bcast_S128_S1x128_1 : (⟨S128, .f32⟩ : BufTy).Contents (Elt F) → (⟨S1x128, .f32⟩ : BufTy).Contents (Elt F)),
    unary main_v218 main_v219 (broadcastInDim S100000x128 ![0, 1] bcast_S1x128_S100000x128_0_1 : (⟨S1x128, .f32⟩ : BufTy).Contents (Elt F) → (⟨S100000x128, .f32⟩ : BufTy).Contents (Elt F)),
    binary main_v217 main_v219 main_v220 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v220) (TRef.of (T := ⟨S100000x128, .f32⟩) main_call2_v0) (TRef.of (T := ⟨S100000x128, .f32⟩) main_v221) maximumf,
    binary main_v221 main_v102 main_v222 (addf : (⟨S100000x128, .f32⟩ : BufTy).Contents (Elt F) → (⟨S100000x128, .f32⟩ : BufTy).Contents (Elt F) → (⟨S100000x128, .f32⟩ : BufTy).Contents (Elt F)),
    unary main_arg12 main_v223 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v223 main_v224 rfl shapeCasts_S1x1x128_S128,
    unary main_arg13 main_v225 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v225 main_v226 rfl shapeCasts_S1x1x128_S128,
    unary main_arg14 main_v227 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v227 main_v228 rfl shapeCasts_S1x1x128_S128,
    unary main_arg15 main_v229 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v229 main_v230 rfl shapeCasts_S1x1x128_S128,
    unary main_v228 main_v231 (broadcastInDim S1x128 ![1] bcast_S128_S1x128_1 : (⟨S128, .f32⟩ : BufTy).Contents (Elt F) → (⟨S1x128, .f32⟩ : BufTy).Contents (Elt F)),
    unary main_v231 main_v232 (broadcastInDim S100000x128 ![0, 1] bcast_S1x128_S100000x128_0_1 : (⟨S1x128, .f32⟩ : BufTy).Contents (Elt F) → (⟨S100000x128, .f32⟩ : BufTy).Contents (Elt F)),
    binary main_v162 main_v232 main_v233 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v234 (broadcastInDim S128 ![] bcast_S_S128 : (⟨S_, .f32⟩ : BufTy).Contents (Elt F) → (⟨S128, .f32⟩ : BufTy).Contents (Elt F)),
    binary main_v230 main_v234 main_v235 (addf : (⟨S128, .f32⟩ : BufTy).Contents (Elt F) → (⟨S128, .f32⟩ : BufTy).Contents (Elt F) → (⟨S128, .f32⟩ : BufTy).Contents (Elt F)),
    unary main_v235 main_v236 (Host.rsqrt : (⟨S128, .f32⟩ : BufTy).Contents (Elt F) → (⟨S128, .f32⟩ : BufTy).Contents (Elt F)),
    unary main_v236 main_v237 (broadcastInDim S1x128 ![1] bcast_S128_S1x128_1 : (⟨S128, .f32⟩ : BufTy).Contents (Elt F) → (⟨S1x128, .f32⟩ : BufTy).Contents (Elt F)),
    unary main_v237 main_v238 (broadcastInDim S100000x128 ![0, 1] bcast_S1x128_S100000x128_0_1 : (⟨S1x128, .f32⟩ : BufTy).Contents (Elt F) → (⟨S100000x128, .f32⟩ : BufTy).Contents (Elt F)),
    binary main_v233 main_v238 main_v239 (mulf : (⟨S100000x128, .f32⟩ : BufTy).Contents (Elt F) → (⟨S100000x128, .f32⟩ : BufTy).Contents (Elt F) → (⟨S100000x128, .f32⟩ : BufTy).Contents (Elt F)),
    unary main_v224 main_v240 (broadcastInDim S1x128 ![1] bcast_S128_S1x128_1 : (⟨S128, .f32⟩ : BufTy).Contents (Elt F) → (⟨S1x128, .f32⟩ : BufTy).Contents (Elt F)),
    unary main_v240 main_v241 (broadcastInDim S100000x128 ![0, 1] bcast_S1x128_S100000x128_0_1 : (⟨S1x128, .f32⟩ : BufTy).Contents (Elt F) → (⟨S100000x128, .f32⟩ : BufTy).Contents (Elt F)),
    binary main_v239 main_v241 main_v242 (mulf : (⟨S100000x128, .f32⟩ : BufTy).Contents (Elt F) → (⟨S100000x128, .f32⟩ : BufTy).Contents (Elt F) → (⟨S100000x128, .f32⟩ : BufTy).Contents (Elt F)),
    unary main_v226 main_v243 (broadcastInDim S1x128 ![1] bcast_S128_S1x128_1 : (⟨S128, .f32⟩ : BufTy).Contents (Elt F) → (⟨S1x128, .f32⟩ : BufTy).Contents (Elt F)),
    unary main_v243 main_v244 (broadcastInDim S100000x128 ![0, 1] bcast_S1x128_S100000x128_0_1 : (⟨S1x128, .f32⟩ : BufTy).Contents (Elt F) → (⟨S100000x128, .f32⟩ : BufTy).Contents (Elt F)),
    binary main_v242 main_v244 main_v245 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v245) (TRef.of (T := ⟨S100000x128, .f32⟩) main_call3_v0) (TRef.of (T := ⟨S100000x128, .f32⟩) main_v246) maximumf,
    binary main_v246 main_v127 main_v247 (addf : (⟨S100000x128, .f32⟩ : BufTy).Contents (Elt F) → (⟨S100000x128, .f32⟩ : BufTy).Contents (Elt F) → (⟨S100000x128, .f32⟩ : BufTy).Contents (Elt F)),
    unary main_arg3 main_v248 ((extractStridedSlice S1x500000 ![0, 0] · slices_S2x500000_S1x500000_0_0) : (⟨S2x500000, .i32⟩ : BufTy).Contents (Elt F) → (⟨S1x500000, .i32⟩ : BufTy).Contents (Elt F)),
    reshape main_v248 main_v249 rfl shapeCasts_S1x500000_S500000,
    nullary main_c_26 (constantI S_ 32 0#32),
    unary main_c_26 main_v250 (broadcastInDim S500000 ![] bcast_S_S500000 : (⟨S_, .i32⟩ : BufTy).Contents (Elt F) → (⟨S500000, .i32⟩ : BufTy).Contents (Elt F)),
    binary main_v249 main_v250 main_v251 (cmpi .slt : (⟨S500000, .i32⟩ : BufTy).Contents (Elt F) → (⟨S500000, .i32⟩ : BufTy).Contents (Elt F) → (⟨S500000, .i1⟩ : BufTy).Contents (Elt F)),
    nullary main_c_27 (constantI S_ 32 100000#32),
    unary main_c_27 main_v252 (broadcastInDim S500000 ![] bcast_S_S500000 : (⟨S_, .i32⟩ : BufTy).Contents (Elt F) → (⟨S500000, .i32⟩ : BufTy).Contents (Elt F)),
    binary main_v249 main_v252 main_v253 (addi : (⟨S500000, .i32⟩ : BufTy).Contents (Elt F) → (⟨S500000, .i32⟩ : BufTy).Contents (Elt F) → (⟨S500000, .i32⟩ : BufTy).Contents (Elt F)),
    ternary main_v251 main_v253 main_v249 main_v254 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v254 main_v255 (broadcastInDim S500000x1 ![0] bcast_S500000_S500000x1_0 : (⟨S500000, .i32⟩ : BufTy).Contents (Elt F) → (⟨S500000x1, .i32⟩ : BufTy).Contents (Elt F)),
    binary main_v222 main_v255 main_v256 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    unary main_arg3 main_v257 ((extractStridedSlice S1x500000 ![1, 0] · slices_S2x500000_S1x500000_1_0) : (⟨S2x500000, .i32⟩ : BufTy).Contents (Elt F) → (⟨S1x500000, .i32⟩ : BufTy).Contents (Elt F)),
    reshape main_v257 main_v258 rfl shapeCasts_S1x500000_S500000,
    nullary main_c_28 (constantI S_ 32 0#32),
    unary main_c_28 main_v259 (broadcastInDim S500000 ![] bcast_S_S500000 : (⟨S_, .i32⟩ : BufTy).Contents (Elt F) → (⟨S500000, .i32⟩ : BufTy).Contents (Elt F)),
    binary main_v258 main_v259 main_v260 (cmpi .slt : (⟨S500000, .i32⟩ : BufTy).Contents (Elt F) → (⟨S500000, .i32⟩ : BufTy).Contents (Elt F) → (⟨S500000, .i1⟩ : BufTy).Contents (Elt F)),
    nullary main_c_29 (constantI S_ 32 100000#32),
    unary main_c_29 main_v261 (broadcastInDim S500000 ![] bcast_S_S500000 : (⟨S_, .i32⟩ : BufTy).Contents (Elt F) → (⟨S500000, .i32⟩ : BufTy).Contents (Elt F)),
    binary main_v258 main_v261 main_v262 (addi : (⟨S500000, .i32⟩ : BufTy).Contents (Elt F) → (⟨S500000, .i32⟩ : BufTy).Contents (Elt F) → (⟨S500000, .i32⟩ : BufTy).Contents (Elt F)),
    ternary main_v260 main_v262 main_v258 main_v263 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v263 main_v264 (broadcastInDim S500000x1 ![0] bcast_S500000_S500000x1_0 : (⟨S500000, .i32⟩ : BufTy).Contents (Elt F) → (⟨S500000x1, .i32⟩ : BufTy).Contents (Elt F)),
    binary main_v247 main_v264 main_v265 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) ]

set_option maxRecDepth 8192 in
theorem ops4_sub : (ops4 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem ops4_fresh : ∀ op ∈ (ops4 : List (HloOp τ sig (Elt F))), op.fresh = ∅ :=
  List.forall_iff_forall_mem.1 (show (ops4 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers that operations 244 … 305 write. -/
abbrev ops4_W : List (Ref sig .tc) := [main_v213, main_v214, main_v215, main_v216, main_v217, main_v218, main_v219, main_v220, main_call2_cst, main_call2_v0, main_v221, main_v222, main_v223, main_v224, main_v225, main_v226, main_v227, main_v228, main_v229, main_v230, main_v231, main_v232, main_v233, main_cst_25, main_v234, main_v235, main_v236, main_v237, main_v238, main_v239, main_v240, main_v241, main_v242, main_v243, main_v244, main_v245, main_call3_cst, main_call3_v0, main_v246, main_v247, main_v248, main_v249, main_c_26, main_v250, main_v251, main_c_27, main_v252, main_v253, main_v254, main_v255, main_v256, main_v257, main_v258, main_c_28, main_v259, main_v260, main_c_29, main_v261, main_v262, main_v263, main_v264, main_v265]
set_option maxRecDepth 8192 in
theorem ops4_writes : (ops4 : List (HloOp τ sig (Elt F))).Forall fun op => op.writes ⊆ (ops4_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer that operations 244 … 305 do not write keeps its contents through them. -/
theorem ops4_keep (W : Valuation τ sig (Elt F)) (r : Ref sig .tc) (h : r ∉ ops4_W) :
    after ops4 W (Proc.devRef .tc r) = W (Proc.devRef .tc r) :=
  after_of_writes_sub ops4 _ ops4_writes h

set_option maxRecDepth 8192 in
set_option maxHeartbeats 4000000 in
/-- After operations 244 … 305, from contents that hold the stages of the buffers they read, main_v256 holds its stage. -/
theorem c4_main_v256 (W : Valuation τ sig (Elt F)) (x0 : (⟨S100000x32, .f32⟩ : BufTy).Contents (Elt F)) (x1 : (⟨S100000x32, .f32⟩ : BufTy).Contents (Elt F)) (x3 : (⟨S2x500000, .i32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F))
    (hx3 : W (no_index (Proc.devRef .tc main_arg3)) = x3)
    (h_main_v102 : W (no_index (Proc.devRef .tc main_v102)) = ReadP.val_main_v102 (F := F) x0 x1 x4 x5 x6 x7 x8 x9 x10 x11 x12 x13 x14 x15)
    (h_main_v199 : W (no_index (Proc.devRef .tc main_v199)) = ReadP.val_main_v199 (F := F) x12)
    (h_main_v201 : W (no_index (Proc.devRef .tc main_v201)) = ReadP.val_main_v201 (F := F) x13)
    (h_main_v208 : W (no_index (Proc.devRef .tc main_v208)) = ReadP.val_main_v208 (F := F) x0 x1 x3 x4 x5 x6 x7 x8 x9 x10 x11 x12 x13 x14 x15)
    (h_main_v212 : W (no_index (Proc.devRef .tc main_v212)) = ReadP.val_main_v212 (F := F) x15)
    : after ops4 W (no_index (Proc.devRef .tc main_v256)) = ReadP.val_main_v256 (F := F) x0 x1 x3 x4 x5 x6 x7 x8 x9 x10 x11 x12 x13 x14 x15 := by
  stage_fact ops4 with [hx3, h_main_v102, h_main_v199, h_main_v201, h_main_v208, h_main_v212]

set_option maxRecDepth 8192 in
set_option maxHeartbeats 4000000 in
/-- After operations 244 … 305, from contents that hold the stages of the buffers they read, main_v265 holds its stage. -/
theorem c4_main_v265 (W : Valuation τ sig (Elt F)) (x0 : (⟨S100000x32, .f32⟩ : BufTy).Contents (Elt F)) (x1 : (⟨S100000x32, .f32⟩ : BufTy).Contents (Elt F)) (x3 : (⟨S2x500000, .i32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F))
    (hx3 : W (no_index (Proc.devRef .tc main_arg3)) = x3)
    (hx12 : W (no_index (Proc.devRef .tc main_arg12)) = x12)
    (hx13 : W (no_index (Proc.devRef .tc main_arg13)) = x13)
    (hx14 : W (no_index (Proc.devRef .tc main_arg14)) = x14)
    (hx15 : W (no_index (Proc.devRef .tc main_arg15)) = x15)
    (h_main_v127 : W (no_index (Proc.devRef .tc main_v127)) = ReadP.val_main_v127 (F := F) x0 x1 x3 x5 x6 x7 x8 x9 x10 x11 x12 x13 x14 x15)
    (h_main_v162 : W (no_index (Proc.devRef .tc main_v162)) = ReadP.val_main_v162 (F := F) x0 x1 x3 x4 x5 x6 x7 x8 x9 x10 x11 x12 x13 x14 x15)
    : after ops4 W (no_index (Proc.devRef .tc main_v265)) = ReadP.val_main_v265 (F := F) x0 x1 x3 x4 x5 x6 x7 x8 x9 x10 x11 x12 x13 x14 x15 := by
  stage_fact ops4 with [hx3, hx12, hx13, hx14, hx15, h_main_v127, h_main_v162]

end Cert.ReferenceIdeal.HandRun

end
-- ==== Proof.RefRun.Chunk5.lean ====
import proofs.«100324_j78829829750888_1_alg».proof.Proof.RefRead
import proofs.«100324_j78829829750888_1_alg».proof.Proof.RefRun.Tac

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 306 … 307 of @main's 350, in order. -/
abbrev ops5 : List (HloOp τ sig (Elt F)) :=
  [ nary ![main_v256, main_v265, main_arg2] main_v266 (fun u => concatenate S500000x272 1 [⟨S500000x128, u 0⟩, ⟨S500000x128, u 1⟩, ⟨S500000x16, u 2⟩] concatenates_S500000x128_S500000x128_S500000x16_S500000x272_d1),
    binary main_v266 main_arg16 main_v267 ((fun l r => Host.dotGeneral dot_S500000x272_S272x128_S500000x128_1_0_0_1_n_n none l r) : (⟨S500000x272, .f32⟩ : BufTy).Contents (Elt F) → (⟨S272x128, .f32⟩ : BufTy).Contents (Elt F) → (⟨S500000x128, .f32⟩ : BufTy).Contents (Elt F)) ]

set_option maxRecDepth 8192 in
theorem ops5_sub : (ops5 : List (HloOp τ sig (Elt F))).Forall fun op => op.bufs ⊆ tcRefs τ sig :=
  ⟨nary_bufs_sub .., binary_bufs_sub ..⟩

set_option maxRecDepth 8192 in
theorem ops5_fresh : ∀ op ∈ (ops5 : List (HloOp τ sig (Elt F))), op.fresh = ∅ :=
  List.forall_iff_forall_mem.1 (show (ops5 : List (HloOp τ sig (Elt F))).Forall (fun op => op.fresh = ∅) from ⟨rfl, rfl⟩)

/-- The buffers that operations 306 … 307 write. -/
abbrev ops5_W : List (Ref sig .tc) := [main_v266, main_v267]
set_option maxRecDepth 8192 in
theorem ops5_writes : (ops5 : List (HloOp τ sig (Elt F))).Forall fun op => op.writes ⊆ (ops5_W.map (Proc.devRef (τ := τ) .tc)).toFinset := by
  simp only [List.Forall]
  exact ⟨by writes_one, by writes_one⟩
/-- A buffer that operations 306 … 307 do not write keeps its contents through them. -/
theorem ops5_keep (W : Valuation τ sig (Elt F)) (r : Ref sig .tc) (h : r ∉ ops5_W) :
    after ops5 W (Proc.devRef .tc r) = W (Proc.devRef .tc r) :=
  after_of_writes_sub ops5 _ ops5_writes h

set_option maxRecDepth 8192 in
set_option maxHeartbeats 4000000 in
/-- After operations 306 … 307, from contents that hold the stages of the buffers they read, main_v267 holds its stage. -/
theorem c5_main_v267 (W : Valuation τ sig (Elt F)) (x0 : (⟨S100000x32, .f32⟩ : BufTy).Contents (Elt F)) (x1 : (⟨S100000x32, .f32⟩ : BufTy).Contents (Elt F)) (x2 : (⟨S500000x16, .f32⟩ : BufTy).Contents (Elt F)) (x3 : (⟨S2x500000, .i32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F)) (x16 : (⟨S272x128, .f32⟩ : BufTy).Contents (Elt F))
    (hx2 : W (no_index (Proc.devRef .tc main_arg2)) = x2)
    (hx16 : W (no_index (Proc.devRef .tc main_arg16)) = x16)
    (h_main_v256 : W (no_index (Proc.devRef .tc main_v256)) = ReadP.val_main_v256 (F := F) x0 x1 x3 x4 x5 x6 x7 x8 x9 x10 x11 x12 x13 x14 x15)
    (h_main_v265 : W (no_index (Proc.devRef .tc main_v265)) = ReadP.val_main_v265 (F := F) x0 x1 x3 x4 x5 x6 x7 x8 x9 x10 x11 x12 x13 x14 x15)
    : after ops5 W (no_index (Proc.devRef .tc main_v267)) = ReadP.val_main_v267 (F := F) x0 x1 x2 x3 x4 x5 x6 x7 x8 x9 x10 x11 x12 x13 x14 x15 x16 := by
  stage_fact ops5 with [hx2, hx16, h_main_v256, h_main_v265]

end Cert.ReferenceIdeal.HandRun

end
-- ==== Proof.RefRun.Chunk6.lean ====
import proofs.«100324_j78829829750888_1_alg».proof.Proof.RefRead
import proofs.«100324_j78829829750888_1_alg».proof.Proof.RefRun.Tac

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 308 … 349 of @main's 350, in order. -/
abbrev ops6 : List (HloOp τ sig (Elt F)) :=
  [ unary main_arg17 main_v268 (broadcastInDim S1x128 ![1] bcast_S128_S1x128_1 : (⟨S128, .f32⟩ : BufTy).Contents (Elt F) → (⟨S1x128, .f32⟩ : BufTy).Contents (Elt F)),
    unary main_v268 main_v269 (broadcastInDim S500000x128 ![0, 1] bcast_S1x128_S500000x128_0_1 : (⟨S1x128, .f32⟩ : BufTy).Contents (Elt F) → (⟨S500000x128, .f32⟩ : BufTy).Contents (Elt F)),
    binary main_v267 main_v269 main_v270 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S500000x128, .f32⟩) main_call4_v0) (broadcastInDim S500000x128 ![] bcast_S_S500000x128),
    TRef.binary (TRef.of (T := ⟨S500000x128, .f32⟩) main_v270) (TRef.of (T := ⟨S500000x128, .f32⟩) main_call4_v0) (TRef.of (T := ⟨S500000x128, .f32⟩) main_v271) maximumf,
    unary main_arg20 main_v272 (broadcastInDim S1x128 ![1] bcast_S128_S1x128_1 : (⟨S128, .f32⟩ : BufTy).Contents (Elt F) → (⟨S1x128, .f32⟩ : BufTy).Contents (Elt F)),
    unary main_v272 main_v273 (broadcastInDim S500000x128 ![0, 1] bcast_S1x128_S500000x128_0_1 : (⟨S1x128, .f32⟩ : BufTy).Contents (Elt F) → (⟨S500000x128, .f32⟩ : BufTy).Contents (Elt F)),
    binary main_v271 main_v273 main_v274 (subf : (⟨S500000x128, .f32⟩ : BufTy).Contents (Elt F) → (⟨S500000x128, .f32⟩ : BufTy).Contents (Elt F) → (⟨S500000x128, .f32⟩ : BufTy).Contents (Elt F)),
    nullary main_cst_30 (constant S_ .f32 0x3727C5AC#32),
    unary main_cst_30 main_v275 (broadcastInDim S128 ![] bcast_S_S128 : (⟨S_, .f32⟩ : BufTy).Contents (Elt F) → (⟨S128, .f32⟩ : BufTy).Contents (Elt F)),
    binary main_arg21 main_v275 main_v276 (addf : (⟨S128, .f32⟩ : BufTy).Contents (Elt F) → (⟨S128, .f32⟩ : BufTy).Contents (Elt F) → (⟨S128, .f32⟩ : BufTy).Contents (Elt F)),
    unary main_v276 main_v277 (Host.rsqrt : (⟨S128, .f32⟩ : BufTy).Contents (Elt F) → (⟨S128, .f32⟩ : BufTy).Contents (Elt F)),
    unary main_v277 main_v278 (broadcastInDim S1x128 ![1] bcast_S128_S1x128_1 : (⟨S128, .f32⟩ : BufTy).Contents (Elt F) → (⟨S1x128, .f32⟩ : BufTy).Contents (Elt F)),
    unary main_v278 main_v279 (broadcastInDim S500000x128 ![0, 1] bcast_S1x128_S500000x128_0_1 : (⟨S1x128, .f32⟩ : BufTy).Contents (Elt F) → (⟨S500000x128, .f32⟩ : BufTy).Contents (Elt F)),
    binary main_v274 main_v279 main_v280 (mulf : (⟨S500000x128, .f32⟩ : BufTy).Contents (Elt F) → (⟨S500000x128, .f32⟩ : BufTy).Contents (Elt F) → (⟨S500000x128, .f32⟩ : BufTy).Contents (Elt F)),
    unary main_arg18 main_v281 (broadcastInDim S1x128 ![1] bcast_S128_S1x128_1 : (⟨S128, .f32⟩ : BufTy).Contents (Elt F) → (⟨S1x128, .f32⟩ : BufTy).Contents (Elt F)),
    unary main_v281 main_v282 (broadcastInDim S500000x128 ![0, 1] bcast_S1x128_S500000x128_0_1 : (⟨S1x128, .f32⟩ : BufTy).Contents (Elt F) → (⟨S500000x128, .f32⟩ : BufTy).Contents (Elt F)),
    binary main_v280 main_v282 main_v283 (mulf : (⟨S500000x128, .f32⟩ : BufTy).Contents (Elt F) → (⟨S500000x128, .f32⟩ : BufTy).Contents (Elt F) → (⟨S500000x128, .f32⟩ : BufTy).Contents (Elt F)),
    unary main_arg19 main_v284 (broadcastInDim S1x128 ![1] bcast_S128_S1x128_1 : (⟨S128, .f32⟩ : BufTy).Contents (Elt F) → (⟨S1x128, .f32⟩ : BufTy).Contents (Elt F)),
    unary main_v284 main_v285 (broadcastInDim S500000x128 ![0, 1] bcast_S1x128_S500000x128_0_1 : (⟨S1x128, .f32⟩ : BufTy).Contents (Elt F) → (⟨S500000x128, .f32⟩ : BufTy).Contents (Elt F)),
    binary main_v283 main_v285 main_v286 (addf : (⟨S500000x128, .f32⟩ : BufTy).Contents (Elt F) → (⟨S500000x128, .f32⟩ : BufTy).Contents (Elt F) → (⟨S500000x128, .f32⟩ : BufTy).Contents (Elt F)),
    binary main_v286 main_arg22 main_v287 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    unary main_arg23 main_v288 (broadcastInDim S1x64 ![1] bcast_S64_S1x64_1 : (⟨S64, .f32⟩ : BufTy).Contents (Elt F) → (⟨S1x64, .f32⟩ : BufTy).Contents (Elt F)),
    unary main_v288 main_v289 (broadcastInDim S500000x64 ![0, 1] bcast_S1x64_S500000x64_0_1 : (⟨S1x64, .f32⟩ : BufTy).Contents (Elt F) → (⟨S500000x64, .f32⟩ : BufTy).Contents (Elt F)),
    binary main_v287 main_v289 main_v290 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S500000x64, .f32⟩) main_call5_v0) (broadcastInDim S500000x64 ![] bcast_S_S500000x64),
    TRef.binary (TRef.of (T := ⟨S500000x64, .f32⟩) main_v290) (TRef.of (T := ⟨S500000x64, .f32⟩) main_call5_v0) (TRef.of (T := ⟨S500000x64, .f32⟩) main_v291) maximumf,
    binary main_v291 main_arg24 main_v292 ((fun l r => Host.dotGeneral dot_S500000x64_S64x1_S500000x1_1_0_0_1_n_n none l r) : (⟨S500000x64, .f32⟩ : BufTy).Contents (Elt F) → (⟨S64x1, .f32⟩ : BufTy).Contents (Elt F) → (⟨S500000x1, .f32⟩ : BufTy).Contents (Elt F)),
    unary main_arg25 main_v293 (broadcastInDim S1x1 ![1] bcast_S1_S1x1_1 : (⟨S1, .f32⟩ : BufTy).Contents (Elt F) → (⟨S1x1, .f32⟩ : BufTy).Contents (Elt F)),
    unary main_v293 main_v294 (broadcastInDim S500000x1 ![0, 1] bcast_S1x1_S500000x1_0_1 : (⟨S1x1, .f32⟩ : BufTy).Contents (Elt F) → (⟨S500000x1, .f32⟩ : BufTy).Contents (Elt F)),
    binary main_v292 main_v294 main_v295 (addf : (⟨S500000x1, .f32⟩ : BufTy).Contents (Elt F) → (⟨S500000x1, .f32⟩ : BufTy).Contents (Elt F) → (⟨S500000x1, .f32⟩ : BufTy).Contents (Elt F)),
    unary main_v295 main_v296 (Host.negf : (⟨S500000x1, .f32⟩ : BufTy).Contents (Elt F) → (⟨S500000x1, .f32⟩ : BufTy).Contents (Elt F)),
    unary main_v296 main_v297 (Host.exp : (⟨S500000x1, .f32⟩ : BufTy).Contents (Elt F) → (⟨S500000x1, .f32⟩ : BufTy).Contents (Elt F)),
    nullary main_cst_31 (constant S_ .f32 0x3F800000#32),
    unary main_cst_31 main_v298 (broadcastInDim S500000x1 ![] bcast_S_S500000x1 : (⟨S_, .f32⟩ : BufTy).Contents (Elt F) → (⟨S500000x1, .f32⟩ : BufTy).Contents (Elt F)),
    binary main_v298 main_v297 main_v299 (addf : (⟨S500000x1, .f32⟩ : BufTy).Contents (Elt F) → (⟨S500000x1, .f32⟩ : BufTy).Contents (Elt F) → (⟨S500000x1, .f32⟩ : BufTy).Contents (Elt F)),
    nullary main_cst_32 (constant S_ .f32 0x3F800000#32),
    unary main_cst_32 main_v300 (broadcastInDim S500000x1 ![] bcast_S_S500000x1 : (⟨S_, .f32⟩ : BufTy).Contents (Elt F) → (⟨S500000x1, .f32⟩ : BufTy).Contents (Elt F)),
    binary main_v300 main_v299 main_v301 (Host.divf : (⟨S500000x1, .f32⟩ : BufTy).Contents (Elt F) → (⟨S500000x1, .f32⟩ : BufTy).Contents (Elt F) → (⟨S500000x1, .f32⟩ : BufTy).Contents (Elt F)),
    reshape main_v301 main_v302 rfl shapeCasts_S500000x1_S500000 ]

set_option maxRecDepth 8192 in
theorem ops6_sub : (ops6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

set_option maxRecDepth 8192 in
theorem ops6_fresh : ∀ op ∈ (ops6 : List (HloOp τ sig (Elt F))), op.fresh = ∅ :=
  List.forall_iff_forall_mem.1 (show (ops6 : List (HloOp τ sig (Elt F))).Forall (fun op => op.fresh = ∅) from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers that operations 308 … 349 write. -/
abbrev ops6_W : List (Ref sig .tc) := [main_v268, main_v269, main_v270, main_call4_cst, main_call4_v0, main_v271, main_v272, main_v273, main_v274, main_cst_30, main_v275, main_v276, main_v277, main_v278, main_v279, main_v280, main_v281, main_v282, main_v283, main_v284, main_v285, main_v286, main_v287, main_v288, main_v289, main_v290, main_call5_cst, main_call5_v0, main_v291, main_v292, main_v293, main_v294, main_v295, main_v296, main_v297, main_cst_31, main_v298, main_v299, main_cst_32, main_v300, main_v301, main_v302]
set_option maxRecDepth 8192 in
theorem ops6_writes : (ops6 : List (HloOp τ sig (Elt F))).Forall fun op => op.writes ⊆ (ops6_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer that operations 308 … 349 do not write keeps its contents through them. -/
theorem ops6_keep (W : Valuation τ sig (Elt F)) (r : Ref sig .tc) (h : r ∉ ops6_W) :
    after ops6 W (Proc.devRef .tc r) = W (Proc.devRef .tc r) :=
  after_of_writes_sub ops6 _ ops6_writes h

set_option maxRecDepth 8192 in
set_option maxHeartbeats 4000000 in
/-- After operations 308 … 349, from contents that hold the stages of the buffers they read, main_v302 holds its stage. -/
theorem c6_main_v302 (W : Valuation τ sig (Elt F)) (x0 : (⟨S100000x32, .f32⟩ : BufTy).Contents (Elt F)) (x1 : (⟨S100000x32, .f32⟩ : BufTy).Contents (Elt F)) (x2 : (⟨S500000x16, .f32⟩ : BufTy).Contents (Elt F)) (x3 : (⟨S2x500000, .i32⟩ : BufTy).Contents (Elt F)) (x4 : (⟨S2x500000, .i32⟩ : BufTy).Contents (Elt F)) (x5 : (⟨S32x128, .f32⟩ : BufTy).Contents (Elt F)) (x6 : (⟨S128, .f32⟩ : BufTy).Contents (Elt F)) (x7 : (⟨S32x128, .f32⟩ : BufTy).Contents (Elt F)) (x8 : (⟨S128, .f32⟩ : BufTy).Contents (Elt F)) (x9 : (⟨S2x2x128x128, .f32⟩ : BufTy).Contents (Elt F)) (x10 : (⟨S2x2x128, .f32⟩ : BufTy).Contents (Elt F)) (x11 : (⟨S2x2x128x128, .f32⟩ : BufTy).Contents (Elt F)) (x12 : (⟨S2x2x128, .f32⟩ : BufTy).Contents (Elt F)) (x13 : (⟨S2x2x128, .f32⟩ : BufTy).Contents (Elt F)) (x14 : (⟨S2x2x128, .f32⟩ : BufTy).Contents (Elt F)) (x15 : (⟨S2x2x128, .f32⟩ : BufTy).Contents (Elt F)) (x16 : (⟨S272x128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x1, .f32⟩ : BufTy).Contents (Elt F)) (x25 : (⟨S1, .f32⟩ : BufTy).Contents (Elt F))
    (hx17 : W (no_index (Proc.devRef .tc main_arg17)) = x17)
    (hx18 : W (no_index (Proc.devRef .tc main_arg18)) = x18)
    (hx19 : W (no_index (Proc.devRef .tc main_arg19)) = x19)
    (hx20 : W (no_index (Proc.devRef .tc main_arg20)) = x20)
    (hx21 : W (no_index (Proc.devRef .tc main_arg21)) = x21)
    (hx22 : W (no_index (Proc.devRef .tc main_arg22)) = x22)
    (hx23 : W (no_index (Proc.devRef .tc main_arg23)) = x23)
    (hx24 : W (no_index (Proc.devRef .tc main_arg24)) = x24)
    (hx25 : W (no_index (Proc.devRef .tc main_arg25)) = x25)
    (h_main_v267 : W (no_index (Proc.devRef .tc main_v267)) = ReadP.val_main_v267 (F := F) x0 x1 x2 x3 x4 x5 x6 x7 x8 x9 x10 x11 x12 x13 x14 x15 x16)
    : after ops6 W (no_index (Proc.devRef .tc main_v302)) = ReadP.val_main_v302 (F := F) x0 x1 x2 x3 x4 x5 x6 x7 x8 x9 x10 x11 x12 x13 x14 x15 x16 x17 x18 x19 x20 x21 x22 x23 x24 x25 := by
  stage_fact ops6 with [hx17, hx18, hx19, hx20, hx21, hx22, hx23, hx24, hx25, h_main_v267]

end Cert.ReferenceIdeal.HandRun

end
-- ==== Proof.RefRun.Stages.lean ====
import proofs.«100324_j78829829750888_1_alg».proof.Proof.RefRun.Chunk0
import proofs.«100324_j78829829750888_1_alg».proof.Proof.RefRun.Chunk1
import proofs.«100324_j78829829750888_1_alg».proof.Proof.RefRun.Chunk2
import proofs.«100324_j78829829750888_1_alg».proof.Proof.RefRun.Chunk3
import proofs.«100324_j78829829750888_1_alg».proof.Proof.RefRun.Chunk4
import proofs.«100324_j78829829750888_1_alg».proof.Proof.RefRun.Chunk5
import proofs.«100324_j78829829750888_1_alg».proof.Proof.RefRun.Chunk6

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (V0 : Valuation τ sig (Elt F))

/-- What argument 0 of @main holds in the contents V0. -/
abbrev arg0 : (⟨S100000x32, .f32⟩ : BufTy).Contents (Elt F) := V0 (Proc.devRef .tc main_arg0)
/-- What argument 1 of @main holds in the contents V0. -/
abbrev arg1 : (⟨S100000x32, .f32⟩ : BufTy).Contents (Elt F) := V0 (Proc.devRef .tc main_arg1)
/-- What argument 2 of @main holds in the contents V0. -/
abbrev arg2 : (⟨S500000x16, .f32⟩ : BufTy).Contents (Elt F) := V0 (Proc.devRef .tc main_arg2)
/-- What argument 3 of @main holds in the contents V0. -/
abbrev arg3 : (⟨S2x500000, .i32⟩ : BufTy).Contents (Elt F) := V0 (Proc.devRef .tc main_arg3)
/-- What argument 4 of @main holds in the contents V0. -/
abbrev arg4 : (⟨S2x500000, .i32⟩ : BufTy).Contents (Elt F) := V0 (Proc.devRef .tc main_arg4)
/-- What argument 5 of @main holds in the contents V0. -/
abbrev arg5 : (⟨S32x128, .f32⟩ : BufTy).Contents (Elt F) := V0 (Proc.devRef .tc main_arg5)
/-- What argument 6 of @main holds in the contents V0. -/
abbrev arg6 : (⟨S128, .f32⟩ : BufTy).Contents (Elt F) := V0 (Proc.devRef .tc main_arg6)
/-- What argument 7 of @main holds in the contents V0. -/
abbrev arg7 : (⟨S32x128, .f32⟩ : BufTy).Contents (Elt F) := V0 (Proc.devRef .tc main_arg7)
/-- What argument 8 of @main holds in the contents V0. -/
abbrev arg8 : (⟨S128, .f32⟩ : BufTy).Contents (Elt F) := V0 (Proc.devRef .tc main_arg8)
/-- What argument 9 of @main holds in the contents V0. -/
abbrev arg9 : (⟨S2x2x128x128, .f32⟩ : BufTy).Contents (Elt F) := V0 (Proc.devRef .tc main_arg9)
/-- What argument 10 of @main holds in the contents V0. -/
abbrev arg10 : (⟨S2x2x128, .f32⟩ : BufTy).Contents (Elt F) := V0 (Proc.devRef .tc main_arg10)
/-- What argument 11 of @main holds in the contents V0. -/
abbrev arg11 : (⟨S2x2x128x128, .f32⟩ : BufTy).Contents (Elt F) := V0 (Proc.devRef .tc main_arg11)
/-- What argument 12 of @main holds in the contents V0. -/
abbrev arg12 : (⟨S2x2x128, .f32⟩ : BufTy).Contents (Elt F) := V0 (Proc.devRef .tc main_arg12)
/-- What argument 13 of @main holds in the contents V0. -/
abbrev arg13 : (⟨S2x2x128, .f32⟩ : BufTy).Contents (Elt F) := V0 (Proc.devRef .tc main_arg13)
/-- What argument 14 of @main holds in the contents V0. -/
abbrev arg14 : (⟨S2x2x128, .f32⟩ : BufTy).Contents (Elt F) := V0 (Proc.devRef .tc main_arg14)
/-- What argument 15 of @main holds in the contents V0. -/
abbrev arg15 : (⟨S2x2x128, .f32⟩ : BufTy).Contents (Elt F) := V0 (Proc.devRef .tc main_arg15)
/-- What argument 16 of @main holds in the contents V0. -/
abbrev arg16 : (⟨S272x128, .f32⟩ : BufTy).Contents (Elt F) := V0 (Proc.devRef .tc main_arg16)
/-- What argument 17 of @main holds in the contents V0. -/
abbrev arg17 : (⟨S128, .f32⟩ : BufTy).Contents (Elt F) := V0 (Proc.devRef .tc main_arg17)
/-- What argument 18 of @main holds in the contents V0. -/
abbrev arg18 : (⟨S128, .f32⟩ : BufTy).Contents (Elt F) := V0 (Proc.devRef .tc main_arg18)
/-- What argument 19 of @main holds in the contents V0. -/
abbrev arg19 : (⟨S128, .f32⟩ : BufTy).Contents (Elt F) := V0 (Proc.devRef .tc main_arg19)
/-- What argument 20 of @main holds in the contents V0. -/
abbrev arg20 : (⟨S128, .f32⟩ : BufTy).Contents (Elt F) := V0 (Proc.devRef .tc main_arg20)
/-- What argument 21 of @main holds in the contents V0. -/
abbrev arg21 : (⟨S128, .f32⟩ : BufTy).Contents (Elt F) := V0 (Proc.devRef .tc main_arg21)
/-- What argument 22 of @main holds in the contents V0. -/
abbrev arg22 : (⟨S128x64, .f32⟩ : BufTy).Contents (Elt F) := V0 (Proc.devRef .tc main_arg22)
/-- What argument 23 of @main holds in the contents V0. -/
abbrev arg23 : (⟨S64, .f32⟩ : BufTy).Contents (Elt F) := V0 (Proc.devRef .tc main_arg23)
/-- What argument 24 of @main holds in the contents V0. -/
abbrev arg24 : (⟨S64x1, .f32⟩ : BufTy).Contents (Elt F) := V0 (Proc.devRef .tc main_arg24)
/-- What argument 25 of @main holds in the contents V0. -/
abbrev arg25 : (⟨S1, .f32⟩ : BufTy).Contents (Elt F) := V0 (Proc.devRef .tc main_arg25)

/-- The contents before the first chunk. -/
def s0 : Valuation τ sig (Elt F) := V0
theorem s0_arg0 : s0 V0 (no_index (Proc.devRef .tc main_arg0)) = arg0 V0 := rfl
theorem s0_arg1 : s0 V0 (no_index (Proc.devRef .tc main_arg1)) = arg1 V0 := rfl
theorem s0_arg2 : s0 V0 (no_index (Proc.devRef .tc main_arg2)) = arg2 V0 := rfl
theorem s0_arg3 : s0 V0 (no_index (Proc.devRef .tc main_arg3)) = arg3 V0 := rfl
theorem s0_arg4 : s0 V0 (no_index (Proc.devRef .tc main_arg4)) = arg4 V0 := rfl
theorem s0_arg5 : s0 V0 (no_index (Proc.devRef .tc main_arg5)) = arg5 V0 := rfl
theorem s0_arg6 : s0 V0 (no_index (Proc.devRef .tc main_arg6)) = arg6 V0 := rfl
theorem s0_arg7 : s0 V0 (no_index (Proc.devRef .tc main_arg7)) = arg7 V0 := rfl
theorem s0_arg8 : s0 V0 (no_index (Proc.devRef .tc main_arg8)) = arg8 V0 := rfl
theorem s0_arg9 : s0 V0 (no_index (Proc.devRef .tc main_arg9)) = arg9 V0 := rfl
theorem s0_arg10 : s0 V0 (no_index (Proc.devRef .tc main_arg10)) = arg10 V0 := rfl
theorem s0_arg11 : s0 V0 (no_index (Proc.devRef .tc main_arg11)) = arg11 V0 := rfl
theorem s0_arg12 : s0 V0 (no_index (Proc.devRef .tc main_arg12)) = arg12 V0 := rfl
theorem s0_arg13 : s0 V0 (no_index (Proc.devRef .tc main_arg13)) = arg13 V0 := rfl
theorem s0_arg14 : s0 V0 (no_index (Proc.devRef .tc main_arg14)) = arg14 V0 := rfl
theorem s0_arg15 : s0 V0 (no_index (Proc.devRef .tc main_arg15)) = arg15 V0 := rfl
theorem s0_arg16 : s0 V0 (no_index (Proc.devRef .tc main_arg16)) = arg16 V0 := rfl
theorem s0_arg17 : s0 V0 (no_index (Proc.devRef .tc main_arg17)) = arg17 V0 := rfl
theorem s0_arg18 : s0 V0 (no_index (Proc.devRef .tc main_arg18)) = arg18 V0 := rfl
theorem s0_arg19 : s0 V0 (no_index (Proc.devRef .tc main_arg19)) = arg19 V0 := rfl
theorem s0_arg20 : s0 V0 (no_index (Proc.devRef .tc main_arg20)) = arg20 V0 := rfl
theorem s0_arg21 : s0 V0 (no_index (Proc.devRef .tc main_arg21)) = arg21 V0 := rfl
theorem s0_arg22 : s0 V0 (no_index (Proc.devRef .tc main_arg22)) = arg22 V0 := rfl
theorem s0_arg23 : s0 V0 (no_index (Proc.devRef .tc main_arg23)) = arg23 V0 := rfl
theorem s0_arg24 : s0 V0 (no_index (Proc.devRef .tc main_arg24)) = arg24 V0 := rfl
theorem s0_arg25 : s0 V0 (no_index (Proc.devRef .tc main_arg25)) = arg25 V0 := rfl

/-- The contents after the first 1 chunk (operations 0 … 59). -/
def s1 : Valuation τ sig (Elt F) := after ops0 (s0 V0)
theorem s1_arg0 : s1 V0 (no_index (Proc.devRef .tc main_arg0)) = arg0 V0 :=
  (ops0_keep _ main_arg0 (by decide)).trans (s0_arg0 V0)
theorem s1_arg1 : s1 V0 (no_index (Proc.devRef .tc main_arg1)) = arg1 V0 :=
  (ops0_keep _ main_arg1 (by decide)).trans (s0_arg1 V0)
theorem s1_arg2 : s1 V0 (no_index (Proc.devRef .tc main_arg2)) = arg2 V0 :=
  (ops0_keep _ main_arg2 (by decide)).trans (s0_arg2 V0)
theorem s1_arg3 : s1 V0 (no_index (Proc.devRef .tc main_arg3)) = arg3 V0 :=
  (ops0_keep _ main_arg3 (by decide)).trans (s0_arg3 V0)
theorem s1_arg4 : s1 V0 (no_index (Proc.devRef .tc main_arg4)) = arg4 V0 :=
  (ops0_keep _ main_arg4 (by decide)).trans (s0_arg4 V0)
theorem s1_arg5 : s1 V0 (no_index (Proc.devRef .tc main_arg5)) = arg5 V0 :=
  (ops0_keep _ main_arg5 (by decide)).trans (s0_arg5 V0)
theorem s1_arg6 : s1 V0 (no_index (Proc.devRef .tc main_arg6)) = arg6 V0 :=
  (ops0_keep _ main_arg6 (by decide)).trans (s0_arg6 V0)
theorem s1_arg7 : s1 V0 (no_index (Proc.devRef .tc main_arg7)) = arg7 V0 :=
  (ops0_keep _ main_arg7 (by decide)).trans (s0_arg7 V0)
theorem s1_arg8 : s1 V0 (no_index (Proc.devRef .tc main_arg8)) = arg8 V0 :=
  (ops0_keep _ main_arg8 (by decide)).trans (s0_arg8 V0)
theorem s1_arg9 : s1 V0 (no_index (Proc.devRef .tc main_arg9)) = arg9 V0 :=
  (ops0_keep _ main_arg9 (by decide)).trans (s0_arg9 V0)
theorem s1_arg10 : s1 V0 (no_index (Proc.devRef .tc main_arg10)) = arg10 V0 :=
  (ops0_keep _ main_arg10 (by decide)).trans (s0_arg10 V0)
theorem s1_arg11 : s1 V0 (no_index (Proc.devRef .tc main_arg11)) = arg11 V0 :=
  (ops0_keep _ main_arg11 (by decide)).trans (s0_arg11 V0)
theorem s1_arg12 : s1 V0 (no_index (Proc.devRef .tc main_arg12)) = arg12 V0 :=
  (ops0_keep _ main_arg12 (by decide)).trans (s0_arg12 V0)
theorem s1_arg13 : s1 V0 (no_index (Proc.devRef .tc main_arg13)) = arg13 V0 :=
  (ops0_keep _ main_arg13 (by decide)).trans (s0_arg13 V0)
theorem s1_arg14 : s1 V0 (no_index (Proc.devRef .tc main_arg14)) = arg14 V0 :=
  (ops0_keep _ main_arg14 (by decide)).trans (s0_arg14 V0)
theorem s1_arg15 : s1 V0 (no_index (Proc.devRef .tc main_arg15)) = arg15 V0 :=
  (ops0_keep _ main_arg15 (by decide)).trans (s0_arg15 V0)
theorem s1_arg16 : s1 V0 (no_index (Proc.devRef .tc main_arg16)) = arg16 V0 :=
  (ops0_keep _ main_arg16 (by decide)).trans (s0_arg16 V0)
theorem s1_arg17 : s1 V0 (no_index (Proc.devRef .tc main_arg17)) = arg17 V0 :=
  (ops0_keep _ main_arg17 (by decide)).trans (s0_arg17 V0)
theorem s1_arg18 : s1 V0 (no_index (Proc.devRef .tc main_arg18)) = arg18 V0 :=
  (ops0_keep _ main_arg18 (by decide)).trans (s0_arg18 V0)
theorem s1_arg19 : s1 V0 (no_index (Proc.devRef .tc main_arg19)) = arg19 V0 :=
  (ops0_keep _ main_arg19 (by decide)).trans (s0_arg19 V0)
theorem s1_arg20 : s1 V0 (no_index (Proc.devRef .tc main_arg20)) = arg20 V0 :=
  (ops0_keep _ main_arg20 (by decide)).trans (s0_arg20 V0)
theorem s1_arg21 : s1 V0 (no_index (Proc.devRef .tc main_arg21)) = arg21 V0 :=
  (ops0_keep _ main_arg21 (by decide)).trans (s0_arg21 V0)
theorem s1_arg22 : s1 V0 (no_index (Proc.devRef .tc main_arg22)) = arg22 V0 :=
  (ops0_keep _ main_arg22 (by decide)).trans (s0_arg22 V0)
theorem s1_arg23 : s1 V0 (no_index (Proc.devRef .tc main_arg23)) = arg23 V0 :=
  (ops0_keep _ main_arg23 (by decide)).trans (s0_arg23 V0)
theorem s1_arg24 : s1 V0 (no_index (Proc.devRef .tc main_arg24)) = arg24 V0 :=
  (ops0_keep _ main_arg24 (by decide)).trans (s0_arg24 V0)
theorem s1_arg25 : s1 V0 (no_index (Proc.devRef .tc main_arg25)) = arg25 V0 :=
  (ops0_keep _ main_arg25 (by decide)).trans (s0_arg25 V0)
theorem s1_main_v3 : s1 V0 (no_index (Proc.devRef .tc main_v3)) = ReadP.val_main_v3 (F := F) (arg0 V0) (arg5 V0) (arg6 V0) :=
  c0_main_v3 (s0 V0) (arg0 V0) (arg5 V0) (arg6 V0) (s0_arg0 V0) (s0_arg5 V0) (s0_arg6 V0)
theorem s1_main_v7 : s1 V0 (no_index (Proc.devRef .tc main_v7)) = ReadP.val_main_v7 (F := F) (arg1 V0) (arg7 V0) (arg8 V0) :=
  c0_main_v7 (s0 V0) (arg1 V0) (arg7 V0) (arg8 V0) (s0_arg1 V0) (s0_arg7 V0) (s0_arg8 V0)
theorem s1_main_v42 : s1 V0 (no_index (Proc.devRef .tc main_v42)) = ReadP.val_main_v42 (F := F) (arg0 V0) (arg1 V0) (arg3 V0) (arg5 V0) (arg6 V0) (arg7 V0) (arg8 V0) (arg9 V0) (arg10 V0) (arg11 V0) :=
  c0_main_v42 (s0 V0) (arg0 V0) (arg1 V0) (arg3 V0) (arg5 V0) (arg6 V0) (arg7 V0) (arg8 V0) (arg9 V0) (arg10 V0) (arg11 V0) (s0_arg0 V0) (s0_arg1 V0) (s0_arg3 V0) (s0_arg5 V0) (s0_arg6 V0) (s0_arg7 V0) (s0_arg8 V0) (s0_arg9 V0) (s0_arg10 V0) (s0_arg11 V0)
theorem s1_main_v46 : s1 V0 (no_index (Proc.devRef .tc main_v46)) = ReadP.val_main_v46 (F := F) (arg4 V0) :=
  c0_main_v46 (s0 V0) (arg4 V0) (s0_arg4 V0)
theorem s1_main_v51 : s1 V0 (no_index (Proc.devRef .tc main_v51)) = ReadP.val_main_v51 (F := F) (arg4 V0) :=
  c0_main_v51 (s0 V0) (arg4 V0) (s0_arg4 V0)

/-- The contents after the first 2 chunks (operations 0 … 121). -/
def s2 : Valuation τ sig (Elt F) := after ops1 (s1 V0)
theorem s2_arg0 : s2 V0 (no_index (Proc.devRef .tc main_arg0)) = arg0 V0 :=
  (ops1_keep _ main_arg0 (by decide)).trans (s1_arg0 V0)
theorem s2_arg1 : s2 V0 (no_index (Proc.devRef .tc main_arg1)) = arg1 V0 :=
  (ops1_keep _ main_arg1 (by decide)).trans (s1_arg1 V0)
theorem s2_arg2 : s2 V0 (no_index (Proc.devRef .tc main_arg2)) = arg2 V0 :=
  (ops1_keep _ main_arg2 (by decide)).trans (s1_arg2 V0)
theorem s2_arg3 : s2 V0 (no_index (Proc.devRef .tc main_arg3)) = arg3 V0 :=
  (ops1_keep _ main_arg3 (by decide)).trans (s1_arg3 V0)
theorem s2_arg4 : s2 V0 (no_index (Proc.devRef .tc main_arg4)) = arg4 V0 :=
  (ops1_keep _ main_arg4 (by decide)).trans (s1_arg4 V0)
theorem s2_arg5 : s2 V0 (no_index (Proc.devRef .tc main_arg5)) = arg5 V0 :=
  (ops1_keep _ main_arg5 (by decide)).trans (s1_arg5 V0)
theorem s2_arg6 : s2 V0 (no_index (Proc.devRef .tc main_arg6)) = arg6 V0 :=
  (ops1_keep _ main_arg6 (by decide)).trans (s1_arg6 V0)
theorem s2_arg7 : s2 V0 (no_index (Proc.devRef .tc main_arg7)) = arg7 V0 :=
  (ops1_keep _ main_arg7 (by decide)).trans (s1_arg7 V0)
theorem s2_arg8 : s2 V0 (no_index (Proc.devRef .tc main_arg8)) = arg8 V0 :=
  (ops1_keep _ main_arg8 (by decide)).trans (s1_arg8 V0)
theorem s2_arg9 : s2 V0 (no_index (Proc.devRef .tc main_arg9)) = arg9 V0 :=
  (ops1_keep _ main_arg9 (by decide)).trans (s1_arg9 V0)
theorem s2_arg10 : s2 V0 (no_index (Proc.devRef .tc main_arg10)) = arg10 V0 :=
  (ops1_keep _ main_arg10 (by decide)).trans (s1_arg10 V0)
theorem s2_arg11 : s2 V0 (no_index (Proc.devRef .tc main_arg11)) = arg11 V0 :=
  (ops1_keep _ main_arg11 (by decide)).trans (s1_arg11 V0)
theorem s2_arg12 : s2 V0 (no_index (Proc.devRef .tc main_arg12)) = arg12 V0 :=
  (ops1_keep _ main_arg12 (by decide)).trans (s1_arg12 V0)
theorem s2_arg13 : s2 V0 (no_index (Proc.devRef .tc main_arg13)) = arg13 V0 :=
  (ops1_keep _ main_arg13 (by decide)).trans (s1_arg13 V0)
theorem s2_arg14 : s2 V0 (no_index (Proc.devRef .tc main_arg14)) = arg14 V0 :=
  (ops1_keep _ main_arg14 (by decide)).trans (s1_arg14 V0)
theorem s2_arg15 : s2 V0 (no_index (Proc.devRef .tc main_arg15)) = arg15 V0 :=
  (ops1_keep _ main_arg15 (by decide)).trans (s1_arg15 V0)
theorem s2_arg16 : s2 V0 (no_index (Proc.devRef .tc main_arg16)) = arg16 V0 :=
  (ops1_keep _ main_arg16 (by decide)).trans (s1_arg16 V0)
theorem s2_arg17 : s2 V0 (no_index (Proc.devRef .tc main_arg17)) = arg17 V0 :=
  (ops1_keep _ main_arg17 (by decide)).trans (s1_arg17 V0)
theorem s2_arg18 : s2 V0 (no_index (Proc.devRef .tc main_arg18)) = arg18 V0 :=
  (ops1_keep _ main_arg18 (by decide)).trans (s1_arg18 V0)
theorem s2_arg19 : s2 V0 (no_index (Proc.devRef .tc main_arg19)) = arg19 V0 :=
  (ops1_keep _ main_arg19 (by decide)).trans (s1_arg19 V0)
theorem s2_arg20 : s2 V0 (no_index (Proc.devRef .tc main_arg20)) = arg20 V0 :=
  (ops1_keep _ main_arg20 (by decide)).trans (s1_arg20 V0)
theorem s2_arg21 : s2 V0 (no_index (Proc.devRef .tc main_arg21)) = arg21 V0 :=
  (ops1_keep _ main_arg21 (by decide)).trans (s1_arg21 V0)
theorem s2_arg22 : s2 V0 (no_index (Proc.devRef .tc main_arg22)) = arg22 V0 :=
  (ops1_keep _ main_arg22 (by decide)).trans (s1_arg22 V0)
theorem s2_arg23 : s2 V0 (no_index (Proc.devRef .tc main_arg23)) = arg23 V0 :=
  (ops1_keep _ main_arg23 (by decide)).trans (s1_arg23 V0)
theorem s2_arg24 : s2 V0 (no_index (Proc.devRef .tc main_arg24)) = arg24 V0 :=
  (ops1_keep _ main_arg24 (by decide)).trans (s1_arg24 V0)
theorem s2_arg25 : s2 V0 (no_index (Proc.devRef .tc main_arg25)) = arg25 V0 :=
  (ops1_keep _ main_arg25 (by decide)).trans (s1_arg25 V0)
theorem s2_main_v7 : s2 V0 (no_index (Proc.devRef .tc main_v7)) = ReadP.val_main_v7 (F := F) (arg1 V0) (arg7 V0) (arg8 V0) :=
  (ops1_keep _ main_v7 (by decide)).trans (s1_main_v7 V0)
theorem s2_main_v42 : s2 V0 (no_index (Proc.devRef .tc main_v42)) = ReadP.val_main_v42 (F := F) (arg0 V0) (arg1 V0) (arg3 V0) (arg5 V0) (arg6 V0) (arg7 V0) (arg8 V0) (arg9 V0) (arg10 V0) (arg11 V0) :=
  (ops1_keep _ main_v42 (by decide)).trans (s1_main_v42 V0)
theorem s2_main_v102 : s2 V0 (no_index (Proc.devRef .tc main_v102)) = ReadP.val_main_v102 (F := F) (arg0 V0) (arg1 V0) (arg4 V0) (arg5 V0) (arg6 V0) (arg7 V0) (arg8 V0) (arg9 V0) (arg10 V0) (arg11 V0) (arg12 V0) (arg13 V0) (arg14 V0) (arg15 V0) :=
  c1_main_v102 (s1 V0) (arg0 V0) (arg1 V0) (arg4 V0) (arg5 V0) (arg6 V0) (arg7 V0) (arg8 V0) (arg9 V0) (arg10 V0) (arg11 V0) (arg12 V0) (arg13 V0) (arg14 V0) (arg15 V0) (s1_arg9 V0) (s1_arg10 V0) (s1_arg11 V0) (s1_arg12 V0) (s1_arg13 V0) (s1_arg14 V0) (s1_arg15 V0) (s1_main_v3 V0) (s1_main_v7 V0) (s1_main_v46 V0) (s1_main_v51 V0)
theorem s2_main_v104 : s2 V0 (no_index (Proc.devRef .tc main_v104)) = ReadP.val_main_v104 (F := F) (arg12 V0) :=
  c1_main_v104 (s1 V0) (arg12 V0) (s1_arg12 V0)
theorem s2_main_v106 : s2 V0 (no_index (Proc.devRef .tc main_v106)) = ReadP.val_main_v106 (F := F) (arg13 V0) :=
  c1_main_v106 (s1 V0) (arg13 V0) (s1_arg13 V0)

/-- The contents after the first 3 chunks (operations 0 … 183). -/
def s3 : Valuation τ sig (Elt F) := after ops2 (s2 V0)
theorem s3_arg0 : s3 V0 (no_index (Proc.devRef .tc main_arg0)) = arg0 V0 :=
  (ops2_keep _ main_arg0 (by decide)).trans (s2_arg0 V0)
theorem s3_arg1 : s3 V0 (no_index (Proc.devRef .tc main_arg1)) = arg1 V0 :=
  (ops2_keep _ main_arg1 (by decide)).trans (s2_arg1 V0)
theorem s3_arg2 : s3 V0 (no_index (Proc.devRef .tc main_arg2)) = arg2 V0 :=
  (ops2_keep _ main_arg2 (by decide)).trans (s2_arg2 V0)
theorem s3_arg3 : s3 V0 (no_index (Proc.devRef .tc main_arg3)) = arg3 V0 :=
  (ops2_keep _ main_arg3 (by decide)).trans (s2_arg3 V0)
theorem s3_arg4 : s3 V0 (no_index (Proc.devRef .tc main_arg4)) = arg4 V0 :=
  (ops2_keep _ main_arg4 (by decide)).trans (s2_arg4 V0)
theorem s3_arg5 : s3 V0 (no_index (Proc.devRef .tc main_arg5)) = arg5 V0 :=
  (ops2_keep _ main_arg5 (by decide)).trans (s2_arg5 V0)
theorem s3_arg6 : s3 V0 (no_index (Proc.devRef .tc main_arg6)) = arg6 V0 :=
  (ops2_keep _ main_arg6 (by decide)).trans (s2_arg6 V0)
theorem s3_arg7 : s3 V0 (no_index (Proc.devRef .tc main_arg7)) = arg7 V0 :=
  (ops2_keep _ main_arg7 (by decide)).trans (s2_arg7 V0)
theorem s3_arg8 : s3 V0 (no_index (Proc.devRef .tc main_arg8)) = arg8 V0 :=
  (ops2_keep _ main_arg8 (by decide)).trans (s2_arg8 V0)
theorem s3_arg9 : s3 V0 (no_index (Proc.devRef .tc main_arg9)) = arg9 V0 :=
  (ops2_keep _ main_arg9 (by decide)).trans (s2_arg9 V0)
theorem s3_arg10 : s3 V0 (no_index (Proc.devRef .tc main_arg10)) = arg10 V0 :=
  (ops2_keep _ main_arg10 (by decide)).trans (s2_arg10 V0)
theorem s3_arg11 : s3 V0 (no_index (Proc.devRef .tc main_arg11)) = arg11 V0 :=
  (ops2_keep _ main_arg11 (by decide)).trans (s2_arg11 V0)
theorem s3_arg12 : s3 V0 (no_index (Proc.devRef .tc main_arg12)) = arg12 V0 :=
  (ops2_keep _ main_arg12 (by decide)).trans (s2_arg12 V0)
theorem s3_arg13 : s3 V0 (no_index (Proc.devRef .tc main_arg13)) = arg13 V0 :=
  (ops2_keep _ main_arg13 (by decide)).trans (s2_arg13 V0)
theorem s3_arg14 : s3 V0 (no_index (Proc.devRef .tc main_arg14)) = arg14 V0 :=
  (ops2_keep _ main_arg14 (by decide)).trans (s2_arg14 V0)
theorem s3_arg15 : s3 V0 (no_index (Proc.devRef .tc main_arg15)) = arg15 V0 :=
  (ops2_keep _ main_arg15 (by decide)).trans (s2_arg15 V0)
theorem s3_arg16 : s3 V0 (no_index (Proc.devRef .tc main_arg16)) = arg16 V0 :=
  (ops2_keep _ main_arg16 (by decide)).trans (s2_arg16 V0)
theorem s3_arg17 : s3 V0 (no_index (Proc.devRef .tc main_arg17)) = arg17 V0 :=
  (ops2_keep _ main_arg17 (by decide)).trans (s2_arg17 V0)
theorem s3_arg18 : s3 V0 (no_index (Proc.devRef .tc main_arg18)) = arg18 V0 :=
  (ops2_keep _ main_arg18 (by decide)).trans (s2_arg18 V0)
theorem s3_arg19 : s3 V0 (no_index (Proc.devRef .tc main_arg19)) = arg19 V0 :=
  (ops2_keep _ main_arg19 (by decide)).trans (s2_arg19 V0)
theorem s3_arg20 : s3 V0 (no_index (Proc.devRef .tc main_arg20)) = arg20 V0 :=
  (ops2_keep _ main_arg20 (by decide)).trans (s2_arg20 V0)
theorem s3_arg21 : s3 V0 (no_index (Proc.devRef .tc main_arg21)) = arg21 V0 :=
  (ops2_keep _ main_arg21 (by decide)).trans (s2_arg21 V0)
theorem s3_arg22 : s3 V0 (no_index (Proc.devRef .tc main_arg22)) = arg22 V0 :=
  (ops2_keep _ main_arg22 (by decide)).trans (s2_arg22 V0)
theorem s3_arg23 : s3 V0 (no_index (Proc.devRef .tc main_arg23)) = arg23 V0 :=
  (ops2_keep _ main_arg23 (by decide)).trans (s2_arg23 V0)
theorem s3_arg24 : s3 V0 (no_index (Proc.devRef .tc main_arg24)) = arg24 V0 :=
  (ops2_keep _ main_arg24 (by decide)).trans (s2_arg24 V0)
theorem s3_arg25 : s3 V0 (no_index (Proc.devRef .tc main_arg25)) = arg25 V0 :=
  (ops2_keep _ main_arg25 (by decide)).trans (s2_arg25 V0)
theorem s3_main_v102 : s3 V0 (no_index (Proc.devRef .tc main_v102)) = ReadP.val_main_v102 (F := F) (arg0 V0) (arg1 V0) (arg4 V0) (arg5 V0) (arg6 V0) (arg7 V0) (arg8 V0) (arg9 V0) (arg10 V0) (arg11 V0) (arg12 V0) (arg13 V0) (arg14 V0) (arg15 V0) :=
  (ops2_keep _ main_v102 (by decide)).trans (s2_main_v102 V0)
theorem s3_main_v127 : s3 V0 (no_index (Proc.devRef .tc main_v127)) = ReadP.val_main_v127 (F := F) (arg0 V0) (arg1 V0) (arg3 V0) (arg5 V0) (arg6 V0) (arg7 V0) (arg8 V0) (arg9 V0) (arg10 V0) (arg11 V0) (arg12 V0) (arg13 V0) (arg14 V0) (arg15 V0) :=
  c2_main_v127 (s2 V0) (arg0 V0) (arg1 V0) (arg3 V0) (arg5 V0) (arg6 V0) (arg7 V0) (arg8 V0) (arg9 V0) (arg10 V0) (arg11 V0) (arg12 V0) (arg13 V0) (arg14 V0) (arg15 V0) (s2_arg14 V0) (s2_arg15 V0) (s2_main_v7 V0) (s2_main_v42 V0) (s2_main_v104 V0) (s2_main_v106 V0)
theorem s3_main_v158 : s3 V0 (no_index (Proc.devRef .tc main_v158)) = ReadP.val_main_v158 (F := F) (arg0 V0) (arg1 V0) (arg3 V0) (arg4 V0) (arg5 V0) (arg6 V0) (arg7 V0) (arg8 V0) (arg9 V0) (arg10 V0) (arg11 V0) (arg12 V0) (arg13 V0) (arg14 V0) (arg15 V0) :=
  c2_main_v158 (s2 V0) (arg0 V0) (arg1 V0) (arg3 V0) (arg4 V0) (arg5 V0) (arg6 V0) (arg7 V0) (arg8 V0) (arg9 V0) (arg10 V0) (arg11 V0) (arg12 V0) (arg13 V0) (arg14 V0) (arg15 V0) (s2_arg3 V0) (s2_arg9 V0) (s2_arg10 V0) (s2_main_v102 V0)
theorem s3_main_v159 : s3 V0 (no_index (Proc.devRef .tc main_v159)) = ReadP.val_main_v159 (F := F) (arg11 V0) :=
  c2_main_v159 (s2 V0) (arg11 V0) (s2_arg11 V0)

/-- The contents after the first 4 chunks (operations 0 … 243). -/
def s4 : Valuation τ sig (Elt F) := after ops3 (s3 V0)
theorem s4_arg0 : s4 V0 (no_index (Proc.devRef .tc main_arg0)) = arg0 V0 :=
  (ops3_keep _ main_arg0 (by decide)).trans (s3_arg0 V0)
theorem s4_arg1 : s4 V0 (no_index (Proc.devRef .tc main_arg1)) = arg1 V0 :=
  (ops3_keep _ main_arg1 (by decide)).trans (s3_arg1 V0)
theorem s4_arg2 : s4 V0 (no_index (Proc.devRef .tc main_arg2)) = arg2 V0 :=
  (ops3_keep _ main_arg2 (by decide)).trans (s3_arg2 V0)
theorem s4_arg3 : s4 V0 (no_index (Proc.devRef .tc main_arg3)) = arg3 V0 :=
  (ops3_keep _ main_arg3 (by decide)).trans (s3_arg3 V0)
theorem s4_arg4 : s4 V0 (no_index (Proc.devRef .tc main_arg4)) = arg4 V0 :=
  (ops3_keep _ main_arg4 (by decide)).trans (s3_arg4 V0)
theorem s4_arg5 : s4 V0 (no_index (Proc.devRef .tc main_arg5)) = arg5 V0 :=
  (ops3_keep _ main_arg5 (by decide)).trans (s3_arg5 V0)
theorem s4_arg6 : s4 V0 (no_index (Proc.devRef .tc main_arg6)) = arg6 V0 :=
  (ops3_keep _ main_arg6 (by decide)).trans (s3_arg6 V0)
theorem s4_arg7 : s4 V0 (no_index (Proc.devRef .tc main_arg7)) = arg7 V0 :=
  (ops3_keep _ main_arg7 (by decide)).trans (s3_arg7 V0)
theorem s4_arg8 : s4 V0 (no_index (Proc.devRef .tc main_arg8)) = arg8 V0 :=
  (ops3_keep _ main_arg8 (by decide)).trans (s3_arg8 V0)
theorem s4_arg9 : s4 V0 (no_index (Proc.devRef .tc main_arg9)) = arg9 V0 :=
  (ops3_keep _ main_arg9 (by decide)).trans (s3_arg9 V0)
theorem s4_arg10 : s4 V0 (no_index (Proc.devRef .tc main_arg10)) = arg10 V0 :=
  (ops3_keep _ main_arg10 (by decide)).trans (s3_arg10 V0)
theorem s4_arg11 : s4 V0 (no_index (Proc.devRef .tc main_arg11)) = arg11 V0 :=
  (ops3_keep _ main_arg11 (by decide)).trans (s3_arg11 V0)
theorem s4_arg12 : s4 V0 (no_index (Proc.devRef .tc main_arg12)) = arg12 V0 :=
  (ops3_keep _ main_arg12 (by decide)).trans (s3_arg12 V0)
theorem s4_arg13 : s4 V0 (no_index (Proc.devRef .tc main_arg13)) = arg13 V0 :=
  (ops3_keep _ main_arg13 (by decide)).trans (s3_arg13 V0)
theorem s4_arg14 : s4 V0 (no_index (Proc.devRef .tc main_arg14)) = arg14 V0 :=
  (ops3_keep _ main_arg14 (by decide)).trans (s3_arg14 V0)
theorem s4_arg15 : s4 V0 (no_index (Proc.devRef .tc main_arg15)) = arg15 V0 :=
  (ops3_keep _ main_arg15 (by decide)).trans (s3_arg15 V0)
theorem s4_arg16 : s4 V0 (no_index (Proc.devRef .tc main_arg16)) = arg16 V0 :=
  (ops3_keep _ main_arg16 (by decide)).trans (s3_arg16 V0)
theorem s4_arg17 : s4 V0 (no_index (Proc.devRef .tc main_arg17)) = arg17 V0 :=
  (ops3_keep _ main_arg17 (by decide)).trans (s3_arg17 V0)
theorem s4_arg18 : s4 V0 (no_index (Proc.devRef .tc main_arg18)) = arg18 V0 :=
  (ops3_keep _ main_arg18 (by decide)).trans (s3_arg18 V0)
theorem s4_arg19 : s4 V0 (no_index (Proc.devRef .tc main_arg19)) = arg19 V0 :=
  (ops3_keep _ main_arg19 (by decide)).trans (s3_arg19 V0)
theorem s4_arg20 : s4 V0 (no_index (Proc.devRef .tc main_arg20)) = arg20 V0 :=
  (ops3_keep _ main_arg20 (by decide)).trans (s3_arg20 V0)
theorem s4_arg21 : s4 V0 (no_index (Proc.devRef .tc main_arg21)) = arg21 V0 :=
  (ops3_keep _ main_arg21 (by decide)).trans (s3_arg21 V0)
theorem s4_arg22 : s4 V0 (no_index (Proc.devRef .tc main_arg22)) = arg22 V0 :=
  (ops3_keep _ main_arg22 (by decide)).trans (s3_arg22 V0)
theorem s4_arg23 : s4 V0 (no_index (Proc.devRef .tc main_arg23)) = arg23 V0 :=
  (ops3_keep _ main_arg23 (by decide)).trans (s3_arg23 V0)
theorem s4_arg24 : s4 V0 (no_index (Proc.devRef .tc main_arg24)) = arg24 V0 :=
  (ops3_keep _ main_arg24 (by decide)).trans (s3_arg24 V0)
theorem s4_arg25 : s4 V0 (no_index (Proc.devRef .tc main_arg25)) = arg25 V0 :=
  (ops3_keep _ main_arg25 (by decide)).trans (s3_arg25 V0)
theorem s4_main_v102 : s4 V0 (no_index (Proc.devRef .tc main_v102)) = ReadP.val_main_v102 (F := F) (arg0 V0) (arg1 V0) (arg4 V0) (arg5 V0) (arg6 V0) (arg7 V0) (arg8 V0) (arg9 V0) (arg10 V0) (arg11 V0) (arg12 V0) (arg13 V0) (arg14 V0) (arg15 V0) :=
  (ops3_keep _ main_v102 (by decide)).trans (s3_main_v102 V0)
theorem s4_main_v127 : s4 V0 (no_index (Proc.devRef .tc main_v127)) = ReadP.val_main_v127 (F := F) (arg0 V0) (arg1 V0) (arg3 V0) (arg5 V0) (arg6 V0) (arg7 V0) (arg8 V0) (arg9 V0) (arg10 V0) (arg11 V0) (arg12 V0) (arg13 V0) (arg14 V0) (arg15 V0) :=
  (ops3_keep _ main_v127 (by decide)).trans (s3_main_v127 V0)
theorem s4_main_v162 : s4 V0 (no_index (Proc.devRef .tc main_v162)) = ReadP.val_main_v162 (F := F) (arg0 V0) (arg1 V0) (arg3 V0) (arg4 V0) (arg5 V0) (arg6 V0) (arg7 V0) (arg8 V0) (arg9 V0) (arg10 V0) (arg11 V0) (arg12 V0) (arg13 V0) (arg14 V0) (arg15 V0) :=
  c3_main_v162 (s3 V0) (arg0 V0) (arg1 V0) (arg3 V0) (arg4 V0) (arg5 V0) (arg6 V0) (arg7 V0) (arg8 V0) (arg9 V0) (arg10 V0) (arg11 V0) (arg12 V0) (arg13 V0) (arg14 V0) (arg15 V0) (s3_main_v127 V0) (s3_main_v158 V0) (s3_main_v159 V0)
theorem s4_main_v199 : s4 V0 (no_index (Proc.devRef .tc main_v199)) = ReadP.val_main_v199 (F := F) (arg12 V0) :=
  c3_main_v199 (s3 V0) (arg12 V0) (s3_arg12 V0)
theorem s4_main_v201 : s4 V0 (no_index (Proc.devRef .tc main_v201)) = ReadP.val_main_v201 (F := F) (arg13 V0) :=
  c3_main_v201 (s3 V0) (arg13 V0) (s3_arg13 V0)
theorem s4_main_v208 : s4 V0 (no_index (Proc.devRef .tc main_v208)) = ReadP.val_main_v208 (F := F) (arg0 V0) (arg1 V0) (arg3 V0) (arg4 V0) (arg5 V0) (arg6 V0) (arg7 V0) (arg8 V0) (arg9 V0) (arg10 V0) (arg11 V0) (arg12 V0) (arg13 V0) (arg14 V0) (arg15 V0) :=
  c3_main_v208 (s3 V0) (arg0 V0) (arg1 V0) (arg3 V0) (arg4 V0) (arg5 V0) (arg6 V0) (arg7 V0) (arg8 V0) (arg9 V0) (arg10 V0) (arg11 V0) (arg12 V0) (arg13 V0) (arg14 V0) (arg15 V0) (s3_arg4 V0) (s3_arg9 V0) (s3_arg10 V0) (s3_arg11 V0) (s3_arg14 V0) (s3_main_v102 V0) (s3_main_v127 V0)
theorem s4_main_v212 : s4 V0 (no_index (Proc.devRef .tc main_v212)) = ReadP.val_main_v212 (F := F) (arg15 V0) :=
  c3_main_v212 (s3 V0) (arg15 V0) (s3_arg15 V0)

/-- The contents after the first 5 chunks (operations 0 … 305). -/
def s5 : Valuation τ sig (Elt F) := after ops4 (s4 V0)
theorem s5_arg0 : s5 V0 (no_index (Proc.devRef .tc main_arg0)) = arg0 V0 :=
  (ops4_keep _ main_arg0 (by decide)).trans (s4_arg0 V0)
theorem s5_arg1 : s5 V0 (no_index (Proc.devRef .tc main_arg1)) = arg1 V0 :=
  (ops4_keep _ main_arg1 (by decide)).trans (s4_arg1 V0)
theorem s5_arg2 : s5 V0 (no_index (Proc.devRef .tc main_arg2)) = arg2 V0 :=
  (ops4_keep _ main_arg2 (by decide)).trans (s4_arg2 V0)
theorem s5_arg3 : s5 V0 (no_index (Proc.devRef .tc main_arg3)) = arg3 V0 :=
  (ops4_keep _ main_arg3 (by decide)).trans (s4_arg3 V0)
theorem s5_arg4 : s5 V0 (no_index (Proc.devRef .tc main_arg4)) = arg4 V0 :=
  (ops4_keep _ main_arg4 (by decide)).trans (s4_arg4 V0)
theorem s5_arg5 : s5 V0 (no_index (Proc.devRef .tc main_arg5)) = arg5 V0 :=
  (ops4_keep _ main_arg5 (by decide)).trans (s4_arg5 V0)
theorem s5_arg6 : s5 V0 (no_index (Proc.devRef .tc main_arg6)) = arg6 V0 :=
  (ops4_keep _ main_arg6 (by decide)).trans (s4_arg6 V0)
theorem s5_arg7 : s5 V0 (no_index (Proc.devRef .tc main_arg7)) = arg7 V0 :=
  (ops4_keep _ main_arg7 (by decide)).trans (s4_arg7 V0)
theorem s5_arg8 : s5 V0 (no_index (Proc.devRef .tc main_arg8)) = arg8 V0 :=
  (ops4_keep _ main_arg8 (by decide)).trans (s4_arg8 V0)
theorem s5_arg9 : s5 V0 (no_index (Proc.devRef .tc main_arg9)) = arg9 V0 :=
  (ops4_keep _ main_arg9 (by decide)).trans (s4_arg9 V0)
theorem s5_arg10 : s5 V0 (no_index (Proc.devRef .tc main_arg10)) = arg10 V0 :=
  (ops4_keep _ main_arg10 (by decide)).trans (s4_arg10 V0)
theorem s5_arg11 : s5 V0 (no_index (Proc.devRef .tc main_arg11)) = arg11 V0 :=
  (ops4_keep _ main_arg11 (by decide)).trans (s4_arg11 V0)
theorem s5_arg12 : s5 V0 (no_index (Proc.devRef .tc main_arg12)) = arg12 V0 :=
  (ops4_keep _ main_arg12 (by decide)).trans (s4_arg12 V0)
theorem s5_arg13 : s5 V0 (no_index (Proc.devRef .tc main_arg13)) = arg13 V0 :=
  (ops4_keep _ main_arg13 (by decide)).trans (s4_arg13 V0)
theorem s5_arg14 : s5 V0 (no_index (Proc.devRef .tc main_arg14)) = arg14 V0 :=
  (ops4_keep _ main_arg14 (by decide)).trans (s4_arg14 V0)
theorem s5_arg15 : s5 V0 (no_index (Proc.devRef .tc main_arg15)) = arg15 V0 :=
  (ops4_keep _ main_arg15 (by decide)).trans (s4_arg15 V0)
theorem s5_arg16 : s5 V0 (no_index (Proc.devRef .tc main_arg16)) = arg16 V0 :=
  (ops4_keep _ main_arg16 (by decide)).trans (s4_arg16 V0)
theorem s5_arg17 : s5 V0 (no_index (Proc.devRef .tc main_arg17)) = arg17 V0 :=
  (ops4_keep _ main_arg17 (by decide)).trans (s4_arg17 V0)
theorem s5_arg18 : s5 V0 (no_index (Proc.devRef .tc main_arg18)) = arg18 V0 :=
  (ops4_keep _ main_arg18 (by decide)).trans (s4_arg18 V0)
theorem s5_arg19 : s5 V0 (no_index (Proc.devRef .tc main_arg19)) = arg19 V0 :=
  (ops4_keep _ main_arg19 (by decide)).trans (s4_arg19 V0)
theorem s5_arg20 : s5 V0 (no_index (Proc.devRef .tc main_arg20)) = arg20 V0 :=
  (ops4_keep _ main_arg20 (by decide)).trans (s4_arg20 V0)
theorem s5_arg21 : s5 V0 (no_index (Proc.devRef .tc main_arg21)) = arg21 V0 :=
  (ops4_keep _ main_arg21 (by decide)).trans (s4_arg21 V0)
theorem s5_arg22 : s5 V0 (no_index (Proc.devRef .tc main_arg22)) = arg22 V0 :=
  (ops4_keep _ main_arg22 (by decide)).trans (s4_arg22 V0)
theorem s5_arg23 : s5 V0 (no_index (Proc.devRef .tc main_arg23)) = arg23 V0 :=
  (ops4_keep _ main_arg23 (by decide)).trans (s4_arg23 V0)
theorem s5_arg24 : s5 V0 (no_index (Proc.devRef .tc main_arg24)) = arg24 V0 :=
  (ops4_keep _ main_arg24 (by decide)).trans (s4_arg24 V0)
theorem s5_arg25 : s5 V0 (no_index (Proc.devRef .tc main_arg25)) = arg25 V0 :=
  (ops4_keep _ main_arg25 (by decide)).trans (s4_arg25 V0)
theorem s5_main_v256 : s5 V0 (no_index (Proc.devRef .tc main_v256)) = ReadP.val_main_v256 (F := F) (arg0 V0) (arg1 V0) (arg3 V0) (arg4 V0) (arg5 V0) (arg6 V0) (arg7 V0) (arg8 V0) (arg9 V0) (arg10 V0) (arg11 V0) (arg12 V0) (arg13 V0) (arg14 V0) (arg15 V0) :=
  c4_main_v256 (s4 V0) (arg0 V0) (arg1 V0) (arg3 V0) (arg4 V0) (arg5 V0) (arg6 V0) (arg7 V0) (arg8 V0) (arg9 V0) (arg10 V0) (arg11 V0) (arg12 V0) (arg13 V0) (arg14 V0) (arg15 V0) (s4_arg3 V0) (s4_main_v102 V0) (s4_main_v199 V0) (s4_main_v201 V0) (s4_main_v208 V0) (s4_main_v212 V0)
theorem s5_main_v265 : s5 V0 (no_index (Proc.devRef .tc main_v265)) = ReadP.val_main_v265 (F := F) (arg0 V0) (arg1 V0) (arg3 V0) (arg4 V0) (arg5 V0) (arg6 V0) (arg7 V0) (arg8 V0) (arg9 V0) (arg10 V0) (arg11 V0) (arg12 V0) (arg13 V0) (arg14 V0) (arg15 V0) :=
  c4_main_v265 (s4 V0) (arg0 V0) (arg1 V0) (arg3 V0) (arg4 V0) (arg5 V0) (arg6 V0) (arg7 V0) (arg8 V0) (arg9 V0) (arg10 V0) (arg11 V0) (arg12 V0) (arg13 V0) (arg14 V0) (arg15 V0) (s4_arg3 V0) (s4_arg12 V0) (s4_arg13 V0) (s4_arg14 V0) (s4_arg15 V0) (s4_main_v127 V0) (s4_main_v162 V0)

/-- The contents after the first 6 chunks (operations 0 … 307). -/
def s6 : Valuation τ sig (Elt F) := after ops5 (s5 V0)
theorem s6_arg0 : s6 V0 (no_index (Proc.devRef .tc main_arg0)) = arg0 V0 :=
  (ops5_keep _ main_arg0 (by decide)).trans (s5_arg0 V0)
theorem s6_arg1 : s6 V0 (no_index (Proc.devRef .tc main_arg1)) = arg1 V0 :=
  (ops5_keep _ main_arg1 (by decide)).trans (s5_arg1 V0)
theorem s6_arg2 : s6 V0 (no_index (Proc.devRef .tc main_arg2)) = arg2 V0 :=
  (ops5_keep _ main_arg2 (by decide)).trans (s5_arg2 V0)
theorem s6_arg3 : s6 V0 (no_index (Proc.devRef .tc main_arg3)) = arg3 V0 :=
  (ops5_keep _ main_arg3 (by decide)).trans (s5_arg3 V0)
theorem s6_arg4 : s6 V0 (no_index (Proc.devRef .tc main_arg4)) = arg4 V0 :=
  (ops5_keep _ main_arg4 (by decide)).trans (s5_arg4 V0)
theorem s6_arg5 : s6 V0 (no_index (Proc.devRef .tc main_arg5)) = arg5 V0 :=
  (ops5_keep _ main_arg5 (by decide)).trans (s5_arg5 V0)
theorem s6_arg6 : s6 V0 (no_index (Proc.devRef .tc main_arg6)) = arg6 V0 :=
  (ops5_keep _ main_arg6 (by decide)).trans (s5_arg6 V0)
theorem s6_arg7 : s6 V0 (no_index (Proc.devRef .tc main_arg7)) = arg7 V0 :=
  (ops5_keep _ main_arg7 (by decide)).trans (s5_arg7 V0)
theorem s6_arg8 : s6 V0 (no_index (Proc.devRef .tc main_arg8)) = arg8 V0 :=
  (ops5_keep _ main_arg8 (by decide)).trans (s5_arg8 V0)
theorem s6_arg9 : s6 V0 (no_index (Proc.devRef .tc main_arg9)) = arg9 V0 :=
  (ops5_keep _ main_arg9 (by decide)).trans (s5_arg9 V0)
theorem s6_arg10 : s6 V0 (no_index (Proc.devRef .tc main_arg10)) = arg10 V0 :=
  (ops5_keep _ main_arg10 (by decide)).trans (s5_arg10 V0)
theorem s6_arg11 : s6 V0 (no_index (Proc.devRef .tc main_arg11)) = arg11 V0 :=
  (ops5_keep _ main_arg11 (by decide)).trans (s5_arg11 V0)
theorem s6_arg12 : s6 V0 (no_index (Proc.devRef .tc main_arg12)) = arg12 V0 :=
  (ops5_keep _ main_arg12 (by decide)).trans (s5_arg12 V0)
theorem s6_arg13 : s6 V0 (no_index (Proc.devRef .tc main_arg13)) = arg13 V0 :=
  (ops5_keep _ main_arg13 (by decide)).trans (s5_arg13 V0)
theorem s6_arg14 : s6 V0 (no_index (Proc.devRef .tc main_arg14)) = arg14 V0 :=
  (ops5_keep _ main_arg14 (by decide)).trans (s5_arg14 V0)
theorem s6_arg15 : s6 V0 (no_index (Proc.devRef .tc main_arg15)) = arg15 V0 :=
  (ops5_keep _ main_arg15 (by decide)).trans (s5_arg15 V0)
theorem s6_arg16 : s6 V0 (no_index (Proc.devRef .tc main_arg16)) = arg16 V0 :=
  (ops5_keep _ main_arg16 (by decide)).trans (s5_arg16 V0)
theorem s6_arg17 : s6 V0 (no_index (Proc.devRef .tc main_arg17)) = arg17 V0 :=
  (ops5_keep _ main_arg17 (by decide)).trans (s5_arg17 V0)
theorem s6_arg18 : s6 V0 (no_index (Proc.devRef .tc main_arg18)) = arg18 V0 :=
  (ops5_keep _ main_arg18 (by decide)).trans (s5_arg18 V0)
theorem s6_arg19 : s6 V0 (no_index (Proc.devRef .tc main_arg19)) = arg19 V0 :=
  (ops5_keep _ main_arg19 (by decide)).trans (s5_arg19 V0)
theorem s6_arg20 : s6 V0 (no_index (Proc.devRef .tc main_arg20)) = arg20 V0 :=
  (ops5_keep _ main_arg20 (by decide)).trans (s5_arg20 V0)
theorem s6_arg21 : s6 V0 (no_index (Proc.devRef .tc main_arg21)) = arg21 V0 :=
  (ops5_keep _ main_arg21 (by decide)).trans (s5_arg21 V0)
theorem s6_arg22 : s6 V0 (no_index (Proc.devRef .tc main_arg22)) = arg22 V0 :=
  (ops5_keep _ main_arg22 (by decide)).trans (s5_arg22 V0)
theorem s6_arg23 : s6 V0 (no_index (Proc.devRef .tc main_arg23)) = arg23 V0 :=
  (ops5_keep _ main_arg23 (by decide)).trans (s5_arg23 V0)
theorem s6_arg24 : s6 V0 (no_index (Proc.devRef .tc main_arg24)) = arg24 V0 :=
  (ops5_keep _ main_arg24 (by decide)).trans (s5_arg24 V0)
theorem s6_arg25 : s6 V0 (no_index (Proc.devRef .tc main_arg25)) = arg25 V0 :=
  (ops5_keep _ main_arg25 (by decide)).trans (s5_arg25 V0)
theorem s6_main_v267 : s6 V0 (no_index (Proc.devRef .tc main_v267)) = ReadP.val_main_v267 (F := F) (arg0 V0) (arg1 V0) (arg2 V0) (arg3 V0) (arg4 V0) (arg5 V0) (arg6 V0) (arg7 V0) (arg8 V0) (arg9 V0) (arg10 V0) (arg11 V0) (arg12 V0) (arg13 V0) (arg14 V0) (arg15 V0) (arg16 V0) :=
  c5_main_v267 (s5 V0) (arg0 V0) (arg1 V0) (arg2 V0) (arg3 V0) (arg4 V0) (arg5 V0) (arg6 V0) (arg7 V0) (arg8 V0) (arg9 V0) (arg10 V0) (arg11 V0) (arg12 V0) (arg13 V0) (arg14 V0) (arg15 V0) (arg16 V0) (s5_arg2 V0) (s5_arg16 V0) (s5_main_v256 V0) (s5_main_v265 V0)

/-- The contents after the first 7 chunks (operations 0 … 349). -/
def s7 : Valuation τ sig (Elt F) := after ops6 (s6 V0)
theorem s7_arg0 : s7 V0 (no_index (Proc.devRef .tc main_arg0)) = arg0 V0 :=
  (ops6_keep _ main_arg0 (by decide)).trans (s6_arg0 V0)
theorem s7_arg1 : s7 V0 (no_index (Proc.devRef .tc main_arg1)) = arg1 V0 :=
  (ops6_keep _ main_arg1 (by decide)).trans (s6_arg1 V0)
theorem s7_arg2 : s7 V0 (no_index (Proc.devRef .tc main_arg2)) = arg2 V0 :=
  (ops6_keep _ main_arg2 (by decide)).trans (s6_arg2 V0)
theorem s7_arg3 : s7 V0 (no_index (Proc.devRef .tc main_arg3)) = arg3 V0 :=
  (ops6_keep _ main_arg3 (by decide)).trans (s6_arg3 V0)
theorem s7_arg4 : s7 V0 (no_index (Proc.devRef .tc main_arg4)) = arg4 V0 :=
  (ops6_keep _ main_arg4 (by decide)).trans (s6_arg4 V0)
theorem s7_arg5 : s7 V0 (no_index (Proc.devRef .tc main_arg5)) = arg5 V0 :=
  (ops6_keep _ main_arg5 (by decide)).trans (s6_arg5 V0)
theorem s7_arg6 : s7 V0 (no_index (Proc.devRef .tc main_arg6)) = arg6 V0 :=
  (ops6_keep _ main_arg6 (by decide)).trans (s6_arg6 V0)
theorem s7_arg7 : s7 V0 (no_index (Proc.devRef .tc main_arg7)) = arg7 V0 :=
  (ops6_keep _ main_arg7 (by decide)).trans (s6_arg7 V0)
theorem s7_arg8 : s7 V0 (no_index (Proc.devRef .tc main_arg8)) = arg8 V0 :=
  (ops6_keep _ main_arg8 (by decide)).trans (s6_arg8 V0)
theorem s7_arg9 : s7 V0 (no_index (Proc.devRef .tc main_arg9)) = arg9 V0 :=
  (ops6_keep _ main_arg9 (by decide)).trans (s6_arg9 V0)
theorem s7_arg10 : s7 V0 (no_index (Proc.devRef .tc main_arg10)) = arg10 V0 :=
  (ops6_keep _ main_arg10 (by decide)).trans (s6_arg10 V0)
theorem s7_arg11 : s7 V0 (no_index (Proc.devRef .tc main_arg11)) = arg11 V0 :=
  (ops6_keep _ main_arg11 (by decide)).trans (s6_arg11 V0)
theorem s7_arg12 : s7 V0 (no_index (Proc.devRef .tc main_arg12)) = arg12 V0 :=
  (ops6_keep _ main_arg12 (by decide)).trans (s6_arg12 V0)
theorem s7_arg13 : s7 V0 (no_index (Proc.devRef .tc main_arg13)) = arg13 V0 :=
  (ops6_keep _ main_arg13 (by decide)).trans (s6_arg13 V0)
theorem s7_arg14 : s7 V0 (no_index (Proc.devRef .tc main_arg14)) = arg14 V0 :=
  (ops6_keep _ main_arg14 (by decide)).trans (s6_arg14 V0)
theorem s7_arg15 : s7 V0 (no_index (Proc.devRef .tc main_arg15)) = arg15 V0 :=
  (ops6_keep _ main_arg15 (by decide)).trans (s6_arg15 V0)
theorem s7_arg16 : s7 V0 (no_index (Proc.devRef .tc main_arg16)) = arg16 V0 :=
  (ops6_keep _ main_arg16 (by decide)).trans (s6_arg16 V0)
theorem s7_arg17 : s7 V0 (no_index (Proc.devRef .tc main_arg17)) = arg17 V0 :=
  (ops6_keep _ main_arg17 (by decide)).trans (s6_arg17 V0)
theorem s7_arg18 : s7 V0 (no_index (Proc.devRef .tc main_arg18)) = arg18 V0 :=
  (ops6_keep _ main_arg18 (by decide)).trans (s6_arg18 V0)
theorem s7_arg19 : s7 V0 (no_index (Proc.devRef .tc main_arg19)) = arg19 V0 :=
  (ops6_keep _ main_arg19 (by decide)).trans (s6_arg19 V0)
theorem s7_arg20 : s7 V0 (no_index (Proc.devRef .tc main_arg20)) = arg20 V0 :=
  (ops6_keep _ main_arg20 (by decide)).trans (s6_arg20 V0)
theorem s7_arg21 : s7 V0 (no_index (Proc.devRef .tc main_arg21)) = arg21 V0 :=
  (ops6_keep _ main_arg21 (by decide)).trans (s6_arg21 V0)
theorem s7_arg22 : s7 V0 (no_index (Proc.devRef .tc main_arg22)) = arg22 V0 :=
  (ops6_keep _ main_arg22 (by decide)).trans (s6_arg22 V0)
theorem s7_arg23 : s7 V0 (no_index (Proc.devRef .tc main_arg23)) = arg23 V0 :=
  (ops6_keep _ main_arg23 (by decide)).trans (s6_arg23 V0)
theorem s7_arg24 : s7 V0 (no_index (Proc.devRef .tc main_arg24)) = arg24 V0 :=
  (ops6_keep _ main_arg24 (by decide)).trans (s6_arg24 V0)
theorem s7_arg25 : s7 V0 (no_index (Proc.devRef .tc main_arg25)) = arg25 V0 :=
  (ops6_keep _ main_arg25 (by decide)).trans (s6_arg25 V0)
theorem s7_main_v302 : s7 V0 (no_index (Proc.devRef .tc main_v302)) = ReadP.val_main_v302 (F := F) (arg0 V0) (arg1 V0) (arg2 V0) (arg3 V0) (arg4 V0) (arg5 V0) (arg6 V0) (arg7 V0) (arg8 V0) (arg9 V0) (arg10 V0) (arg11 V0) (arg12 V0) (arg13 V0) (arg14 V0) (arg15 V0) (arg16 V0) (arg17 V0) (arg18 V0) (arg19 V0) (arg20 V0) (arg21 V0) (arg22 V0) (arg23 V0) (arg24 V0) (arg25 V0) :=
  c6_main_v302 (s6 V0) (arg0 V0) (arg1 V0) (arg2 V0) (arg3 V0) (arg4 V0) (arg5 V0) (arg6 V0) (arg7 V0) (arg8 V0) (arg9 V0) (arg10 V0) (arg11 V0) (arg12 V0) (arg13 V0) (arg14 V0) (arg15 V0) (arg16 V0) (arg17 V0) (arg18 V0) (arg19 V0) (arg20 V0) (arg21 V0) (arg22 V0) (arg23 V0) (arg24 V0) (arg25 V0) (s6_arg17 V0) (s6_arg18 V0) (s6_arg19 V0) (s6_arg20 V0) (s6_arg21 V0) (s6_arg22 V0) (s6_arg23 V0) (s6_arg24 V0) (s6_arg25 V0) (s6_main_v267 V0)

end Cert.ReferenceIdeal.HandRun

end
-- ==== Proof.RefRun.Run.lean ====
/- The reference program's run, assembled from its chunks.

   @main is 350 host operations and nothing else. Cut into seven consecutive chunks (the printed windows of @main,
   the fifth cut once more so that the concatenate opens a chunk), it is the chunks run one after the other, so what
   the device holds at the end is the fold of the last chunk's results over what it held after the sixth, and so on
   back to the launch contents. Each chunk hands on, for every buffer still read later, that the buffer holds its
   stage (the value the Read module names for its operation, as a function of @main's arguments); no operation
   writes an argument. The last chunk's one such buffer is @main's result. -/
import proofs.«100324_j78829829750888_1_alg».proof.Proof.RefRun.Stages
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main is the chunks in order

Each printed window of @main is one chunk's operations run in order, the fifth window two chunks'. -/

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
set_option maxRecDepth 8192 in
set_option maxHeartbeats 4000000 in
theorem main_part3_eq (c : Dev nD) : main_part3 (F := F) c = seq ops3 := rfl
set_option maxRecDepth 8192 in
set_option maxHeartbeats 4000000 in
theorem main_part4_eq (c : Dev nD) : main_part4 (F := F) c = seq (ops4 ++ ops5) := rfl
set_option maxRecDepth 8192 in
set_option maxHeartbeats 4000000 in
theorem main_part5_eq (c : Dev nD) : main_part5 (F := F) c = seq ops6 := rfl

/-- @main's 350 operations: the chunks in order (chunks 4 and 5 together are the fifth printed window). -/
abbrev ops : List (HloOp τ sig (Elt F)) := ops0 ++ (ops1 ++ (ops2 ++ (ops3 ++ ((ops4 ++ ops5) ++ ops6))))

theorem main_eq (c : Dev nD) : main (F := F) c = seq ops := by
  unfold ops
  rw [seq_append ops0, seq_append ops1, seq_append ops2, seq_append ops3, seq_append (ops4 ++ ops5),
    ← main_part0_eq c, ← main_part1_eq c, ← main_part2_eq c, ← main_part3_eq c, ← main_part4_eq c, ← main_part5_eq c]
  rfl

/-- What holds of every operation of every chunk holds of every operation of @main. -/
theorem ops_all {p : HloOp τ sig (Elt F) → Prop} (h0 : ∀ op ∈ ops0, p op) (h1 : ∀ op ∈ ops1, p op) (h2 : ∀ op ∈ ops2, p op)
    (h3 : ∀ op ∈ ops3, p op) (h4 : ∀ op ∈ ops4, p op) (h5 : ∀ op ∈ ops5, p op) (h6 : ∀ op ∈ ops6, p op) :
    ∀ op ∈ (ops : List (HloOp τ sig (Elt F))), p op := by
  intro op h
  rcases List.mem_append.1 h with h | h
  · exact h0 op h
  rcases List.mem_append.1 h with h | h
  · exact h1 op h
  rcases List.mem_append.1 h with h | h
  · exact h2 op h
  rcases List.mem_append.1 h with h | h
  · exact h3 op h
  rcases List.mem_append.1 h with h | h
  · rcases List.mem_append.1 h with h | h
    · exact h4 op h
    · exact h5 op h
  · exact h6 op h

theorem ops_sub : (ops : List (HloOp τ sig (Elt F))).Forall fun op => op.bufs ⊆ tcRefs τ sig :=
  List.forall_iff_forall_mem.mpr (ops_all (List.forall_iff_forall_mem.mp ops0_sub) (List.forall_iff_forall_mem.mp ops1_sub)
    (List.forall_iff_forall_mem.mp ops2_sub) (List.forall_iff_forall_mem.mp ops3_sub) (List.forall_iff_forall_mem.mp ops4_sub)
    (List.forall_iff_forall_mem.mp ops5_sub) (List.forall_iff_forall_mem.mp ops6_sub))

theorem ops_fresh : ∀ op ∈ (ops : List (HloOp τ sig (Elt F))), op.fresh = ∅ :=
  ops_all ops0_fresh ops1_fresh ops2_fresh ops3_fresh ops4_fresh ops5_fresh ops6_fresh

theorem scopedRefs_eq : (Finset.univ.filter fun b : Ref sig .tc => b.isScoped) = ∅ := by decide
theorem scopedSems_eq : (Finset.univ.filter fun sm : SemLoc sig => sm.isScoped .tc) = ∅ := by decide

/-- The contents after all of @main's operations are the last stage: the fold over a concatenation is the folds
    one after the other. -/
theorem after_ops (V0 : Valuation τ sig (Elt F)) : after ops V0 = s7 V0 := by
  unfold ops
  rw [StableHlo.after_append ops0, StableHlo.after_append ops1, StableHlo.after_append ops2, StableHlo.after_append ops3,
    StableHlo.after_append (ops4 ++ ops5), StableHlo.after_append ops4]
  rfl

/-- On every device, for any float values, from any memory with zero counters: every weakly fair execution of
    @main terminates with its result at the stage of its last operation, read at the arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v302) = ReadP.val_main_v302 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v302).trans ((congrFun (after_ops _) _).trans (s7_main_v302 _)),
      (h c main_arg0).trans ((congrFun (after_ops _) _).trans (s7_arg0 _)),
      (h c main_arg1).trans ((congrFun (after_ops _) _).trans (s7_arg1 _)),
      (h c main_arg2).trans ((congrFun (after_ops _) _).trans (s7_arg2 _)),
      (h c main_arg3).trans ((congrFun (after_ops _) _).trans (s7_arg3 _)),
      (h c main_arg4).trans ((congrFun (after_ops _) _).trans (s7_arg4 _)),
      (h c main_arg5).trans ((congrFun (after_ops _) _).trans (s7_arg5 _)),
      (h c main_arg6).trans ((congrFun (after_ops _) _).trans (s7_arg6 _)),
      (h c main_arg7).trans ((congrFun (after_ops _) _).trans (s7_arg7 _)),
      (h c main_arg8).trans ((congrFun (after_ops _) _).trans (s7_arg8 _)),
      (h c main_arg9).trans ((congrFun (after_ops _) _).trans (s7_arg9 _)),
      (h c main_arg10).trans ((congrFun (after_ops _) _).trans (s7_arg10 _)),
      (h c main_arg11).trans ((congrFun (after_ops _) _).trans (s7_arg11 _)),
      (h c main_arg12).trans ((congrFun (after_ops _) _).trans (s7_arg12 _)),
      (h c main_arg13).trans ((congrFun (after_ops _) _).trans (s7_arg13 _)),
      (h c main_arg14).trans ((congrFun (after_ops _) _).trans (s7_arg14 _)),
      (h c main_arg15).trans ((congrFun (after_ops _) _).trans (s7_arg15 _)),
      (h c main_arg16).trans ((congrFun (after_ops _) _).trans (s7_arg16 _)),
      (h c main_arg17).trans ((congrFun (after_ops _) _).trans (s7_arg17 _)),
      (h c main_arg18).trans ((congrFun (after_ops _) _).trans (s7_arg18 _)),
      (h c main_arg19).trans ((congrFun (after_ops _) _).trans (s7_arg19 _)),
      (h c main_arg20).trans ((congrFun (after_ops _) _).trans (s7_arg20 _)),
      (h c main_arg21).trans ((congrFun (after_ops _) _).trans (s7_arg21 _)),
      (h c main_arg22).trans ((congrFun (after_ops _) _).trans (s7_arg22 _)),
      (h c main_arg23).trans ((congrFun (after_ops _) _).trans (s7_arg23 _)),
      (h c main_arg24).trans ((congrFun (after_ops _) _).trans (s7_arg24 _)),
      (h c main_arg25).trans ((congrFun (after_ops _) _).trans (s7_arg25 _))⟩)
    (run_seq scopedRefs_eq scopedSems_eq defs main (fun _ => ops) main_eq (fun _ => ops_sub) m ρ (fun _ => ops_fresh))

end Cert.ReferenceIdeal.HandRun

end
-- ==== Proof.LinRef.lean ====
/-
  The reference's linear stages are the specification. For each node type the reference computes the product of the
  feature table with the weights, broadcasts the bias first to one row and then to every row, and adds: at the entry
  (i₀, i₁) that is (∑ k < 32, x(i₀, k) · W(k, i₁)) + b(i₁), the specification's projection.
-/
import proofs.«100324_j78829829750888_1_alg».proof.Proof.RefRead
import proofs.«100324_j78829829750888_1_alg».proof.Proof.LinSpec

noncomputable section

open scoped BigOperators

namespace Cert.LinRef

open Cert.ReferenceIdeal Cert.ReferenceIdeal.ReadP Idealize.ShloMosaic Idealize.ShloMosaic.ValueIdx Cert.LinSpec

/-! The reference's operand indices are the coordinates' own: the product reads the left operand at row i₀ and
    column k, the right operand at row k and column i₁; the two broadcasts read the bias at i₁. -/

theorem lidx0_eq (i : S100000x128.Idx) (k : Fin 32) : lidx_main_v0 i k = ix2 (i 0) k :=
  funext fun a => Fin.ext (by match a with | ⟨0, _⟩ => rfl | ⟨1, _⟩ => rfl)
theorem ridx0_eq (i : S100000x128.Idx) (k : Fin 32) : ridx_main_v0 i k = ix2 k (i 1) :=
  funext fun a => Fin.ext (by match a with | ⟨0, _⟩ => rfl | ⟨1, _⟩ => rfl)
theorem bidx0_eq (i : S100000x128.Idx) : idx_main_v1 (idx_main_v2 i) = ix1 (i 1) :=
  funext fun a => Fin.ext (by match a with | ⟨0, _⟩ => rfl)
theorem lidx1_eq (i : S100000x128.Idx) (k : Fin 32) : lidx_main_v4 i k = ix2 (i 0) k :=
  funext fun a => Fin.ext (by match a with | ⟨0, _⟩ => rfl | ⟨1, _⟩ => rfl)
theorem ridx1_eq (i : S100000x128.Idx) (k : Fin 32) : ridx_main_v4 i k = ix2 k (i 1) :=
  funext fun a => Fin.ext (by match a with | ⟨0, _⟩ => rfl | ⟨1, _⟩ => rfl)
theorem bidx1_eq (i : S100000x128.Idx) : idx_main_v5 (idx_main_v6 i) = ix1 (i 1) :=
  funext fun a => Fin.ext (by match a with | ⟨0, _⟩ => rfl)

/-- The first node type's projection, as the reference computes it (a product, two broadcasts of the bias, a sum),
    is the specification. -/
theorem v3_eq_linF (x0 : (⟨S100000x32, .f32⟩ : BufTy).Contents (Elt Ideal)) (x5 : (⟨S32x128, .f32⟩ : BufTy).Contents (Elt Ideal))
    (x6 : (⟨S128, .f32⟩ : BufTy).Contents (Elt Ideal)) :
    val_main_v3 (F := Ideal) x0 x5 x6 = linF x0 x5 x6 := by
  funext i
  rw [val_main_v3_apply, val_main_v0_apply, val_main_v2_apply, val_main_v1_apply]
  simp only [lidx0_eq, ridx0_eq, bidx0_eq, Ideal.addf_def]
  rfl

/-- The second node type's projection likewise. -/
theorem v7_eq_linF (x1 : (⟨S100000x32, .f32⟩ : BufTy).Contents (Elt Ideal)) (x7 : (⟨S32x128, .f32⟩ : BufTy).Contents (Elt Ideal))
    (x8 : (⟨S128, .f32⟩ : BufTy).Contents (Elt Ideal)) :
    val_main_v7 (F := Ideal) x1 x7 x8 = linF x1 x7 x8 := by
  funext i
  rw [val_main_v7_apply, val_main_v4_apply, val_main_v6_apply, val_main_v5_apply]
  simp only [lidx1_eq, ridx1_eq, bidx1_eq, Ideal.addf_def]
  rfl

end Cert.LinRef

end
-- ==== Proof.SageRef.lean ====
/-
  The reference's SAGE stage is the specification. On whole arrays the reference computes, by host operations,

    relu( ((((agg · Wl) + row(bl)) + h · Wr) − row(m)) · row(rsqrt(v + ε)) · row(g) + row(b) ) + h

  where row(x) copies a 128-vector down the 100000 rows (first as a [1,128] row, then to the full shape), ε and the 0 of
  relu are scalar constants spread to their shapes, and · is the contraction of axis 1 with axis 0. Read at an index this
  is `sageF`; the four stages of the reference program (two node types, two layers) are this term at their operands.
-/
import proofs.«100324_j78829829750888_1_alg».proof.Proof.RefRead
import proofs.«100324_j78829829750888_1_alg».proof.Proof.SageSpec
import Idealize.ShloMosaic.Lib.ValueIdx
import Idealize.ShloMosaic.Lib.Pipeline.Value
import Idealize.ShloMosaic.PureOps.Ideal.Laws

noncomputable section

open scoped BigOperators

namespace Cert.SageRef

open Cert.ReferenceIdeal Cert.ReferenceIdeal.Gen Cert.ReferenceIdeal.ReadP
open Idealize.ShloMosaic Idealize.ShloMosaic.ValueIdx Idealize.ShloMosaic.StableHlo
open Cert.SageSpec

/-! ## The layout steps and the contraction, at an entry -/

/-- A 128-vector spread to a [1,128] row and then down the 100000 rows reads, at (r, j), its j-th entry. -/
theorem row_apply (x : FVec Ideal S128 .f32) (r : Fin 100000) (j : Fin 128) :
    broadcastInDim S100000x128 ![0, 1] bcast_S1x128_S100000x128_0_1 (broadcastInDim S1x128 ![1] bcast_S128_S1x128_1 x) (ix2 r j)
      = x (ix1 j) :=
  (broadcastInDim_apply _ bcast_S1x128_S100000x128_0_1 _ (ix2 r j) (ix2 ⟨0, Nat.one_pos⟩ j) (fun a => match a with
    | ⟨0, _⟩ => by show 0 = if (1 : Nat) = 1 then 0 else r.val; rw [if_pos rfl]
    | ⟨1, _⟩ => by show j.val = if (128 : Nat) = 1 then 0 else j.val; rw [if_neg (by decide)])).trans
  (broadcastInDim_apply _ bcast_S128_S1x128_1 x _ (ix1 j) (fun a => match a with
    | ⟨0, _⟩ => by show j.val = if (128 : Nat) = 1 then 0 else j.val; rw [if_neg (by decide)]))

/-! A scalar constant spread to a shape reads its word at every index, by unfolding.

    The operand indices of the [100000,128] × [128,128] contraction, axis by axis. -/

theorem lhs_dot_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_dot_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_dot_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_dot_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The contraction of a [100000,128] array with a [128,128] matrix, at (r, j): Σₖ A(r,k)·B(k,j). -/
theorem dot_apply (A : FVec Ideal S100000x128 .f32) (B : FVec Ideal S128x128 .f32) (r : Fin 100000) (j : Fin 128) :
    Host.dotGeneral dot_S100000x128_S128x128_S100000x128_1_0_0_1_n_n none A B (ix2 r j)
      = ∑ k : Fin 128, A (ix2 r k) * B (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The stage on whole arrays -/

/-- The reference's stage, as its tree of host operations on whole arrays, is `sageF` of the same nine operands. -/
theorem stage_eq (agg h : FVec Ideal S100000x128 .f32) (Wl : FVec Ideal S128x128 .f32) (bl : FVec Ideal S128 .f32)
    (Wr : FVec Ideal S128x128 .f32) (g b m v : FVec Ideal S128 .f32) :
    addf (maximumf
        (addf (mulf (mulf
            (subf (addf (addf (Host.dotGeneral dot_S100000x128_S128x128_S100000x128_1_0_0_1_n_n none agg Wl)
                          (broadcastInDim S100000x128 ![0, 1] bcast_S1x128_S100000x128_0_1 (broadcastInDim S1x128 ![1] bcast_S128_S1x128_1 bl)))
                        (Host.dotGeneral dot_S100000x128_S128x128_S100000x128_1_0_0_1_n_n none h Wr))
                  (broadcastInDim S100000x128 ![0, 1] bcast_S1x128_S100000x128_0_1 (broadcastInDim S1x128 ![1] bcast_S128_S1x128_1 m)))
            (broadcastInDim S100000x128 ![0, 1] bcast_S1x128_S100000x128_0_1 (broadcastInDim S1x128 ![1] bcast_S128_S1x128_1
              (Host.rsqrt (addf v (broadcastInDim S128 ![] bcast_S_S128 (constant (F := Ideal) S_ .f32 0x3727C5AC#32)))))))
            (broadcastInDim S100000x128 ![0, 1] bcast_S1x128_S100000x128_0_1 (broadcastInDim S1x128 ![1] bcast_S128_S1x128_1 g)))
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32)))
      h
      = sageF agg h Wl bl Wr g b m v := by
  funext i
  obtain ⟨r, j, rfl⟩ : ∃ (r : Fin 100000) (j : Fin 128), i = ix2 r j := ⟨i 0, i 1, eq_ix2 i⟩
  rw [sageF_ix2]
  unfold sageAt
  simp only [addf_apply, mulf_apply, subf_apply, maximumf_apply, dot_apply]
  rw [row_apply _ r j, row_apply _ r j, row_apply _ r j, row_apply _ r j, row_apply _ r j]
  rfl

/-! ## The four stages of the reference program -/

/-- Layer 1, the stage whose residual is the first projection (operation %102). -/
theorem sage_v102 (x0 x1 : (⟨S100000x32, .f32⟩ : BufTy).Contents (Elt Ideal)) (x4 : (⟨S2x500000, .i32⟩ : BufTy).Contents (Elt Ideal)) (x5 : (⟨S32x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S2x2x128x128, .f32⟩ : BufTy).Contents (Elt Ideal)) (x10 : (⟨S2x2x128, .f32⟩ : BufTy).Contents (Elt Ideal)) (x11 : (⟨S2x2x128x128, .f32⟩ : BufTy).Contents (Elt Ideal)) (x12 x13 x14 x15 : (⟨S2x2x128, .f32⟩ : BufTy).Contents (Elt Ideal)) :
    val_main_v102 (F := Ideal) x0 x1 x4 x5 x6 x7 x8 x9 x10 x11 x12 x13 x14 x15
      = sageF (val_main_v65 (F := Ideal) x1 x4 x7 x8) (val_main_v3 (F := Ideal) x0 x5 x6) (val_main_v67 (F := Ideal) x9) (val_main_v70 (F := Ideal) x10) (val_main_v75 (F := Ideal) x11)
          (val_main_v79 (F := Ideal) x12) (val_main_v81 (F := Ideal) x13) (val_main_v83 (F := Ideal) x14) (val_main_v85 (F := Ideal) x15) :=
  stage_eq _ _ _ _ _ _ _ _ _

/-- Layer 1, the stage whose residual is the second projection (operation %127). -/
theorem sage_v127 (x0 x1 : (⟨S100000x32, .f32⟩ : BufTy).Contents (Elt Ideal)) (x3 : (⟨S2x500000, .i32⟩ : BufTy).Contents (Elt Ideal)) (x5 : (⟨S32x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S2x2x128x128, .f32⟩ : BufTy).Contents (Elt Ideal)) (x10 : (⟨S2x2x128, .f32⟩ : BufTy).Contents (Elt Ideal)) (x11 : (⟨S2x2x128x128, .f32⟩ : BufTy).Contents (Elt Ideal)) (x12 x13 x14 x15 : (⟨S2x2x128, .f32⟩ : BufTy).Contents (Elt Ideal)) :
    val_main_v127 (F := Ideal) x0 x1 x3 x5 x6 x7 x8 x9 x10 x11 x12 x13 x14 x15
      = sageF (val_main_v30 (F := Ideal) x0 x3 x5 x6) (val_main_v7 (F := Ideal) x1 x7 x8) (val_main_v32 (F := Ideal) x9) (val_main_v35 (F := Ideal) x10) (val_main_v40 (F := Ideal) x11)
          (val_main_v104 (F := Ideal) x12) (val_main_v106 (F := Ideal) x13) (val_main_v108 (F := Ideal) x14) (val_main_v110 (F := Ideal) x15) :=
  stage_eq _ _ _ _ _ _ _ _ _

/-- Layer 2, the stage over layer 1's %102 (operation %222). -/
theorem sage_v222 (x0 x1 : (⟨S100000x32, .f32⟩ : BufTy).Contents (Elt Ideal)) (x3 x4 : (⟨S2x500000, .i32⟩ : BufTy).Contents (Elt Ideal)) (x5 : (⟨S32x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S2x2x128x128, .f32⟩ : BufTy).Contents (Elt Ideal)) (x10 : (⟨S2x2x128, .f32⟩ : BufTy).Contents (Elt Ideal)) (x11 : (⟨S2x2x128x128, .f32⟩ : BufTy).Contents (Elt Ideal)) (x12 x13 x14 x15 : (⟨S2x2x128, .f32⟩ : BufTy).Contents (Elt Ideal)) :
    val_main_v222 (F := Ideal) x0 x1 x3 x4 x5 x6 x7 x8 x9 x10 x11 x12 x13 x14 x15
      = sageF (val_main_v185 (F := Ideal) x0 x1 x3 x4 x5 x6 x7 x8 x9 x10 x11 x12 x13 x14 x15) (val_main_v102 (F := Ideal) x0 x1 x4 x5 x6 x7 x8 x9 x10 x11 x12 x13 x14 x15) (val_main_v187 (F := Ideal) x9) (val_main_v190 (F := Ideal) x10) (val_main_v195 (F := Ideal) x11)
          (val_main_v199 (F := Ideal) x12) (val_main_v201 (F := Ideal) x13) (val_main_v203 (F := Ideal) x14) (val_main_v205 (F := Ideal) x15) :=
  stage_eq _ _ _ _ _ _ _ _ _

/-- Layer 2, the stage over layer 1's %127 (operation %247). -/
theorem sage_v247 (x0 x1 : (⟨S100000x32, .f32⟩ : BufTy).Contents (Elt Ideal)) (x3 x4 : (⟨S2x500000, .i32⟩ : BufTy).Contents (Elt Ideal)) (x5 : (⟨S32x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S2x2x128x128, .f32⟩ : BufTy).Contents (Elt Ideal)) (x10 : (⟨S2x2x128, .f32⟩ : BufTy).Contents (Elt Ideal)) (x11 : (⟨S2x2x128x128, .f32⟩ : BufTy).Contents (Elt Ideal)) (x12 x13 x14 x15 : (⟨S2x2x128, .f32⟩ : BufTy).Contents (Elt Ideal)) :
    val_main_v247 (F := Ideal) x0 x1 x3 x4 x5 x6 x7 x8 x9 x10 x11 x12 x13 x14 x15
      = sageF (val_main_v150 (F := Ideal) x0 x1 x3 x4 x5 x6 x7 x8 x9 x10 x11 x12 x13 x14 x15) (val_main_v127 (F := Ideal) x0 x1 x3 x5 x6 x7 x8 x9 x10 x11 x12 x13 x14 x15) (val_main_v152 (F := Ideal) x9) (val_main_v155 (F := Ideal) x10) (val_main_v160 (F := Ideal) x11)
          (val_main_v224 (F := Ideal) x12) (val_main_v226 (F := Ideal) x13) (val_main_v228 (F := Ideal) x14) (val_main_v230 (F := Ideal) x15) :=
  stage_eq _ _ _ _ _ _ _ _ _

end Cert.SageRef

end
-- ==== Proof.MlpRef.lean ====
/-
  The reference's edge perceptron is the specification. The reference computes the stage on whole arrays, operation
  by operation: three matrix products, each followed by a bias laid along the rows; a rectifier after the first two;
  the batch normalisation after the first; and 1 / (1 + exp(−z)) at the end. Read at an entry through the reference's
  own index functions, the chain of operations is the specification's formula at that entry; the feature array (a
  concatenation upstream) is carried as it stands.
-/
import proofs.«100324_j78829829750888_1_alg».proof.Proof.RefRead
import proofs.«100324_j78829829750888_1_alg».proof.Proof.MlpSpec

noncomputable section

open scoped BigOperators

namespace Cert.Mlp.Ref
open Cert.ReferenceIdeal Cert.ReferenceIdeal.ReadP Idealize.ShloMosaic Idealize.ShloMosaic.ValueIdx

/-! The reference's operand indices at an entry given by its coordinates: a product reads row r of the left operand
    and column j of the right one at the contracted coordinate k; a vector laid along the rows reads its entry j. -/

theorem l267 (r : Fin 500000) (j : Fin 128) (k : Fin 272) : lidx_main_v267 (ix2 r j) k = ix2 r k :=
  funext fun a => Fin.ext (by match a with | ⟨0, _⟩ => rfl | ⟨1, _⟩ => rfl)
theorem r267 (r : Fin 500000) (j : Fin 128) (k : Fin 272) : ridx_main_v267 (ix2 r j) k = ix2 k j :=
  funext fun a => Fin.ext (by match a with | ⟨0, _⟩ => rfl | ⟨1, _⟩ => rfl)
theorem l287 (r : Fin 500000) (j : Fin 64) (k : Fin 128) : lidx_main_v287 (ix2 r j) k = ix2 r k :=
  funext fun a => Fin.ext (by match a with | ⟨0, _⟩ => rfl | ⟨1, _⟩ => rfl)
theorem r287 (r : Fin 500000) (j : Fin 64) (k : Fin 128) : ridx_main_v287 (ix2 r j) k = ix2 k j :=
  funext fun a => Fin.ext (by match a with | ⟨0, _⟩ => rfl | ⟨1, _⟩ => rfl)
theorem l292 (r : Fin 500000) (j : Fin 1) (k : Fin 64) : lidx_main_v292 (ix2 r j) k = ix2 r k :=
  funext fun a => Fin.ext (by match a with | ⟨0, _⟩ => rfl | ⟨1, _⟩ => rfl)
theorem r292 (r : Fin 500000) (j : Fin 1) (k : Fin 64) : ridx_main_v292 (ix2 r j) k = ix2 k j :=
  funext fun a => Fin.ext (by match a with | ⟨0, _⟩ => rfl | ⟨1, _⟩ => rfl)
theorem b269 (r : Fin 500000) (j : Fin 128) : idx_main_v268 (idx_main_v269 (ix2 r j)) = ix1 j :=
  funext fun a => Fin.ext (by match a with | ⟨0, _⟩ => rfl)
theorem b273 (r : Fin 500000) (j : Fin 128) : idx_main_v272 (idx_main_v273 (ix2 r j)) = ix1 j :=
  funext fun a => Fin.ext (by match a with | ⟨0, _⟩ => rfl)
theorem b279 (r : Fin 500000) (j : Fin 128) : idx_main_v278 (idx_main_v279 (ix2 r j)) = ix1 j :=
  funext fun a => Fin.ext (by match a with | ⟨0, _⟩ => rfl)
theorem b282 (r : Fin 500000) (j : Fin 128) : idx_main_v281 (idx_main_v282 (ix2 r j)) = ix1 j :=
  funext fun a => Fin.ext (by match a with | ⟨0, _⟩ => rfl)
theorem b285 (r : Fin 500000) (j : Fin 128) : idx_main_v284 (idx_main_v285 (ix2 r j)) = ix1 j :=
  funext fun a => Fin.ext (by match a with | ⟨0, _⟩ => rfl)
theorem b289 (r : Fin 500000) (j : Fin 64) : idx_main_v288 (idx_main_v289 (ix2 r j)) = ix1 j :=
  funext fun a => Fin.ext (by match a with | ⟨0, _⟩ => rfl)
theorem b294 (i : S500000x1.Idx) : idx_main_v293 (idx_main_v294 i) = ix1 ⟨0, Nat.one_pos⟩ :=
  funext fun a => Fin.ext (by match a with | ⟨0, _⟩ => rfl)

/-- The reference's normalised first hidden layer at the entry (r, j). -/
theorem v286_eq (x0 x1 : (⟨S100000x32, .f32⟩ : BufTy).Contents (Elt Ideal)) (x2 : (⟨S500000x16, .f32⟩ : BufTy).Contents (Elt Ideal)) (x3 x4 : (⟨S2x500000, .i32⟩ : BufTy).Contents (Elt Ideal)) (x5 : (⟨S32x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S2x2x128x128, .f32⟩ : BufTy).Contents (Elt Ideal)) (x10 : (⟨S2x2x128, .f32⟩ : BufTy).Contents (Elt Ideal)) (x11 : (⟨S2x2x128x128, .f32⟩ : BufTy).Contents (Elt Ideal)) (x12 x13 x14 x15 : (⟨S2x2x128, .f32⟩ : BufTy).Contents (Elt Ideal)) (x16 : (⟨S272x128, .f32⟩ : BufTy).Contents (Elt Ideal)) (x17 x18 x19 x20 x21 : (⟨S128, .f32⟩ : BufTy).Contents (Elt Ideal)) (r : Fin 500000) (j : Fin 128) :
    val_main_v286 (F := Ideal) x0 x1 x2 x3 x4 x5 x6 x7 x8 x9 x10 x11 x12 x13 x14 x15 x16 x17 x18 x19 x20 x21 (ix2 r j)
      = Cert.Mlp.hid1 (fun k => val_main_v266 (F := Ideal) x0 x1 x2 x3 x4 x5 x6 x7 x8 x9 x10 x11 x12 x13 x14 x15 (ix2 r k)) x16 x17 x18 x19 x20 x21 j := by
  rw [val_main_v286_apply, val_main_v283_apply, val_main_v280_apply, val_main_v274_apply, val_main_v271_apply, val_main_v270_apply,
    val_main_v267_apply, val_main_v269_apply, val_main_v268_apply, val_main_call4_v0_apply, val_main_call4_cst_apply,
    val_main_v273_apply, val_main_v272_apply, val_main_v279_apply, val_main_v278_apply, val_main_v277_apply, val_main_v276_apply,
    val_main_v275_apply, val_main_cst_30_apply, val_main_v282_apply, val_main_v281_apply, val_main_v285_apply, val_main_v284_apply]
  unfold Cert.Mlp.hid1
  simp only [l267, r267, b269, b273, b279, b282, b285, Ideal.addf_def, Ideal.mulf_def, Ideal.subf_def, Ideal.maximumf_def,
    Ideal.hostUnary_rsqrt_def, Ideal.ofBits_def]

/-- The reference's second hidden layer at the entry (r, j). -/
theorem v291_eq (x0 x1 : (⟨S100000x32, .f32⟩ : BufTy).Contents (Elt Ideal)) (x2 : (⟨S500000x16, .f32⟩ : BufTy).Contents (Elt Ideal)) (x3 x4 : (⟨S2x500000, .i32⟩ : BufTy).Contents (Elt Ideal)) (x5 : (⟨S32x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S2x2x128x128, .f32⟩ : BufTy).Contents (Elt Ideal)) (x10 : (⟨S2x2x128, .f32⟩ : BufTy).Contents (Elt Ideal)) (x11 : (⟨S2x2x128x128, .f32⟩ : BufTy).Contents (Elt Ideal)) (x12 x13 x14 x15 : (⟨S2x2x128, .f32⟩ : BufTy).Contents (Elt Ideal)) (x16 : (⟨S272x128, .f32⟩ : BufTy).Contents (Elt Ideal)) (x17 x18 x19 x20 x21 : (⟨S128, .f32⟩ : BufTy).Contents (Elt Ideal)) (x22 : (⟨S128x64, .f32⟩ : BufTy).Contents (Elt Ideal)) (x23 : (⟨S64, .f32⟩ : BufTy).Contents (Elt Ideal)) (r : Fin 500000) (j : Fin 64) :
    val_main_v291 (F := Ideal) x0 x1 x2 x3 x4 x5 x6 x7 x8 x9 x10 x11 x12 x13 x14 x15 x16 x17 x18 x19 x20 x21 x22 x23 (ix2 r j)
      = Cert.Mlp.hid2 (fun k => val_main_v266 (F := Ideal) x0 x1 x2 x3 x4 x5 x6 x7 x8 x9 x10 x11 x12 x13 x14 x15 (ix2 r k)) x16 x17 x18 x19 x20 x21 x22 x23 j := by
  rw [val_main_v291_apply, val_main_v290_apply, val_main_v287_apply, val_main_v289_apply, val_main_v288_apply,
    val_main_call5_v0_apply, val_main_call5_cst_apply]
  unfold Cert.Mlp.hid2
  simp only [l287, r287, b289, v286_eq, Ideal.addf_def, Ideal.maximumf_def, Ideal.ofBits_def]

/-- THE REFERENCE IS THE SPECIFICATION: the stage's last value is the perceptron of the concatenated feature array
    and the ten parameter arrays. -/
theorem ref_eq (x0 x1 : (⟨S100000x32, .f32⟩ : BufTy).Contents (Elt Ideal)) (x2 : (⟨S500000x16, .f32⟩ : BufTy).Contents (Elt Ideal)) (x3 x4 : (⟨S2x500000, .i32⟩ : BufTy).Contents (Elt Ideal)) (x5 : (⟨S32x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S2x2x128x128, .f32⟩ : BufTy).Contents (Elt Ideal)) (x10 : (⟨S2x2x128, .f32⟩ : BufTy).Contents (Elt Ideal)) (x11 : (⟨S2x2x128x128, .f32⟩ : BufTy).Contents (Elt Ideal)) (x12 x13 x14 x15 : (⟨S2x2x128, .f32⟩ : BufTy).Contents (Elt Ideal)) (x16 : (⟨S272x128, .f32⟩ : BufTy).Contents (Elt Ideal)) (x17 x18 x19 x20 x21 : (⟨S128, .f32⟩ : BufTy).Contents (Elt Ideal)) (x22 : (⟨S128x64, .f32⟩ : BufTy).Contents (Elt Ideal)) (x23 : (⟨S64, .f32⟩ : BufTy).Contents (Elt Ideal)) (x24 : (⟨S64x1, .f32⟩ : BufTy).Contents (Elt Ideal)) (x25 : (⟨S1, .f32⟩ : BufTy).Contents (Elt Ideal)) :
    val_main_v301 (F := Ideal) x0 x1 x2 x3 x4 x5 x6 x7 x8 x9 x10 x11 x12 x13 x14 x15 x16 x17 x18 x19 x20 x21 x22 x23 x24 x25
      = Cert.Mlp.mlpF (val_main_v266 (F := Ideal) x0 x1 x2 x3 x4 x5 x6 x7 x8 x9 x10 x11 x12 x13 x14 x15) x16 x17 x18 x19 x20 x21 x22 x23 x24 x25 := by
  funext i
  obtain ⟨r, c, rfl⟩ : ∃ (r : Fin 500000) (c : Fin 1), i = ix2 r c := ⟨i 0, i 1, eq_ix2 i⟩
  rw [Cert.Mlp.mlpF_apply, val_main_v301_apply, val_main_v300_apply, val_main_cst_32_apply, val_main_v299_apply, val_main_v298_apply,
    val_main_cst_31_apply, val_main_v297_apply, val_main_v296_apply, val_main_v295_apply, val_main_v292_apply, val_main_v294_apply,
    val_main_v293_apply]
  unfold Cert.Mlp.score Cert.Mlp.sigm
  simp only [l292, r292, b294, v291_eq, Ideal.hostDivf_def, Ideal.addf_def, Ideal.hostUnary_exp_def, Ideal.hostNegf_def,
    Ideal.negf_def, Ideal.ofBits_def]

end Cert.Mlp.Ref

end
-- ==== Proof.RefBridge.lean ====
/-
  The reference program's result is the composed specification.

  The reference program is a chain of dense stages (two projections, four graph convolutions, the edge perceptron)
  joined by host operations (row slices of the edge arrays, index normalisation, gathers, scatter-adds, the division by
  the edge counts, parameter slices, a concatenation, a final reshape). Each dense stage equals its index-level
  specification; each run of host operations is, literally, one of the glue's whole-array functions. Going through the
  program in order and replacing every stage by the glue's stage of the same name gives the network as one function
  of the 26 argument arrays.
-/
import proofs.«100324_j78829829750888_1_alg».proof.Proof.RefRead
import proofs.«100324_j78829829750888_1_alg».proof.Proof.Glue
import proofs.«100324_j78829829750888_1_alg».proof.Proof.LinRef
import proofs.«100324_j78829829750888_1_alg».proof.Proof.SageRef
import proofs.«100324_j78829829750888_1_alg».proof.Proof.MlpRef

noncomputable section

namespace Cert.RefBridge

open Cert.ReferenceIdeal Cert.ReferenceIdeal.ReadP Cert.Glue
open Idealize.ShloMosaic Idealize.SL.Sem
open Cert.LinSpec Cert.SageSpec Cert.Mlp

/-! ## The parameter slices

Each slice-and-reshape pair of the reference program is one of the glue's entry functions at the same argument. -/

section Slices

variable (M : 𝔹 S2x2x128x128 .f32) (V : 𝔹 S2x2x128 .f32)

/-- Layer 1, the stage over the first aggregate: matrices at (0,0), first bias at (0,0), normalisation at (0,1). -/
theorem v32_eq : val_main_v32 (F := Ideal) M = mat00 M := rfl
theorem v35_eq : val_main_v35 (F := Ideal) V = vec00 V := rfl
theorem v40_eq : val_main_v40 (F := Ideal) M = mat00 M := rfl
theorem v104_eq : val_main_v104 (F := Ideal) V = vec01 V := rfl
theorem v106_eq : val_main_v106 (F := Ideal) V = vec01 V := rfl
theorem v108_eq : val_main_v108 (F := Ideal) V = vec01 V := rfl
theorem v110_eq : val_main_v110 (F := Ideal) V = vec01 V := rfl
/-- Layer 1, the stage over the second aggregate: matrices at (0,1), first bias at (0,1), normalisation at (0,0). -/
theorem v67_eq : val_main_v67 (F := Ideal) M = mat01 M := rfl
theorem v70_eq : val_main_v70 (F := Ideal) V = vec01 V := rfl
theorem v75_eq : val_main_v75 (F := Ideal) M = mat01 M := rfl
theorem v79_eq : val_main_v79 (F := Ideal) V = vec00 V := rfl
theorem v81_eq : val_main_v81 (F := Ideal) V = vec00 V := rfl
theorem v83_eq : val_main_v83 (F := Ideal) V = vec00 V := rfl
theorem v85_eq : val_main_v85 (F := Ideal) V = vec00 V := rfl
/-- Layer 2, the stage over the first aggregate: matrices at (1,0), first bias at (1,0), normalisation at (1,1). -/
theorem v152_eq : val_main_v152 (F := Ideal) M = mat10 M := rfl
theorem v155_eq : val_main_v155 (F := Ideal) V = vec10 V := rfl
theorem v160_eq : val_main_v160 (F := Ideal) M = mat10 M := rfl
theorem v224_eq : val_main_v224 (F := Ideal) V = vec11 V := rfl
theorem v226_eq : val_main_v226 (F := Ideal) V = vec11 V := rfl
theorem v228_eq : val_main_v228 (F := Ideal) V = vec11 V := rfl
theorem v230_eq : val_main_v230 (F := Ideal) V = vec11 V := rfl
/-- Layer 2, the stage over the second aggregate: matrices at (1,1), first bias at (1,1), normalisation at (1,0). -/
theorem v187_eq : val_main_v187 (F := Ideal) M = mat11 M := rfl
theorem v190_eq : val_main_v190 (F := Ideal) V = vec11 V := rfl
theorem v195_eq : val_main_v195 (F := Ideal) M = mat11 M := rfl
theorem v199_eq : val_main_v199 (F := Ideal) V = vec10 V := rfl
theorem v201_eq : val_main_v201 (F := Ideal) V = vec10 V := rfl
theorem v203_eq : val_main_v203 (F := Ideal) V = vec10 V := rfl
theorem v205_eq : val_main_v205 (F := Ideal) V = vec10 V := rfl

end Slices

/-! ## The aggregations and the edge features, over an unopened node table

Each run of host operations of the reference program between two dense stages is the glue's function of the same
name, applied to the previous dense stage's result (left as it stands) and to the rows of the edge array. Both sides
are the same tree of host operations; naming the operations one after the other shows it. -/

section Host

variable (x0 x1 : 𝔹 S100000x32 .f32) (x2 : 𝔹 S500000x16 .f32) (x3 x4 : 𝔹 S2x500000 .i32)
  (x5 : 𝔹 S32x128 .f32) (x6 : 𝔹 S128 .f32) (x7 : 𝔹 S32x128 .f32) (x8 : 𝔹 S128 .f32)
  (x9 : 𝔹 S2x2x128x128 .f32) (x10 : 𝔹 S2x2x128 .f32) (x11 : 𝔹 S2x2x128x128 .f32)
  (x12 x13 x14 x15 : 𝔹 S2x2x128 .f32)

/-- %8 … %30: the mean over the first edge set of the first projection. -/
theorem agg_v30 :
    val_main_v30 (F := Ideal) x0 x3 x5 x6 = meanAgg (val_main_v3 (F := Ideal) x0 x5 x6) (row0 x3) (row1 x3) := by
  unfold val_main_v30 val_main_v29 val_main_v28 val_main_v27 val_main_v26 val_main_v25 val_main_v24 val_main_v23
    val_main_v22 val_main_v21 val_main_v20 val_main_v19 val_main_v18 val_main_v17 val_main_v16 val_main_v15
    val_main_v14 val_main_v13 val_main_v12 val_main_v11 val_main_v10 val_main_v9 val_main_v8
    val_main_c val_main_c_0 val_main_cst val_main_cst_1 val_main_cst_2 val_main_cst_3
  unfold meanAgg cnt gatherN idxCol normIdx row0 row1
  with_reducible rfl

/-- %43 … %65: the mean over the second edge set of the second projection. -/
theorem agg_v65 :
    val_main_v65 (F := Ideal) x1 x4 x7 x8 = meanAgg (val_main_v7 (F := Ideal) x1 x7 x8) (row0 x4) (row1 x4) := by
  unfold val_main_v65 val_main_v64 val_main_v63 val_main_v62 val_main_v61 val_main_v60 val_main_v59 val_main_v58
    val_main_v57 val_main_v56 val_main_v55 val_main_v54 val_main_v53 val_main_v52 val_main_v51 val_main_v50
    val_main_v49 val_main_v48 val_main_v47 val_main_v46 val_main_v45 val_main_v44 val_main_v43
    val_main_c_4 val_main_c_5 val_main_cst_6 val_main_cst_7 val_main_cst_8 val_main_cst_9
  unfold meanAgg cnt gatherN idxCol normIdx row0 row1
  with_reducible rfl

/-- %128 … %150: the mean over the first edge set of the first layer's %102. -/
theorem agg_v150 :
    val_main_v150 (F := Ideal) x0 x1 x3 x4 x5 x6 x7 x8 x9 x10 x11 x12 x13 x14 x15
      = meanAgg (val_main_v102 (F := Ideal) x0 x1 x4 x5 x6 x7 x8 x9 x10 x11 x12 x13 x14 x15) (row0 x3) (row1 x3) := by
  unfold val_main_v150 val_main_v149 val_main_v148 val_main_v147 val_main_v146 val_main_v145 val_main_v144
    val_main_v143 val_main_v142 val_main_v141 val_main_v140 val_main_v139 val_main_v138 val_main_v137 val_main_v136
    val_main_v135 val_main_v134 val_main_v133 val_main_v132 val_main_v131 val_main_v130 val_main_v129 val_main_v128
    val_main_c_12 val_main_c_13 val_main_cst_14 val_main_cst_15 val_main_cst_16 val_main_cst_17
  unfold meanAgg cnt gatherN idxCol normIdx row0 row1
  with_reducible rfl

/-- %163 … %185: the mean over the second edge set of the first layer's %127. -/
theorem agg_v185 :
    val_main_v185 (F := Ideal) x0 x1 x3 x4 x5 x6 x7 x8 x9 x10 x11 x12 x13 x14 x15
      = meanAgg (val_main_v127 (F := Ideal) x0 x1 x3 x5 x6 x7 x8 x9 x10 x11 x12 x13 x14 x15) (row0 x4) (row1 x4) := by
  unfold val_main_v185 val_main_v184 val_main_v183 val_main_v182 val_main_v181 val_main_v180 val_main_v179
    val_main_v178 val_main_v177 val_main_v176 val_main_v175 val_main_v174 val_main_v173 val_main_v172 val_main_v171
    val_main_v170 val_main_v169 val_main_v168 val_main_v167 val_main_v166 val_main_v165 val_main_v164 val_main_v163
    val_main_c_18 val_main_c_19 val_main_cst_20 val_main_cst_21 val_main_cst_22 val_main_cst_23
  unfold meanAgg cnt gatherN idxCol normIdx row0 row1
  with_reducible rfl

/-- %248 … %256: the second layer's %222 at the first edge set's sources. -/
theorem gath_v256 :
    val_main_v256 (F := Ideal) x0 x1 x3 x4 x5 x6 x7 x8 x9 x10 x11 x12 x13 x14 x15
      = gatherN (val_main_v222 (F := Ideal) x0 x1 x3 x4 x5 x6 x7 x8 x9 x10 x11 x12 x13 x14 x15) (row0 x3) := by
  unfold val_main_v256 val_main_v255 val_main_v254 val_main_v253 val_main_v252 val_main_v251 val_main_v250
    val_main_v249 val_main_v248 val_main_c_26 val_main_c_27
  unfold gatherN idxCol normIdx row0
  with_reducible rfl

/-- %257 … %265: the second layer's %247 at the first edge set's targets. -/
theorem gath_v265 :
    val_main_v265 (F := Ideal) x0 x1 x3 x4 x5 x6 x7 x8 x9 x10 x11 x12 x13 x14 x15
      = gatherN (val_main_v247 (F := Ideal) x0 x1 x3 x4 x5 x6 x7 x8 x9 x10 x11 x12 x13 x14 x15) (row1 x3) := by
  unfold val_main_v265 val_main_v264 val_main_v263 val_main_v262 val_main_v261 val_main_v260 val_main_v259
    val_main_v258 val_main_v257 val_main_c_28 val_main_c_29
  unfold gatherN idxCol normIdx row1
  with_reducible rfl

/-- %266: the two gathered tables and the edge attributes side by side. -/
theorem cat_v266 :
    val_main_v266 (F := Ideal) x0 x1 x2 x3 x4 x5 x6 x7 x8 x9 x10 x11 x12 x13 x14 x15
      = cat3 (gatherN (val_main_v222 (F := Ideal) x0 x1 x3 x4 x5 x6 x7 x8 x9 x10 x11 x12 x13 x14 x15) (row0 x3))
          (gatherN (val_main_v247 (F := Ideal) x0 x1 x3 x4 x5 x6 x7 x8 x9 x10 x11 x12 x13 x14 x15) (row1 x3)) x2 := by
  unfold val_main_v266
  rw [gath_v256, gath_v265]
  unfold cat3
  with_reducible rfl

end Host

/-! ## Stage by stage

With the 26 arguments collected in one record, each dense stage of the reference program is the glue's stage of the
same name: the dense stage is its specification (the three stage theorems), its operands are earlier stages, and the
host operations between them are the glue's. -/

section Stages

variable (A : Args)

theorem hU_eq : val_main_v3 (F := Ideal) A.a0 A.a5 A.a6 = hU A := LinRef.v3_eq_linF _ _ _
theorem hR_eq : val_main_v7 (F := Ideal) A.a1 A.a7 A.a8 = hR A := LinRef.v7_eq_linF _ _ _

theorem aggR1_eq : val_main_v30 (F := Ideal) A.a0 A.a3 A.a5 A.a6 = aggR1 A := by
  rw [agg_v30, hU_eq]; rfl
theorem aggU1_eq : val_main_v65 (F := Ideal) A.a1 A.a4 A.a7 A.a8 = aggU1 A := by
  rw [agg_v65, hR_eq]; rfl

theorem newR1_eq :
    val_main_v127 (F := Ideal) A.a0 A.a1 A.a3 A.a5 A.a6 A.a7 A.a8 A.a9 A.a10 A.a11 A.a12 A.a13 A.a14 A.a15 = newR1 A := by
  rw [SageRef.sage_v127, aggR1_eq, hR_eq, v32_eq, v35_eq, v40_eq, v104_eq, v106_eq, v108_eq, v110_eq]; rfl
theorem newU1_eq :
    val_main_v102 (F := Ideal) A.a0 A.a1 A.a4 A.a5 A.a6 A.a7 A.a8 A.a9 A.a10 A.a11 A.a12 A.a13 A.a14 A.a15 = newU1 A := by
  rw [SageRef.sage_v102, aggU1_eq, hU_eq, v67_eq, v70_eq, v75_eq, v79_eq, v81_eq, v83_eq, v85_eq]; rfl

theorem aggR2_eq :
    val_main_v150 (F := Ideal) A.a0 A.a1 A.a3 A.a4 A.a5 A.a6 A.a7 A.a8 A.a9 A.a10 A.a11 A.a12 A.a13 A.a14 A.a15 = aggR2 A := by
  rw [agg_v150, newU1_eq]; rfl
theorem aggU2_eq :
    val_main_v185 (F := Ideal) A.a0 A.a1 A.a3 A.a4 A.a5 A.a6 A.a7 A.a8 A.a9 A.a10 A.a11 A.a12 A.a13 A.a14 A.a15 = aggU2 A := by
  rw [agg_v185, newR1_eq]; rfl

theorem newR2_eq :
    val_main_v247 (F := Ideal) A.a0 A.a1 A.a3 A.a4 A.a5 A.a6 A.a7 A.a8 A.a9 A.a10 A.a11 A.a12 A.a13 A.a14 A.a15 = newR2 A := by
  rw [SageRef.sage_v247, aggR2_eq, newR1_eq, v152_eq, v155_eq, v160_eq, v224_eq, v226_eq, v228_eq, v230_eq]; rfl
theorem newU2_eq :
    val_main_v222 (F := Ideal) A.a0 A.a1 A.a3 A.a4 A.a5 A.a6 A.a7 A.a8 A.a9 A.a10 A.a11 A.a12 A.a13 A.a14 A.a15 = newU2 A := by
  rw [SageRef.sage_v222, aggU2_eq, newU1_eq, v187_eq, v190_eq, v195_eq, v199_eq, v201_eq, v203_eq, v205_eq]; rfl

theorem edgeX_eq :
    val_main_v266 (F := Ideal) A.a0 A.a1 A.a2 A.a3 A.a4 A.a5 A.a6 A.a7 A.a8 A.a9 A.a10 A.a11 A.a12 A.a13 A.a14 A.a15 = edgeX A := by
  rw [cat_v266, newU2_eq, newR2_eq]; rfl

/-- %267 … %301: the edge perceptron over the edge features. -/
theorem mlp_eq :
    val_main_v301 (F := Ideal) A.a0 A.a1 A.a2 A.a3 A.a4 A.a5 A.a6 A.a7 A.a8 A.a9 A.a10 A.a11 A.a12 A.a13 A.a14 A.a15
        A.a16 A.a17 A.a18 A.a19 A.a20 A.a21 A.a22 A.a23 A.a24 A.a25
      = mlpF (edgeX A) A.a16 A.a17 A.a18 A.a19 A.a20 A.a21 A.a22 A.a23 A.a24 A.a25 := by
  rw [Cert.Mlp.Ref.ref_eq, edgeX_eq]

/-- %302: the column of scores read as a vector. -/
theorem KresA_eq :
    val_main_v302 (F := Ideal) A.a0 A.a1 A.a2 A.a3 A.a4 A.a5 A.a6 A.a7 A.a8 A.a9 A.a10 A.a11 A.a12 A.a13 A.a14 A.a15
        A.a16 A.a17 A.a18 A.a19 A.a20 A.a21 A.a22 A.a23 A.a24 A.a25
      = KresA A := by
  unfold val_main_v302
  rw [mlp_eq]; rfl

end Stages

/-- The reference program's result is the composed specification of its 26 arguments. -/
theorem ref_result (x0 x1 : 𝔹 S100000x32 .f32) (x2 : 𝔹 S500000x16 .f32) (x3 x4 : 𝔹 S2x500000 .i32)
    (x5 : 𝔹 S32x128 .f32) (x6 : 𝔹 S128 .f32) (x7 : 𝔹 S32x128 .f32) (x8 : 𝔹 S128 .f32)
    (x9 : 𝔹 S2x2x128x128 .f32) (x10 : 𝔹 S2x2x128 .f32) (x11 : 𝔹 S2x2x128x128 .f32)
    (x12 x13 x14 x15 : 𝔹 S2x2x128 .f32) (x16 : 𝔹 S272x128 .f32) (x17 x18 x19 x20 x21 : 𝔹 S128 .f32)
    (x22 : 𝔹 S128x64 .f32) (x23 : 𝔹 S64 .f32) (x24 : 𝔹 S64x1 .f32) (x25 : 𝔹 S1 .f32) :
    val_main_v302 (F := Ideal) x0 x1 x2 x3 x4 x5 x6 x7 x8 x9 x10 x11 x12 x13 x14 x15 x16 x17 x18 x19 x20 x21 x22 x23 x24 x25
      = Kres x0 x1 x2 x3 x4 x5 x6 x7 x8 x9 x10 x11 x12 x13 x14 x15 x16 x17 x18 x19 x20 x21 x22 x23 x24 x25 :=
  KresA_eq ⟨x0, x1, x2, x3, x4, x5, x6, x7, x8, x9, x10, x11, x12, x13, x14, x15, x16, x17, x18, x19, x20, x21, x22, x23, x24, x25⟩

end Cert.RefBridge

end
-- ==== Proof.lean ====
/- The proof of `Cert.Claim`: the kernel program (at words and over the extended reals) and the reference run, their
   argument arrays end as launched, and over the extended reals the two programs, run from memories agreeing on the 26
   argument arrays, end with the same result array — the network's function of those arrays. -/
import proofs.«100324_j78829829750888_1_alg».proof.Defs
import proofs.«100324_j78829829750888_1_alg».proof.Proof.Gen.Kernel
import proofs.«100324_j78829829750888_1_alg».proof.Proof.Gen.KernelIdeal
import proofs.«100324_j78829829750888_1_alg».proof.Proof.Gen.ReferenceIdeal
import proofs.«100324_j78829829750888_1_alg».proof.Proof.Gen.Pre_finite_inputs
import proofs.«100324_j78829829750888_1_alg».proof.Proof.Glue
import proofs.«100324_j78829829750888_1_alg».proof.Proof.RefRead
import proofs.«100324_j78829829750888_1_alg».proof.Proof.Kernel.Run
import proofs.«100324_j78829829750888_1_alg».proof.Proof.KernelIdeal.Run
import proofs.«100324_j78829829750888_1_alg».proof.Proof.KernelIdeal.Compose
import proofs.«100324_j78829829750888_1_alg».proof.Proof.RefRun.Run
import proofs.«100324_j78829829750888_1_alg».proof.Proof.RefBridge
import Idealize.ShloMosaic.Adequacy
import Idealize.ShloMosaic.Init

noncomputable section

namespace Cert.Proof

open Idealize.ShloMosaic Idealize.ShloMosaic.TcCoe Idealize.SL.Sem

/-! ## The claims

The program is a two-layer graph network over two node tables joined by two edge sets, scoring every edge of the
first set: each table is projected by a dense layer; twice, each table is replaced by a graph convolution (the mean
of the other table's rows arriving along the edges through one weight matrix, its own rows through another, then
normalised, rectified and added to its own rows); the two final embeddings at an edge's endpoints, beside the edge's
attributes, go through a three-layer perceptron to one score. The kernel
program computes the dense stages in five pipelined kernel regions between stretches of host operations (gathers,
scatters, slices of the stacked parameters); the reference computes everything in host operations. -/

/-- The word-level kernel program runs, and its argument arrays end as launched. -/
theorem frame_p : Cert.frame_Kernel := fun m ρ _ => Cert.Kernel.Hand.frame (F := Bits) m ρ

/-- So does the kernel program read over the extended reals, -/
theorem frame_pi : Cert.frame_KernelIdeal := fun m ρ _ => Cert.KernelIdeal.Hand.frame (F := Ideal) m ρ

/-- and the reference: its run says what the result buffer holds and that the arguments end as launched; the frame
    claim is the second half. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation: the idealized kernel program is the kernel program's own text read over
    the extended reals. -/
theorem preserves : Cert.preserves_Kernel_KernelIdeal := trivial

/-- Over the extended reals both programs, run from memories that agree on the 26 argument arrays, end with the same
    result array and unchanged arguments. The common result is the network's function `Cert.Glue.Kres` of the 26
    arrays: the kernel program's result buffer ends at the fold of its segments, which is that function of its
    arguments (`kernel_result`: each region's pipeline computes its dense stage, the host stretches between them are
    the function's glue); the reference's result buffer ends at the composition of its operations, which is the same
    function of ITS arguments (`ref_result`), and those are the kernel program's by hypothesis. -/
theorem algebraic : Cert.algebraic_KernelIdeal_ReferenceIdeal := by
  intro m ρ m' ρ' _ hagree
  refine ⟨fun c => Cert.Glue.Kres
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25)), ?_, ?_⟩
  · -- the kernel program: its run, read at the result buffer, then what the fold leaves there
    exact (θ_run Cert.KernelIdeal.defs _ _).mono
      (fun _ h c => ⟨(h c).1.trans (Cert.KernelIdeal.Hand.kernel_result m ρ c), (h c).2⟩)
      (Cert.KernelIdeal.Hand.run_res (F := Ideal) m ρ)
  · -- the reference: its run, its result term as the network's function of its own arguments, and those arguments
    -- are the kernel program's
    refine (θ_run Cert.ReferenceIdeal.defs _ _).mono (fun _ h c => ⟨(h c).1.trans ?_, (h c).2⟩)
      (Cert.ReferenceIdeal.HandRun.run (F := Ideal) m' ρ')
    obtain ⟨h0, h1, h2, h3, h4, h5, h6, h7, h8, h9, h10, h11, h12, h13, h14, h15, h16, h17, h18, h19, h20, h21, h22,
      h23, h24, h25⟩ := hagree c
    rw [Cert.RefBridge.ref_result, h0, h1, h2, h3, h4, h5, h6, h7, h8, h9, h10, h11, h12, h13, h14, h15, h16, h17, h18,
      h19, h20, h21, h22, h23, h24, h25]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
